-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S50 : Shape := ⟨1, ![50]⟩
abbrev S50x2000 : Shape := ⟨2, ![50, 2000]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S50 : S_.BroadcastsInDim S50 (![] : Fin 0 → Fin S50.rank)
  reducesTo_S50_S_d0 : S50.ReducesTo [0] S_
  bcast_S_S50x2000 : S_.BroadcastsInDim S50x2000 (![] : Fin 0 → Fin S50x2000.rank)
  reducesTo_S50x2000_S_d0_1 : S50x2000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S20000x512 .f32) (main_arg1 : FVec F S50 .f32) (main_arg2 : IVec S50x2000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S50 .f32 := Host.absf main_arg1
  let main_cst_0 : FVec F S_ .f32 := constant S_ .f32 0x7F800000#32
  let main_v5 : FVec F S50 .f32 := broadcastInDim S50 ![] bcast_S_S50 main_cst_0
  let main_v6 : IVec S50 1 := cmpf .olt main_v4 main_v5
  let main_c_1 : IVec S_ 1 := constantI S_ 1 1#1
  let main_v7 : IVec S_ 1 := (fun x v => Host.reduce IntOp.andi x v reducesTo_S50_S_d0 h_S_) main_v6 main_c_1
  let main_v8 : IVec S_ 1 := andi main_v3 main_v7
  let main_c_2 : IVec S_ 32 := constantI S_ 32 0#32
  let main_v9 : IVec S50x2000 32 := broadcastInDim S50x2000 ![] bcast_S_S50x2000 main_c_2
  let main_v10 : IVec S50x2000 1 := cmpi .sge main_arg2 main_v9
  let main_c_3 : IVec S_ 1 := constantI S_ 1 1#1
  let main_v11 : IVec S_ 1 := (fun x v => Host.reduce IntOp.andi x v reducesTo_S50x2000_S_d0_1 h_S_) main_v10 main_c_3
  let main_v12 : IVec S_ 1 := andi main_v8 main_v11
  let main_c_4 : IVec S_ 32 := constantI S_ 32 20000#32
  let main_v13 : IVec S50x2000 32 := broadcastInDim S50x2000 ![] bcast_S_S50x2000 main_c_4
  let main_v14 : IVec S50x2000 1 := cmpi .slt main_arg2 main_v13
  let main_c_5 : IVec S_ 1 := constantI S_ 1 1#1
  let main_v15 : IVec S_ 1 := (fun x v => Host.reduce IntOp.andi x v reducesTo_S50x2000_S_d0_1 h_S_) main_v14 main_c_5
  fn_part1 (F := F) main_v12 main_v15
-- ==== Kernel.lean ====
abbrev S20000x512 : Shape := ⟨2, ![20000, 512]⟩
abbrev S50 : Shape := ⟨1, ![50]⟩
abbrev S50x2000 : Shape := ⟨2, ![50, 2000]⟩
abbrev S100000 : Shape := ⟨1, ![100000]⟩
abbrev S_ : Shape := ⟨0, ![]⟩
abbrev S100096 : Shape := ⟨1, ![100096]⟩
abbrev S512x100096 : Shape := ⟨2, ![512, 100096]⟩
abbrev S128 : Shape := ⟨1, ![128]⟩
abbrev S512x128 : Shape := ⟨2, ![512, 128]⟩
abbrev S128x512 : Shape := ⟨2, ![128, 512]⟩
abbrev S1 : Shape := ⟨1, ![1]⟩
abbrev S1x512 : Shape := ⟨2, ![1, 512]⟩
abbrev S512 : Shape := ⟨1, ![512]⟩
abbrev S128x1 : Shape := ⟨2, ![128, 1]⟩
abbrev S512x100000 : Shape := ⟨2, ![512, 100000]⟩
abbrev S51200000 : Shape := ⟨1, ![51200000]⟩

abbrev nBuf : Space → Nat
  | .hbm => 14
  | .vmem => 5
  | .smem => 1
  | _ => 0

abbrev bufTy : (tb : Table) → Fin (tcTables nBuf tb) → BufTy
  | .hbm, ⟨0, _⟩ => ⟨S20000x512, .f32⟩
  | .hbm, ⟨1, _⟩ => ⟨S50, .f32⟩
  | .hbm, ⟨2, _⟩ => ⟨S50x2000, .i32⟩
  | .hbm, ⟨3, _⟩ => ⟨S100000, .i32⟩
  | .hbm, ⟨4, _⟩ => ⟨S50x2000, .f32⟩
  | .hbm, ⟨5, _⟩ => ⟨S100000, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S100096, .f32⟩
  | .hbm, ⟨11, _⟩ => ⟨S512x100096, .f32⟩
  | .hbm, ⟨12, _⟩ => ⟨S512x100000, .f32⟩
  | .hbm, ⟨13, _⟩ => ⟨S51200000, .f32⟩
  | .local _ .vmem, ⟨0, _⟩ => ⟨S128, .f32⟩
  | .local _ .vmem, ⟨1, _⟩ => ⟨S128, .f32⟩
  | .local _ .vmem, ⟨2, _⟩ => ⟨S512x128, .f32⟩
  | .local _ .vmem, ⟨3, _⟩ => ⟨S512x128, .f32⟩
  | .local _ .vmem, ⟨4, _⟩ => ⟨S128x512, .f32⟩
  | .local _ .smem, ⟨0, _⟩ => ⟨S100096, .i32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![782], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_2 : BitVec 32 := 0#32
  ![v3.toNat, 0]

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v8 : BitVec 32 := Scalar.addi v0 c1_i32
  let v9 : Index := Scalar.indexCast v8
  ![v9.toNat]
def k0_off4 (v10 : BitVec 32) : Fin 2 → Nat :=
  let c0_i32_5 : BitVec 32 := 0#32
  ![v10.toNat, 0]

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v15 : BitVec 32 := Scalar.addi v0 c2_i32
  let v16 : Index := Scalar.indexCast v15
  ![v16.toNat]
def k0_off6 (v17 : BitVec 32) : Fin 2 → Nat :=
  let c0_i32_8 : BitVec 32 := 0#32
  ![v17.toNat, 0]

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v22 : BitVec 32 := Scalar.addi v0 c3_i32
  let v23 : Index := Scalar.indexCast v22
  ![v23.toNat]
def k0_off8 (v24 : BitVec 32) : Fin 2 → Nat :=
  let c0_i32_11 : BitVec 32 := 0#32
  ![v24.toNat, 0]

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v29 : BitVec 32 := Scalar.addi v0 c4_i32
  let v30 : Index := Scalar.indexCast v29
  ![v30.toNat]
def k0_off10 (v31 : BitVec 32) : Fin 2 → Nat :=
  let c0_i32_14 : BitVec 32 := 0#32
  ![v31.toNat, 0]

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v36 : BitVec 32 := Scalar.addi v0 c5_i32
  let v37 : Index := Scalar.indexCast v36
  ![v37.toNat]
def k0_off12 (v38 : BitVec 32) : Fin 2 → Nat :=
  let c0_i32_17 : BitVec 32 := 0#32
  ![v38.toNat, 0]

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v43 : BitVec 32 := Scalar.addi v0 c6_i32
  let v44 : Index := Scalar.indexCast v43
  ![v44.toNat]
def k0_off14 (v45 : BitVec 32) : Fin 2 → Nat :=
  let c0_i32_20 : BitVec 32 := 0#32
  ![v45.toNat, 0]

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v50 : BitVec 32 := Scalar.addi v0 c7_i32
  let v51 : Index := Scalar.indexCast v50
  ![v51.toNat]
def k0_off16 (v52 : BitVec 32) : Fin 2 → Nat :=
  let c0_i32_23 : BitVec 32 := 0#32
  ![v52.toNat, 0]

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v57 : BitVec 32 := Scalar.addi v0 c8_i32
  let v58 : Index := Scalar.indexCast v57
  ![v58.toNat]
def k0_off18 (v59 : BitVec 32) : Fin 2 → Nat :=
  let c0_i32_26 : BitVec 32 := 0#32
  ![v59.toNat, 0]

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v64 : BitVec 32 := Scalar.addi v0 c9_i32
  let v65 : Index := Scalar.indexCast v64
  ![v65.toNat]
def k0_off20 (v66 : BitVec 32) : Fin 2 → Nat :=
  let c0_i32_29 : BitVec 32 := 0#32
  ![v66.toNat, 0]

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v71 : BitVec 32 := Scalar.addi v0 c10_i32
  let v72 : Index := Scalar.indexCast v71
  ![v72.toNat]
def k0_off22 (v73 : BitVec 32) : Fin 2 → Nat :=
  let c0_i32_32 : BitVec 32 := 0#32
  ![v73.toNat, 0]

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v78 : BitVec 32 := Scalar.addi v0 c11_i32
  let v79 : Index := Scalar.indexCast v78
  ![v79.toNat]
def k0_off24 (v80 : BitVec 32) : Fin 2 → Nat :=
  let c0_i32_35 : BitVec 32 := 0#32
  ![v80.toNat, 0]

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v85 : BitVec 32 := Scalar.addi v0 c12_i32
  let v86 : Index := Scalar.indexCast v85
  ![v86.toNat]
def k0_off26 (v87 : BitVec 32) : Fin 2 → Nat :=
  let c0_i32_38 : BitVec 32 := 0#32
  ![v87.toNat, 0]

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v92 : BitVec 32 := Scalar.addi v0 c13_i32
  let v93 : Index := Scalar.indexCast v92
  ![v93.toNat]
def k0_off28 (v94 : BitVec 32) : Fin 2 → Nat :=
  let c0_i32_41 : BitVec 32 := 0#32
  ![v94.toNat, 0]

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v99 : BitVec 32 := Scalar.addi v0 c14_i32
  let v100 : Index := Scalar.indexCast v99
  ![v100.toNat]
def k0_off30 (v101 : BitVec 32) : Fin 2 → Nat :=
  let c0_i32_44 : BitVec 32 := 0#32
  ![v101.toNat, 0]

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v106 : BitVec 32 := Scalar.addi v0 c15_i32
  let v107 : Index := Scalar.indexCast v106
  ![v107.toNat]
def k0_off32 (v108 : BitVec 32) : Fin 2 → Nat :=
  let c0_i32_47 : BitVec 32 := 0#32
  ![v108.toNat, 0]

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v113 : BitVec 32 := Scalar.addi v0 c16_i32
  let v114 : Index := Scalar.indexCast v113
  ![v114.toNat]
def k0_off34 (v115 : BitVec 32) : Fin 2 → Nat :=
  let c0_i32_50 : BitVec 32 := 0#32
  ![v115.toNat, 0]

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v120 : BitVec 32 := Scalar.addi v0 c17_i32
  let v121 : Index := Scalar.indexCast v120
  ![v121.toNat]
def k0_off36 (v122 : BitVec 32) : Fin 2 → Nat :=
  let c0_i32_53 : BitVec 32 := 0#32
  ![v122.toNat, 0]

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v127 : BitVec 32 := Scalar.addi v0 c18_i32
  let v128 : Index := Scalar.indexCast v127
  ![v128.toNat]
def k0_off38 (v129 : BitVec 32) : Fin 2 → Nat :=
  let c0_i32_56 : BitVec 32 := 0#32
  ![v129.toNat, 0]

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v134 : BitVec 32 := Scalar.addi v0 c19_i32
  let v135 : Index := Scalar.indexCast v134
  ![v135.toNat]
def k0_off40 (v136 : BitVec 32) : Fin 2 → Nat :=
  let c0_i32_59 : BitVec 32 := 0#32
  ![v136.toNat, 0]

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v141 : BitVec 32 := Scalar.addi v0 c20_i32
  let v142 : Index := Scalar.indexCast v141
  ![v142.toNat]
def k0_off42 (v143 : BitVec 32) : Fin 2 → Nat :=
  let c0_i32_62 : BitVec 32 := 0#32
  ![v143.toNat, 0]

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v148 : BitVec 32 := Scalar.addi v0 c21_i32
  let v149 : Index := Scalar.indexCast v148
  ![v149.toNat]
def k0_off44 (v150 : BitVec 32) : Fin 2 → Nat :=
  let c0_i32_65 : BitVec 32 := 0#32
  ![v150.toNat, 0]

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v155 : BitVec 32 := Scalar.addi v0 c22_i32
  let v156 : Index := Scalar.indexCast v155
  ![v156.toNat]
def k0_off46 (v157 : BitVec 32) : Fin 2 → Nat :=
  let c0_i32_68 : BitVec 32 := 0#32
  ![v157.toNat, 0]

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v162 : BitVec 32 := Scalar.addi v0 c23_i32
  let v163 : Index := Scalar.indexCast v162
  ![v163.toNat]
def k0_off48 (v164 : BitVec 32) : Fin 2 → Nat :=
  let c0_i32_71 : BitVec 32 := 0#32
  ![v164.toNat, 0]

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v169 : BitVec 32 := Scalar.addi v0 c24_i32
  let v170 : Index := Scalar.indexCast v169
  ![v170.toNat]
def k0_off50 (v171 : BitVec 32) : Fin 2 → Nat :=
  let c0_i32_74 : BitVec 32 := 0#32
  ![v171.toNat, 0]

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v176 : BitVec 32 := Scalar.addi v0 c25_i32
  let v177 : Index := Scalar.indexCast v176
  ![v177.toNat]
def k0_off52 (v178 : BitVec 32) : Fin 2 → Nat :=
  let c0_i32_77 : BitVec 32 := 0#32
  ![v178.toNat, 0]

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v183 : BitVec 32 := Scalar.addi v0 c26_i32
  let v184 : Index := Scalar.indexCast v183
  ![v184.toNat]
def k0_off54 (v185 : BitVec 32) : Fin 2 → Nat :=
  let c0_i32_80 : BitVec 32 := 0#32
  ![v185.toNat, 0]

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v190 : BitVec 32 := Scalar.addi v0 c27_i32
  let v191 : Index := Scalar.indexCast v190
  ![v191.toNat]
def k0_off56 (v192 : BitVec 32) : Fin 2 → Nat :=
  let c0_i32_83 : BitVec 32 := 0#32
  ![v192.toNat, 0]

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v197 : BitVec 32 := Scalar.addi v0 c28_i32
  let v198 : Index := Scalar.indexCast v197
  ![v198.toNat]
def k0_off58 (v199 : BitVec 32) : Fin 2 → Nat :=
  let c0_i32_86 : BitVec 32 := 0#32
  ![v199.toNat, 0]

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v204 : BitVec 32 := Scalar.addi v0 c29_i32
  let v205 : Index := Scalar.indexCast v204
  ![v205.toNat]
def k0_off60 (v206 : BitVec 32) : Fin 2 → Nat :=
  let c0_i32_89 : BitVec 32 := 0#32
  ![v206.toNat, 0]

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v211 : BitVec 32 := Scalar.addi v0 c30_i32
  let v212 : Index := Scalar.indexCast v211
  ![v212.toNat]
def k0_off62 (v213 : BitVec 32) : Fin 2 → Nat :=
  let c0_i32_92 : BitVec 32 := 0#32
  ![v213.toNat, 0]

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v218 : BitVec 32 := Scalar.addi v0 c31_i32
  let v219 : Index := Scalar.indexCast v218
  ![v219.toNat]
def k0_off64 (v220 : BitVec 32) : Fin 2 → Nat :=
  let c0_i32_95 : BitVec 32 := 0#32
  ![v220.toNat, 0]

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v225 : BitVec 32 := Scalar.addi v0 c32_i32
  let v226 : Index := Scalar.indexCast v225
  ![v226.toNat]
def k0_off66 (v227 : BitVec 32) : Fin 2 → Nat :=
  let c0_i32_98 : BitVec 32 := 0#32
  ![v227.toNat, 0]

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v232 : BitVec 32 := Scalar.addi v0 c33_i32
  let v233 : Index := Scalar.indexCast v232
  ![v233.toNat]
def k0_off68 (v234 : BitVec 32) : Fin 2 → Nat :=
  let c0_i32_101 : BitVec 32 := 0#32
  ![v234.toNat, 0]

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v239 : BitVec 32 := Scalar.addi v0 c34_i32
  let v240 : Index := Scalar.indexCast v239
  ![v240.toNat]
def k0_off70 (v241 : BitVec 32) : Fin 2 → Nat :=
  let c0_i32_104 : BitVec 32 := 0#32
  ![v241.toNat, 0]

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v246 : BitVec 32 := Scalar.addi v0 c35_i32
  let v247 : Index := Scalar.indexCast v246
  ![v247.toNat]
def k0_off72 (v248 : BitVec 32) : Fin 2 → Nat :=
  let c0_i32_107 : BitVec 32 := 0#32
  ![v248.toNat, 0]

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v253 : BitVec 32 := Scalar.addi v0 c36_i32
  let v254 : Index := Scalar.indexCast v253
  ![v254.toNat]
def k0_off74 (v255 : BitVec 32) : Fin 2 → Nat :=
  let c0_i32_110 : BitVec 32 := 0#32
  ![v255.toNat, 0]

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v260 : BitVec 32 := Scalar.addi v0 c37_i32
  let v261 : Index := Scalar.indexCast v260
  ![v261.toNat]
def k0_off76 (v262 : BitVec 32) : Fin 2 → Nat :=
  let c0_i32_113 : BitVec 32 := 0#32
  ![v262.toNat, 0]

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v267 : BitVec 32 := Scalar.addi v0 c38_i32
  let v268 : Index := Scalar.indexCast v267
  ![v268.toNat]
def k0_off78 (v269 : BitVec 32) : Fin 2 → Nat :=
  let c0_i32_116 : BitVec 32 := 0#32
  ![v269.toNat, 0]

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v274 : BitVec 32 := Scalar.addi v0 c39_i32
  let v275 : Index := Scalar.indexCast v274
  ![v275.toNat]
def k0_off80 (v276 : BitVec 32) : Fin 2 → Nat :=
  let c0_i32_119 : BitVec 32 := 0#32
  ![v276.toNat, 0]

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v281 : BitVec 32 := Scalar.addi v0 c40_i32
  let v282 : Index := Scalar.indexCast v281
  ![v282.toNat]
def k0_off82 (v283 : BitVec 32) : Fin 2 → Nat :=
  let c0_i32_122 : BitVec 32 := 0#32
  ![v283.toNat, 0]

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v288 : BitVec 32 := Scalar.addi v0 c41_i32
  let v289 : Index := Scalar.indexCast v288
  ![v289.toNat]
def k0_off84 (v290 : BitVec 32) : Fin 2 → Nat :=
  let c0_i32_125 : BitVec 32 := 0#32
  ![v290.toNat, 0]

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v295 : BitVec 32 := Scalar.addi v0 c42_i32
  let v296 : Index := Scalar.indexCast v295
  ![v296.toNat]
def k0_off86 (v297 : BitVec 32) : Fin 2 → Nat :=
  let c0_i32_128 : BitVec 32 := 0#32
  ![v297.toNat, 0]

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v302 : BitVec 32 := Scalar.addi v0 c43_i32
  let v303 : Index := Scalar.indexCast v302
  ![v303.toNat]
def k0_off88 (v304 : BitVec 32) : Fin 2 → Nat :=
  let c0_i32_131 : BitVec 32 := 0#32
  ![v304.toNat, 0]

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v309 : BitVec 32 := Scalar.addi v0 c44_i32
  let v310 : Index := Scalar.indexCast v309
  ![v310.toNat]
def k0_off90 (v311 : BitVec 32) : Fin 2 → Nat :=
  let c0_i32_134 : BitVec 32 := 0#32
  ![v311.toNat, 0]

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v316 : BitVec 32 := Scalar.addi v0 c45_i32
  let v317 : Index := Scalar.indexCast v316
  ![v317.toNat]
def k0_off92 (v318 : BitVec 32) : Fin 2 → Nat :=
  let c0_i32_137 : BitVec 32 := 0#32
  ![v318.toNat, 0]

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v323 : BitVec 32 := Scalar.addi v0 c46_i32
  let v324 : Index := Scalar.indexCast v323
  ![v324.toNat]
def k0_off94 (v325 : BitVec 32) : Fin 2 → Nat :=
  let c0_i32_140 : BitVec 32 := 0#32
  ![v325.toNat, 0]

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v330 : BitVec 32 := Scalar.addi v0 c47_i32
  let v331 : Index := Scalar.indexCast v330
  ![v331.toNat]
def k0_off96 (v332 : BitVec 32) : Fin 2 → Nat :=
  let c0_i32_143 : BitVec 32 := 0#32
  ![v332.toNat, 0]

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v337 : BitVec 32 := Scalar.addi v0 c48_i32
  let v338 : Index := Scalar.indexCast v337
  ![v338.toNat]
def k0_off98 (v339 : BitVec 32) : Fin 2 → Nat :=
  let c0_i32_146 : BitVec 32 := 0#32
  ![v339.toNat, 0]

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v344 : BitVec 32 := Scalar.addi v0 c49_i32
  let v345 : Index := Scalar.indexCast v344
  ![v345.toNat]
def k0_off100 (v346 : BitVec 32) : Fin 2 → Nat :=
  let c0_i32_149 : BitVec 32 := 0#32
  ![v346.toNat, 0]

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v351 : BitVec 32 := Scalar.addi v0 c50_i32
  let v352 : Index := Scalar.indexCast v351
  ![v352.toNat]
def k0_off102 (v353 : BitVec 32) : Fin 2 → Nat :=
  let c0_i32_152 : BitVec 32 := 0#32
  ![v353.toNat, 0]

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v358 : BitVec 32 := Scalar.addi v0 c51_i32
  let v359 : Index := Scalar.indexCast v358
  ![v359.toNat]
def k0_off104 (v360 : BitVec 32) : Fin 2 → Nat :=
  let c0_i32_155 : BitVec 32 := 0#32
  ![v360.toNat, 0]

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v365 : BitVec 32 := Scalar.addi v0 c52_i32
  let v366 : Index := Scalar.indexCast v365
  ![v366.toNat]
def k0_off106 (v367 : BitVec 32) : Fin 2 → Nat :=
  let c0_i32_158 : BitVec 32 := 0#32
  ![v367.toNat, 0]

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v372 : BitVec 32 := Scalar.addi v0 c53_i32
  let v373 : Index := Scalar.indexCast v372
  ![v373.toNat]
def k0_off108 (v374 : BitVec 32) : Fin 2 → Nat :=
  let c0_i32_161 : BitVec 32 := 0#32
  ![v374.toNat, 0]

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v379 : BitVec 32 := Scalar.addi v0 c54_i32
  let v380 : Index := Scalar.indexCast v379
  ![v380.toNat]
def k0_off110 (v381 : BitVec 32) : Fin 2 → Nat :=
  let c0_i32_164 : BitVec 32 := 0#32
  ![v381.toNat, 0]

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v386 : BitVec 32 := Scalar.addi v0 c55_i32
  let v387 : Index := Scalar.indexCast v386
  ![v387.toNat]
def k0_off112 (v388 : BitVec 32) : Fin 2 → Nat :=
  let c0_i32_167 : BitVec 32 := 0#32
  ![v388.toNat, 0]

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v393 : BitVec 32 := Scalar.addi v0 c56_i32
  let v394 : Index := Scalar.indexCast v393
  ![v394.toNat]
def k0_off114 (v395 : BitVec 32) : Fin 2 → Nat :=
  let c0_i32_170 : BitVec 32 := 0#32
  ![v395.toNat, 0]

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v400 : BitVec 32 := Scalar.addi v0 c57_i32
  let v401 : Index := Scalar.indexCast v400
  ![v401.toNat]
def k0_off116 (v402 : BitVec 32) : Fin 2 → Nat :=
  let c0_i32_173 : BitVec 32 := 0#32
  ![v402.toNat, 0]

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v407 : BitVec 32 := Scalar.addi v0 c58_i32
  let v408 : Index := Scalar.indexCast v407
  ![v408.toNat]
def k0_off118 (v409 : BitVec 32) : Fin 2 → Nat :=
  let c0_i32_176 : BitVec 32 := 0#32
  ![v409.toNat, 0]

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v414 : BitVec 32 := Scalar.addi v0 c59_i32
  let v415 : Index := Scalar.indexCast v414
  ![v415.toNat]
def k0_off120 (v416 : BitVec 32) : Fin 2 → Nat :=
  let c0_i32_179 : BitVec 32 := 0#32
  ![v416.toNat, 0]

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v421 : BitVec 32 := Scalar.addi v0 c60_i32
  let v422 : Index := Scalar.indexCast v421
  ![v422.toNat]
def k0_off122 (v423 : BitVec 32) : Fin 2 → Nat :=
  let c0_i32_182 : BitVec 32 := 0#32
  ![v423.toNat, 0]

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v428 : BitVec 32 := Scalar.addi v0 c61_i32
  let v429 : Index := Scalar.indexCast v428
  ![v429.toNat]
def k0_off124 (v430 : BitVec 32) : Fin 2 → Nat :=
  let c0_i32_185 : BitVec 32 := 0#32
  ![v430.toNat, 0]

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v435 : BitVec 32 := Scalar.addi v0 c62_i32
  let v436 : Index := Scalar.indexCast v435
  ![v436.toNat]
def k0_off126 (v437 : BitVec 32) : Fin 2 → Nat :=
  let c0_i32_188 : BitVec 32 := 0#32
  ![v437.toNat, 0]

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v442 : BitVec 32 := Scalar.addi v0 c63_i32
  let v443 : Index := Scalar.indexCast v442
  ![v443.toNat]
def k0_off128 (v444 : BitVec 32) : Fin 2 → Nat :=
  let c0_i32_191 : BitVec 32 := 0#32
  ![v444.toNat, 0]

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v449 : BitVec 32 := Scalar.addi v0 c64_i32
  let v450 : Index := Scalar.indexCast v449
  ![v450.toNat]
def k0_off130 (v451 : BitVec 32) : Fin 2 → Nat :=
  let c0_i32_194 : BitVec 32 := 0#32
  ![v451.toNat, 0]

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v456 : BitVec 32 := Scalar.addi v0 c65_i32
  let v457 : Index := Scalar.indexCast v456
  ![v457.toNat]
def k0_off132 (v458 : BitVec 32) : Fin 2 → Nat :=
  let c0_i32_197 : BitVec 32 := 0#32
  ![v458.toNat, 0]

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v463 : BitVec 32 := Scalar.addi v0 c66_i32
  let v464 : Index := Scalar.indexCast v463
  ![v464.toNat]
def k0_off134 (v465 : BitVec 32) : Fin 2 → Nat :=
  let c0_i32_200 : BitVec 32 := 0#32
  ![v465.toNat, 0]

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v470 : BitVec 32 := Scalar.addi v0 c67_i32
  let v471 : Index := Scalar.indexCast v470
  ![v471.toNat]
def k0_off136 (v472 : BitVec 32) : Fin 2 → Nat :=
  let c0_i32_203 : BitVec 32 := 0#32
  ![v472.toNat, 0]

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v477 : BitVec 32 := Scalar.addi v0 c68_i32
  let v478 : Index := Scalar.indexCast v477
  ![v478.toNat]
def k0_off138 (v479 : BitVec 32) : Fin 2 → Nat :=
  let c0_i32_206 : BitVec 32 := 0#32
  ![v479.toNat, 0]

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v484 : BitVec 32 := Scalar.addi v0 c69_i32
  let v485 : Index := Scalar.indexCast v484
  ![v485.toNat]
def k0_off140 (v486 : BitVec 32) : Fin 2 → Nat :=
  let c0_i32_209 : BitVec 32 := 0#32
  ![v486.toNat, 0]

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v491 : BitVec 32 := Scalar.addi v0 c70_i32
  let v492 : Index := Scalar.indexCast v491
  ![v492.toNat]
def k0_off142 (v493 : BitVec 32) : Fin 2 → Nat :=
  let c0_i32_212 : BitVec 32 := 0#32
  ![v493.toNat, 0]

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v498 : BitVec 32 := Scalar.addi v0 c71_i32
  let v499 : Index := Scalar.indexCast v498
  ![v499.toNat]
def k0_off144 (v500 : BitVec 32) : Fin 2 → Nat :=
  let c0_i32_215 : BitVec 32 := 0#32
  ![v500.toNat, 0]

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v505 : BitVec 32 := Scalar.addi v0 c72_i32
  let v506 : Index := Scalar.indexCast v505
  ![v506.toNat]
def k0_off146 (v507 : BitVec 32) : Fin 2 → Nat :=
  let c0_i32_218 : BitVec 32 := 0#32
  ![v507.toNat, 0]

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v512 : BitVec 32 := Scalar.addi v0 c73_i32
  let v513 : Index := Scalar.indexCast v512
  ![v513.toNat]
def k0_off148 (v514 : BitVec 32) : Fin 2 → Nat :=
  let c0_i32_221 : BitVec 32 := 0#32
  ![v514.toNat, 0]

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v519 : BitVec 32 := Scalar.addi v0 c74_i32
  let v520 : Index := Scalar.indexCast v519
  ![v520.toNat]
def k0_off150 (v521 : BitVec 32) : Fin 2 → Nat :=
  let c0_i32_224 : BitVec 32 := 0#32
  ![v521.toNat, 0]

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v526 : BitVec 32 := Scalar.addi v0 c75_i32
  let v527 : Index := Scalar.indexCast v526
  ![v527.toNat]
def k0_off152 (v528 : BitVec 32) : Fin 2 → Nat :=
  let c0_i32_227 : BitVec 32 := 0#32
  ![v528.toNat, 0]

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v533 : BitVec 32 := Scalar.addi v0 c76_i32
  let v534 : Index := Scalar.indexCast v533
  ![v534.toNat]
def k0_off154 (v535 : BitVec 32) : Fin 2 → Nat :=
  let c0_i32_230 : BitVec 32 := 0#32
  ![v535.toNat, 0]

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v540 : BitVec 32 := Scalar.addi v0 c77_i32
  let v541 : Index := Scalar.indexCast v540
  ![v541.toNat]
def k0_off156 (v542 : BitVec 32) : Fin 2 → Nat :=
  let c0_i32_233 : BitVec 32 := 0#32
  ![v542.toNat, 0]

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v547 : BitVec 32 := Scalar.addi v0 c78_i32
  let v548 : Index := Scalar.indexCast v547
  ![v548.toNat]
def k0_off158 (v549 : BitVec 32) : Fin 2 → Nat :=
  let c0_i32_236 : BitVec 32 := 0#32
  ![v549.toNat, 0]

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v554 : BitVec 32 := Scalar.addi v0 c79_i32
  let v555 : Index := Scalar.indexCast v554
  ![v555.toNat]
def k0_off160 (v556 : BitVec 32) : Fin 2 → Nat :=
  let c0_i32_239 : BitVec 32 := 0#32
  ![v556.toNat, 0]

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v561 : BitVec 32 := Scalar.addi v0 c80_i32
  let v562 : Index := Scalar.indexCast v561
  ![v562.toNat]
def k0_off162 (v563 : BitVec 32) : Fin 2 → Nat :=
  let c0_i32_242 : BitVec 32 := 0#32
  ![v563.toNat, 0]

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v568 : BitVec 32 := Scalar.addi v0 c81_i32
  let v569 : Index := Scalar.indexCast v568
  ![v569.toNat]
def k0_off164 (v570 : BitVec 32) : Fin 2 → Nat :=
  let c0_i32_245 : BitVec 32 := 0#32
  ![v570.toNat, 0]

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v575 : BitVec 32 := Scalar.addi v0 c82_i32
  let v576 : Index := Scalar.indexCast v575
  ![v576.toNat]
def k0_off166 (v577 : BitVec 32) : Fin 2 → Nat :=
  let c0_i32_248 : BitVec 32 := 0#32
  ![v577.toNat, 0]

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v582 : BitVec 32 := Scalar.addi v0 c83_i32
  let v583 : Index := Scalar.indexCast v582
  ![v583.toNat]
def k0_off168 (v584 : BitVec 32) : Fin 2 → Nat :=
  let c0_i32_251 : BitVec 32 := 0#32
  ![v584.toNat, 0]

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v589 : BitVec 32 := Scalar.addi v0 c84_i32
  let v590 : Index := Scalar.indexCast v589
  ![v590.toNat]
def k0_off170 (v591 : BitVec 32) : Fin 2 → Nat :=
  let c0_i32_254 : BitVec 32 := 0#32
  ![v591.toNat, 0]

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v596 : BitVec 32 := Scalar.addi v0 c85_i32
  let v597 : Index := Scalar.indexCast v596
  ![v597.toNat]
def k0_off172 (v598 : BitVec 32) : Fin 2 → Nat :=
  let c0_i32_257 : BitVec 32 := 0#32
  ![v598.toNat, 0]

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v603 : BitVec 32 := Scalar.addi v0 c86_i32
  let v604 : Index := Scalar.indexCast v603
  ![v604.toNat]
def k0_off174 (v605 : BitVec 32) : Fin 2 → Nat :=
  let c0_i32_260 : BitVec 32 := 0#32
  ![v605.toNat, 0]

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v610 : BitVec 32 := Scalar.addi v0 c87_i32
  let v611 : Index := Scalar.indexCast v610
  ![v611.toNat]
def k0_off176 (v612 : BitVec 32) : Fin 2 → Nat :=
  let c0_i32_263 : BitVec 32 := 0#32
  ![v612.toNat, 0]

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v617 : BitVec 32 := Scalar.addi v0 c88_i32
  let v618 : Index := Scalar.indexCast v617
  ![v618.toNat]
def k0_off178 (v619 : BitVec 32) : Fin 2 → Nat :=
  let c0_i32_266 : BitVec 32 := 0#32
  ![v619.toNat, 0]

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v624 : BitVec 32 := Scalar.addi v0 c89_i32
  let v625 : Index := Scalar.indexCast v624
  ![v625.toNat]
def k0_off180 (v626 : BitVec 32) : Fin 2 → Nat :=
  let c0_i32_269 : BitVec 32 := 0#32
  ![v626.toNat, 0]

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v631 : BitVec 32 := Scalar.addi v0 c90_i32
  let v632 : Index := Scalar.indexCast v631
  ![v632.toNat]
def k0_off182 (v633 : BitVec 32) : Fin 2 → Nat :=
  let c0_i32_272 : BitVec 32 := 0#32
  ![v633.toNat, 0]

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v638 : BitVec 32 := Scalar.addi v0 c91_i32
  let v639 : Index := Scalar.indexCast v638
  ![v639.toNat]
def k0_off184 (v640 : BitVec 32) : Fin 2 → Nat :=
  let c0_i32_275 : BitVec 32 := 0#32
  ![v640.toNat, 0]

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v645 : BitVec 32 := Scalar.addi v0 c92_i32
  let v646 : Index := Scalar.indexCast v645
  ![v646.toNat]
def k0_off186 (v647 : BitVec 32) : Fin 2 → Nat :=
  let c0_i32_278 : BitVec 32 := 0#32
  ![v647.toNat, 0]

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v652 : BitVec 32 := Scalar.addi v0 c93_i32
  let v653 : Index := Scalar.indexCast v652
  ![v653.toNat]
def k0_off188 (v654 : BitVec 32) : Fin 2 → Nat :=
  let c0_i32_281 : BitVec 32 := 0#32
  ![v654.toNat, 0]

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v659 : BitVec 32 := Scalar.addi v0 c94_i32
  let v660 : Index := Scalar.indexCast v659
  ![v660.toNat]
def k0_off190 (v661 : BitVec 32) : Fin 2 → Nat :=
  let c0_i32_284 : BitVec 32 := 0#32
  ![v661.toNat, 0]

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v666 : BitVec 32 := Scalar.addi v0 c95_i32
  let v667 : Index := Scalar.indexCast v666
  ![v667.toNat]
def k0_off192 (v668 : BitVec 32) : Fin 2 → Nat :=
  let c0_i32_287 : BitVec 32 := 0#32
  ![v668.toNat, 0]

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v673 : BitVec 32 := Scalar.addi v0 c96_i32
  let v674 : Index := Scalar.indexCast v673
  ![v674.toNat]
def k0_off194 (v675 : BitVec 32) : Fin 2 → Nat :=
  let c0_i32_290 : BitVec 32 := 0#32
  ![v675.toNat, 0]

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v680 : BitVec 32 := Scalar.addi v0 c97_i32
  let v681 : Index := Scalar.indexCast v680
  ![v681.toNat]
def k0_off196 (v682 : BitVec 32) : Fin 2 → Nat :=
  let c0_i32_293 : BitVec 32 := 0#32
  ![v682.toNat, 0]

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v687 : BitVec 32 := Scalar.addi v0 c98_i32
  let v688 : Index := Scalar.indexCast v687
  ![v688.toNat]
def k0_off198 (v689 : BitVec 32) : Fin 2 → Nat :=
  let c0_i32_296 : BitVec 32 := 0#32
  ![v689.toNat, 0]

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v694 : BitVec 32 := Scalar.addi v0 c99_i32
  let v695 : Index := Scalar.indexCast v694
  ![v695.toNat]
def k0_off200 (v696 : BitVec 32) : Fin 2 → Nat :=
  let c0_i32_299 : BitVec 32 := 0#32
  ![v696.toNat, 0]

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v701 : BitVec 32 := Scalar.addi v0 c100_i32
  let v702 : Index := Scalar.indexCast v701
  ![v702.toNat]
def k0_off202 (v703 : BitVec 32) : Fin 2 → Nat :=
  let c0_i32_302 : BitVec 32 := 0#32
  ![v703.toNat, 0]

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v708 : BitVec 32 := Scalar.addi v0 c101_i32
  let v709 : Index := Scalar.indexCast v708
  ![v709.toNat]
def k0_off204 (v710 : BitVec 32) : Fin 2 → Nat :=
  let c0_i32_305 : BitVec 32 := 0#32
  ![v710.toNat, 0]

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v715 : BitVec 32 := Scalar.addi v0 c102_i32
  let v716 : Index := Scalar.indexCast v715
  ![v716.toNat]
def k0_off206 (v717 : BitVec 32) : Fin 2 → Nat :=
  let c0_i32_308 : BitVec 32 := 0#32
  ![v717.toNat, 0]

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v722 : BitVec 32 := Scalar.addi v0 c103_i32
  let v723 : Index := Scalar.indexCast v722
  ![v723.toNat]
def k0_off208 (v724 : BitVec 32) : Fin 2 → Nat :=
  let c0_i32_311 : BitVec 32 := 0#32
  ![v724.toNat, 0]

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v729 : BitVec 32 := Scalar.addi v0 c104_i32
  let v730 : Index := Scalar.indexCast v729
  ![v730.toNat]
def k0_off210 (v731 : BitVec 32) : Fin 2 → Nat :=
  let c0_i32_314 : BitVec 32 := 0#32
  ![v731.toNat, 0]

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v736 : BitVec 32 := Scalar.addi v0 c105_i32
  let v737 : Index := Scalar.indexCast v736
  ![v737.toNat]
def k0_off212 (v738 : BitVec 32) : Fin 2 → Nat :=
  let c0_i32_317 : BitVec 32 := 0#32
  ![v738.toNat, 0]

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v743 : BitVec 32 := Scalar.addi v0 c106_i32
  let v744 : Index := Scalar.indexCast v743
  ![v744.toNat]
def k0_off214 (v745 : BitVec 32) : Fin 2 → Nat :=
  let c0_i32_320 : BitVec 32 := 0#32
  ![v745.toNat, 0]

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v750 : BitVec 32 := Scalar.addi v0 c107_i32
  let v751 : Index := Scalar.indexCast v750
  ![v751.toNat]
def k0_off216 (v752 : BitVec 32) : Fin 2 → Nat :=
  let c0_i32_323 : BitVec 32 := 0#32
  ![v752.toNat, 0]

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v757 : BitVec 32 := Scalar.addi v0 c108_i32
  let v758 : Index := Scalar.indexCast v757
  ![v758.toNat]
def k0_off218 (v759 : BitVec 32) : Fin 2 → Nat :=
  let c0_i32_326 : BitVec 32 := 0#32
  ![v759.toNat, 0]

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v764 : BitVec 32 := Scalar.addi v0 c109_i32
  let v765 : Index := Scalar.indexCast v764
  ![v765.toNat]
def k0_off220 (v766 : BitVec 32) : Fin 2 → Nat :=
  let c0_i32_329 : BitVec 32 := 0#32
  ![v766.toNat, 0]

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v771 : BitVec 32 := Scalar.addi v0 c110_i32
  let v772 : Index := Scalar.indexCast v771
  ![v772.toNat]
def k0_off222 (v773 : BitVec 32) : Fin 2 → Nat :=
  let c0_i32_332 : BitVec 32 := 0#32
  ![v773.toNat, 0]

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v778 : BitVec 32 := Scalar.addi v0 c111_i32
  let v779 : Index := Scalar.indexCast v778
  ![v779.toNat]
def k0_off224 (v780 : BitVec 32) : Fin 2 → Nat :=
  let c0_i32_335 : BitVec 32 := 0#32
  ![v780.toNat, 0]

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v785 : BitVec 32 := Scalar.addi v0 c112_i32
  let v786 : Index := Scalar.indexCast v785
  ![v786.toNat]
def k0_off226 (v787 : BitVec 32) : Fin 2 → Nat :=
  let c0_i32_338 : BitVec 32 := 0#32
  ![v787.toNat, 0]

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v792 : BitVec 32 := Scalar.addi v0 c113_i32
  let v793 : Index := Scalar.indexCast v792
  ![v793.toNat]
def k0_off228 (v794 : BitVec 32) : Fin 2 → Nat :=
  let c0_i32_341 : BitVec 32 := 0#32
  ![v794.toNat, 0]

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v799 : BitVec 32 := Scalar.addi v0 c114_i32
  let v800 : Index := Scalar.indexCast v799
  ![v800.toNat]
def k0_off230 (v801 : BitVec 32) : Fin 2 → Nat :=
  let c0_i32_344 : BitVec 32 := 0#32
  ![v801.toNat, 0]

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v806 : BitVec 32 := Scalar.addi v0 c115_i32
  let v807 : Index := Scalar.indexCast v806
  ![v807.toNat]
def k0_off232 (v808 : BitVec 32) : Fin 2 → Nat :=
  let c0_i32_347 : BitVec 32 := 0#32
  ![v808.toNat, 0]

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v813 : BitVec 32 := Scalar.addi v0 c116_i32
  let v814 : Index := Scalar.indexCast v813
  ![v814.toNat]
def k0_off234 (v815 : BitVec 32) : Fin 2 → Nat :=
  let c0_i32_350 : BitVec 32 := 0#32
  ![v815.toNat, 0]

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v820 : BitVec 32 := Scalar.addi v0 c117_i32
  let v821 : Index := Scalar.indexCast v820
  ![v821.toNat]
def k0_off236 (v822 : BitVec 32) : Fin 2 → Nat :=
  let c0_i32_353 : BitVec 32 := 0#32
  ![v822.toNat, 0]

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v827 : BitVec 32 := Scalar.addi v0 c118_i32
  let v828 : Index := Scalar.indexCast v827
  ![v828.toNat]
def k0_off238 (v829 : BitVec 32) : Fin 2 → Nat :=
  let c0_i32_356 : BitVec 32 := 0#32
  ![v829.toNat, 0]

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v834 : BitVec 32 := Scalar.addi v0 c119_i32
  let v835 : Index := Scalar.indexCast v834
  ![v835.toNat]
def k0_off240 (v836 : BitVec 32) : Fin 2 → Nat :=
  let c0_i32_359 : BitVec 32 := 0#32
  ![v836.toNat, 0]

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v841 : BitVec 32 := Scalar.addi v0 c120_i32
  let v842 : Index := Scalar.indexCast v841
  ![v842.toNat]
def k0_off242 (v843 : BitVec 32) : Fin 2 → Nat :=
  let c0_i32_362 : BitVec 32 := 0#32
  ![v843.toNat, 0]

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v848 : BitVec 32 := Scalar.addi v0 c121_i32
  let v849 : Index := Scalar.indexCast v848
  ![v849.toNat]
def k0_off244 (v850 : BitVec 32) : Fin 2 → Nat :=
  let c0_i32_365 : BitVec 32 := 0#32
  ![v850.toNat, 0]

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v855 : BitVec 32 := Scalar.addi v0 c122_i32
  let v856 : Index := Scalar.indexCast v855
  ![v856.toNat]
def k0_off246 (v857 : BitVec 32) : Fin 2 → Nat :=
  let c0_i32_368 : BitVec 32 := 0#32
  ![v857.toNat, 0]

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v862 : BitVec 32 := Scalar.addi v0 c123_i32
  let v863 : Index := Scalar.indexCast v862
  ![v863.toNat]
def k0_off248 (v864 : BitVec 32) : Fin 2 → Nat :=
  let c0_i32_371 : BitVec 32 := 0#32
  ![v864.toNat, 0]

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v869 : BitVec 32 := Scalar.addi v0 c124_i32
  let v870 : Index := Scalar.indexCast v869
  ![v870.toNat]
def k0_off250 (v871 : BitVec 32) : Fin 2 → Nat :=
  let c0_i32_374 : BitVec 32 := 0#32
  ![v871.toNat, 0]

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v876 : BitVec 32 := Scalar.addi v0 c125_i32
  let v877 : Index := Scalar.indexCast v876
  ![v877.toNat]
def k0_off252 (v878 : BitVec 32) : Fin 2 → Nat :=
  let c0_i32_377 : BitVec 32 := 0#32
  ![v878.toNat, 0]

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v883 : BitVec 32 := Scalar.addi v0 c126_i32
  let v884 : Index := Scalar.indexCast v883
  ![v884.toNat]
def k0_off254 (v885 : BitVec 32) : Fin 2 → Nat :=
  let c0_i32_380 : BitVec 32 := 0#32
  ![v885.toNat, 0]

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v890 : BitVec 32 := Scalar.addi v0 c127_i32
  let v891 : Index := Scalar.indexCast v890
  ![v891.toNat]
def k0_off256 (v892 : BitVec 32) : Fin 2 → Nat :=
  let c0_i32_383 : BitVec 32 := 0#32
  ![v892.toNat, 0]

def k0_chk128 (v892 : BitVec 32) : Prop :=
  (∀ a, (k0_off256 v892) a + S1x512.size a ≤ S20000x512.size a)
instance k0_chk128.dec : ∀ (v892 : BitVec 32), Decidable (k0_chk128 v892) := fun v892 => decidable_of_iff' _ (Iff.of_eq (k0_chk128.eq_1 v892))
theorem k0_off256_inb : ∀ (v892 : BitVec 32) (k0_hw128 : k0_chk128 v892), ∀ a, (k0_off256 v892) a + S1x512.size a ≤ S20000x512.size a := fun v892 k0_hw128 => k0_hw128

def k0_off257 (v3 : BitVec 32) : Fin 2 → Nat :=
  let c0_i32_386 : BitVec 32 := 0#32
  ![v3.toNat, 0]

def k0_chk1 (v3 : BitVec 32) : Prop :=
  (∀ a, (k0_off2 v3) a + S1x512.size a ≤ S20000x512.size a) ∧
  (∀ a, (k0_off257 v3) a + S1x512.size a ≤ S20000x512.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x512.size a ≤ S20000x512.size a := fun v3 k0_hw1 => k0_hw1.1
theorem k0_off257_inb : ∀ (v3 : BitVec 32) (k0_hw1 : k0_chk1 v3), ∀ a, (k0_off257 v3) a + S1x512.size a ≤ S20000x512.size a := fun v3 k0_hw1 => k0_hw1.2

def k0_off258 (v10 : BitVec 32) : Fin 2 → Nat :=
  let c0_i32_389 : BitVec 32 := 0#32
  ![v10.toNat, 0]

def k0_chk2 (v10 : BitVec 32) : Prop :=
  (∀ a, (k0_off4 v10) a + S1x512.size a ≤ S20000x512.size a) ∧
  (∀ a, (k0_off258 v10) a + S1x512.size a ≤ S20000x512.size a)
instance k0_chk2.dec : ∀ (v10 : BitVec 32), Decidable (k0_chk2 v10) := fun v10 => decidable_of_iff' _ (Iff.of_eq (k0_chk2.eq_1 v10))
theorem k0_off4_inb : ∀ (v10 : BitVec 32) (k0_hw2 : k0_chk2 v10), ∀ a, (k0_off4 v10) a + S1x512.size a ≤ S20000x512.size a := fun v10 k0_hw2 => k0_hw2.1
theorem k0_off258_inb : ∀ (v10 : BitVec 32) (k0_hw2 : k0_chk2 v10), ∀ a, (k0_off258 v10) a + S1x512.size a ≤ S20000x512.size a := fun v10 k0_hw2 => k0_hw2.2

def k0_off259 (v17 : BitVec 32) : Fin 2 → Nat :=
  let c0_i32_392 : BitVec 32 := 0#32
  ![v17.toNat, 0]

def k0_chk3 (v17 : BitVec 32) : Prop :=
  (∀ a, (k0_off6 v17) a + S1x512.size a ≤ S20000x512.size a) ∧
  (∀ a, (k0_off259 v17) a + S1x512.size a ≤ S20000x512.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x512.size a ≤ S20000x512.size a := fun v17 k0_hw3 => k0_hw3.1
theorem k0_off259_inb : ∀ (v17 : BitVec 32) (k0_hw3 : k0_chk3 v17), ∀ a, (k0_off259 v17) a + S1x512.size a ≤ S20000x512.size a := fun v17 k0_hw3 => k0_hw3.2

def k0_off260 (v24 : BitVec 32) : Fin 2 → Nat :=
  let c0_i32_395 : BitVec 32 := 0#32
  ![v24.toNat, 0]

def k0_chk4 (v24 : BitVec 32) : Prop :=
  (∀ a, (k0_off8 v24) a + S1x512.size a ≤ S20000x512.size a) ∧
  (∀ a, (k0_off260 v24) a + S1x512.size a ≤ S20000x512.size a)
instance k0_chk4.dec : ∀ (v24 : BitVec 32), Decidable (k0_chk4 v24) := fun v24 => decidable_of_iff' _ (Iff.of_eq (k0_chk4.eq_1 v24))
theorem k0_off8_inb : ∀ (v24 : BitVec 32) (k0_hw4 : k0_chk4 v24), ∀ a, (k0_off8 v24) a + S1x512.size a ≤ S20000x512.size a := fun v24 k0_hw4 => k0_hw4.1
theorem k0_off260_inb : ∀ (v24 : BitVec 32) (k0_hw4 : k0_chk4 v24), ∀ a, (k0_off260 v24) a + S1x512.size a ≤ S20000x512.size a := fun v24 k0_hw4 => k0_hw4.2

def k0_off261 (v31 : BitVec 32) : Fin 2 → Nat :=
  let c0_i32_398 : BitVec 32 := 0#32
  ![v31.toNat, 0]

def k0_chk5 (v31 : BitVec 32) : Prop :=
  (∀ a, (k0_off10 v31) a + S1x512.size a ≤ S20000x512.size a) ∧
  (∀ a, (k0_off261 v31) a + S1x512.size a ≤ S20000x512.size a)
instance k0_chk5.dec : ∀ (v31 : BitVec 32), Decidable (k0_chk5 v31) := fun v31 => decidable_of_iff' _ (Iff.of_eq (k0_chk5.eq_1 v31))
theorem k0_off10_inb : ∀ (v31 : BitVec 32) (k0_hw5 : k0_chk5 v31), ∀ a, (k0_off10 v31) a + S1x512.size a ≤ S20000x512.size a := fun v31 k0_hw5 => k0_hw5.1
theorem k0_off261_inb : ∀ (v31 : BitVec 32) (k0_hw5 : k0_chk5 v31), ∀ a, (k0_off261 v31) a + S1x512.size a ≤ S20000x512.size a := fun v31 k0_hw5 => k0_hw5.2

def k0_off262 (v38 : BitVec 32) : Fin 2 → Nat :=
  let c0_i32_401 : BitVec 32 := 0#32
  ![v38.toNat, 0]

def k0_chk6 (v38 : BitVec 32) : Prop :=
  (∀ a, (k0_off12 v38) a + S1x512.size a ≤ S20000x512.size a) ∧
  (∀ a, (k0_off262 v38) a + S1x512.size a ≤ S20000x512.size a)
instance k0_chk6.dec : ∀ (v38 : BitVec 32), Decidable (k0_chk6 v38) := fun v38 => decidable_of_iff' _ (Iff.of_eq (k0_chk6.eq_1 v38))
theorem k0_off12_inb : ∀ (v38 : BitVec 32) (k0_hw6 : k0_chk6 v38), ∀ a, (k0_off12 v38) a + S1x512.size a ≤ S20000x512.size a := fun v38 k0_hw6 => k0_hw6.1
theorem k0_off262_inb : ∀ (v38 : BitVec 32) (k0_hw6 : k0_chk6 v38), ∀ a, (k0_off262 v38) a + S1x512.size a ≤ S20000x512.size a := fun v38 k0_hw6 => k0_hw6.2

def k0_off263 (v45 : BitVec 32) : Fin 2 → Nat :=
  let c0_i32_404 : BitVec 32 := 0#32
  ![v45.toNat, 0]

def k0_chk7 (v45 : BitVec 32) : Prop :=
  (∀ a, (k0_off14 v45) a + S1x512.size a ≤ S20000x512.size a) ∧
  (∀ a, (k0_off263 v45) a + S1x512.size a ≤ S20000x512.size a)
instance k0_chk7.dec : ∀ (v45 : BitVec 32), Decidable (k0_chk7 v45) := fun v45 => decidable_of_iff' _ (Iff.of_eq (k0_chk7.eq_1 v45))
theorem k0_off14_inb : ∀ (v45 : BitVec 32) (k0_hw7 : k0_chk7 v45), ∀ a, (k0_off14 v45) a + S1x512.size a ≤ S20000x512.size a := fun v45 k0_hw7 => k0_hw7.1
theorem k0_off263_inb : ∀ (v45 : BitVec 32) (k0_hw7 : k0_chk7 v45), ∀ a, (k0_off263 v45) a + S1x512.size a ≤ S20000x512.size a := fun v45 k0_hw7 => k0_hw7.2

def k0_off264 (v52 : BitVec 32) : Fin 2 → Nat :=
  let c0_i32_407 : BitVec 32 := 0#32
  ![v52.toNat, 0]

def k0_chk8 (v52 : BitVec 32) : Prop :=
  (∀ a, (k0_off16 v52) a + S1x512.size a ≤ S20000x512.size a) ∧
  (∀ a, (k0_off264 v52) a + S1x512.size a ≤ S20000x512.size a)
instance k0_chk8.dec : ∀ (v52 : BitVec 32), Decidable (k0_chk8 v52) := fun v52 => decidable_of_iff' _ (Iff.of_eq (k0_chk8.eq_1 v52))
theorem k0_off16_inb : ∀ (v52 : BitVec 32) (k0_hw8 : k0_chk8 v52), ∀ a, (k0_off16 v52) a + S1x512.size a ≤ S20000x512.size a := fun v52 k0_hw8 => k0_hw8.1
theorem k0_off264_inb : ∀ (v52 : BitVec 32) (k0_hw8 : k0_chk8 v52), ∀ a, (k0_off264 v52) a + S1x512.size a ≤ S20000x512.size a := fun v52 k0_hw8 => k0_hw8.2

def k0_off265 (v59 : BitVec 32) : Fin 2 → Nat :=
  let c0_i32_410 : BitVec 32 := 0#32
  ![v59.toNat, 0]

def k0_chk9 (v59 : BitVec 32) : Prop :=
  (∀ a, (k0_off18 v59) a + S1x512.size a ≤ S20000x512.size a) ∧
  (∀ a, (k0_off265 v59) a + S1x512.size a ≤ S20000x512.size a)
instance k0_chk9.dec : ∀ (v59 : BitVec 32), Decidable (k0_chk9 v59) := fun v59 => decidable_of_iff' _ (Iff.of_eq (k0_chk9.eq_1 v59))
theorem k0_off18_inb : ∀ (v59 : BitVec 32) (k0_hw9 : k0_chk9 v59), ∀ a, (k0_off18 v59) a + S1x512.size a ≤ S20000x512.size a := fun v59 k0_hw9 => k0_hw9.1
theorem k0_off265_inb : ∀ (v59 : BitVec 32) (k0_hw9 : k0_chk9 v59), ∀ a, (k0_off265 v59) a + S1x512.size a ≤ S20000x512.size a := fun v59 k0_hw9 => k0_hw9.2

def k0_off266 (v66 : BitVec 32) : Fin 2 → Nat :=
  let c0_i32_413 : BitVec 32 := 0#32
  ![v66.toNat, 0]

def k0_chk10 (v66 : BitVec 32) : Prop :=
  (∀ a, (k0_off20 v66) a + S1x512.size a ≤ S20000x512.size a) ∧
  (∀ a, (k0_off266 v66) a + S1x512.size a ≤ S20000x512.size a)
instance k0_chk10.dec : ∀ (v66 : BitVec 32), Decidable (k0_chk10 v66) := fun v66 => decidable_of_iff' _ (Iff.of_eq (k0_chk10.eq_1 v66))
theorem k0_off20_inb : ∀ (v66 : BitVec 32) (k0_hw10 : k0_chk10 v66), ∀ a, (k0_off20 v66) a + S1x512.size a ≤ S20000x512.size a := fun v66 k0_hw10 => k0_hw10.1
theorem k0_off266_inb : ∀ (v66 : BitVec 32) (k0_hw10 : k0_chk10 v66), ∀ a, (k0_off266 v66) a + S1x512.size a ≤ S20000x512.size a := fun v66 k0_hw10 => k0_hw10.2

def k0_off267 (v73 : BitVec 32) : Fin 2 → Nat :=
  let c0_i32_416 : BitVec 32 := 0#32
  ![v73.toNat, 0]

def k0_chk11 (v73 : BitVec 32) : Prop :=
  (∀ a, (k0_off22 v73) a + S1x512.size a ≤ S20000x512.size a) ∧
  (∀ a, (k0_off267 v73) a + S1x512.size a ≤ S20000x512.size a)
instance k0_chk11.dec : ∀ (v73 : BitVec 32), Decidable (k0_chk11 v73) := fun v73 => decidable_of_iff' _ (Iff.of_eq (k0_chk11.eq_1 v73))
theorem k0_off22_inb : ∀ (v73 : BitVec 32) (k0_hw11 : k0_chk11 v73), ∀ a, (k0_off22 v73) a + S1x512.size a ≤ S20000x512.size a := fun v73 k0_hw11 => k0_hw11.1
theorem k0_off267_inb : ∀ (v73 : BitVec 32) (k0_hw11 : k0_chk11 v73), ∀ a, (k0_off267 v73) a + S1x512.size a ≤ S20000x512.size a := fun v73 k0_hw11 => k0_hw11.2

def k0_off268 (v80 : BitVec 32) : Fin 2 → Nat :=
  let c0_i32_419 : BitVec 32 := 0#32
  ![v80.toNat, 0]

def k0_chk12 (v80 : BitVec 32) : Prop :=
  (∀ a, (k0_off24 v80) a + S1x512.size a ≤ S20000x512.size a) ∧
  (∀ a, (k0_off268 v80) a + S1x512.size a ≤ S20000x512.size a)
instance k0_chk12.dec : ∀ (v80 : BitVec 32), Decidable (k0_chk12 v80) := fun v80 => decidable_of_iff' _ (Iff.of_eq (k0_chk12.eq_1 v80))
theorem k0_off24_inb : ∀ (v80 : BitVec 32) (k0_hw12 : k0_chk12 v80), ∀ a, (k0_off24 v80) a + S1x512.size a ≤ S20000x512.size a := fun v80 k0_hw12 => k0_hw12.1
theorem k0_off268_inb : ∀ (v80 : BitVec 32) (k0_hw12 : k0_chk12 v80), ∀ a, (k0_off268 v80) a + S1x512.size a ≤ S20000x512.size a := fun v80 k0_hw12 => k0_hw12.2

def k0_off269 (v87 : BitVec 32) : Fin 2 → Nat :=
  let c0_i32_422 : BitVec 32 := 0#32
  ![v87.toNat, 0]

def k0_chk13 (v87 : BitVec 32) : Prop :=
  (∀ a, (k0_off26 v87) a + S1x512.size a ≤ S20000x512.size a) ∧
  (∀ a, (k0_off269 v87) a + S1x512.size a ≤ S20000x512.size a)
instance k0_chk13.dec : ∀ (v87 : BitVec 32), Decidable (k0_chk13 v87) := fun v87 => decidable_of_iff' _ (Iff.of_eq (k0_chk13.eq_1 v87))
theorem k0_off26_inb : ∀ (v87 : BitVec 32) (k0_hw13 : k0_chk13 v87), ∀ a, (k0_off26 v87) a + S1x512.size a ≤ S20000x512.size a := fun v87 k0_hw13 => k0_hw13.1
theorem k0_off269_inb : ∀ (v87 : BitVec 32) (k0_hw13 : k0_chk13 v87), ∀ a, (k0_off269 v87) a + S1x512.size a ≤ S20000x512.size a := fun v87 k0_hw13 => k0_hw13.2

def k0_off270 (v94 : BitVec 32) : Fin 2 → Nat :=
  let c0_i32_425 : BitVec 32 := 0#32
  ![v94.toNat, 0]

def k0_chk14 (v94 : BitVec 32) : Prop :=
  (∀ a, (k0_off28 v94) a + S1x512.size a ≤ S20000x512.size a) ∧
  (∀ a, (k0_off270 v94) a + S1x512.size a ≤ S20000x512.size a)
instance k0_chk14.dec : ∀ (v94 : BitVec 32), Decidable (k0_chk14 v94) := fun v94 => decidable_of_iff' _ (Iff.of_eq (k0_chk14.eq_1 v94))
theorem k0_off28_inb : ∀ (v94 : BitVec 32) (k0_hw14 : k0_chk14 v94), ∀ a, (k0_off28 v94) a + S1x512.size a ≤ S20000x512.size a := fun v94 k0_hw14 => k0_hw14.1
theorem k0_off270_inb : ∀ (v94 : BitVec 32) (k0_hw14 : k0_chk14 v94), ∀ a, (k0_off270 v94) a + S1x512.size a ≤ S20000x512.size a := fun v94 k0_hw14 => k0_hw14.2

def k0_off271 (v101 : BitVec 32) : Fin 2 → Nat :=
  let c0_i32_428 : BitVec 32 := 0#32
  ![v101.toNat, 0]

def k0_chk15 (v101 : BitVec 32) : Prop :=
  (∀ a, (k0_off30 v101) a + S1x512.size a ≤ S20000x512.size a) ∧
  (∀ a, (k0_off271 v101) a + S1x512.size a ≤ S20000x512.size a)
instance k0_chk15.dec : ∀ (v101 : BitVec 32), Decidable (k0_chk15 v101) := fun v101 => decidable_of_iff' _ (Iff.of_eq (k0_chk15.eq_1 v101))
theorem k0_off30_inb : ∀ (v101 : BitVec 32) (k0_hw15 : k0_chk15 v101), ∀ a, (k0_off30 v101) a + S1x512.size a ≤ S20000x512.size a := fun v101 k0_hw15 => k0_hw15.1
theorem k0_off271_inb : ∀ (v101 : BitVec 32) (k0_hw15 : k0_chk15 v101), ∀ a, (k0_off271 v101) a + S1x512.size a ≤ S20000x512.size a := fun v101 k0_hw15 => k0_hw15.2

def k0_off272 (v108 : BitVec 32) : Fin 2 → Nat :=
  let c0_i32_431 : BitVec 32 := 0#32
  ![v108.toNat, 0]

def k0_chk16 (v108 : BitVec 32) : Prop :=
  (∀ a, (k0_off32 v108) a + S1x512.size a ≤ S20000x512.size a) ∧
  (∀ a, (k0_off272 v108) a + S1x512.size a ≤ S20000x512.size a)
instance k0_chk16.dec : ∀ (v108 : BitVec 32), Decidable (k0_chk16 v108) := fun v108 => decidable_of_iff' _ (Iff.of_eq (k0_chk16.eq_1 v108))
theorem k0_off32_inb : ∀ (v108 : BitVec 32) (k0_hw16 : k0_chk16 v108), ∀ a, (k0_off32 v108) a + S1x512.size a ≤ S20000x512.size a := fun v108 k0_hw16 => k0_hw16.1
theorem k0_off272_inb : ∀ (v108 : BitVec 32) (k0_hw16 : k0_chk16 v108), ∀ a, (k0_off272 v108) a + S1x512.size a ≤ S20000x512.size a := fun v108 k0_hw16 => k0_hw16.2

def k0_off273 (v115 : BitVec 32) : Fin 2 → Nat :=
  let c0_i32_434 : BitVec 32 := 0#32
  ![v115.toNat, 0]

def k0_chk17 (v115 : BitVec 32) : Prop :=
  (∀ a, (k0_off34 v115) a + S1x512.size a ≤ S20000x512.size a) ∧
  (∀ a, (k0_off273 v115) a + S1x512.size a ≤ S20000x512.size a)
instance k0_chk17.dec : ∀ (v115 : BitVec 32), Decidable (k0_chk17 v115) := fun v115 => decidable_of_iff' _ (Iff.of_eq (k0_chk17.eq_1 v115))
theorem k0_off34_inb : ∀ (v115 : BitVec 32) (k0_hw17 : k0_chk17 v115), ∀ a, (k0_off34 v115) a + S1x512.size a ≤ S20000x512.size a := fun v115 k0_hw17 => k0_hw17.1
theorem k0_off273_inb : ∀ (v115 : BitVec 32) (k0_hw17 : k0_chk17 v115), ∀ a, (k0_off273 v115) a + S1x512.size a ≤ S20000x512.size a := fun v115 k0_hw17 => k0_hw17.2

def k0_off274 (v122 : BitVec 32) : Fin 2 → Nat :=
  let c0_i32_437 : BitVec 32 := 0#32
  ![v122.toNat, 0]

def k0_chk18 (v122 : BitVec 32) : Prop :=
  (∀ a, (k0_off36 v122) a + S1x512.size a ≤ S20000x512.size a) ∧
  (∀ a, (k0_off274 v122) a + S1x512.size a ≤ S20000x512.size a)
instance k0_chk18.dec : ∀ (v122 : BitVec 32), Decidable (k0_chk18 v122) := fun v122 => decidable_of_iff' _ (Iff.of_eq (k0_chk18.eq_1 v122))
theorem k0_off36_inb : ∀ (v122 : BitVec 32) (k0_hw18 : k0_chk18 v122), ∀ a, (k0_off36 v122) a + S1x512.size a ≤ S20000x512.size a := fun v122 k0_hw18 => k0_hw18.1
theorem k0_off274_inb : ∀ (v122 : BitVec 32) (k0_hw18 : k0_chk18 v122), ∀ a, (k0_off274 v122) a + S1x512.size a ≤ S20000x512.size a := fun v122 k0_hw18 => k0_hw18.2

def k0_off275 (v129 : BitVec 32) : Fin 2 → Nat :=
  let c0_i32_440 : BitVec 32 := 0#32
  ![v129.toNat, 0]

def k0_chk19 (v129 : BitVec 32) : Prop :=
  (∀ a, (k0_off38 v129) a + S1x512.size a ≤ S20000x512.size a) ∧
  (∀ a, (k0_off275 v129) a + S1x512.size a ≤ S20000x512.size a)
instance k0_chk19.dec : ∀ (v129 : BitVec 32), Decidable (k0_chk19 v129) := fun v129 => decidable_of_iff' _ (Iff.of_eq (k0_chk19.eq_1 v129))
theorem k0_off38_inb : ∀ (v129 : BitVec 32) (k0_hw19 : k0_chk19 v129), ∀ a, (k0_off38 v129) a + S1x512.size a ≤ S20000x512.size a := fun v129 k0_hw19 => k0_hw19.1
theorem k0_off275_inb : ∀ (v129 : BitVec 32) (k0_hw19 : k0_chk19 v129), ∀ a, (k0_off275 v129) a + S1x512.size a ≤ S20000x512.size a := fun v129 k0_hw19 => k0_hw19.2

def k0_off276 (v136 : BitVec 32) : Fin 2 → Nat :=
  let c0_i32_443 : BitVec 32 := 0#32
  ![v136.toNat, 0]

def k0_chk20 (v136 : BitVec 32) : Prop :=
  (∀ a, (k0_off40 v136) a + S1x512.size a ≤ S20000x512.size a) ∧
  (∀ a, (k0_off276 v136) a + S1x512.size a ≤ S20000x512.size a)
instance k0_chk20.dec : ∀ (v136 : BitVec 32), Decidable (k0_chk20 v136) := fun v136 => decidable_of_iff' _ (Iff.of_eq (k0_chk20.eq_1 v136))
theorem k0_off40_inb : ∀ (v136 : BitVec 32) (k0_hw20 : k0_chk20 v136), ∀ a, (k0_off40 v136) a + S1x512.size a ≤ S20000x512.size a := fun v136 k0_hw20 => k0_hw20.1
theorem k0_off276_inb : ∀ (v136 : BitVec 32) (k0_hw20 : k0_chk20 v136), ∀ a, (k0_off276 v136) a + S1x512.size a ≤ S20000x512.size a := fun v136 k0_hw20 => k0_hw20.2

def k0_off277 (v143 : BitVec 32) : Fin 2 → Nat :=
  let c0_i32_446 : BitVec 32 := 0#32
  ![v143.toNat, 0]

def k0_chk21 (v143 : BitVec 32) : Prop :=
  (∀ a, (k0_off42 v143) a + S1x512.size a ≤ S20000x512.size a) ∧
  (∀ a, (k0_off277 v143) a + S1x512.size a ≤ S20000x512.size a)
instance k0_chk21.dec : ∀ (v143 : BitVec 32), Decidable (k0_chk21 v143) := fun v143 => decidable_of_iff' _ (Iff.of_eq (k0_chk21.eq_1 v143))
theorem k0_off42_inb : ∀ (v143 : BitVec 32) (k0_hw21 : k0_chk21 v143), ∀ a, (k0_off42 v143) a + S1x512.size a ≤ S20000x512.size a := fun v143 k0_hw21 => k0_hw21.1
theorem k0_off277_inb : ∀ (v143 : BitVec 32) (k0_hw21 : k0_chk21 v143), ∀ a, (k0_off277 v143) a + S1x512.size a ≤ S20000x512.size a := fun v143 k0_hw21 => k0_hw21.2

def k0_off278 (v150 : BitVec 32) : Fin 2 → Nat :=
  let c0_i32_449 : BitVec 32 := 0#32
  ![v150.toNat, 0]

def k0_chk22 (v150 : BitVec 32) : Prop :=
  (∀ a, (k0_off44 v150) a + S1x512.size a ≤ S20000x512.size a) ∧
  (∀ a, (k0_off278 v150) a + S1x512.size a ≤ S20000x512.size a)
instance k0_chk22.dec : ∀ (v150 : BitVec 32), Decidable (k0_chk22 v150) := fun v150 => decidable_of_iff' _ (Iff.of_eq (k0_chk22.eq_1 v150))
theorem k0_off44_inb : ∀ (v150 : BitVec 32) (k0_hw22 : k0_chk22 v150), ∀ a, (k0_off44 v150) a + S1x512.size a ≤ S20000x512.size a := fun v150 k0_hw22 => k0_hw22.1
theorem k0_off278_inb : ∀ (v150 : BitVec 32) (k0_hw22 : k0_chk22 v150), ∀ a, (k0_off278 v150) a + S1x512.size a ≤ S20000x512.size a := fun v150 k0_hw22 => k0_hw22.2

def k0_off279 (v157 : BitVec 32) : Fin 2 → Nat :=
  let c0_i32_452 : BitVec 32 := 0#32
  ![v157.toNat, 0]

def k0_chk23 (v157 : BitVec 32) : Prop :=
  (∀ a, (k0_off46 v157) a + S1x512.size a ≤ S20000x512.size a) ∧
  (∀ a, (k0_off279 v157) a + S1x512.size a ≤ S20000x512.size a)
instance k0_chk23.dec : ∀ (v157 : BitVec 32), Decidable (k0_chk23 v157) := fun v157 => decidable_of_iff' _ (Iff.of_eq (k0_chk23.eq_1 v157))
theorem k0_off46_inb : ∀ (v157 : BitVec 32) (k0_hw23 : k0_chk23 v157), ∀ a, (k0_off46 v157) a + S1x512.size a ≤ S20000x512.size a := fun v157 k0_hw23 => k0_hw23.1
theorem k0_off279_inb : ∀ (v157 : BitVec 32) (k0_hw23 : k0_chk23 v157), ∀ a, (k0_off279 v157) a + S1x512.size a ≤ S20000x512.size a := fun v157 k0_hw23 => k0_hw23.2

def k0_off280 (v164 : BitVec 32) : Fin 2 → Nat :=
  let c0_i32_455 : BitVec 32 := 0#32
  ![v164.toNat, 0]

def k0_chk24 (v164 : BitVec 32) : Prop :=
  (∀ a, (k0_off48 v164) a + S1x512.size a ≤ S20000x512.size a) ∧
  (∀ a, (k0_off280 v164) a + S1x512.size a ≤ S20000x512.size a)
instance k0_chk24.dec : ∀ (v164 : BitVec 32), Decidable (k0_chk24 v164) := fun v164 => decidable_of_iff' _ (Iff.of_eq (k0_chk24.eq_1 v164))
theorem k0_off48_inb : ∀ (v164 : BitVec 32) (k0_hw24 : k0_chk24 v164), ∀ a, (k0_off48 v164) a + S1x512.size a ≤ S20000x512.size a := fun v164 k0_hw24 => k0_hw24.1
theorem k0_off280_inb : ∀ (v164 : BitVec 32) (k0_hw24 : k0_chk24 v164), ∀ a, (k0_off280 v164) a + S1x512.size a ≤ S20000x512.size a := fun v164 k0_hw24 => k0_hw24.2

def k0_off281 (v171 : BitVec 32) : Fin 2 → Nat :=
  let c0_i32_458 : BitVec 32 := 0#32
  ![v171.toNat, 0]

def k0_chk25 (v171 : BitVec 32) : Prop :=
  (∀ a, (k0_off50 v171) a + S1x512.size a ≤ S20000x512.size a) ∧
  (∀ a, (k0_off281 v171) a + S1x512.size a ≤ S20000x512.size a)
instance k0_chk25.dec : ∀ (v171 : BitVec 32), Decidable (k0_chk25 v171) := fun v171 => decidable_of_iff' _ (Iff.of_eq (k0_chk25.eq_1 v171))
theorem k0_off50_inb : ∀ (v171 : BitVec 32) (k0_hw25 : k0_chk25 v171), ∀ a, (k0_off50 v171) a + S1x512.size a ≤ S20000x512.size a := fun v171 k0_hw25 => k0_hw25.1
theorem k0_off281_inb : ∀ (v171 : BitVec 32) (k0_hw25 : k0_chk25 v171), ∀ a, (k0_off281 v171) a + S1x512.size a ≤ S20000x512.size a := fun v171 k0_hw25 => k0_hw25.2

def k0_off282 (v178 : BitVec 32) : Fin 2 → Nat :=
  let c0_i32_461 : BitVec 32 := 0#32
  ![v178.toNat, 0]

def k0_chk26 (v178 : BitVec 32) : Prop :=
  (∀ a, (k0_off52 v178) a + S1x512.size a ≤ S20000x512.size a) ∧
  (∀ a, (k0_off282 v178) a + S1x512.size a ≤ S20000x512.size a)
instance k0_chk26.dec : ∀ (v178 : BitVec 32), Decidable (k0_chk26 v178) := fun v178 => decidable_of_iff' _ (Iff.of_eq (k0_chk26.eq_1 v178))
theorem k0_off52_inb : ∀ (v178 : BitVec 32) (k0_hw26 : k0_chk26 v178), ∀ a, (k0_off52 v178) a + S1x512.size a ≤ S20000x512.size a := fun v178 k0_hw26 => k0_hw26.1
theorem k0_off282_inb : ∀ (v178 : BitVec 32) (k0_hw26 : k0_chk26 v178), ∀ a, (k0_off282 v178) a + S1x512.size a ≤ S20000x512.size a := fun v178 k0_hw26 => k0_hw26.2

def k0_off283 (v185 : BitVec 32) : Fin 2 → Nat :=
  let c0_i32_464 : BitVec 32 := 0#32
  ![v185.toNat, 0]

def k0_chk27 (v185 : BitVec 32) : Prop :=
  (∀ a, (k0_off54 v185) a + S1x512.size a ≤ S20000x512.size a) ∧
  (∀ a, (k0_off283 v185) a + S1x512.size a ≤ S20000x512.size a)
instance k0_chk27.dec : ∀ (v185 : BitVec 32), Decidable (k0_chk27 v185) := fun v185 => decidable_of_iff' _ (Iff.of_eq (k0_chk27.eq_1 v185))
theorem k0_off54_inb : ∀ (v185 : BitVec 32) (k0_hw27 : k0_chk27 v185), ∀ a, (k0_off54 v185) a + S1x512.size a ≤ S20000x512.size a := fun v185 k0_hw27 => k0_hw27.1
theorem k0_off283_inb : ∀ (v185 : BitVec 32) (k0_hw27 : k0_chk27 v185), ∀ a, (k0_off283 v185) a + S1x512.size a ≤ S20000x512.size a := fun v185 k0_hw27 => k0_hw27.2

def k0_off284 (v192 : BitVec 32) : Fin 2 → Nat :=
  let c0_i32_467 : BitVec 32 := 0#32
  ![v192.toNat, 0]

def k0_chk28 (v192 : BitVec 32) : Prop :=
  (∀ a, (k0_off56 v192) a + S1x512.size a ≤ S20000x512.size a) ∧
  (∀ a, (k0_off284 v192) a + S1x512.size a ≤ S20000x512.size a)
instance k0_chk28.dec : ∀ (v192 : BitVec 32), Decidable (k0_chk28 v192) := fun v192 => decidable_of_iff' _ (Iff.of_eq (k0_chk28.eq_1 v192))
theorem k0_off56_inb : ∀ (v192 : BitVec 32) (k0_hw28 : k0_chk28 v192), ∀ a, (k0_off56 v192) a + S1x512.size a ≤ S20000x512.size a := fun v192 k0_hw28 => k0_hw28.1
theorem k0_off284_inb : ∀ (v192 : BitVec 32) (k0_hw28 : k0_chk28 v192), ∀ a, (k0_off284 v192) a + S1x512.size a ≤ S20000x512.size a := fun v192 k0_hw28 => k0_hw28.2

def k0_off285 (v199 : BitVec 32) : Fin 2 → Nat :=
  let c0_i32_470 : BitVec 32 := 0#32
  ![v199.toNat, 0]

def k0_chk29 (v199 : BitVec 32) : Prop :=
  (∀ a, (k0_off58 v199) a + S1x512.size a ≤ S20000x512.size a) ∧
  (∀ a, (k0_off285 v199) a + S1x512.size a ≤ S20000x512.size a)
instance k0_chk29.dec : ∀ (v199 : BitVec 32), Decidable (k0_chk29 v199) := fun v199 => decidable_of_iff' _ (Iff.of_eq (k0_chk29.eq_1 v199))
theorem k0_off58_inb : ∀ (v199 : BitVec 32) (k0_hw29 : k0_chk29 v199), ∀ a, (k0_off58 v199) a + S1x512.size a ≤ S20000x512.size a := fun v199 k0_hw29 => k0_hw29.1
theorem k0_off285_inb : ∀ (v199 : BitVec 32) (k0_hw29 : k0_chk29 v199), ∀ a, (k0_off285 v199) a + S1x512.size a ≤ S20000x512.size a := fun v199 k0_hw29 => k0_hw29.2

def k0_off286 (v206 : BitVec 32) : Fin 2 → Nat :=
  let c0_i32_473 : BitVec 32 := 0#32
  ![v206.toNat, 0]

def k0_chk30 (v206 : BitVec 32) : Prop :=
  (∀ a, (k0_off60 v206) a + S1x512.size a ≤ S20000x512.size a) ∧
  (∀ a, (k0_off286 v206) a + S1x512.size a ≤ S20000x512.size a)
instance k0_chk30.dec : ∀ (v206 : BitVec 32), Decidable (k0_chk30 v206) := fun v206 => decidable_of_iff' _ (Iff.of_eq (k0_chk30.eq_1 v206))
theorem k0_off60_inb : ∀ (v206 : BitVec 32) (k0_hw30 : k0_chk30 v206), ∀ a, (k0_off60 v206) a + S1x512.size a ≤ S20000x512.size a := fun v206 k0_hw30 => k0_hw30.1
theorem k0_off286_inb : ∀ (v206 : BitVec 32) (k0_hw30 : k0_chk30 v206), ∀ a, (k0_off286 v206) a + S1x512.size a ≤ S20000x512.size a := fun v206 k0_hw30 => k0_hw30.2

def k0_off287 (v213 : BitVec 32) : Fin 2 → Nat :=
  let c0_i32_476 : BitVec 32 := 0#32
  ![v213.toNat, 0]

def k0_chk31 (v213 : BitVec 32) : Prop :=
  (∀ a, (k0_off62 v213) a + S1x512.size a ≤ S20000x512.size a) ∧
  (∀ a, (k0_off287 v213) a + S1x512.size a ≤ S20000x512.size a)
instance k0_chk31.dec : ∀ (v213 : BitVec 32), Decidable (k0_chk31 v213) := fun v213 => decidable_of_iff' _ (Iff.of_eq (k0_chk31.eq_1 v213))
theorem k0_off62_inb : ∀ (v213 : BitVec 32) (k0_hw31 : k0_chk31 v213), ∀ a, (k0_off62 v213) a + S1x512.size a ≤ S20000x512.size a := fun v213 k0_hw31 => k0_hw31.1
theorem k0_off287_inb : ∀ (v213 : BitVec 32) (k0_hw31 : k0_chk31 v213), ∀ a, (k0_off287 v213) a + S1x512.size a ≤ S20000x512.size a := fun v213 k0_hw31 => k0_hw31.2

def k0_off288 (v220 : BitVec 32) : Fin 2 → Nat :=
  let c0_i32_479 : BitVec 32 := 0#32
  ![v220.toNat, 0]

def k0_chk32 (v220 : BitVec 32) : Prop :=
  (∀ a, (k0_off64 v220) a + S1x512.size a ≤ S20000x512.size a) ∧
  (∀ a, (k0_off288 v220) a + S1x512.size a ≤ S20000x512.size a)
instance k0_chk32.dec : ∀ (v220 : BitVec 32), Decidable (k0_chk32 v220) := fun v220 => decidable_of_iff' _ (Iff.of_eq (k0_chk32.eq_1 v220))
theorem k0_off64_inb : ∀ (v220 : BitVec 32) (k0_hw32 : k0_chk32 v220), ∀ a, (k0_off64 v220) a + S1x512.size a ≤ S20000x512.size a := fun v220 k0_hw32 => k0_hw32.1
theorem k0_off288_inb : ∀ (v220 : BitVec 32) (k0_hw32 : k0_chk32 v220), ∀ a, (k0_off288 v220) a + S1x512.size a ≤ S20000x512.size a := fun v220 k0_hw32 => k0_hw32.2

def k0_off289 (v227 : BitVec 32) : Fin 2 → Nat :=
  let c0_i32_482 : BitVec 32 := 0#32
  ![v227.toNat, 0]

def k0_chk33 (v227 : BitVec 32) : Prop :=
  (∀ a, (k0_off66 v227) a + S1x512.size a ≤ S20000x512.size a) ∧
  (∀ a, (k0_off289 v227) a + S1x512.size a ≤ S20000x512.size a)
instance k0_chk33.dec : ∀ (v227 : BitVec 32), Decidable (k0_chk33 v227) := fun v227 => decidable_of_iff' _ (Iff.of_eq (k0_chk33.eq_1 v227))
theorem k0_off66_inb : ∀ (v227 : BitVec 32) (k0_hw33 : k0_chk33 v227), ∀ a, (k0_off66 v227) a + S1x512.size a ≤ S20000x512.size a := fun v227 k0_hw33 => k0_hw33.1
theorem k0_off289_inb : ∀ (v227 : BitVec 32) (k0_hw33 : k0_chk33 v227), ∀ a, (k0_off289 v227) a + S1x512.size a ≤ S20000x512.size a := fun v227 k0_hw33 => k0_hw33.2

def k0_off290 (v234 : BitVec 32) : Fin 2 → Nat :=
  let c0_i32_485 : BitVec 32 := 0#32
  ![v234.toNat, 0]

def k0_chk34 (v234 : BitVec 32) : Prop :=
  (∀ a, (k0_off68 v234) a + S1x512.size a ≤ S20000x512.size a) ∧
  (∀ a, (k0_off290 v234) a + S1x512.size a ≤ S20000x512.size a)
instance k0_chk34.dec : ∀ (v234 : BitVec 32), Decidable (k0_chk34 v234) := fun v234 => decidable_of_iff' _ (Iff.of_eq (k0_chk34.eq_1 v234))
theorem k0_off68_inb : ∀ (v234 : BitVec 32) (k0_hw34 : k0_chk34 v234), ∀ a, (k0_off68 v234) a + S1x512.size a ≤ S20000x512.size a := fun v234 k0_hw34 => k0_hw34.1
theorem k0_off290_inb : ∀ (v234 : BitVec 32) (k0_hw34 : k0_chk34 v234), ∀ a, (k0_off290 v234) a + S1x512.size a ≤ S20000x512.size a := fun v234 k0_hw34 => k0_hw34.2

def k0_off291 (v241 : BitVec 32) : Fin 2 → Nat :=
  let c0_i32_488 : BitVec 32 := 0#32
  ![v241.toNat, 0]

def k0_chk35 (v241 : BitVec 32) : Prop :=
  (∀ a, (k0_off70 v241) a + S1x512.size a ≤ S20000x512.size a) ∧
  (∀ a, (k0_off291 v241) a + S1x512.size a ≤ S20000x512.size a)
instance k0_chk35.dec : ∀ (v241 : BitVec 32), Decidable (k0_chk35 v241) := fun v241 => decidable_of_iff' _ (Iff.of_eq (k0_chk35.eq_1 v241))
theorem k0_off70_inb : ∀ (v241 : BitVec 32) (k0_hw35 : k0_chk35 v241), ∀ a, (k0_off70 v241) a + S1x512.size a ≤ S20000x512.size a := fun v241 k0_hw35 => k0_hw35.1
theorem k0_off291_inb : ∀ (v241 : BitVec 32) (k0_hw35 : k0_chk35 v241), ∀ a, (k0_off291 v241) a + S1x512.size a ≤ S20000x512.size a := fun v241 k0_hw35 => k0_hw35.2

def k0_off292 (v248 : BitVec 32) : Fin 2 → Nat :=
  let c0_i32_491 : BitVec 32 := 0#32
  ![v248.toNat, 0]

def k0_chk36 (v248 : BitVec 32) : Prop :=
  (∀ a, (k0_off72 v248) a + S1x512.size a ≤ S20000x512.size a) ∧
  (∀ a, (k0_off292 v248) a + S1x512.size a ≤ S20000x512.size a)
instance k0_chk36.dec : ∀ (v248 : BitVec 32), Decidable (k0_chk36 v248) := fun v248 => decidable_of_iff' _ (Iff.of_eq (k0_chk36.eq_1 v248))
theorem k0_off72_inb : ∀ (v248 : BitVec 32) (k0_hw36 : k0_chk36 v248), ∀ a, (k0_off72 v248) a + S1x512.size a ≤ S20000x512.size a := fun v248 k0_hw36 => k0_hw36.1
theorem k0_off292_inb : ∀ (v248 : BitVec 32) (k0_hw36 : k0_chk36 v248), ∀ a, (k0_off292 v248) a + S1x512.size a ≤ S20000x512.size a := fun v248 k0_hw36 => k0_hw36.2

def k0_off293 (v255 : BitVec 32) : Fin 2 → Nat :=
  let c0_i32_494 : BitVec 32 := 0#32
  ![v255.toNat, 0]

def k0_chk37 (v255 : BitVec 32) : Prop :=
  (∀ a, (k0_off74 v255) a + S1x512.size a ≤ S20000x512.size a) ∧
  (∀ a, (k0_off293 v255) a + S1x512.size a ≤ S20000x512.size a)
instance k0_chk37.dec : ∀ (v255 : BitVec 32), Decidable (k0_chk37 v255) := fun v255 => decidable_of_iff' _ (Iff.of_eq (k0_chk37.eq_1 v255))
theorem k0_off74_inb : ∀ (v255 : BitVec 32) (k0_hw37 : k0_chk37 v255), ∀ a, (k0_off74 v255) a + S1x512.size a ≤ S20000x512.size a := fun v255 k0_hw37 => k0_hw37.1
theorem k0_off293_inb : ∀ (v255 : BitVec 32) (k0_hw37 : k0_chk37 v255), ∀ a, (k0_off293 v255) a + S1x512.size a ≤ S20000x512.size a := fun v255 k0_hw37 => k0_hw37.2

def k0_off294 (v262 : BitVec 32) : Fin 2 → Nat :=
  let c0_i32_497 : BitVec 32 := 0#32
  ![v262.toNat, 0]

def k0_chk38 (v262 : BitVec 32) : Prop :=
  (∀ a, (k0_off76 v262) a + S1x512.size a ≤ S20000x512.size a) ∧
  (∀ a, (k0_off294 v262) a + S1x512.size a ≤ S20000x512.size a)
instance k0_chk38.dec : ∀ (v262 : BitVec 32), Decidable (k0_chk38 v262) := fun v262 => decidable_of_iff' _ (Iff.of_eq (k0_chk38.eq_1 v262))
theorem k0_off76_inb : ∀ (v262 : BitVec 32) (k0_hw38 : k0_chk38 v262), ∀ a, (k0_off76 v262) a + S1x512.size a ≤ S20000x512.size a := fun v262 k0_hw38 => k0_hw38.1
theorem k0_off294_inb : ∀ (v262 : BitVec 32) (k0_hw38 : k0_chk38 v262), ∀ a, (k0_off294 v262) a + S1x512.size a ≤ S20000x512.size a := fun v262 k0_hw38 => k0_hw38.2

def k0_off295 (v269 : BitVec 32) : Fin 2 → Nat :=
  let c0_i32_500 : BitVec 32 := 0#32
  ![v269.toNat, 0]

def k0_chk39 (v269 : BitVec 32) : Prop :=
  (∀ a, (k0_off78 v269) a + S1x512.size a ≤ S20000x512.size a) ∧
  (∀ a, (k0_off295 v269) a + S1x512.size a ≤ S20000x512.size a)
instance k0_chk39.dec : ∀ (v269 : BitVec 32), Decidable (k0_chk39 v269) := fun v269 => decidable_of_iff' _ (Iff.of_eq (k0_chk39.eq_1 v269))
theorem k0_off78_inb : ∀ (v269 : BitVec 32) (k0_hw39 : k0_chk39 v269), ∀ a, (k0_off78 v269) a + S1x512.size a ≤ S20000x512.size a := fun v269 k0_hw39 => k0_hw39.1
theorem k0_off295_inb : ∀ (v269 : BitVec 32) (k0_hw39 : k0_chk39 v269), ∀ a, (k0_off295 v269) a + S1x512.size a ≤ S20000x512.size a := fun v269 k0_hw39 => k0_hw39.2

def k0_off296 (v276 : BitVec 32) : Fin 2 → Nat :=
  let c0_i32_503 : BitVec 32 := 0#32
  ![v276.toNat, 0]

def k0_chk40 (v276 : BitVec 32) : Prop :=
  (∀ a, (k0_off80 v276) a + S1x512.size a ≤ S20000x512.size a) ∧
  (∀ a, (k0_off296 v276) a + S1x512.size a ≤ S20000x512.size a)
instance k0_chk40.dec : ∀ (v276 : BitVec 32), Decidable (k0_chk40 v276) := fun v276 => decidable_of_iff' _ (Iff.of_eq (k0_chk40.eq_1 v276))
theorem k0_off80_inb : ∀ (v276 : BitVec 32) (k0_hw40 : k0_chk40 v276), ∀ a, (k0_off80 v276) a + S1x512.size a ≤ S20000x512.size a := fun v276 k0_hw40 => k0_hw40.1
theorem k0_off296_inb : ∀ (v276 : BitVec 32) (k0_hw40 : k0_chk40 v276), ∀ a, (k0_off296 v276) a + S1x512.size a ≤ S20000x512.size a := fun v276 k0_hw40 => k0_hw40.2

def k0_off297 (v283 : BitVec 32) : Fin 2 → Nat :=
  let c0_i32_506 : BitVec 32 := 0#32
  ![v283.toNat, 0]

def k0_chk41 (v283 : BitVec 32) : Prop :=
  (∀ a, (k0_off82 v283) a + S1x512.size a ≤ S20000x512.size a) ∧
  (∀ a, (k0_off297 v283) a + S1x512.size a ≤ S20000x512.size a)
instance k0_chk41.dec : ∀ (v283 : BitVec 32), Decidable (k0_chk41 v283) := fun v283 => decidable_of_iff' _ (Iff.of_eq (k0_chk41.eq_1 v283))
theorem k0_off82_inb : ∀ (v283 : BitVec 32) (k0_hw41 : k0_chk41 v283), ∀ a, (k0_off82 v283) a + S1x512.size a ≤ S20000x512.size a := fun v283 k0_hw41 => k0_hw41.1
theorem k0_off297_inb : ∀ (v283 : BitVec 32) (k0_hw41 : k0_chk41 v283), ∀ a, (k0_off297 v283) a + S1x512.size a ≤ S20000x512.size a := fun v283 k0_hw41 => k0_hw41.2

def k0_off298 (v290 : BitVec 32) : Fin 2 → Nat :=
  let c0_i32_509 : BitVec 32 := 0#32
  ![v290.toNat, 0]

def k0_chk42 (v290 : BitVec 32) : Prop :=
  (∀ a, (k0_off84 v290) a + S1x512.size a ≤ S20000x512.size a) ∧
  (∀ a, (k0_off298 v290) a + S1x512.size a ≤ S20000x512.size a)
instance k0_chk42.dec : ∀ (v290 : BitVec 32), Decidable (k0_chk42 v290) := fun v290 => decidable_of_iff' _ (Iff.of_eq (k0_chk42.eq_1 v290))
theorem k0_off84_inb : ∀ (v290 : BitVec 32) (k0_hw42 : k0_chk42 v290), ∀ a, (k0_off84 v290) a + S1x512.size a ≤ S20000x512.size a := fun v290 k0_hw42 => k0_hw42.1
theorem k0_off298_inb : ∀ (v290 : BitVec 32) (k0_hw42 : k0_chk42 v290), ∀ a, (k0_off298 v290) a + S1x512.size a ≤ S20000x512.size a := fun v290 k0_hw42 => k0_hw42.2

def k0_off299 (v297 : BitVec 32) : Fin 2 → Nat :=
  let c0_i32_512 : BitVec 32 := 0#32
  ![v297.toNat, 0]

def k0_chk43 (v297 : BitVec 32) : Prop :=
  (∀ a, (k0_off86 v297) a + S1x512.size a ≤ S20000x512.size a) ∧
  (∀ a, (k0_off299 v297) a + S1x512.size a ≤ S20000x512.size a)
instance k0_chk43.dec : ∀ (v297 : BitVec 32), Decidable (k0_chk43 v297) := fun v297 => decidable_of_iff' _ (Iff.of_eq (k0_chk43.eq_1 v297))
theorem k0_off86_inb : ∀ (v297 : BitVec 32) (k0_hw43 : k0_chk43 v297), ∀ a, (k0_off86 v297) a + S1x512.size a ≤ S20000x512.size a := fun v297 k0_hw43 => k0_hw43.1
theorem k0_off299_inb : ∀ (v297 : BitVec 32) (k0_hw43 : k0_chk43 v297), ∀ a, (k0_off299 v297) a + S1x512.size a ≤ S20000x512.size a := fun v297 k0_hw43 => k0_hw43.2

def k0_off300 (v304 : BitVec 32) : Fin 2 → Nat :=
  let c0_i32_515 : BitVec 32 := 0#32
  ![v304.toNat, 0]

def k0_chk44 (v304 : BitVec 32) : Prop :=
  (∀ a, (k0_off88 v304) a + S1x512.size a ≤ S20000x512.size a) ∧
  (∀ a, (k0_off300 v304) a + S1x512.size a ≤ S20000x512.size a)
instance k0_chk44.dec : ∀ (v304 : BitVec 32), Decidable (k0_chk44 v304) := fun v304 => decidable_of_iff' _ (Iff.of_eq (k0_chk44.eq_1 v304))
theorem k0_off88_inb : ∀ (v304 : BitVec 32) (k0_hw44 : k0_chk44 v304), ∀ a, (k0_off88 v304) a + S1x512.size a ≤ S20000x512.size a := fun v304 k0_hw44 => k0_hw44.1
theorem k0_off300_inb : ∀ (v304 : BitVec 32) (k0_hw44 : k0_chk44 v304), ∀ a, (k0_off300 v304) a + S1x512.size a ≤ S20000x512.size a := fun v304 k0_hw44 => k0_hw44.2

def k0_off301 (v311 : BitVec 32) : Fin 2 → Nat :=
  let c0_i32_518 : BitVec 32 := 0#32
  ![v311.toNat, 0]

def k0_chk45 (v311 : BitVec 32) : Prop :=
  (∀ a, (k0_off90 v311) a + S1x512.size a ≤ S20000x512.size a) ∧
  (∀ a, (k0_off301 v311) a + S1x512.size a ≤ S20000x512.size a)
instance k0_chk45.dec : ∀ (v311 : BitVec 32), Decidable (k0_chk45 v311) := fun v311 => decidable_of_iff' _ (Iff.of_eq (k0_chk45.eq_1 v311))
theorem k0_off90_inb : ∀ (v311 : BitVec 32) (k0_hw45 : k0_chk45 v311), ∀ a, (k0_off90 v311) a + S1x512.size a ≤ S20000x512.size a := fun v311 k0_hw45 => k0_hw45.1
theorem k0_off301_inb : ∀ (v311 : BitVec 32) (k0_hw45 : k0_chk45 v311), ∀ a, (k0_off301 v311) a + S1x512.size a ≤ S20000x512.size a := fun v311 k0_hw45 => k0_hw45.2

def k0_off302 (v318 : BitVec 32) : Fin 2 → Nat :=
  let c0_i32_521 : BitVec 32 := 0#32
  ![v318.toNat, 0]

def k0_chk46 (v318 : BitVec 32) : Prop :=
  (∀ a, (k0_off92 v318) a + S1x512.size a ≤ S20000x512.size a) ∧
  (∀ a, (k0_off302 v318) a + S1x512.size a ≤ S20000x512.size a)
instance k0_chk46.dec : ∀ (v318 : BitVec 32), Decidable (k0_chk46 v318) := fun v318 => decidable_of_iff' _ (Iff.of_eq (k0_chk46.eq_1 v318))
theorem k0_off92_inb : ∀ (v318 : BitVec 32) (k0_hw46 : k0_chk46 v318), ∀ a, (k0_off92 v318) a + S1x512.size a ≤ S20000x512.size a := fun v318 k0_hw46 => k0_hw46.1
theorem k0_off302_inb : ∀ (v318 : BitVec 32) (k0_hw46 : k0_chk46 v318), ∀ a, (k0_off302 v318) a + S1x512.size a ≤ S20000x512.size a := fun v318 k0_hw46 => k0_hw46.2

def k0_off303 (v325 : BitVec 32) : Fin 2 → Nat :=
  let c0_i32_524 : BitVec 32 := 0#32
  ![v325.toNat, 0]

def k0_chk47 (v325 : BitVec 32) : Prop :=
  (∀ a, (k0_off94 v325) a + S1x512.size a ≤ S20000x512.size a) ∧
  (∀ a, (k0_off303 v325) a + S1x512.size a ≤ S20000x512.size a)
instance k0_chk47.dec : ∀ (v325 : BitVec 32), Decidable (k0_chk47 v325) := fun v325 => decidable_of_iff' _ (Iff.of_eq (k0_chk47.eq_1 v325))
theorem k0_off94_inb : ∀ (v325 : BitVec 32) (k0_hw47 : k0_chk47 v325), ∀ a, (k0_off94 v325) a + S1x512.size a ≤ S20000x512.size a := fun v325 k0_hw47 => k0_hw47.1
theorem k0_off303_inb : ∀ (v325 : BitVec 32) (k0_hw47 : k0_chk47 v325), ∀ a, (k0_off303 v325) a + S1x512.size a ≤ S20000x512.size a := fun v325 k0_hw47 => k0_hw47.2

def k0_off304 (v332 : BitVec 32) : Fin 2 → Nat :=
  let c0_i32_527 : BitVec 32 := 0#32
  ![v332.toNat, 0]

def k0_chk48 (v332 : BitVec 32) : Prop :=
  (∀ a, (k0_off96 v332) a + S1x512.size a ≤ S20000x512.size a) ∧
  (∀ a, (k0_off304 v332) a + S1x512.size a ≤ S20000x512.size a)
instance k0_chk48.dec : ∀ (v332 : BitVec 32), Decidable (k0_chk48 v332) := fun v332 => decidable_of_iff' _ (Iff.of_eq (k0_chk48.eq_1 v332))
theorem k0_off96_inb : ∀ (v332 : BitVec 32) (k0_hw48 : k0_chk48 v332), ∀ a, (k0_off96 v332) a + S1x512.size a ≤ S20000x512.size a := fun v332 k0_hw48 => k0_hw48.1
theorem k0_off304_inb : ∀ (v332 : BitVec 32) (k0_hw48 : k0_chk48 v332), ∀ a, (k0_off304 v332) a + S1x512.size a ≤ S20000x512.size a := fun v332 k0_hw48 => k0_hw48.2

def k0_off305 (v339 : BitVec 32) : Fin 2 → Nat :=
  let c0_i32_530 : BitVec 32 := 0#32
  ![v339.toNat, 0]

def k0_chk49 (v339 : BitVec 32) : Prop :=
  (∀ a, (k0_off98 v339) a + S1x512.size a ≤ S20000x512.size a) ∧
  (∀ a, (k0_off305 v339) a + S1x512.size a ≤ S20000x512.size a)
instance k0_chk49.dec : ∀ (v339 : BitVec 32), Decidable (k0_chk49 v339) := fun v339 => decidable_of_iff' _ (Iff.of_eq (k0_chk49.eq_1 v339))
theorem k0_off98_inb : ∀ (v339 : BitVec 32) (k0_hw49 : k0_chk49 v339), ∀ a, (k0_off98 v339) a + S1x512.size a ≤ S20000x512.size a := fun v339 k0_hw49 => k0_hw49.1
theorem k0_off305_inb : ∀ (v339 : BitVec 32) (k0_hw49 : k0_chk49 v339), ∀ a, (k0_off305 v339) a + S1x512.size a ≤ S20000x512.size a := fun v339 k0_hw49 => k0_hw49.2

def k0_off306 (v346 : BitVec 32) : Fin 2 → Nat :=
  let c0_i32_533 : BitVec 32 := 0#32
  ![v346.toNat, 0]

def k0_chk50 (v346 : BitVec 32) : Prop :=
  (∀ a, (k0_off100 v346) a + S1x512.size a ≤ S20000x512.size a) ∧
  (∀ a, (k0_off306 v346) a + S1x512.size a ≤ S20000x512.size a)
instance k0_chk50.dec : ∀ (v346 : BitVec 32), Decidable (k0_chk50 v346) := fun v346 => decidable_of_iff' _ (Iff.of_eq (k0_chk50.eq_1 v346))
theorem k0_off100_inb : ∀ (v346 : BitVec 32) (k0_hw50 : k0_chk50 v346), ∀ a, (k0_off100 v346) a + S1x512.size a ≤ S20000x512.size a := fun v346 k0_hw50 => k0_hw50.1
theorem k0_off306_inb : ∀ (v346 : BitVec 32) (k0_hw50 : k0_chk50 v346), ∀ a, (k0_off306 v346) a + S1x512.size a ≤ S20000x512.size a := fun v346 k0_hw50 => k0_hw50.2

def k0_off307 (v353 : BitVec 32) : Fin 2 → Nat :=
  let c0_i32_536 : BitVec 32 := 0#32
  ![v353.toNat, 0]

def k0_chk51 (v353 : BitVec 32) : Prop :=
  (∀ a, (k0_off102 v353) a + S1x512.size a ≤ S20000x512.size a) ∧
  (∀ a, (k0_off307 v353) a + S1x512.size a ≤ S20000x512.size a)
instance k0_chk51.dec : ∀ (v353 : BitVec 32), Decidable (k0_chk51 v353) := fun v353 => decidable_of_iff' _ (Iff.of_eq (k0_chk51.eq_1 v353))
theorem k0_off102_inb : ∀ (v353 : BitVec 32) (k0_hw51 : k0_chk51 v353), ∀ a, (k0_off102 v353) a + S1x512.size a ≤ S20000x512.size a := fun v353 k0_hw51 => k0_hw51.1
theorem k0_off307_inb : ∀ (v353 : BitVec 32) (k0_hw51 : k0_chk51 v353), ∀ a, (k0_off307 v353) a + S1x512.size a ≤ S20000x512.size a := fun v353 k0_hw51 => k0_hw51.2

def k0_off308 (v360 : BitVec 32) : Fin 2 → Nat :=
  let c0_i32_539 : BitVec 32 := 0#32
  ![v360.toNat, 0]

def k0_chk52 (v360 : BitVec 32) : Prop :=
  (∀ a, (k0_off104 v360) a + S1x512.size a ≤ S20000x512.size a) ∧
  (∀ a, (k0_off308 v360) a + S1x512.size a ≤ S20000x512.size a)
instance k0_chk52.dec : ∀ (v360 : BitVec 32), Decidable (k0_chk52 v360) := fun v360 => decidable_of_iff' _ (Iff.of_eq (k0_chk52.eq_1 v360))
theorem k0_off104_inb : ∀ (v360 : BitVec 32) (k0_hw52 : k0_chk52 v360), ∀ a, (k0_off104 v360) a + S1x512.size a ≤ S20000x512.size a := fun v360 k0_hw52 => k0_hw52.1
theorem k0_off308_inb : ∀ (v360 : BitVec 32) (k0_hw52 : k0_chk52 v360), ∀ a, (k0_off308 v360) a + S1x512.size a ≤ S20000x512.size a := fun v360 k0_hw52 => k0_hw52.2

def k0_off309 (v367 : BitVec 32) : Fin 2 → Nat :=
  let c0_i32_542 : BitVec 32 := 0#32
  ![v367.toNat, 0]

def k0_chk53 (v367 : BitVec 32) : Prop :=
  (∀ a, (k0_off106 v367) a + S1x512.size a ≤ S20000x512.size a) ∧
  (∀ a, (k0_off309 v367) a + S1x512.size a ≤ S20000x512.size a)
instance k0_chk53.dec : ∀ (v367 : BitVec 32), Decidable (k0_chk53 v367) := fun v367 => decidable_of_iff' _ (Iff.of_eq (k0_chk53.eq_1 v367))
theorem k0_off106_inb : ∀ (v367 : BitVec 32) (k0_hw53 : k0_chk53 v367), ∀ a, (k0_off106 v367) a + S1x512.size a ≤ S20000x512.size a := fun v367 k0_hw53 => k0_hw53.1
theorem k0_off309_inb : ∀ (v367 : BitVec 32) (k0_hw53 : k0_chk53 v367), ∀ a, (k0_off309 v367) a + S1x512.size a ≤ S20000x512.size a := fun v367 k0_hw53 => k0_hw53.2

def k0_off310 (v374 : BitVec 32) : Fin 2 → Nat :=
  let c0_i32_545 : BitVec 32 := 0#32
  ![v374.toNat, 0]

def k0_chk54 (v374 : BitVec 32) : Prop :=
  (∀ a, (k0_off108 v374) a + S1x512.size a ≤ S20000x512.size a) ∧
  (∀ a, (k0_off310 v374) a + S1x512.size a ≤ S20000x512.size a)
instance k0_chk54.dec : ∀ (v374 : BitVec 32), Decidable (k0_chk54 v374) := fun v374 => decidable_of_iff' _ (Iff.of_eq (k0_chk54.eq_1 v374))
theorem k0_off108_inb : ∀ (v374 : BitVec 32) (k0_hw54 : k0_chk54 v374), ∀ a, (k0_off108 v374) a + S1x512.size a ≤ S20000x512.size a := fun v374 k0_hw54 => k0_hw54.1
theorem k0_off310_inb : ∀ (v374 : BitVec 32) (k0_hw54 : k0_chk54 v374), ∀ a, (k0_off310 v374) a + S1x512.size a ≤ S20000x512.size a := fun v374 k0_hw54 => k0_hw54.2

def k0_off311 (v381 : BitVec 32) : Fin 2 → Nat :=
  let c0_i32_548 : BitVec 32 := 0#32
  ![v381.toNat, 0]

def k0_chk55 (v381 : BitVec 32) : Prop :=
  (∀ a, (k0_off110 v381) a + S1x512.size a ≤ S20000x512.size a) ∧
  (∀ a, (k0_off311 v381) a + S1x512.size a ≤ S20000x512.size a)
instance k0_chk55.dec : ∀ (v381 : BitVec 32), Decidable (k0_chk55 v381) := fun v381 => decidable_of_iff' _ (Iff.of_eq (k0_chk55.eq_1 v381))
theorem k0_off110_inb : ∀ (v381 : BitVec 32) (k0_hw55 : k0_chk55 v381), ∀ a, (k0_off110 v381) a + S1x512.size a ≤ S20000x512.size a := fun v381 k0_hw55 => k0_hw55.1
theorem k0_off311_inb : ∀ (v381 : BitVec 32) (k0_hw55 : k0_chk55 v381), ∀ a, (k0_off311 v381) a + S1x512.size a ≤ S20000x512.size a := fun v381 k0_hw55 => k0_hw55.2

def k0_off312 (v388 : BitVec 32) : Fin 2 → Nat :=
  let c0_i32_551 : BitVec 32 := 0#32
  ![v388.toNat, 0]

def k0_chk56 (v388 : BitVec 32) : Prop :=
  (∀ a, (k0_off112 v388) a + S1x512.size a ≤ S20000x512.size a) ∧
  (∀ a, (k0_off312 v388) a + S1x512.size a ≤ S20000x512.size a)
instance k0_chk56.dec : ∀ (v388 : BitVec 32), Decidable (k0_chk56 v388) := fun v388 => decidable_of_iff' _ (Iff.of_eq (k0_chk56.eq_1 v388))
theorem k0_off112_inb : ∀ (v388 : BitVec 32) (k0_hw56 : k0_chk56 v388), ∀ a, (k0_off112 v388) a + S1x512.size a ≤ S20000x512.size a := fun v388 k0_hw56 => k0_hw56.1
theorem k0_off312_inb : ∀ (v388 : BitVec 32) (k0_hw56 : k0_chk56 v388), ∀ a, (k0_off312 v388) a + S1x512.size a ≤ S20000x512.size a := fun v388 k0_hw56 => k0_hw56.2

def k0_off313 (v395 : BitVec 32) : Fin 2 → Nat :=
  let c0_i32_554 : BitVec 32 := 0#32
  ![v395.toNat, 0]

def k0_chk57 (v395 : BitVec 32) : Prop :=
  (∀ a, (k0_off114 v395) a + S1x512.size a ≤ S20000x512.size a) ∧
  (∀ a, (k0_off313 v395) a + S1x512.size a ≤ S20000x512.size a)
instance k0_chk57.dec : ∀ (v395 : BitVec 32), Decidable (k0_chk57 v395) := fun v395 => decidable_of_iff' _ (Iff.of_eq (k0_chk57.eq_1 v395))
theorem k0_off114_inb : ∀ (v395 : BitVec 32) (k0_hw57 : k0_chk57 v395), ∀ a, (k0_off114 v395) a + S1x512.size a ≤ S20000x512.size a := fun v395 k0_hw57 => k0_hw57.1
theorem k0_off313_inb : ∀ (v395 : BitVec 32) (k0_hw57 : k0_chk57 v395), ∀ a, (k0_off313 v395) a + S1x512.size a ≤ S20000x512.size a := fun v395 k0_hw57 => k0_hw57.2

def k0_off314 (v402 : BitVec 32) : Fin 2 → Nat :=
  let c0_i32_557 : BitVec 32 := 0#32
  ![v402.toNat, 0]

def k0_chk58 (v402 : BitVec 32) : Prop :=
  (∀ a, (k0_off116 v402) a + S1x512.size a ≤ S20000x512.size a) ∧
  (∀ a, (k0_off314 v402) a + S1x512.size a ≤ S20000x512.size a)
instance k0_chk58.dec : ∀ (v402 : BitVec 32), Decidable (k0_chk58 v402) := fun v402 => decidable_of_iff' _ (Iff.of_eq (k0_chk58.eq_1 v402))
theorem k0_off116_inb : ∀ (v402 : BitVec 32) (k0_hw58 : k0_chk58 v402), ∀ a, (k0_off116 v402) a + S1x512.size a ≤ S20000x512.size a := fun v402 k0_hw58 => k0_hw58.1
theorem k0_off314_inb : ∀ (v402 : BitVec 32) (k0_hw58 : k0_chk58 v402), ∀ a, (k0_off314 v402) a + S1x512.size a ≤ S20000x512.size a := fun v402 k0_hw58 => k0_hw58.2

def k0_off315 (v409 : BitVec 32) : Fin 2 → Nat :=
  let c0_i32_560 : BitVec 32 := 0#32
  ![v409.toNat, 0]

def k0_chk59 (v409 : BitVec 32) : Prop :=
  (∀ a, (k0_off118 v409) a + S1x512.size a ≤ S20000x512.size a) ∧
  (∀ a, (k0_off315 v409) a + S1x512.size a ≤ S20000x512.size a)
instance k0_chk59.dec : ∀ (v409 : BitVec 32), Decidable (k0_chk59 v409) := fun v409 => decidable_of_iff' _ (Iff.of_eq (k0_chk59.eq_1 v409))
theorem k0_off118_inb : ∀ (v409 : BitVec 32) (k0_hw59 : k0_chk59 v409), ∀ a, (k0_off118 v409) a + S1x512.size a ≤ S20000x512.size a := fun v409 k0_hw59 => k0_hw59.1
theorem k0_off315_inb : ∀ (v409 : BitVec 32) (k0_hw59 : k0_chk59 v409), ∀ a, (k0_off315 v409) a + S1x512.size a ≤ S20000x512.size a := fun v409 k0_hw59 => k0_hw59.2

def k0_off316 (v416 : BitVec 32) : Fin 2 → Nat :=
  let c0_i32_563 : BitVec 32 := 0#32
  ![v416.toNat, 0]

def k0_chk60 (v416 : BitVec 32) : Prop :=
  (∀ a, (k0_off120 v416) a + S1x512.size a ≤ S20000x512.size a) ∧
  (∀ a, (k0_off316 v416) a + S1x512.size a ≤ S20000x512.size a)
instance k0_chk60.dec : ∀ (v416 : BitVec 32), Decidable (k0_chk60 v416) := fun v416 => decidable_of_iff' _ (Iff.of_eq (k0_chk60.eq_1 v416))
theorem k0_off120_inb : ∀ (v416 : BitVec 32) (k0_hw60 : k0_chk60 v416), ∀ a, (k0_off120 v416) a + S1x512.size a ≤ S20000x512.size a := fun v416 k0_hw60 => k0_hw60.1
theorem k0_off316_inb : ∀ (v416 : BitVec 32) (k0_hw60 : k0_chk60 v416), ∀ a, (k0_off316 v416) a + S1x512.size a ≤ S20000x512.size a := fun v416 k0_hw60 => k0_hw60.2

def k0_off317 (v423 : BitVec 32) : Fin 2 → Nat :=
  let c0_i32_566 : BitVec 32 := 0#32
  ![v423.toNat, 0]

def k0_chk61 (v423 : BitVec 32) : Prop :=
  (∀ a, (k0_off122 v423) a + S1x512.size a ≤ S20000x512.size a) ∧
  (∀ a, (k0_off317 v423) a + S1x512.size a ≤ S20000x512.size a)
instance k0_chk61.dec : ∀ (v423 : BitVec 32), Decidable (k0_chk61 v423) := fun v423 => decidable_of_iff' _ (Iff.of_eq (k0_chk61.eq_1 v423))
theorem k0_off122_inb : ∀ (v423 : BitVec 32) (k0_hw61 : k0_chk61 v423), ∀ a, (k0_off122 v423) a + S1x512.size a ≤ S20000x512.size a := fun v423 k0_hw61 => k0_hw61.1
theorem k0_off317_inb : ∀ (v423 : BitVec 32) (k0_hw61 : k0_chk61 v423), ∀ a, (k0_off317 v423) a + S1x512.size a ≤ S20000x512.size a := fun v423 k0_hw61 => k0_hw61.2

def k0_off318 (v430 : BitVec 32) : Fin 2 → Nat :=
  let c0_i32_569 : BitVec 32 := 0#32
  ![v430.toNat, 0]

def k0_chk62 (v430 : BitVec 32) : Prop :=
  (∀ a, (k0_off124 v430) a + S1x512.size a ≤ S20000x512.size a) ∧
  (∀ a, (k0_off318 v430) a + S1x512.size a ≤ S20000x512.size a)
instance k0_chk62.dec : ∀ (v430 : BitVec 32), Decidable (k0_chk62 v430) := fun v430 => decidable_of_iff' _ (Iff.of_eq (k0_chk62.eq_1 v430))
theorem k0_off124_inb : ∀ (v430 : BitVec 32) (k0_hw62 : k0_chk62 v430), ∀ a, (k0_off124 v430) a + S1x512.size a ≤ S20000x512.size a := fun v430 k0_hw62 => k0_hw62.1
theorem k0_off318_inb : ∀ (v430 : BitVec 32) (k0_hw62 : k0_chk62 v430), ∀ a, (k0_off318 v430) a + S1x512.size a ≤ S20000x512.size a := fun v430 k0_hw62 => k0_hw62.2

def k0_off319 (v437 : BitVec 32) : Fin 2 → Nat :=
  let c0_i32_572 : BitVec 32 := 0#32
  ![v437.toNat, 0]

def k0_chk63 (v437 : BitVec 32) : Prop :=
  (∀ a, (k0_off126 v437) a + S1x512.size a ≤ S20000x512.size a) ∧
  (∀ a, (k0_off319 v437) a + S1x512.size a ≤ S20000x512.size a)
instance k0_chk63.dec : ∀ (v437 : BitVec 32), Decidable (k0_chk63 v437) := fun v437 => decidable_of_iff' _ (Iff.of_eq (k0_chk63.eq_1 v437))
theorem k0_off126_inb : ∀ (v437 : BitVec 32) (k0_hw63 : k0_chk63 v437), ∀ a, (k0_off126 v437) a + S1x512.size a ≤ S20000x512.size a := fun v437 k0_hw63 => k0_hw63.1
theorem k0_off319_inb : ∀ (v437 : BitVec 32) (k0_hw63 : k0_chk63 v437), ∀ a, (k0_off319 v437) a + S1x512.size a ≤ S20000x512.size a := fun v437 k0_hw63 => k0_hw63.2

def k0_off320 (v444 : BitVec 32) : Fin 2 → Nat :=
  let c0_i32_575 : BitVec 32 := 0#32
  ![v444.toNat, 0]

def k0_chk64 (v444 : BitVec 32) : Prop :=
  (∀ a, (k0_off128 v444) a + S1x512.size a ≤ S20000x512.size a) ∧
  (∀ a, (k0_off320 v444) a + S1x512.size a ≤ S20000x512.size a)
instance k0_chk64.dec : ∀ (v444 : BitVec 32), Decidable (k0_chk64 v444) := fun v444 => decidable_of_iff' _ (Iff.of_eq (k0_chk64.eq_1 v444))
theorem k0_off128_inb : ∀ (v444 : BitVec 32) (k0_hw64 : k0_chk64 v444), ∀ a, (k0_off128 v444) a + S1x512.size a ≤ S20000x512.size a := fun v444 k0_hw64 => k0_hw64.1
theorem k0_off320_inb : ∀ (v444 : BitVec 32) (k0_hw64 : k0_chk64 v444), ∀ a, (k0_off320 v444) a + S1x512.size a ≤ S20000x512.size a := fun v444 k0_hw64 => k0_hw64.2

def k0_off321 (v451 : BitVec 32) : Fin 2 → Nat :=
  let c0_i32_578 : BitVec 32 := 0#32
  ![v451.toNat, 0]

def k0_chk65 (v451 : BitVec 32) : Prop :=
  (∀ a, (k0_off130 v451) a + S1x512.size a ≤ S20000x512.size a) ∧
  (∀ a, (k0_off321 v451) a + S1x512.size a ≤ S20000x512.size a)
instance k0_chk65.dec : ∀ (v451 : BitVec 32), Decidable (k0_chk65 v451) := fun v451 => decidable_of_iff' _ (Iff.of_eq (k0_chk65.eq_1 v451))
theorem k0_off130_inb : ∀ (v451 : BitVec 32) (k0_hw65 : k0_chk65 v451), ∀ a, (k0_off130 v451) a + S1x512.size a ≤ S20000x512.size a := fun v451 k0_hw65 => k0_hw65.1
theorem k0_off321_inb : ∀ (v451 : BitVec 32) (k0_hw65 : k0_chk65 v451), ∀ a, (k0_off321 v451) a + S1x512.size a ≤ S20000x512.size a := fun v451 k0_hw65 => k0_hw65.2

def k0_off322 (v458 : BitVec 32) : Fin 2 → Nat :=
  let c0_i32_581 : BitVec 32 := 0#32
  ![v458.toNat, 0]

def k0_chk66 (v458 : BitVec 32) : Prop :=
  (∀ a, (k0_off132 v458) a + S1x512.size a ≤ S20000x512.size a) ∧
  (∀ a, (k0_off322 v458) a + S1x512.size a ≤ S20000x512.size a)
instance k0_chk66.dec : ∀ (v458 : BitVec 32), Decidable (k0_chk66 v458) := fun v458 => decidable_of_iff' _ (Iff.of_eq (k0_chk66.eq_1 v458))
theorem k0_off132_inb : ∀ (v458 : BitVec 32) (k0_hw66 : k0_chk66 v458), ∀ a, (k0_off132 v458) a + S1x512.size a ≤ S20000x512.size a := fun v458 k0_hw66 => k0_hw66.1
theorem k0_off322_inb : ∀ (v458 : BitVec 32) (k0_hw66 : k0_chk66 v458), ∀ a, (k0_off322 v458) a + S1x512.size a ≤ S20000x512.size a := fun v458 k0_hw66 => k0_hw66.2

def k0_off323 (v465 : BitVec 32) : Fin 2 → Nat :=
  let c0_i32_584 : BitVec 32 := 0#32
  ![v465.toNat, 0]

def k0_chk67 (v465 : BitVec 32) : Prop :=
  (∀ a, (k0_off134 v465) a + S1x512.size a ≤ S20000x512.size a) ∧
  (∀ a, (k0_off323 v465) a + S1x512.size a ≤ S20000x512.size a)
instance k0_chk67.dec : ∀ (v465 : BitVec 32), Decidable (k0_chk67 v465) := fun v465 => decidable_of_iff' _ (Iff.of_eq (k0_chk67.eq_1 v465))
theorem k0_off134_inb : ∀ (v465 : BitVec 32) (k0_hw67 : k0_chk67 v465), ∀ a, (k0_off134 v465) a + S1x512.size a ≤ S20000x512.size a := fun v465 k0_hw67 => k0_hw67.1
theorem k0_off323_inb : ∀ (v465 : BitVec 32) (k0_hw67 : k0_chk67 v465), ∀ a, (k0_off323 v465) a + S1x512.size a ≤ S20000x512.size a := fun v465 k0_hw67 => k0_hw67.2

def k0_off324 (v472 : BitVec 32) : Fin 2 → Nat :=
  let c0_i32_587 : BitVec 32 := 0#32
  ![v472.toNat, 0]

def k0_chk68 (v472 : BitVec 32) : Prop :=
  (∀ a, (k0_off136 v472) a + S1x512.size a ≤ S20000x512.size a) ∧
  (∀ a, (k0_off324 v472) a + S1x512.size a ≤ S20000x512.size a)
instance k0_chk68.dec : ∀ (v472 : BitVec 32), Decidable (k0_chk68 v472) := fun v472 => decidable_of_iff' _ (Iff.of_eq (k0_chk68.eq_1 v472))
theorem k0_off136_inb : ∀ (v472 : BitVec 32) (k0_hw68 : k0_chk68 v472), ∀ a, (k0_off136 v472) a + S1x512.size a ≤ S20000x512.size a := fun v472 k0_hw68 => k0_hw68.1
theorem k0_off324_inb : ∀ (v472 : BitVec 32) (k0_hw68 : k0_chk68 v472), ∀ a, (k0_off324 v472) a + S1x512.size a ≤ S20000x512.size a := fun v472 k0_hw68 => k0_hw68.2

def k0_off325 (v479 : BitVec 32) : Fin 2 → Nat :=
  let c0_i32_590 : BitVec 32 := 0#32
  ![v479.toNat, 0]

def k0_chk69 (v479 : BitVec 32) : Prop :=
  (∀ a, (k0_off138 v479) a + S1x512.size a ≤ S20000x512.size a) ∧
  (∀ a, (k0_off325 v479) a + S1x512.size a ≤ S20000x512.size a)
instance k0_chk69.dec : ∀ (v479 : BitVec 32), Decidable (k0_chk69 v479) := fun v479 => decidable_of_iff' _ (Iff.of_eq (k0_chk69.eq_1 v479))
theorem k0_off138_inb : ∀ (v479 : BitVec 32) (k0_hw69 : k0_chk69 v479), ∀ a, (k0_off138 v479) a + S1x512.size a ≤ S20000x512.size a := fun v479 k0_hw69 => k0_hw69.1
theorem k0_off325_inb : ∀ (v479 : BitVec 32) (k0_hw69 : k0_chk69 v479), ∀ a, (k0_off325 v479) a + S1x512.size a ≤ S20000x512.size a := fun v479 k0_hw69 => k0_hw69.2

def k0_off326 (v486 : BitVec 32) : Fin 2 → Nat :=
  let c0_i32_593 : BitVec 32 := 0#32
  ![v486.toNat, 0]

def k0_chk70 (v486 : BitVec 32) : Prop :=
  (∀ a, (k0_off140 v486) a + S1x512.size a ≤ S20000x512.size a) ∧
  (∀ a, (k0_off326 v486) a + S1x512.size a ≤ S20000x512.size a)
instance k0_chk70.dec : ∀ (v486 : BitVec 32), Decidable (k0_chk70 v486) := fun v486 => decidable_of_iff' _ (Iff.of_eq (k0_chk70.eq_1 v486))
theorem k0_off140_inb : ∀ (v486 : BitVec 32) (k0_hw70 : k0_chk70 v486), ∀ a, (k0_off140 v486) a + S1x512.size a ≤ S20000x512.size a := fun v486 k0_hw70 => k0_hw70.1
theorem k0_off326_inb : ∀ (v486 : BitVec 32) (k0_hw70 : k0_chk70 v486), ∀ a, (k0_off326 v486) a + S1x512.size a ≤ S20000x512.size a := fun v486 k0_hw70 => k0_hw70.2

def k0_off327 (v493 : BitVec 32) : Fin 2 → Nat :=
  let c0_i32_596 : BitVec 32 := 0#32
  ![v493.toNat, 0]

def k0_chk71 (v493 : BitVec 32) : Prop :=
  (∀ a, (k0_off142 v493) a + S1x512.size a ≤ S20000x512.size a) ∧
  (∀ a, (k0_off327 v493) a + S1x512.size a ≤ S20000x512.size a)
instance k0_chk71.dec : ∀ (v493 : BitVec 32), Decidable (k0_chk71 v493) := fun v493 => decidable_of_iff' _ (Iff.of_eq (k0_chk71.eq_1 v493))
theorem k0_off142_inb : ∀ (v493 : BitVec 32) (k0_hw71 : k0_chk71 v493), ∀ a, (k0_off142 v493) a + S1x512.size a ≤ S20000x512.size a := fun v493 k0_hw71 => k0_hw71.1
theorem k0_off327_inb : ∀ (v493 : BitVec 32) (k0_hw71 : k0_chk71 v493), ∀ a, (k0_off327 v493) a + S1x512.size a ≤ S20000x512.size a := fun v493 k0_hw71 => k0_hw71.2

def k0_off328 (v500 : BitVec 32) : Fin 2 → Nat :=
  let c0_i32_599 : BitVec 32 := 0#32
  ![v500.toNat, 0]

def k0_chk72 (v500 : BitVec 32) : Prop :=
  (∀ a, (k0_off144 v500) a + S1x512.size a ≤ S20000x512.size a) ∧
  (∀ a, (k0_off328 v500) a + S1x512.size a ≤ S20000x512.size a)
instance k0_chk72.dec : ∀ (v500 : BitVec 32), Decidable (k0_chk72 v500) := fun v500 => decidable_of_iff' _ (Iff.of_eq (k0_chk72.eq_1 v500))
theorem k0_off144_inb : ∀ (v500 : BitVec 32) (k0_hw72 : k0_chk72 v500), ∀ a, (k0_off144 v500) a + S1x512.size a ≤ S20000x512.size a := fun v500 k0_hw72 => k0_hw72.1
theorem k0_off328_inb : ∀ (v500 : BitVec 32) (k0_hw72 : k0_chk72 v500), ∀ a, (k0_off328 v500) a + S1x512.size a ≤ S20000x512.size a := fun v500 k0_hw72 => k0_hw72.2

def k0_off329 (v507 : BitVec 32) : Fin 2 → Nat :=
  let c0_i32_602 : BitVec 32 := 0#32
  ![v507.toNat, 0]

def k0_chk73 (v507 : BitVec 32) : Prop :=
  (∀ a, (k0_off146 v507) a + S1x512.size a ≤ S20000x512.size a) ∧
  (∀ a, (k0_off329 v507) a + S1x512.size a ≤ S20000x512.size a)
instance k0_chk73.dec : ∀ (v507 : BitVec 32), Decidable (k0_chk73 v507) := fun v507 => decidable_of_iff' _ (Iff.of_eq (k0_chk73.eq_1 v507))
theorem k0_off146_inb : ∀ (v507 : BitVec 32) (k0_hw73 : k0_chk73 v507), ∀ a, (k0_off146 v507) a + S1x512.size a ≤ S20000x512.size a := fun v507 k0_hw73 => k0_hw73.1
theorem k0_off329_inb : ∀ (v507 : BitVec 32) (k0_hw73 : k0_chk73 v507), ∀ a, (k0_off329 v507) a + S1x512.size a ≤ S20000x512.size a := fun v507 k0_hw73 => k0_hw73.2

def k0_off330 (v514 : BitVec 32) : Fin 2 → Nat :=
  let c0_i32_605 : BitVec 32 := 0#32
  ![v514.toNat, 0]

def k0_chk74 (v514 : BitVec 32) : Prop :=
  (∀ a, (k0_off148 v514) a + S1x512.size a ≤ S20000x512.size a) ∧
  (∀ a, (k0_off330 v514) a + S1x512.size a ≤ S20000x512.size a)
instance k0_chk74.dec : ∀ (v514 : BitVec 32), Decidable (k0_chk74 v514) := fun v514 => decidable_of_iff' _ (Iff.of_eq (k0_chk74.eq_1 v514))
theorem k0_off148_inb : ∀ (v514 : BitVec 32) (k0_hw74 : k0_chk74 v514), ∀ a, (k0_off148 v514) a + S1x512.size a ≤ S20000x512.size a := fun v514 k0_hw74 => k0_hw74.1
theorem k0_off330_inb : ∀ (v514 : BitVec 32) (k0_hw74 : k0_chk74 v514), ∀ a, (k0_off330 v514) a + S1x512.size a ≤ S20000x512.size a := fun v514 k0_hw74 => k0_hw74.2

def k0_off331 (v521 : BitVec 32) : Fin 2 → Nat :=
  let c0_i32_608 : BitVec 32 := 0#32
  ![v521.toNat, 0]

def k0_chk75 (v521 : BitVec 32) : Prop :=
  (∀ a, (k0_off150 v521) a + S1x512.size a ≤ S20000x512.size a) ∧
  (∀ a, (k0_off331 v521) a + S1x512.size a ≤ S20000x512.size a)
instance k0_chk75.dec : ∀ (v521 : BitVec 32), Decidable (k0_chk75 v521) := fun v521 => decidable_of_iff' _ (Iff.of_eq (k0_chk75.eq_1 v521))
theorem k0_off150_inb : ∀ (v521 : BitVec 32) (k0_hw75 : k0_chk75 v521), ∀ a, (k0_off150 v521) a + S1x512.size a ≤ S20000x512.size a := fun v521 k0_hw75 => k0_hw75.1
theorem k0_off331_inb : ∀ (v521 : BitVec 32) (k0_hw75 : k0_chk75 v521), ∀ a, (k0_off331 v521) a + S1x512.size a ≤ S20000x512.size a := fun v521 k0_hw75 => k0_hw75.2

def k0_off332 (v528 : BitVec 32) : Fin 2 → Nat :=
  let c0_i32_611 : BitVec 32 := 0#32
  ![v528.toNat, 0]

def k0_chk76 (v528 : BitVec 32) : Prop :=
  (∀ a, (k0_off152 v528) a + S1x512.size a ≤ S20000x512.size a) ∧
  (∀ a, (k0_off332 v528) a + S1x512.size a ≤ S20000x512.size a)
instance k0_chk76.dec : ∀ (v528 : BitVec 32), Decidable (k0_chk76 v528) := fun v528 => decidable_of_iff' _ (Iff.of_eq (k0_chk76.eq_1 v528))
theorem k0_off152_inb : ∀ (v528 : BitVec 32) (k0_hw76 : k0_chk76 v528), ∀ a, (k0_off152 v528) a + S1x512.size a ≤ S20000x512.size a := fun v528 k0_hw76 => k0_hw76.1
theorem k0_off332_inb : ∀ (v528 : BitVec 32) (k0_hw76 : k0_chk76 v528), ∀ a, (k0_off332 v528) a + S1x512.size a ≤ S20000x512.size a := fun v528 k0_hw76 => k0_hw76.2

def k0_off333 (v535 : BitVec 32) : Fin 2 → Nat :=
  let c0_i32_614 : BitVec 32 := 0#32
  ![v535.toNat, 0]

def k0_chk77 (v535 : BitVec 32) : Prop :=
  (∀ a, (k0_off154 v535) a + S1x512.size a ≤ S20000x512.size a) ∧
  (∀ a, (k0_off333 v535) a + S1x512.size a ≤ S20000x512.size a)
instance k0_chk77.dec : ∀ (v535 : BitVec 32), Decidable (k0_chk77 v535) := fun v535 => decidable_of_iff' _ (Iff.of_eq (k0_chk77.eq_1 v535))
theorem k0_off154_inb : ∀ (v535 : BitVec 32) (k0_hw77 : k0_chk77 v535), ∀ a, (k0_off154 v535) a + S1x512.size a ≤ S20000x512.size a := fun v535 k0_hw77 => k0_hw77.1
theorem k0_off333_inb : ∀ (v535 : BitVec 32) (k0_hw77 : k0_chk77 v535), ∀ a, (k0_off333 v535) a + S1x512.size a ≤ S20000x512.size a := fun v535 k0_hw77 => k0_hw77.2

def k0_off334 (v542 : BitVec 32) : Fin 2 → Nat :=
  let c0_i32_617 : BitVec 32 := 0#32
  ![v542.toNat, 0]

def k0_chk78 (v542 : BitVec 32) : Prop :=
  (∀ a, (k0_off156 v542) a + S1x512.size a ≤ S20000x512.size a) ∧
  (∀ a, (k0_off334 v542) a + S1x512.size a ≤ S20000x512.size a)
instance k0_chk78.dec : ∀ (v542 : BitVec 32), Decidable (k0_chk78 v542) := fun v542 => decidable_of_iff' _ (Iff.of_eq (k0_chk78.eq_1 v542))
theorem k0_off156_inb : ∀ (v542 : BitVec 32) (k0_hw78 : k0_chk78 v542), ∀ a, (k0_off156 v542) a + S1x512.size a ≤ S20000x512.size a := fun v542 k0_hw78 => k0_hw78.1
theorem k0_off334_inb : ∀ (v542 : BitVec 32) (k0_hw78 : k0_chk78 v542), ∀ a, (k0_off334 v542) a + S1x512.size a ≤ S20000x512.size a := fun v542 k0_hw78 => k0_hw78.2

def k0_off335 (v549 : BitVec 32) : Fin 2 → Nat :=
  let c0_i32_620 : BitVec 32 := 0#32
  ![v549.toNat, 0]

def k0_chk79 (v549 : BitVec 32) : Prop :=
  (∀ a, (k0_off158 v549) a + S1x512.size a ≤ S20000x512.size a) ∧
  (∀ a, (k0_off335 v549) a + S1x512.size a ≤ S20000x512.size a)
instance k0_chk79.dec : ∀ (v549 : BitVec 32), Decidable (k0_chk79 v549) := fun v549 => decidable_of_iff' _ (Iff.of_eq (k0_chk79.eq_1 v549))
theorem k0_off158_inb : ∀ (v549 : BitVec 32) (k0_hw79 : k0_chk79 v549), ∀ a, (k0_off158 v549) a + S1x512.size a ≤ S20000x512.size a := fun v549 k0_hw79 => k0_hw79.1
theorem k0_off335_inb : ∀ (v549 : BitVec 32) (k0_hw79 : k0_chk79 v549), ∀ a, (k0_off335 v549) a + S1x512.size a ≤ S20000x512.size a := fun v549 k0_hw79 => k0_hw79.2

def k0_off336 (v556 : BitVec 32) : Fin 2 → Nat :=
  let c0_i32_623 : BitVec 32 := 0#32
  ![v556.toNat, 0]

def k0_chk80 (v556 : BitVec 32) : Prop :=
  (∀ a, (k0_off160 v556) a + S1x512.size a ≤ S20000x512.size a) ∧
  (∀ a, (k0_off336 v556) a + S1x512.size a ≤ S20000x512.size a)
instance k0_chk80.dec : ∀ (v556 : BitVec 32), Decidable (k0_chk80 v556) := fun v556 => decidable_of_iff' _ (Iff.of_eq (k0_chk80.eq_1 v556))
theorem k0_off160_inb : ∀ (v556 : BitVec 32) (k0_hw80 : k0_chk80 v556), ∀ a, (k0_off160 v556) a + S1x512.size a ≤ S20000x512.size a := fun v556 k0_hw80 => k0_hw80.1
theorem k0_off336_inb : ∀ (v556 : BitVec 32) (k0_hw80 : k0_chk80 v556), ∀ a, (k0_off336 v556) a + S1x512.size a ≤ S20000x512.size a := fun v556 k0_hw80 => k0_hw80.2

def k0_off337 (v563 : BitVec 32) : Fin 2 → Nat :=
  let c0_i32_626 : BitVec 32 := 0#32
  ![v563.toNat, 0]

def k0_chk81 (v563 : BitVec 32) : Prop :=
  (∀ a, (k0_off162 v563) a + S1x512.size a ≤ S20000x512.size a) ∧
  (∀ a, (k0_off337 v563) a + S1x512.size a ≤ S20000x512.size a)
instance k0_chk81.dec : ∀ (v563 : BitVec 32), Decidable (k0_chk81 v563) := fun v563 => decidable_of_iff' _ (Iff.of_eq (k0_chk81.eq_1 v563))
theorem k0_off162_inb : ∀ (v563 : BitVec 32) (k0_hw81 : k0_chk81 v563), ∀ a, (k0_off162 v563) a + S1x512.size a ≤ S20000x512.size a := fun v563 k0_hw81 => k0_hw81.1
theorem k0_off337_inb : ∀ (v563 : BitVec 32) (k0_hw81 : k0_chk81 v563), ∀ a, (k0_off337 v563) a + S1x512.size a ≤ S20000x512.size a := fun v563 k0_hw81 => k0_hw81.2

def k0_off338 (v570 : BitVec 32) : Fin 2 → Nat :=
  let c0_i32_629 : BitVec 32 := 0#32
  ![v570.toNat, 0]

def k0_chk82 (v570 : BitVec 32) : Prop :=
  (∀ a, (k0_off164 v570) a + S1x512.size a ≤ S20000x512.size a) ∧
  (∀ a, (k0_off338 v570) a + S1x512.size a ≤ S20000x512.size a)
instance k0_chk82.dec : ∀ (v570 : BitVec 32), Decidable (k0_chk82 v570) := fun v570 => decidable_of_iff' _ (Iff.of_eq (k0_chk82.eq_1 v570))
theorem k0_off164_inb : ∀ (v570 : BitVec 32) (k0_hw82 : k0_chk82 v570), ∀ a, (k0_off164 v570) a + S1x512.size a ≤ S20000x512.size a := fun v570 k0_hw82 => k0_hw82.1
theorem k0_off338_inb : ∀ (v570 : BitVec 32) (k0_hw82 : k0_chk82 v570), ∀ a, (k0_off338 v570) a + S1x512.size a ≤ S20000x512.size a := fun v570 k0_hw82 => k0_hw82.2

def k0_off339 (v577 : BitVec 32) : Fin 2 → Nat :=
  let c0_i32_632 : BitVec 32 := 0#32
  ![v577.toNat, 0]

def k0_chk83 (v577 : BitVec 32) : Prop :=
  (∀ a, (k0_off166 v577) a + S1x512.size a ≤ S20000x512.size a) ∧
  (∀ a, (k0_off339 v577) a + S1x512.size a ≤ S20000x512.size a)
instance k0_chk83.dec : ∀ (v577 : BitVec 32), Decidable (k0_chk83 v577) := fun v577 => decidable_of_iff' _ (Iff.of_eq (k0_chk83.eq_1 v577))
theorem k0_off166_inb : ∀ (v577 : BitVec 32) (k0_hw83 : k0_chk83 v577), ∀ a, (k0_off166 v577) a + S1x512.size a ≤ S20000x512.size a := fun v577 k0_hw83 => k0_hw83.1
theorem k0_off339_inb : ∀ (v577 : BitVec 32) (k0_hw83 : k0_chk83 v577), ∀ a, (k0_off339 v577) a + S1x512.size a ≤ S20000x512.size a := fun v577 k0_hw83 => k0_hw83.2

def k0_off340 (v584 : BitVec 32) : Fin 2 → Nat :=
  let c0_i32_635 : BitVec 32 := 0#32
  ![v584.toNat, 0]

def k0_chk84 (v584 : BitVec 32) : Prop :=
  (∀ a, (k0_off168 v584) a + S1x512.size a ≤ S20000x512.size a) ∧
  (∀ a, (k0_off340 v584) a + S1x512.size a ≤ S20000x512.size a)
instance k0_chk84.dec : ∀ (v584 : BitVec 32), Decidable (k0_chk84 v584) := fun v584 => decidable_of_iff' _ (Iff.of_eq (k0_chk84.eq_1 v584))
theorem k0_off168_inb : ∀ (v584 : BitVec 32) (k0_hw84 : k0_chk84 v584), ∀ a, (k0_off168 v584) a + S1x512.size a ≤ S20000x512.size a := fun v584 k0_hw84 => k0_hw84.1
theorem k0_off340_inb : ∀ (v584 : BitVec 32) (k0_hw84 : k0_chk84 v584), ∀ a, (k0_off340 v584) a + S1x512.size a ≤ S20000x512.size a := fun v584 k0_hw84 => k0_hw84.2

def k0_off341 (v591 : BitVec 32) : Fin 2 → Nat :=
  let c0_i32_638 : BitVec 32 := 0#32
  ![v591.toNat, 0]

def k0_chk85 (v591 : BitVec 32) : Prop :=
  (∀ a, (k0_off170 v591) a + S1x512.size a ≤ S20000x512.size a) ∧
  (∀ a, (k0_off341 v591) a + S1x512.size a ≤ S20000x512.size a)
instance k0_chk85.dec : ∀ (v591 : BitVec 32), Decidable (k0_chk85 v591) := fun v591 => decidable_of_iff' _ (Iff.of_eq (k0_chk85.eq_1 v591))
theorem k0_off170_inb : ∀ (v591 : BitVec 32) (k0_hw85 : k0_chk85 v591), ∀ a, (k0_off170 v591) a + S1x512.size a ≤ S20000x512.size a := fun v591 k0_hw85 => k0_hw85.1
theorem k0_off341_inb : ∀ (v591 : BitVec 32) (k0_hw85 : k0_chk85 v591), ∀ a, (k0_off341 v591) a + S1x512.size a ≤ S20000x512.size a := fun v591 k0_hw85 => k0_hw85.2

def k0_off342 (v598 : BitVec 32) : Fin 2 → Nat :=
  let c0_i32_641 : BitVec 32 := 0#32
  ![v598.toNat, 0]

def k0_chk86 (v598 : BitVec 32) : Prop :=
  (∀ a, (k0_off172 v598) a + S1x512.size a ≤ S20000x512.size a) ∧
  (∀ a, (k0_off342 v598) a + S1x512.size a ≤ S20000x512.size a)
instance k0_chk86.dec : ∀ (v598 : BitVec 32), Decidable (k0_chk86 v598) := fun v598 => decidable_of_iff' _ (Iff.of_eq (k0_chk86.eq_1 v598))
theorem k0_off172_inb : ∀ (v598 : BitVec 32) (k0_hw86 : k0_chk86 v598), ∀ a, (k0_off172 v598) a + S1x512.size a ≤ S20000x512.size a := fun v598 k0_hw86 => k0_hw86.1
theorem k0_off342_inb : ∀ (v598 : BitVec 32) (k0_hw86 : k0_chk86 v598), ∀ a, (k0_off342 v598) a + S1x512.size a ≤ S20000x512.size a := fun v598 k0_hw86 => k0_hw86.2

def k0_off343 (v605 : BitVec 32) : Fin 2 → Nat :=
  let c0_i32_644 : BitVec 32 := 0#32
  ![v605.toNat, 0]

def k0_chk87 (v605 : BitVec 32) : Prop :=
  (∀ a, (k0_off174 v605) a + S1x512.size a ≤ S20000x512.size a) ∧
  (∀ a, (k0_off343 v605) a + S1x512.size a ≤ S20000x512.size a)
instance k0_chk87.dec : ∀ (v605 : BitVec 32), Decidable (k0_chk87 v605) := fun v605 => decidable_of_iff' _ (Iff.of_eq (k0_chk87.eq_1 v605))
theorem k0_off174_inb : ∀ (v605 : BitVec 32) (k0_hw87 : k0_chk87 v605), ∀ a, (k0_off174 v605) a + S1x512.size a ≤ S20000x512.size a := fun v605 k0_hw87 => k0_hw87.1
theorem k0_off343_inb : ∀ (v605 : BitVec 32) (k0_hw87 : k0_chk87 v605), ∀ a, (k0_off343 v605) a + S1x512.size a ≤ S20000x512.size a := fun v605 k0_hw87 => k0_hw87.2

def k0_off344 (v612 : BitVec 32) : Fin 2 → Nat :=
  let c0_i32_647 : BitVec 32 := 0#32
  ![v612.toNat, 0]

def k0_chk88 (v612 : BitVec 32) : Prop :=
  (∀ a, (k0_off176 v612) a + S1x512.size a ≤ S20000x512.size a) ∧
  (∀ a, (k0_off344 v612) a + S1x512.size a ≤ S20000x512.size a)
instance k0_chk88.dec : ∀ (v612 : BitVec 32), Decidable (k0_chk88 v612) := fun v612 => decidable_of_iff' _ (Iff.of_eq (k0_chk88.eq_1 v612))
theorem k0_off176_inb : ∀ (v612 : BitVec 32) (k0_hw88 : k0_chk88 v612), ∀ a, (k0_off176 v612) a + S1x512.size a ≤ S20000x512.size a := fun v612 k0_hw88 => k0_hw88.1
theorem k0_off344_inb : ∀ (v612 : BitVec 32) (k0_hw88 : k0_chk88 v612), ∀ a, (k0_off344 v612) a + S1x512.size a ≤ S20000x512.size a := fun v612 k0_hw88 => k0_hw88.2

def k0_off345 (v619 : BitVec 32) : Fin 2 → Nat :=
  let c0_i32_650 : BitVec 32 := 0#32
  ![v619.toNat, 0]

def k0_chk89 (v619 : BitVec 32) : Prop :=
  (∀ a, (k0_off178 v619) a + S1x512.size a ≤ S20000x512.size a) ∧
  (∀ a, (k0_off345 v619) a + S1x512.size a ≤ S20000x512.size a)
instance k0_chk89.dec : ∀ (v619 : BitVec 32), Decidable (k0_chk89 v619) := fun v619 => decidable_of_iff' _ (Iff.of_eq (k0_chk89.eq_1 v619))
theorem k0_off178_inb : ∀ (v619 : BitVec 32) (k0_hw89 : k0_chk89 v619), ∀ a, (k0_off178 v619) a + S1x512.size a ≤ S20000x512.size a := fun v619 k0_hw89 => k0_hw89.1
theorem k0_off345_inb : ∀ (v619 : BitVec 32) (k0_hw89 : k0_chk89 v619), ∀ a, (k0_off345 v619) a + S1x512.size a ≤ S20000x512.size a := fun v619 k0_hw89 => k0_hw89.2

def k0_off346 (v626 : BitVec 32) : Fin 2 → Nat :=
  let c0_i32_653 : BitVec 32 := 0#32
  ![v626.toNat, 0]

def k0_chk90 (v626 : BitVec 32) : Prop :=
  (∀ a, (k0_off180 v626) a + S1x512.size a ≤ S20000x512.size a) ∧
  (∀ a, (k0_off346 v626) a + S1x512.size a ≤ S20000x512.size a)
instance k0_chk90.dec : ∀ (v626 : BitVec 32), Decidable (k0_chk90 v626) := fun v626 => decidable_of_iff' _ (Iff.of_eq (k0_chk90.eq_1 v626))
theorem k0_off180_inb : ∀ (v626 : BitVec 32) (k0_hw90 : k0_chk90 v626), ∀ a, (k0_off180 v626) a + S1x512.size a ≤ S20000x512.size a := fun v626 k0_hw90 => k0_hw90.1
theorem k0_off346_inb : ∀ (v626 : BitVec 32) (k0_hw90 : k0_chk90 v626), ∀ a, (k0_off346 v626) a + S1x512.size a ≤ S20000x512.size a := fun v626 k0_hw90 => k0_hw90.2

def k0_off347 (v633 : BitVec 32) : Fin 2 → Nat :=
  let c0_i32_656 : BitVec 32 := 0#32
  ![v633.toNat, 0]

def k0_chk91 (v633 : BitVec 32) : Prop :=
  (∀ a, (k0_off182 v633) a + S1x512.size a ≤ S20000x512.size a) ∧
  (∀ a, (k0_off347 v633) a + S1x512.size a ≤ S20000x512.size a)
instance k0_chk91.dec : ∀ (v633 : BitVec 32), Decidable (k0_chk91 v633) := fun v633 => decidable_of_iff' _ (Iff.of_eq (k0_chk91.eq_1 v633))
theorem k0_off182_inb : ∀ (v633 : BitVec 32) (k0_hw91 : k0_chk91 v633), ∀ a, (k0_off182 v633) a + S1x512.size a ≤ S20000x512.size a := fun v633 k0_hw91 => k0_hw91.1
theorem k0_off347_inb : ∀ (v633 : BitVec 32) (k0_hw91 : k0_chk91 v633), ∀ a, (k0_off347 v633) a + S1x512.size a ≤ S20000x512.size a := fun v633 k0_hw91 => k0_hw91.2

def k0_off348 (v640 : BitVec 32) : Fin 2 → Nat :=
  let c0_i32_659 : BitVec 32 := 0#32
  ![v640.toNat, 0]

def k0_chk92 (v640 : BitVec 32) : Prop :=
  (∀ a, (k0_off184 v640) a + S1x512.size a ≤ S20000x512.size a) ∧
  (∀ a, (k0_off348 v640) a + S1x512.size a ≤ S20000x512.size a)
instance k0_chk92.dec : ∀ (v640 : BitVec 32), Decidable (k0_chk92 v640) := fun v640 => decidable_of_iff' _ (Iff.of_eq (k0_chk92.eq_1 v640))
theorem k0_off184_inb : ∀ (v640 : BitVec 32) (k0_hw92 : k0_chk92 v640), ∀ a, (k0_off184 v640) a + S1x512.size a ≤ S20000x512.size a := fun v640 k0_hw92 => k0_hw92.1
theorem k0_off348_inb : ∀ (v640 : BitVec 32) (k0_hw92 : k0_chk92 v640), ∀ a, (k0_off348 v640) a + S1x512.size a ≤ S20000x512.size a := fun v640 k0_hw92 => k0_hw92.2

def k0_off349 (v647 : BitVec 32) : Fin 2 → Nat :=
  let c0_i32_662 : BitVec 32 := 0#32
  ![v647.toNat, 0]

def k0_chk93 (v647 : BitVec 32) : Prop :=
  (∀ a, (k0_off186 v647) a + S1x512.size a ≤ S20000x512.size a) ∧
  (∀ a, (k0_off349 v647) a + S1x512.size a ≤ S20000x512.size a)
instance k0_chk93.dec : ∀ (v647 : BitVec 32), Decidable (k0_chk93 v647) := fun v647 => decidable_of_iff' _ (Iff.of_eq (k0_chk93.eq_1 v647))
theorem k0_off186_inb : ∀ (v647 : BitVec 32) (k0_hw93 : k0_chk93 v647), ∀ a, (k0_off186 v647) a + S1x512.size a ≤ S20000x512.size a := fun v647 k0_hw93 => k0_hw93.1
theorem k0_off349_inb : ∀ (v647 : BitVec 32) (k0_hw93 : k0_chk93 v647), ∀ a, (k0_off349 v647) a + S1x512.size a ≤ S20000x512.size a := fun v647 k0_hw93 => k0_hw93.2

def k0_off350 (v654 : BitVec 32) : Fin 2 → Nat :=
  let c0_i32_665 : BitVec 32 := 0#32
  ![v654.toNat, 0]

def k0_chk94 (v654 : BitVec 32) : Prop :=
  (∀ a, (k0_off188 v654) a + S1x512.size a ≤ S20000x512.size a) ∧
  (∀ a, (k0_off350 v654) a + S1x512.size a ≤ S20000x512.size a)
instance k0_chk94.dec : ∀ (v654 : BitVec 32), Decidable (k0_chk94 v654) := fun v654 => decidable_of_iff' _ (Iff.of_eq (k0_chk94.eq_1 v654))
theorem k0_off188_inb : ∀ (v654 : BitVec 32) (k0_hw94 : k0_chk94 v654), ∀ a, (k0_off188 v654) a + S1x512.size a ≤ S20000x512.size a := fun v654 k0_hw94 => k0_hw94.1
theorem k0_off350_inb : ∀ (v654 : BitVec 32) (k0_hw94 : k0_chk94 v654), ∀ a, (k0_off350 v654) a + S1x512.size a ≤ S20000x512.size a := fun v654 k0_hw94 => k0_hw94.2

def k0_off351 (v661 : BitVec 32) : Fin 2 → Nat :=
  let c0_i32_668 : BitVec 32 := 0#32
  ![v661.toNat, 0]

def k0_chk95 (v661 : BitVec 32) : Prop :=
  (∀ a, (k0_off190 v661) a + S1x512.size a ≤ S20000x512.size a) ∧
  (∀ a, (k0_off351 v661) a + S1x512.size a ≤ S20000x512.size a)
instance k0_chk95.dec : ∀ (v661 : BitVec 32), Decidable (k0_chk95 v661) := fun v661 => decidable_of_iff' _ (Iff.of_eq (k0_chk95.eq_1 v661))
theorem k0_off190_inb : ∀ (v661 : BitVec 32) (k0_hw95 : k0_chk95 v661), ∀ a, (k0_off190 v661) a + S1x512.size a ≤ S20000x512.size a := fun v661 k0_hw95 => k0_hw95.1
theorem k0_off351_inb : ∀ (v661 : BitVec 32) (k0_hw95 : k0_chk95 v661), ∀ a, (k0_off351 v661) a + S1x512.size a ≤ S20000x512.size a := fun v661 k0_hw95 => k0_hw95.2

def k0_off352 (v668 : BitVec 32) : Fin 2 → Nat :=
  let c0_i32_671 : BitVec 32 := 0#32
  ![v668.toNat, 0]

def k0_chk96 (v668 : BitVec 32) : Prop :=
  (∀ a, (k0_off192 v668) a + S1x512.size a ≤ S20000x512.size a) ∧
  (∀ a, (k0_off352 v668) a + S1x512.size a ≤ S20000x512.size a)
instance k0_chk96.dec : ∀ (v668 : BitVec 32), Decidable (k0_chk96 v668) := fun v668 => decidable_of_iff' _ (Iff.of_eq (k0_chk96.eq_1 v668))
theorem k0_off192_inb : ∀ (v668 : BitVec 32) (k0_hw96 : k0_chk96 v668), ∀ a, (k0_off192 v668) a + S1x512.size a ≤ S20000x512.size a := fun v668 k0_hw96 => k0_hw96.1
theorem k0_off352_inb : ∀ (v668 : BitVec 32) (k0_hw96 : k0_chk96 v668), ∀ a, (k0_off352 v668) a + S1x512.size a ≤ S20000x512.size a := fun v668 k0_hw96 => k0_hw96.2

def k0_off353 (v675 : BitVec 32) : Fin 2 → Nat :=
  let c0_i32_674 : BitVec 32 := 0#32
  ![v675.toNat, 0]

def k0_chk97 (v675 : BitVec 32) : Prop :=
  (∀ a, (k0_off194 v675) a + S1x512.size a ≤ S20000x512.size a) ∧
  (∀ a, (k0_off353 v675) a + S1x512.size a ≤ S20000x512.size a)
instance k0_chk97.dec : ∀ (v675 : BitVec 32), Decidable (k0_chk97 v675) := fun v675 => decidable_of_iff' _ (Iff.of_eq (k0_chk97.eq_1 v675))
theorem k0_off194_inb : ∀ (v675 : BitVec 32) (k0_hw97 : k0_chk97 v675), ∀ a, (k0_off194 v675) a + S1x512.size a ≤ S20000x512.size a := fun v675 k0_hw97 => k0_hw97.1
theorem k0_off353_inb : ∀ (v675 : BitVec 32) (k0_hw97 : k0_chk97 v675), ∀ a, (k0_off353 v675) a + S1x512.size a ≤ S20000x512.size a := fun v675 k0_hw97 => k0_hw97.2

def k0_off354 (v682 : BitVec 32) : Fin 2 → Nat :=
  let c0_i32_677 : BitVec 32 := 0#32
  ![v682.toNat, 0]

def k0_chk98 (v682 : BitVec 32) : Prop :=
  (∀ a, (k0_off196 v682) a + S1x512.size a ≤ S20000x512.size a) ∧
  (∀ a, (k0_off354 v682) a + S1x512.size a ≤ S20000x512.size a)
instance k0_chk98.dec : ∀ (v682 : BitVec 32), Decidable (k0_chk98 v682) := fun v682 => decidable_of_iff' _ (Iff.of_eq (k0_chk98.eq_1 v682))
theorem k0_off196_inb : ∀ (v682 : BitVec 32) (k0_hw98 : k0_chk98 v682), ∀ a, (k0_off196 v682) a + S1x512.size a ≤ S20000x512.size a := fun v682 k0_hw98 => k0_hw98.1
theorem k0_off354_inb : ∀ (v682 : BitVec 32) (k0_hw98 : k0_chk98 v682), ∀ a, (k0_off354 v682) a + S1x512.size a ≤ S20000x512.size a := fun v682 k0_hw98 => k0_hw98.2

def k0_off355 (v689 : BitVec 32) : Fin 2 → Nat :=
  let c0_i32_680 : BitVec 32 := 0#32
  ![v689.toNat, 0]

def k0_chk99 (v689 : BitVec 32) : Prop :=
  (∀ a, (k0_off198 v689) a + S1x512.size a ≤ S20000x512.size a) ∧
  (∀ a, (k0_off355 v689) a + S1x512.size a ≤ S20000x512.size a)
instance k0_chk99.dec : ∀ (v689 : BitVec 32), Decidable (k0_chk99 v689) := fun v689 => decidable_of_iff' _ (Iff.of_eq (k0_chk99.eq_1 v689))
theorem k0_off198_inb : ∀ (v689 : BitVec 32) (k0_hw99 : k0_chk99 v689), ∀ a, (k0_off198 v689) a + S1x512.size a ≤ S20000x512.size a := fun v689 k0_hw99 => k0_hw99.1
theorem k0_off355_inb : ∀ (v689 : BitVec 32) (k0_hw99 : k0_chk99 v689), ∀ a, (k0_off355 v689) a + S1x512.size a ≤ S20000x512.size a := fun v689 k0_hw99 => k0_hw99.2

def k0_off356 (v696 : BitVec 32) : Fin 2 → Nat :=
  let c0_i32_683 : BitVec 32 := 0#32
  ![v696.toNat, 0]

def k0_chk100 (v696 : BitVec 32) : Prop :=
  (∀ a, (k0_off200 v696) a + S1x512.size a ≤ S20000x512.size a) ∧
  (∀ a, (k0_off356 v696) a + S1x512.size a ≤ S20000x512.size a)
instance k0_chk100.dec : ∀ (v696 : BitVec 32), Decidable (k0_chk100 v696) := fun v696 => decidable_of_iff' _ (Iff.of_eq (k0_chk100.eq_1 v696))
theorem k0_off200_inb : ∀ (v696 : BitVec 32) (k0_hw100 : k0_chk100 v696), ∀ a, (k0_off200 v696) a + S1x512.size a ≤ S20000x512.size a := fun v696 k0_hw100 => k0_hw100.1
theorem k0_off356_inb : ∀ (v696 : BitVec 32) (k0_hw100 : k0_chk100 v696), ∀ a, (k0_off356 v696) a + S1x512.size a ≤ S20000x512.size a := fun v696 k0_hw100 => k0_hw100.2

def k0_off357 (v703 : BitVec 32) : Fin 2 → Nat :=
  let c0_i32_686 : BitVec 32 := 0#32
  ![v703.toNat, 0]

def k0_chk101 (v703 : BitVec 32) : Prop :=
  (∀ a, (k0_off202 v703) a + S1x512.size a ≤ S20000x512.size a) ∧
  (∀ a, (k0_off357 v703) a + S1x512.size a ≤ S20000x512.size a)
instance k0_chk101.dec : ∀ (v703 : BitVec 32), Decidable (k0_chk101 v703) := fun v703 => decidable_of_iff' _ (Iff.of_eq (k0_chk101.eq_1 v703))
theorem k0_off202_inb : ∀ (v703 : BitVec 32) (k0_hw101 : k0_chk101 v703), ∀ a, (k0_off202 v703) a + S1x512.size a ≤ S20000x512.size a := fun v703 k0_hw101 => k0_hw101.1
theorem k0_off357_inb : ∀ (v703 : BitVec 32) (k0_hw101 : k0_chk101 v703), ∀ a, (k0_off357 v703) a + S1x512.size a ≤ S20000x512.size a := fun v703 k0_hw101 => k0_hw101.2

def k0_off358 (v710 : BitVec 32) : Fin 2 → Nat :=
  let c0_i32_689 : BitVec 32 := 0#32
  ![v710.toNat, 0]

def k0_chk102 (v710 : BitVec 32) : Prop :=
  (∀ a, (k0_off204 v710) a + S1x512.size a ≤ S20000x512.size a) ∧
  (∀ a, (k0_off358 v710) a + S1x512.size a ≤ S20000x512.size a)
instance k0_chk102.dec : ∀ (v710 : BitVec 32), Decidable (k0_chk102 v710) := fun v710 => decidable_of_iff' _ (Iff.of_eq (k0_chk102.eq_1 v710))
theorem k0_off204_inb : ∀ (v710 : BitVec 32) (k0_hw102 : k0_chk102 v710), ∀ a, (k0_off204 v710) a + S1x512.size a ≤ S20000x512.size a := fun v710 k0_hw102 => k0_hw102.1
theorem k0_off358_inb : ∀ (v710 : BitVec 32) (k0_hw102 : k0_chk102 v710), ∀ a, (k0_off358 v710) a + S1x512.size a ≤ S20000x512.size a := fun v710 k0_hw102 => k0_hw102.2

def k0_off359 (v717 : BitVec 32) : Fin 2 → Nat :=
  let c0_i32_692 : BitVec 32 := 0#32
  ![v717.toNat, 0]

def k0_chk103 (v717 : BitVec 32) : Prop :=
  (∀ a, (k0_off206 v717) a + S1x512.size a ≤ S20000x512.size a) ∧
  (∀ a, (k0_off359 v717) a + S1x512.size a ≤ S20000x512.size a)
instance k0_chk103.dec : ∀ (v717 : BitVec 32), Decidable (k0_chk103 v717) := fun v717 => decidable_of_iff' _ (Iff.of_eq (k0_chk103.eq_1 v717))
theorem k0_off206_inb : ∀ (v717 : BitVec 32) (k0_hw103 : k0_chk103 v717), ∀ a, (k0_off206 v717) a + S1x512.size a ≤ S20000x512.size a := fun v717 k0_hw103 => k0_hw103.1
theorem k0_off359_inb : ∀ (v717 : BitVec 32) (k0_hw103 : k0_chk103 v717), ∀ a, (k0_off359 v717) a + S1x512.size a ≤ S20000x512.size a := fun v717 k0_hw103 => k0_hw103.2

def k0_off360 (v724 : BitVec 32) : Fin 2 → Nat :=
  let c0_i32_695 : BitVec 32 := 0#32
  ![v724.toNat, 0]

def k0_chk104 (v724 : BitVec 32) : Prop :=
  (∀ a, (k0_off208 v724) a + S1x512.size a ≤ S20000x512.size a) ∧
  (∀ a, (k0_off360 v724) a + S1x512.size a ≤ S20000x512.size a)
instance k0_chk104.dec : ∀ (v724 : BitVec 32), Decidable (k0_chk104 v724) := fun v724 => decidable_of_iff' _ (Iff.of_eq (k0_chk104.eq_1 v724))
theorem k0_off208_inb : ∀ (v724 : BitVec 32) (k0_hw104 : k0_chk104 v724), ∀ a, (k0_off208 v724) a + S1x512.size a ≤ S20000x512.size a := fun v724 k0_hw104 => k0_hw104.1
theorem k0_off360_inb : ∀ (v724 : BitVec 32) (k0_hw104 : k0_chk104 v724), ∀ a, (k0_off360 v724) a + S1x512.size a ≤ S20000x512.size a := fun v724 k0_hw104 => k0_hw104.2

def k0_off361 (v731 : BitVec 32) : Fin 2 → Nat :=
  let c0_i32_698 : BitVec 32 := 0#32
  ![v731.toNat, 0]

def k0_chk105 (v731 : BitVec 32) : Prop :=
  (∀ a, (k0_off210 v731) a + S1x512.size a ≤ S20000x512.size a) ∧
  (∀ a, (k0_off361 v731) a + S1x512.size a ≤ S20000x512.size a)
instance k0_chk105.dec : ∀ (v731 : BitVec 32), Decidable (k0_chk105 v731) := fun v731 => decidable_of_iff' _ (Iff.of_eq (k0_chk105.eq_1 v731))
theorem k0_off210_inb : ∀ (v731 : BitVec 32) (k0_hw105 : k0_chk105 v731), ∀ a, (k0_off210 v731) a + S1x512.size a ≤ S20000x512.size a := fun v731 k0_hw105 => k0_hw105.1
theorem k0_off361_inb : ∀ (v731 : BitVec 32) (k0_hw105 : k0_chk105 v731), ∀ a, (k0_off361 v731) a + S1x512.size a ≤ S20000x512.size a := fun v731 k0_hw105 => k0_hw105.2

def k0_off362 (v738 : BitVec 32) : Fin 2 → Nat :=
  let c0_i32_701 : BitVec 32 := 0#32
  ![v738.toNat, 0]

def k0_chk106 (v738 : BitVec 32) : Prop :=
  (∀ a, (k0_off212 v738) a + S1x512.size a ≤ S20000x512.size a) ∧
  (∀ a, (k0_off362 v738) a + S1x512.size a ≤ S20000x512.size a)
instance k0_chk106.dec : ∀ (v738 : BitVec 32), Decidable (k0_chk106 v738) := fun v738 => decidable_of_iff' _ (Iff.of_eq (k0_chk106.eq_1 v738))
theorem k0_off212_inb : ∀ (v738 : BitVec 32) (k0_hw106 : k0_chk106 v738), ∀ a, (k0_off212 v738) a + S1x512.size a ≤ S20000x512.size a := fun v738 k0_hw106 => k0_hw106.1
theorem k0_off362_inb : ∀ (v738 : BitVec 32) (k0_hw106 : k0_chk106 v738), ∀ a, (k0_off362 v738) a + S1x512.size a ≤ S20000x512.size a := fun v738 k0_hw106 => k0_hw106.2

def k0_off363 (v745 : BitVec 32) : Fin 2 → Nat :=
  let c0_i32_704 : BitVec 32 := 0#32
  ![v745.toNat, 0]

def k0_chk107 (v745 : BitVec 32) : Prop :=
  (∀ a, (k0_off214 v745) a + S1x512.size a ≤ S20000x512.size a) ∧
  (∀ a, (k0_off363 v745) a + S1x512.size a ≤ S20000x512.size a)
instance k0_chk107.dec : ∀ (v745 : BitVec 32), Decidable (k0_chk107 v745) := fun v745 => decidable_of_iff' _ (Iff.of_eq (k0_chk107.eq_1 v745))
theorem k0_off214_inb : ∀ (v745 : BitVec 32) (k0_hw107 : k0_chk107 v745), ∀ a, (k0_off214 v745) a + S1x512.size a ≤ S20000x512.size a := fun v745 k0_hw107 => k0_hw107.1
theorem k0_off363_inb : ∀ (v745 : BitVec 32) (k0_hw107 : k0_chk107 v745), ∀ a, (k0_off363 v745) a + S1x512.size a ≤ S20000x512.size a := fun v745 k0_hw107 => k0_hw107.2

def k0_off364 (v752 : BitVec 32) : Fin 2 → Nat :=
  let c0_i32_707 : BitVec 32 := 0#32
  ![v752.toNat, 0]

def k0_chk108 (v752 : BitVec 32) : Prop :=
  (∀ a, (k0_off216 v752) a + S1x512.size a ≤ S20000x512.size a) ∧
  (∀ a, (k0_off364 v752) a + S1x512.size a ≤ S20000x512.size a)
instance k0_chk108.dec : ∀ (v752 : BitVec 32), Decidable (k0_chk108 v752) := fun v752 => decidable_of_iff' _ (Iff.of_eq (k0_chk108.eq_1 v752))
theorem k0_off216_inb : ∀ (v752 : BitVec 32) (k0_hw108 : k0_chk108 v752), ∀ a, (k0_off216 v752) a + S1x512.size a ≤ S20000x512.size a := fun v752 k0_hw108 => k0_hw108.1
theorem k0_off364_inb : ∀ (v752 : BitVec 32) (k0_hw108 : k0_chk108 v752), ∀ a, (k0_off364 v752) a + S1x512.size a ≤ S20000x512.size a := fun v752 k0_hw108 => k0_hw108.2

def k0_off365 (v759 : BitVec 32) : Fin 2 → Nat :=
  let c0_i32_710 : BitVec 32 := 0#32
  ![v759.toNat, 0]

def k0_chk109 (v759 : BitVec 32) : Prop :=
  (∀ a, (k0_off218 v759) a + S1x512.size a ≤ S20000x512.size a) ∧
  (∀ a, (k0_off365 v759) a + S1x512.size a ≤ S20000x512.size a)
instance k0_chk109.dec : ∀ (v759 : BitVec 32), Decidable (k0_chk109 v759) := fun v759 => decidable_of_iff' _ (Iff.of_eq (k0_chk109.eq_1 v759))
theorem k0_off218_inb : ∀ (v759 : BitVec 32) (k0_hw109 : k0_chk109 v759), ∀ a, (k0_off218 v759) a + S1x512.size a ≤ S20000x512.size a := fun v759 k0_hw109 => k0_hw109.1
theorem k0_off365_inb : ∀ (v759 : BitVec 32) (k0_hw109 : k0_chk109 v759), ∀ a, (k0_off365 v759) a + S1x512.size a ≤ S20000x512.size a := fun v759 k0_hw109 => k0_hw109.2

def k0_off366 (v766 : BitVec 32) : Fin 2 → Nat :=
  let c0_i32_713 : BitVec 32 := 0#32
  ![v766.toNat, 0]

def k0_chk110 (v766 : BitVec 32) : Prop :=
  (∀ a, (k0_off220 v766) a + S1x512.size a ≤ S20000x512.size a) ∧
  (∀ a, (k0_off366 v766) a + S1x512.size a ≤ S20000x512.size a)
instance k0_chk110.dec : ∀ (v766 : BitVec 32), Decidable (k0_chk110 v766) := fun v766 => decidable_of_iff' _ (Iff.of_eq (k0_chk110.eq_1 v766))
theorem k0_off220_inb : ∀ (v766 : BitVec 32) (k0_hw110 : k0_chk110 v766), ∀ a, (k0_off220 v766) a + S1x512.size a ≤ S20000x512.size a := fun v766 k0_hw110 => k0_hw110.1
theorem k0_off366_inb : ∀ (v766 : BitVec 32) (k0_hw110 : k0_chk110 v766), ∀ a, (k0_off366 v766) a + S1x512.size a ≤ S20000x512.size a := fun v766 k0_hw110 => k0_hw110.2

def k0_off367 (v773 : BitVec 32) : Fin 2 → Nat :=
  let c0_i32_716 : BitVec 32 := 0#32
  ![v773.toNat, 0]

def k0_chk111 (v773 : BitVec 32) : Prop :=
  (∀ a, (k0_off222 v773) a + S1x512.size a ≤ S20000x512.size a) ∧
  (∀ a, (k0_off367 v773) a + S1x512.size a ≤ S20000x512.size a)
instance k0_chk111.dec : ∀ (v773 : BitVec 32), Decidable (k0_chk111 v773) := fun v773 => decidable_of_iff' _ (Iff.of_eq (k0_chk111.eq_1 v773))
theorem k0_off222_inb : ∀ (v773 : BitVec 32) (k0_hw111 : k0_chk111 v773), ∀ a, (k0_off222 v773) a + S1x512.size a ≤ S20000x512.size a := fun v773 k0_hw111 => k0_hw111.1
theorem k0_off367_inb : ∀ (v773 : BitVec 32) (k0_hw111 : k0_chk111 v773), ∀ a, (k0_off367 v773) a + S1x512.size a ≤ S20000x512.size a := fun v773 k0_hw111 => k0_hw111.2

def k0_off368 (v780 : BitVec 32) : Fin 2 → Nat :=
  let c0_i32_719 : BitVec 32 := 0#32
  ![v780.toNat, 0]

def k0_chk112 (v780 : BitVec 32) : Prop :=
  (∀ a, (k0_off224 v780) a + S1x512.size a ≤ S20000x512.size a) ∧
  (∀ a, (k0_off368 v780) a + S1x512.size a ≤ S20000x512.size a)
instance k0_chk112.dec : ∀ (v780 : BitVec 32), Decidable (k0_chk112 v780) := fun v780 => decidable_of_iff' _ (Iff.of_eq (k0_chk112.eq_1 v780))
theorem k0_off224_inb : ∀ (v780 : BitVec 32) (k0_hw112 : k0_chk112 v780), ∀ a, (k0_off224 v780) a + S1x512.size a ≤ S20000x512.size a := fun v780 k0_hw112 => k0_hw112.1
theorem k0_off368_inb : ∀ (v780 : BitVec 32) (k0_hw112 : k0_chk112 v780), ∀ a, (k0_off368 v780) a + S1x512.size a ≤ S20000x512.size a := fun v780 k0_hw112 => k0_hw112.2

def k0_off369 (v787 : BitVec 32) : Fin 2 → Nat :=
  let c0_i32_722 : BitVec 32 := 0#32
  ![v787.toNat, 0]

def k0_chk113 (v787 : BitVec 32) : Prop :=
  (∀ a, (k0_off226 v787) a + S1x512.size a ≤ S20000x512.size a) ∧
  (∀ a, (k0_off369 v787) a + S1x512.size a ≤ S20000x512.size a)
instance k0_chk113.dec : ∀ (v787 : BitVec 32), Decidable (k0_chk113 v787) := fun v787 => decidable_of_iff' _ (Iff.of_eq (k0_chk113.eq_1 v787))
theorem k0_off226_inb : ∀ (v787 : BitVec 32) (k0_hw113 : k0_chk113 v787), ∀ a, (k0_off226 v787) a + S1x512.size a ≤ S20000x512.size a := fun v787 k0_hw113 => k0_hw113.1
theorem k0_off369_inb : ∀ (v787 : BitVec 32) (k0_hw113 : k0_chk113 v787), ∀ a, (k0_off369 v787) a + S1x512.size a ≤ S20000x512.size a := fun v787 k0_hw113 => k0_hw113.2

def k0_off370 (v794 : BitVec 32) : Fin 2 → Nat :=
  let c0_i32_725 : BitVec 32 := 0#32
  ![v794.toNat, 0]

def k0_chk114 (v794 : BitVec 32) : Prop :=
  (∀ a, (k0_off228 v794) a + S1x512.size a ≤ S20000x512.size a) ∧
  (∀ a, (k0_off370 v794) a + S1x512.size a ≤ S20000x512.size a)
instance k0_chk114.dec : ∀ (v794 : BitVec 32), Decidable (k0_chk114 v794) := fun v794 => decidable_of_iff' _ (Iff.of_eq (k0_chk114.eq_1 v794))
theorem k0_off228_inb : ∀ (v794 : BitVec 32) (k0_hw114 : k0_chk114 v794), ∀ a, (k0_off228 v794) a + S1x512.size a ≤ S20000x512.size a := fun v794 k0_hw114 => k0_hw114.1
theorem k0_off370_inb : ∀ (v794 : BitVec 32) (k0_hw114 : k0_chk114 v794), ∀ a, (k0_off370 v794) a + S1x512.size a ≤ S20000x512.size a := fun v794 k0_hw114 => k0_hw114.2

def k0_off371 (v801 : BitVec 32) : Fin 2 → Nat :=
  let c0_i32_728 : BitVec 32 := 0#32
  ![v801.toNat, 0]

def k0_chk115 (v801 : BitVec 32) : Prop :=
  (∀ a, (k0_off230 v801) a + S1x512.size a ≤ S20000x512.size a) ∧
  (∀ a, (k0_off371 v801) a + S1x512.size a ≤ S20000x512.size a)
instance k0_chk115.dec : ∀ (v801 : BitVec 32), Decidable (k0_chk115 v801) := fun v801 => decidable_of_iff' _ (Iff.of_eq (k0_chk115.eq_1 v801))
theorem k0_off230_inb : ∀ (v801 : BitVec 32) (k0_hw115 : k0_chk115 v801), ∀ a, (k0_off230 v801) a + S1x512.size a ≤ S20000x512.size a := fun v801 k0_hw115 => k0_hw115.1
theorem k0_off371_inb : ∀ (v801 : BitVec 32) (k0_hw115 : k0_chk115 v801), ∀ a, (k0_off371 v801) a + S1x512.size a ≤ S20000x512.size a := fun v801 k0_hw115 => k0_hw115.2

def k0_off372 (v808 : BitVec 32) : Fin 2 → Nat :=
  let c0_i32_731 : BitVec 32 := 0#32
  ![v808.toNat, 0]

def k0_chk116 (v808 : BitVec 32) : Prop :=
  (∀ a, (k0_off232 v808) a + S1x512.size a ≤ S20000x512.size a) ∧
  (∀ a, (k0_off372 v808) a + S1x512.size a ≤ S20000x512.size a)
instance k0_chk116.dec : ∀ (v808 : BitVec 32), Decidable (k0_chk116 v808) := fun v808 => decidable_of_iff' _ (Iff.of_eq (k0_chk116.eq_1 v808))
theorem k0_off232_inb : ∀ (v808 : BitVec 32) (k0_hw116 : k0_chk116 v808), ∀ a, (k0_off232 v808) a + S1x512.size a ≤ S20000x512.size a := fun v808 k0_hw116 => k0_hw116.1
theorem k0_off372_inb : ∀ (v808 : BitVec 32) (k0_hw116 : k0_chk116 v808), ∀ a, (k0_off372 v808) a + S1x512.size a ≤ S20000x512.size a := fun v808 k0_hw116 => k0_hw116.2

def k0_off373 (v815 : BitVec 32) : Fin 2 → Nat :=
  let c0_i32_734 : BitVec 32 := 0#32
  ![v815.toNat, 0]

def k0_chk117 (v815 : BitVec 32) : Prop :=
  (∀ a, (k0_off234 v815) a + S1x512.size a ≤ S20000x512.size a) ∧
  (∀ a, (k0_off373 v815) a + S1x512.size a ≤ S20000x512.size a)
instance k0_chk117.dec : ∀ (v815 : BitVec 32), Decidable (k0_chk117 v815) := fun v815 => decidable_of_iff' _ (Iff.of_eq (k0_chk117.eq_1 v815))
theorem k0_off234_inb : ∀ (v815 : BitVec 32) (k0_hw117 : k0_chk117 v815), ∀ a, (k0_off234 v815) a + S1x512.size a ≤ S20000x512.size a := fun v815 k0_hw117 => k0_hw117.1
theorem k0_off373_inb : ∀ (v815 : BitVec 32) (k0_hw117 : k0_chk117 v815), ∀ a, (k0_off373 v815) a + S1x512.size a ≤ S20000x512.size a := fun v815 k0_hw117 => k0_hw117.2

def k0_off374 (v822 : BitVec 32) : Fin 2 → Nat :=
  let c0_i32_737 : BitVec 32 := 0#32
  ![v822.toNat, 0]

def k0_chk118 (v822 : BitVec 32) : Prop :=
  (∀ a, (k0_off236 v822) a + S1x512.size a ≤ S20000x512.size a) ∧
  (∀ a, (k0_off374 v822) a + S1x512.size a ≤ S20000x512.size a)
instance k0_chk118.dec : ∀ (v822 : BitVec 32), Decidable (k0_chk118 v822) := fun v822 => decidable_of_iff' _ (Iff.of_eq (k0_chk118.eq_1 v822))
theorem k0_off236_inb : ∀ (v822 : BitVec 32) (k0_hw118 : k0_chk118 v822), ∀ a, (k0_off236 v822) a + S1x512.size a ≤ S20000x512.size a := fun v822 k0_hw118 => k0_hw118.1
theorem k0_off374_inb : ∀ (v822 : BitVec 32) (k0_hw118 : k0_chk118 v822), ∀ a, (k0_off374 v822) a + S1x512.size a ≤ S20000x512.size a := fun v822 k0_hw118 => k0_hw118.2

def k0_off375 (v829 : BitVec 32) : Fin 2 → Nat :=
  let c0_i32_740 : BitVec 32 := 0#32
  ![v829.toNat, 0]

def k0_chk119 (v829 : BitVec 32) : Prop :=
  (∀ a, (k0_off238 v829) a + S1x512.size a ≤ S20000x512.size a) ∧
  (∀ a, (k0_off375 v829) a + S1x512.size a ≤ S20000x512.size a)
instance k0_chk119.dec : ∀ (v829 : BitVec 32), Decidable (k0_chk119 v829) := fun v829 => decidable_of_iff' _ (Iff.of_eq (k0_chk119.eq_1 v829))
theorem k0_off238_inb : ∀ (v829 : BitVec 32) (k0_hw119 : k0_chk119 v829), ∀ a, (k0_off238 v829) a + S1x512.size a ≤ S20000x512.size a := fun v829 k0_hw119 => k0_hw119.1
theorem k0_off375_inb : ∀ (v829 : BitVec 32) (k0_hw119 : k0_chk119 v829), ∀ a, (k0_off375 v829) a + S1x512.size a ≤ S20000x512.size a := fun v829 k0_hw119 => k0_hw119.2

def k0_off376 (v836 : BitVec 32) : Fin 2 → Nat :=
  let c0_i32_743 : BitVec 32 := 0#32
  ![v836.toNat, 0]

def k0_chk120 (v836 : BitVec 32) : Prop :=
  (∀ a, (k0_off240 v836) a + S1x512.size a ≤ S20000x512.size a) ∧
  (∀ a, (k0_off376 v836) a + S1x512.size a ≤ S20000x512.size a)
instance k0_chk120.dec : ∀ (v836 : BitVec 32), Decidable (k0_chk120 v836) := fun v836 => decidable_of_iff' _ (Iff.of_eq (k0_chk120.eq_1 v836))
theorem k0_off240_inb : ∀ (v836 : BitVec 32) (k0_hw120 : k0_chk120 v836), ∀ a, (k0_off240 v836) a + S1x512.size a ≤ S20000x512.size a := fun v836 k0_hw120 => k0_hw120.1
theorem k0_off376_inb : ∀ (v836 : BitVec 32) (k0_hw120 : k0_chk120 v836), ∀ a, (k0_off376 v836) a + S1x512.size a ≤ S20000x512.size a := fun v836 k0_hw120 => k0_hw120.2

def k0_off377 (v843 : BitVec 32) : Fin 2 → Nat :=
  let c0_i32_746 : BitVec 32 := 0#32
  ![v843.toNat, 0]

def k0_chk121 (v843 : BitVec 32) : Prop :=
  (∀ a, (k0_off242 v843) a + S1x512.size a ≤ S20000x512.size a) ∧
  (∀ a, (k0_off377 v843) a + S1x512.size a ≤ S20000x512.size a)
instance k0_chk121.dec : ∀ (v843 : BitVec 32), Decidable (k0_chk121 v843) := fun v843 => decidable_of_iff' _ (Iff.of_eq (k0_chk121.eq_1 v843))
theorem k0_off242_inb : ∀ (v843 : BitVec 32) (k0_hw121 : k0_chk121 v843), ∀ a, (k0_off242 v843) a + S1x512.size a ≤ S20000x512.size a := fun v843 k0_hw121 => k0_hw121.1
theorem k0_off377_inb : ∀ (v843 : BitVec 32) (k0_hw121 : k0_chk121 v843), ∀ a, (k0_off377 v843) a + S1x512.size a ≤ S20000x512.size a := fun v843 k0_hw121 => k0_hw121.2

def k0_off378 (v850 : BitVec 32) : Fin 2 → Nat :=
  let c0_i32_749 : BitVec 32 := 0#32
  ![v850.toNat, 0]

def k0_chk122 (v850 : BitVec 32) : Prop :=
  (∀ a, (k0_off244 v850) a + S1x512.size a ≤ S20000x512.size a) ∧
  (∀ a, (k0_off378 v850) a + S1x512.size a ≤ S20000x512.size a)
instance k0_chk122.dec : ∀ (v850 : BitVec 32), Decidable (k0_chk122 v850) := fun v850 => decidable_of_iff' _ (Iff.of_eq (k0_chk122.eq_1 v850))
theorem k0_off244_inb : ∀ (v850 : BitVec 32) (k0_hw122 : k0_chk122 v850), ∀ a, (k0_off244 v850) a + S1x512.size a ≤ S20000x512.size a := fun v850 k0_hw122 => k0_hw122.1
theorem k0_off378_inb : ∀ (v850 : BitVec 32) (k0_hw122 : k0_chk122 v850), ∀ a, (k0_off378 v850) a + S1x512.size a ≤ S20000x512.size a := fun v850 k0_hw122 => k0_hw122.2

def k0_off379 (v857 : BitVec 32) : Fin 2 → Nat :=
  let c0_i32_752 : BitVec 32 := 0#32
  ![v857.toNat, 0]

def k0_chk123 (v857 : BitVec 32) : Prop :=
  (∀ a, (k0_off246 v857) a + S1x512.size a ≤ S20000x512.size a) ∧
  (∀ a, (k0_off379 v857) a + S1x512.size a ≤ S20000x512.size a)
instance k0_chk123.dec : ∀ (v857 : BitVec 32), Decidable (k0_chk123 v857) := fun v857 => decidable_of_iff' _ (Iff.of_eq (k0_chk123.eq_1 v857))
theorem k0_off246_inb : ∀ (v857 : BitVec 32) (k0_hw123 : k0_chk123 v857), ∀ a, (k0_off246 v857) a + S1x512.size a ≤ S20000x512.size a := fun v857 k0_hw123 => k0_hw123.1
theorem k0_off379_inb : ∀ (v857 : BitVec 32) (k0_hw123 : k0_chk123 v857), ∀ a, (k0_off379 v857) a + S1x512.size a ≤ S20000x512.size a := fun v857 k0_hw123 => k0_hw123.2

def k0_off380 (v864 : BitVec 32) : Fin 2 → Nat :=
  let c0_i32_755 : BitVec 32 := 0#32
  ![v864.toNat, 0]

def k0_chk124 (v864 : BitVec 32) : Prop :=
  (∀ a, (k0_off248 v864) a + S1x512.size a ≤ S20000x512.size a) ∧
  (∀ a, (k0_off380 v864) a + S1x512.size a ≤ S20000x512.size a)
instance k0_chk124.dec : ∀ (v864 : BitVec 32), Decidable (k0_chk124 v864) := fun v864 => decidable_of_iff' _ (Iff.of_eq (k0_chk124.eq_1 v864))
theorem k0_off248_inb : ∀ (v864 : BitVec 32) (k0_hw124 : k0_chk124 v864), ∀ a, (k0_off248 v864) a + S1x512.size a ≤ S20000x512.size a := fun v864 k0_hw124 => k0_hw124.1
theorem k0_off380_inb : ∀ (v864 : BitVec 32) (k0_hw124 : k0_chk124 v864), ∀ a, (k0_off380 v864) a + S1x512.size a ≤ S20000x512.size a := fun v864 k0_hw124 => k0_hw124.2

def k0_off381 (v871 : BitVec 32) : Fin 2 → Nat :=
  let c0_i32_758 : BitVec 32 := 0#32
  ![v871.toNat, 0]

def k0_chk125 (v871 : BitVec 32) : Prop :=
  (∀ a, (k0_off250 v871) a + S1x512.size a ≤ S20000x512.size a) ∧
  (∀ a, (k0_off381 v871) a + S1x512.size a ≤ S20000x512.size a)
instance k0_chk125.dec : ∀ (v871 : BitVec 32), Decidable (k0_chk125 v871) := fun v871 => decidable_of_iff' _ (Iff.of_eq (k0_chk125.eq_1 v871))
theorem k0_off250_inb : ∀ (v871 : BitVec 32) (k0_hw125 : k0_chk125 v871), ∀ a, (k0_off250 v871) a + S1x512.size a ≤ S20000x512.size a := fun v871 k0_hw125 => k0_hw125.1
theorem k0_off381_inb : ∀ (v871 : BitVec 32) (k0_hw125 : k0_chk125 v871), ∀ a, (k0_off381 v871) a + S1x512.size a ≤ S20000x512.size a := fun v871 k0_hw125 => k0_hw125.2

def k0_off382 (v878 : BitVec 32) : Fin 2 → Nat :=
  let c0_i32_761 : BitVec 32 := 0#32
  ![v878.toNat, 0]

def k0_chk126 (v878 : BitVec 32) : Prop :=
  (∀ a, (k0_off252 v878) a + S1x512.size a ≤ S20000x512.size a) ∧
  (∀ a, (k0_off382 v878) a + S1x512.size a ≤ S20000x512.size a)
instance k0_chk126.dec : ∀ (v878 : BitVec 32), Decidable (k0_chk126 v878) := fun v878 => decidable_of_iff' _ (Iff.of_eq (k0_chk126.eq_1 v878))
theorem k0_off252_inb : ∀ (v878 : BitVec 32) (k0_hw126 : k0_chk126 v878), ∀ a, (k0_off252 v878) a + S1x512.size a ≤ S20000x512.size a := fun v878 k0_hw126 => k0_hw126.1
theorem k0_off382_inb : ∀ (v878 : BitVec 32) (k0_hw126 : k0_chk126 v878), ∀ a, (k0_off382 v878) a + S1x512.size a ≤ S20000x512.size a := fun v878 k0_hw126 => k0_hw126.2

def k0_off383 (v885 : BitVec 32) : Fin 2 → Nat :=
  let c0_i32_764 : BitVec 32 := 0#32
  ![v885.toNat, 0]

def k0_chk127 (v885 : BitVec 32) : Prop :=
  (∀ a, (k0_off254 v885) a + S1x512.size a ≤ S20000x512.size a) ∧
  (∀ a, (k0_off383 v885) a + S1x512.size a ≤ S20000x512.size a)
instance k0_chk127.dec : ∀ (v885 : BitVec 32), Decidable (k0_chk127 v885) := fun v885 => decidable_of_iff' _ (Iff.of_eq (k0_chk127.eq_1 v885))
theorem k0_off254_inb : ∀ (v885 : BitVec 32) (k0_hw127 : k0_chk127 v885), ∀ a, (k0_off254 v885) a + S1x512.size a ≤ S20000x512.size a := fun v885 k0_hw127 => k0_hw127.1
theorem k0_off383_inb : ∀ (v885 : BitVec 32) (k0_hw127 : k0_chk127 v885), ∀ a, (k0_off383 v885) a + S1x512.size a ≤ S20000x512.size a := fun v885 k0_hw127 => k0_hw127.2

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S50x2000_S100000 : S50x2000.ShapeCasts S100000
  bcast_S50_S50x2000_0 : S50.BroadcastsInDim S50x2000 (![0] : Fin 1 → Fin S50x2000.rank)
  pads_S100000_S100096_0960 : S100000.Pads (![0] : Fin 1 → Nat) ![96] ![0] S100096
  h_S_ : 0 < S_.numel
  numel1_S1 : S1.numel = 1
  inb_S128x512_S1x512_0_0 : ∀ a, (![0, 0] : Fin 2 → Nat) a + S1x512.size a ≤ S128x512.size a
  squeezes_S1x512_S512 : S1x512.Squeezes S512
  inb_S128x512_S1x512_1_0 : ∀ a, (![1, 0] : Fin 2 → Nat) a + S1x512.size a ≤ S128x512.size a
  inb_S128x512_S1x512_2_0 : ∀ a, (![2, 0] : Fin 2 → Nat) a + S1x512.size a ≤ S128x512.size a
  inb_S128x512_S1x512_3_0 : ∀ a, (![3, 0] : Fin 2 → Nat) a + S1x512.size a ≤ S128x512.size a
  inb_S128x512_S1x512_4_0 : ∀ a, (![4, 0] : Fin 2 → Nat) a + S1x512.size a ≤ S128x512.size a
  inb_S128x512_S1x512_5_0 : ∀ a, (![5, 0] : Fin 2 → Nat) a + S1x512.size a ≤ S128x512.size a
  inb_S128x512_S1x512_6_0 : ∀ a, (![6, 0] : Fin 2 → Nat) a + S1x512.size a ≤ S128x512.size a
  inb_S128x512_S1x512_7_0 : ∀ a, (![7, 0] : Fin 2 → Nat) a + S1x512.size a ≤ S128x512.size a
  inb_S128x512_S1x512_8_0 : ∀ a, (![8, 0] : Fin 2 → Nat) a + S1x512.size a ≤ S128x512.size a
  inb_S128x512_S1x512_9_0 : ∀ a, (![9, 0] : Fin 2 → Nat) a + S1x512.size a ≤ S128x512.size a
  inb_S128x512_S1x512_10_0 : ∀ a, (![10, 0] : Fin 2 → Nat) a + S1x512.size a ≤ S128x512.size a
  inb_S128x512_S1x512_11_0 : ∀ a, (![11, 0] : Fin 2 → Nat) a + S1x512.size a ≤ S128x512.size a
  inb_S128x512_S1x512_12_0 : ∀ a, (![12, 0] : Fin 2 → Nat) a + S1x512.size a ≤ S128x512.size a
  inb_S128x512_S1x512_13_0 : ∀ a, (![13, 0] : Fin 2 → Nat) a + S1x512.size a ≤ S128x512.size a
  inb_S128x512_S1x512_14_0 : ∀ a, (![14, 0] : Fin 2 → Nat) a + S1x512.size a ≤ S128x512.size a
  inb_S128x512_S1x512_15_0 : ∀ a, (![15, 0] : Fin 2 → Nat) a + S1x512.size a ≤ S128x512.size a
  inb_S128x512_S1x512_16_0 : ∀ a, (![16, 0] : Fin 2 → Nat) a + S1x512.size a ≤ S128x512.size a
  inb_S128x512_S1x512_17_0 : ∀ a, (![17, 0] : Fin 2 → Nat) a + S1x512.size a ≤ S128x512.size a
  inb_S128x512_S1x512_18_0 : ∀ a, (![18, 0] : Fin 2 → Nat) a + S1x512.size a ≤ S128x512.size a
  inb_S128x512_S1x512_19_0 : ∀ a, (![19, 0] : Fin 2 → Nat) a + S1x512.size a ≤ S128x512.size a
  inb_S128x512_S1x512_20_0 : ∀ a, (![20, 0] : Fin 2 → Nat) a + S1x512.size a ≤ S128x512.size a
  inb_S128x512_S1x512_21_0 : ∀ a, (![21, 0] : Fin 2 → Nat) a + S1x512.size a ≤ S128x512.size a
  inb_S128x512_S1x512_22_0 : ∀ a, (![22, 0] : Fin 2 → Nat) a + S1x512.size a ≤ S128x512.size a
  inb_S128x512_S1x512_23_0 : ∀ a, (![23, 0] : Fin 2 → Nat) a + S1x512.size a ≤ S128x512.size a
  inb_S128x512_S1x512_24_0 : ∀ a, (![24, 0] : Fin 2 → Nat) a + S1x512.size a ≤ S128x512.size a
  inb_S128x512_S1x512_25_0 : ∀ a, (![25, 0] : Fin 2 → Nat) a + S1x512.size a ≤ S128x512.size a
  inb_S128x512_S1x512_26_0 : ∀ a, (![26, 0] : Fin 2 → Nat) a + S1x512.size a ≤ S128x512.size a
  inb_S128x512_S1x512_27_0 : ∀ a, (![27, 0] : Fin 2 → Nat) a + S1x512.size a ≤ S128x512.size a
  inb_S128x512_S1x512_28_0 : ∀ a, (![28, 0] : Fin 2 → Nat) a + S1x512.size a ≤ S128x512.size a
  inb_S128x512_S1x512_29_0 : ∀ a, (![29, 0] : Fin 2 → Nat) a + S1x512.size a ≤ S128x512.size a
  inb_S128x512_S1x512_30_0 : ∀ a, (![30, 0] : Fin 2 → Nat) a + S1x512.size a ≤ S128x512.size a
  inb_S128x512_S1x512_31_0 : ∀ a, (![31, 0] : Fin 2 → Nat) a + S1x512.size a ≤ S128x512.size a
  inb_S128x512_S1x512_32_0 : ∀ a, (![32, 0] : Fin 2 → Nat) a + S1x512.size a ≤ S128x512.size a
  inb_S128x512_S1x512_33_0 : ∀ a, (![33, 0] : Fin 2 → Nat) a + S1x512.size a ≤ S128x512.size a
  inb_S128x512_S1x512_34_0 : ∀ a, (![34, 0] : Fin 2 → Nat) a + S1x512.size a ≤ S128x512.size a
  inb_S128x512_S1x512_35_0 : ∀ a, (![35, 0] : Fin 2 → Nat) a + S1x512.size a ≤ S128x512.size a
  inb_S128x512_S1x512_36_0 : ∀ a, (![36, 0] : Fin 2 → Nat) a + S1x512.size a ≤ S128x512.size a
  inb_S128x512_S1x512_37_0 : ∀ a, (![37, 0] : Fin 2 → Nat) a + S1x512.size a ≤ S128x512.size a
  inb_S128x512_S1x512_38_0 : ∀ a, (![38, 0] : Fin 2 → Nat) a + S1x512.size a ≤ S128x512.size a
  inb_S128x512_S1x512_39_0 : ∀ a, (![39, 0] : Fin 2 → Nat) a + S1x512.size a ≤ S128x512.size a
  inb_S128x512_S1x512_40_0 : ∀ a, (![40, 0] : Fin 2 → Nat) a + S1x512.size a ≤ S128x512.size a
  inb_S128x512_S1x512_41_0 : ∀ a, (![41, 0] : Fin 2 → Nat) a + S1x512.size a ≤ S128x512.size a
  inb_S128x512_S1x512_42_0 : ∀ a, (![42, 0] : Fin 2 → Nat) a + S1x512.size a ≤ S128x512.size a
  inb_S128x512_S1x512_43_0 : ∀ a, (![43, 0] : Fin 2 → Nat) a + S1x512.size a ≤ S128x512.size a
  inb_S128x512_S1x512_44_0 : ∀ a, (![44, 0] : Fin 2 → Nat) a + S1x512.size a ≤ S128x512.size a
  inb_S128x512_S1x512_45_0 : ∀ a, (![45, 0] : Fin 2 → Nat) a + S1x512.size a ≤ S128x512.size a
  inb_S128x512_S1x512_46_0 : ∀ a, (![46, 0] : Fin 2 → Nat) a + S1x512.size a ≤ S128x512.size a
  inb_S128x512_S1x512_47_0 : ∀ a, (![47, 0] : Fin 2 → Nat) a + S1x512.size a ≤ S128x512.size a
  inb_S128x512_S1x512_48_0 : ∀ a, (![48, 0] : Fin 2 → Nat) a + S1x512.size a ≤ S128x512.size a
  inb_S128x512_S1x512_49_0 : ∀ a, (![49, 0] : Fin 2 → Nat) a + S1x512.size a ≤ S128x512.size a
  inb_S128x512_S1x512_50_0 : ∀ a, (![50, 0] : Fin 2 → Nat) a + S1x512.size a ≤ S128x512.size a
  inb_S128x512_S1x512_51_0 : ∀ a, (![51, 0] : Fin 2 → Nat) a + S1x512.size a ≤ S128x512.size a
  inb_S128x512_S1x512_52_0 : ∀ a, (![52, 0] : Fin 2 → Nat) a + S1x512.size a ≤ S128x512.size a
  inb_S128x512_S1x512_53_0 : ∀ a, (![53, 0] : Fin 2 → Nat) a + S1x512.size a ≤ S128x512.size a
  inb_S128x512_S1x512_54_0 : ∀ a, (![54, 0] : Fin 2 → Nat) a + S1x512.size a ≤ S128x512.size a
  inb_S128x512_S1x512_55_0 : ∀ a, (![55, 0] : Fin 2 → Nat) a + S1x512.size a ≤ S128x512.size a
  inb_S128x512_S1x512_56_0 : ∀ a, (![56, 0] : Fin 2 → Nat) a + S1x512.size a ≤ S128x512.size a
  inb_S128x512_S1x512_57_0 : ∀ a, (![57, 0] : Fin 2 → Nat) a + S1x512.size a ≤ S128x512.size a
  inb_S128x512_S1x512_58_0 : ∀ a, (![58, 0] : Fin 2 → Nat) a + S1x512.size a ≤ S128x512.size a
  inb_S128x512_S1x512_59_0 : ∀ a, (![59, 0] : Fin 2 → Nat) a + S1x512.size a ≤ S128x512.size a
  inb_S128x512_S1x512_60_0 : ∀ a, (![60, 0] : Fin 2 → Nat) a + S1x512.size a ≤ S128x512.size a
  inb_S128x512_S1x512_61_0 : ∀ a, (![61, 0] : Fin 2 → Nat) a + S1x512.size a ≤ S128x512.size a
  inb_S128x512_S1x512_62_0 : ∀ a, (![62, 0] : Fin 2 → Nat) a + S1x512.size a ≤ S128x512.size a
  inb_S128x512_S1x512_63_0 : ∀ a, (![63, 0] : Fin 2 → Nat) a + S1x512.size a ≤ S128x512.size a
  inb_S128x512_S1x512_64_0 : ∀ a, (![64, 0] : Fin 2 → Nat) a + S1x512.size a ≤ S128x512.size a
  inb_S128x512_S1x512_65_0 : ∀ a, (![65, 0] : Fin 2 → Nat) a + S1x512.size a ≤ S128x512.size a
  inb_S128x512_S1x512_66_0 : ∀ a, (![66, 0] : Fin 2 → Nat) a + S1x512.size a ≤ S128x512.size a
  inb_S128x512_S1x512_67_0 : ∀ a, (![67, 0] : Fin 2 → Nat) a + S1x512.size a ≤ S128x512.size a
  inb_S128x512_S1x512_68_0 : ∀ a, (![68, 0] : Fin 2 → Nat) a + S1x512.size a ≤ S128x512.size a
  inb_S128x512_S1x512_69_0 : ∀ a, (![69, 0] : Fin 2 → Nat) a + S1x512.size a ≤ S128x512.size a
  inb_S128x512_S1x512_70_0 : ∀ a, (![70, 0] : Fin 2 → Nat) a + S1x512.size a ≤ S128x512.size a
  inb_S128x512_S1x512_71_0 : ∀ a, (![71, 0] : Fin 2 → Nat) a + S1x512.size a ≤ S128x512.size a
  inb_S128x512_S1x512_72_0 : ∀ a, (![72, 0] : Fin 2 → Nat) a + S1x512.size a ≤ S128x512.size a
  inb_S128x512_S1x512_73_0 : ∀ a, (![73, 0] : Fin 2 → Nat) a + S1x512.size a ≤ S128x512.size a
  inb_S128x512_S1x512_74_0 : ∀ a, (![74, 0] : Fin 2 → Nat) a + S1x512.size a ≤ S128x512.size a
  inb_S128x512_S1x512_75_0 : ∀ a, (![75, 0] : Fin 2 → Nat) a + S1x512.size a ≤ S128x512.size a
  inb_S128x512_S1x512_76_0 : ∀ a, (![76, 0] : Fin 2 → Nat) a + S1x512.size a ≤ S128x512.size a
  inb_S128x512_S1x512_77_0 : ∀ a, (![77, 0] : Fin 2 → Nat) a + S1x512.size a ≤ S128x512.size a
  inb_S128x512_S1x512_78_0 : ∀ a, (![78, 0] : Fin 2 → Nat) a + S1x512.size a ≤ S128x512.size a
  inb_S128x512_S1x512_79_0 : ∀ a, (![79, 0] : Fin 2 → Nat) a + S1x512.size a ≤ S128x512.size a
  inb_S128x512_S1x512_80_0 : ∀ a, (![80, 0] : Fin 2 → Nat) a + S1x512.size a ≤ S128x512.size a
  inb_S128x512_S1x512_81_0 : ∀ a, (![81, 0] : Fin 2 → Nat) a + S1x512.size a ≤ S128x512.size a
  inb_S128x512_S1x512_82_0 : ∀ a, (![82, 0] : Fin 2 → Nat) a + S1x512.size a ≤ S128x512.size a
  inb_S128x512_S1x512_83_0 : ∀ a, (![83, 0] : Fin 2 → Nat) a + S1x512.size a ≤ S128x512.size a
  inb_S128x512_S1x512_84_0 : ∀ a, (![84, 0] : Fin 2 → Nat) a + S1x512.size a ≤ S128x512.size a
  inb_S128x512_S1x512_85_0 : ∀ a, (![85, 0] : Fin 2 → Nat) a + S1x512.size a ≤ S128x512.size a
  inb_S128x512_S1x512_86_0 : ∀ a, (![86, 0] : Fin 2 → Nat) a + S1x512.size a ≤ S128x512.size a
  inb_S128x512_S1x512_87_0 : ∀ a, (![87, 0] : Fin 2 → Nat) a + S1x512.size a ≤ S128x512.size a
  inb_S128x512_S1x512_88_0 : ∀ a, (![88, 0] : Fin 2 → Nat) a + S1x512.size a ≤ S128x512.size a
  inb_S128x512_S1x512_89_0 : ∀ a, (![89, 0] : Fin 2 → Nat) a + S1x512.size a ≤ S128x512.size a
  inb_S128x512_S1x512_90_0 : ∀ a, (![90, 0] : Fin 2 → Nat) a + S1x512.size a ≤ S128x512.size a
  inb_S128x512_S1x512_91_0 : ∀ a, (![91, 0] : Fin 2 → Nat) a + S1x512.size a ≤ S128x512.size a
  inb_S128x512_S1x512_92_0 : ∀ a, (![92, 0] : Fin 2 → Nat) a + S1x512.size a ≤ S128x512.size a
  inb_S128x512_S1x512_93_0 : ∀ a, (![93, 0] : Fin 2 → Nat) a + S1x512.size a ≤ S128x512.size a
  inb_S128x512_S1x512_94_0 : ∀ a, (![94, 0] : Fin 2 → Nat) a + S1x512.size a ≤ S128x512.size a
  inb_S128x512_S1x512_95_0 : ∀ a, (![95, 0] : Fin 2 → Nat) a + S1x512.size a ≤ S128x512.size a
  inb_S128x512_S1x512_96_0 : ∀ a, (![96, 0] : Fin 2 → Nat) a + S1x512.size a ≤ S128x512.size a
  inb_S128x512_S1x512_97_0 : ∀ a, (![97, 0] : Fin 2 → Nat) a + S1x512.size a ≤ S128x512.size a
  inb_S128x512_S1x512_98_0 : ∀ a, (![98, 0] : Fin 2 → Nat) a + S1x512.size a ≤ S128x512.size a
  inb_S128x512_S1x512_99_0 : ∀ a, (![99, 0] : Fin 2 → Nat) a + S1x512.size a ≤ S128x512.size a
  inb_S128x512_S1x512_100_0 : ∀ a, (![100, 0] : Fin 2 → Nat) a + S1x512.size a ≤ S128x512.size a
  inb_S128x512_S1x512_101_0 : ∀ a, (![101, 0] : Fin 2 → Nat) a + S1x512.size a ≤ S128x512.size a
  inb_S128x512_S1x512_102_0 : ∀ a, (![102, 0] : Fin 2 → Nat) a + S1x512.size a ≤ S128x512.size a
  inb_S128x512_S1x512_103_0 : ∀ a, (![103, 0] : Fin 2 → Nat) a + S1x512.size a ≤ S128x512.size a
  inb_S128x512_S1x512_104_0 : ∀ a, (![104, 0] : Fin 2 → Nat) a + S1x512.size a ≤ S128x512.size a
  inb_S128x512_S1x512_105_0 : ∀ a, (![105, 0] : Fin 2 → Nat) a + S1x512.size a ≤ S128x512.size a
  inb_S128x512_S1x512_106_0 : ∀ a, (![106, 0] : Fin 2 → Nat) a + S1x512.size a ≤ S128x512.size a
  inb_S128x512_S1x512_107_0 : ∀ a, (![107, 0] : Fin 2 → Nat) a + S1x512.size a ≤ S128x512.size a
  inb_S128x512_S1x512_108_0 : ∀ a, (![108, 0] : Fin 2 → Nat) a + S1x512.size a ≤ S128x512.size a
  inb_S128x512_S1x512_109_0 : ∀ a, (![109, 0] : Fin 2 → Nat) a + S1x512.size a ≤ S128x512.size a
  inb_S128x512_S1x512_110_0 : ∀ a, (![110, 0] : Fin 2 → Nat) a + S1x512.size a ≤ S128x512.size a
  inb_S128x512_S1x512_111_0 : ∀ a, (![111, 0] : Fin 2 → Nat) a + S1x512.size a ≤ S128x512.size a
  inb_S128x512_S1x512_112_0 : ∀ a, (![112, 0] : Fin 2 → Nat) a + S1x512.size a ≤ S128x512.size a
  inb_S128x512_S1x512_113_0 : ∀ a, (![113, 0] : Fin 2 → Nat) a + S1x512.size a ≤ S128x512.size a
  inb_S128x512_S1x512_114_0 : ∀ a, (![114, 0] : Fin 2 → Nat) a + S1x512.size a ≤ S128x512.size a
  inb_S128x512_S1x512_115_0 : ∀ a, (![115, 0] : Fin 2 → Nat) a + S1x512.size a ≤ S128x512.size a
  inb_S128x512_S1x512_116_0 : ∀ a, (![116, 0] : Fin 2 → Nat) a + S1x512.size a ≤ S128x512.size a
  inb_S128x512_S1x512_117_0 : ∀ a, (![117, 0] : Fin 2 → Nat) a + S1x512.size a ≤ S128x512.size a
  inb_S128x512_S1x512_118_0 : ∀ a, (![118, 0] : Fin 2 → Nat) a + S1x512.size a ≤ S128x512.size a
  inb_S128x512_S1x512_119_0 : ∀ a, (![119, 0] : Fin 2 → Nat) a + S1x512.size a ≤ S128x512.size a
  inb_S128x512_S1x512_120_0 : ∀ a, (![120, 0] : Fin 2 → Nat) a + S1x512.size a ≤ S128x512.size a
  inb_S128x512_S1x512_121_0 : ∀ a, (![121, 0] : Fin 2 → Nat) a + S1x512.size a ≤ S128x512.size a
  inb_S128x512_S1x512_122_0 : ∀ a, (![122, 0] : Fin 2 → Nat) a + S1x512.size a ≤ S128x512.size a
  inb_S128x512_S1x512_123_0 : ∀ a, (![123, 0] : Fin 2 → Nat) a + S1x512.size a ≤ S128x512.size a
  inb_S128x512_S1x512_124_0 : ∀ a, (![124, 0] : Fin 2 → Nat) a + S1x512.size a ≤ S128x512.size a
  inb_S128x512_S1x512_125_0 : ∀ a, (![125, 0] : Fin 2 → Nat) a + S1x512.size a ≤ S128x512.size a
  inb_S128x512_S1x512_126_0 : ∀ a, (![126, 0] : Fin 2 → Nat) a + S1x512.size a ≤ S128x512.size a
  inb_S128x512_S1x512_127_0 : ∀ a, (![127, 0] : Fin 2 → Nat) a + S1x512.size a ≤ S128x512.size a
  inb_S128_S128_0 : ∀ a, (![0] : Fin 1 → Nat) a + S128.size a ≤ S128.size a
  h_S128 : 0 < S128.numel
  shapeCasts_S128_S128 : S128.ShapeCasts S128
  shapeCasts_S128_S128x1 : S128.ShapeCasts S128x1
  inb_S128x512_S128x512_0_0 : ∀ a, (![0, 0] : Fin 2 → Nat) a + S128x512.size a ≤ S128x512.size a
  h_S128x512 : 0 < S128x512.numel
  broadcasts_S128x1_S128x512 : S128x1.Broadcasts S128x512
  transposes_S128x512_p1_0_S512x128 : S128x512.Transposes [1, 0] S512x128
  inb_S512x128_S512x128_0_0 : ∀ a, (![0, 0] : Fin 2 → Nat) a + S512x128.size a ≤ S512x128.size a
  h_S512x128 : 0 < S512x128.numel
  slices_S512x100096_S512x100000_0_0 : S512x100096.Slices ![0, 0] S512x100000
  shapeCasts_S512x100000_S51200000 : S512x100000.ShapeCasts S51200000
  hcc0_scratch1 : 4 + S_.numel ≤ 5
  hrank0 : 0 < grid0.rank
  k0_off1_inb : ∀ i : grid0.Coords, ∀ a, (k0_off1 i) a + S1.size a ≤ S100096.size a
  k0_off3_inb : ∀ i : grid0.Coords, ∀ a, (k0_off3 i) a + S1.size a ≤ S100096.size a
  k0_off5_inb : ∀ i : grid0.Coords, ∀ a, (k0_off5 i) a + S1.size a ≤ S100096.size a
  k0_off7_inb : ∀ i : grid0.Coords, ∀ a, (k0_off7 i) a + S1.size a ≤ S100096.size a
  k0_off9_inb : ∀ i : grid0.Coords, ∀ a, (k0_off9 i) a + S1.size a ≤ S100096.size a
  k0_off11_inb : ∀ i : grid0.Coords, ∀ a, (k0_off11 i) a + S1.size a ≤ S100096.size a
  k0_off13_inb : ∀ i : grid0.Coords, ∀ a, (k0_off13 i) a + S1.size a ≤ S100096.size a
  k0_off15_inb : ∀ i : grid0.Coords, ∀ a, (k0_off15 i) a + S1.size a ≤ S100096.size a
  k0_off17_inb : ∀ i : grid0.Coords, ∀ a, (k0_off17 i) a + S1.size a ≤ S100096.size a
  k0_off19_inb : ∀ i : grid0.Coords, ∀ a, (k0_off19 i) a + S1.size a ≤ S100096.size a
  k0_off21_inb : ∀ i : grid0.Coords, ∀ a, (k0_off21 i) a + S1.size a ≤ S100096.size a
  k0_off23_inb : ∀ i : grid0.Coords, ∀ a, (k0_off23 i) a + S1.size a ≤ S100096.size a
  k0_off25_inb : ∀ i : grid0.Coords, ∀ a, (k0_off25 i) a + S1.size a ≤ S100096.size a
  k0_off27_inb : ∀ i : grid0.Coords, ∀ a, (k0_off27 i) a + S1.size a ≤ S100096.size a
  k0_off29_inb : ∀ i : grid0.Coords, ∀ a, (k0_off29 i) a + S1.size a ≤ S100096.size a
  k0_off31_inb : ∀ i : grid0.Coords, ∀ a, (k0_off31 i) a + S1.size a ≤ S100096.size a
  k0_off33_inb : ∀ i : grid0.Coords, ∀ a, (k0_off33 i) a + S1.size a ≤ S100096.size a
  k0_off35_inb : ∀ i : grid0.Coords, ∀ a, (k0_off35 i) a + S1.size a ≤ S100096.size a
  k0_off37_inb : ∀ i : grid0.Coords, ∀ a, (k0_off37 i) a + S1.size a ≤ S100096.size a
  k0_off39_inb : ∀ i : grid0.Coords, ∀ a, (k0_off39 i) a + S1.size a ≤ S100096.size a
  k0_off41_inb : ∀ i : grid0.Coords, ∀ a, (k0_off41 i) a + S1.size a ≤ S100096.size a
  k0_off43_inb : ∀ i : grid0.Coords, ∀ a, (k0_off43 i) a + S1.size a ≤ S100096.size a
  k0_off45_inb : ∀ i : grid0.Coords, ∀ a, (k0_off45 i) a + S1.size a ≤ S100096.size a
  k0_off47_inb : ∀ i : grid0.Coords, ∀ a, (k0_off47 i) a + S1.size a ≤ S100096.size a
  k0_off49_inb : ∀ i : grid0.Coords, ∀ a, (k0_off49 i) a + S1.size a ≤ S100096.size a
  k0_off51_inb : ∀ i : grid0.Coords, ∀ a, (k0_off51 i) a + S1.size a ≤ S100096.size a
  k0_off53_inb : ∀ i : grid0.Coords, ∀ a, (k0_off53 i) a + S1.size a ≤ S100096.size a
  k0_off55_inb : ∀ i : grid0.Coords, ∀ a, (k0_off55 i) a + S1.size a ≤ S100096.size a
  k0_off57_inb : ∀ i : grid0.Coords, ∀ a, (k0_off57 i) a + S1.size a ≤ S100096.size a
  k0_off59_inb : ∀ i : grid0.Coords, ∀ a, (k0_off59 i) a + S1.size a ≤ S100096.size a
  k0_off61_inb : ∀ i : grid0.Coords, ∀ a, (k0_off61 i) a + S1.size a ≤ S100096.size a
  k0_off63_inb : ∀ i : grid0.Coords, ∀ a, (k0_off63 i) a + S1.size a ≤ S100096.size a
  k0_off65_inb : ∀ i : grid0.Coords, ∀ a, (k0_off65 i) a + S1.size a ≤ S100096.size a
  k0_off67_inb : ∀ i : grid0.Coords, ∀ a, (k0_off67 i) a + S1.size a ≤ S100096.size a
  k0_off69_inb : ∀ i : grid0.Coords, ∀ a, (k0_off69 i) a + S1.size a ≤ S100096.size a
  k0_off71_inb : ∀ i : grid0.Coords, ∀ a, (k0_off71 i) a + S1.size a ≤ S100096.size a
  k0_off73_inb : ∀ i : grid0.Coords, ∀ a, (k0_off73 i) a + S1.size a ≤ S100096.size a
  k0_off75_inb : ∀ i : grid0.Coords, ∀ a, (k0_off75 i) a + S1.size a ≤ S100096.size a
  k0_off77_inb : ∀ i : grid0.Coords, ∀ a, (k0_off77 i) a + S1.size a ≤ S100096.size a
  k0_off79_inb : ∀ i : grid0.Coords, ∀ a, (k0_off79 i) a + S1.size a ≤ S100096.size a
  k0_off81_inb : ∀ i : grid0.Coords, ∀ a, (k0_off81 i) a + S1.size a ≤ S100096.size a
  k0_off83_inb : ∀ i : grid0.Coords, ∀ a, (k0_off83 i) a + S1.size a ≤ S100096.size a
  k0_off85_inb : ∀ i : grid0.Coords, ∀ a, (k0_off85 i) a + S1.size a ≤ S100096.size a
  k0_off87_inb : ∀ i : grid0.Coords, ∀ a, (k0_off87 i) a + S1.size a ≤ S100096.size a
  k0_off89_inb : ∀ i : grid0.Coords, ∀ a, (k0_off89 i) a + S1.size a ≤ S100096.size a
  k0_off91_inb : ∀ i : grid0.Coords, ∀ a, (k0_off91 i) a + S1.size a ≤ S100096.size a
  k0_off93_inb : ∀ i : grid0.Coords, ∀ a, (k0_off93 i) a + S1.size a ≤ S100096.size a
  k0_off95_inb : ∀ i : grid0.Coords, ∀ a, (k0_off95 i) a + S1.size a ≤ S100096.size a
  k0_off97_inb : ∀ i : grid0.Coords, ∀ a, (k0_off97 i) a + S1.size a ≤ S100096.size a
  k0_off99_inb : ∀ i : grid0.Coords, ∀ a, (k0_off99 i) a + S1.size a ≤ S100096.size a
  k0_off101_inb : ∀ i : grid0.Coords, ∀ a, (k0_off101 i) a + S1.size a ≤ S100096.size a
  k0_off103_inb : ∀ i : grid0.Coords, ∀ a, (k0_off103 i) a + S1.size a ≤ S100096.size a
  k0_off105_inb : ∀ i : grid0.Coords, ∀ a, (k0_off105 i) a + S1.size a ≤ S100096.size a
  k0_off107_inb : ∀ i : grid0.Coords, ∀ a, (k0_off107 i) a + S1.size a ≤ S100096.size a
  k0_off109_inb : ∀ i : grid0.Coords, ∀ a, (k0_off109 i) a + S1.size a ≤ S100096.size a
  k0_off111_inb : ∀ i : grid0.Coords, ∀ a, (k0_off111 i) a + S1.size a ≤ S100096.size a
  k0_off113_inb : ∀ i : grid0.Coords, ∀ a, (k0_off113 i) a + S1.size a ≤ S100096.size a
  k0_off115_inb : ∀ i : grid0.Coords, ∀ a, (k0_off115 i) a + S1.size a ≤ S100096.size a
  k0_off117_inb : ∀ i : grid0.Coords, ∀ a, (k0_off117 i) a + S1.size a ≤ S100096.size a
  k0_off119_inb : ∀ i : grid0.Coords, ∀ a, (k0_off119 i) a + S1.size a ≤ S100096.size a
  k0_off121_inb : ∀ i : grid0.Coords, ∀ a, (k0_off121 i) a + S1.size a ≤ S100096.size a
  k0_off123_inb : ∀ i : grid0.Coords, ∀ a, (k0_off123 i) a + S1.size a ≤ S100096.size a
  k0_off125_inb : ∀ i : grid0.Coords, ∀ a, (k0_off125 i) a + S1.size a ≤ S100096.size a
  k0_off127_inb : ∀ i : grid0.Coords, ∀ a, (k0_off127 i) a + S1.size a ≤ S100096.size a
  k0_off129_inb : ∀ i : grid0.Coords, ∀ a, (k0_off129 i) a + S1.size a ≤ S100096.size a
  k0_off131_inb : ∀ i : grid0.Coords, ∀ a, (k0_off131 i) a + S1.size a ≤ S100096.size a
  k0_off133_inb : ∀ i : grid0.Coords, ∀ a, (k0_off133 i) a + S1.size a ≤ S100096.size a
  k0_off135_inb : ∀ i : grid0.Coords, ∀ a, (k0_off135 i) a + S1.size a ≤ S100096.size a
  k0_off137_inb : ∀ i : grid0.Coords, ∀ a, (k0_off137 i) a + S1.size a ≤ S100096.size a
  k0_off139_inb : ∀ i : grid0.Coords, ∀ a, (k0_off139 i) a + S1.size a ≤ S100096.size a
  k0_off141_inb : ∀ i : grid0.Coords, ∀ a, (k0_off141 i) a + S1.size a ≤ S100096.size a
  k0_off143_inb : ∀ i : grid0.Coords, ∀ a, (k0_off143 i) a + S1.size a ≤ S100096.size a
  k0_off145_inb : ∀ i : grid0.Coords, ∀ a, (k0_off145 i) a + S1.size a ≤ S100096.size a
  k0_off147_inb : ∀ i : grid0.Coords, ∀ a, (k0_off147 i) a + S1.size a ≤ S100096.size a
  k0_off149_inb : ∀ i : grid0.Coords, ∀ a, (k0_off149 i) a + S1.size a ≤ S100096.size a
  k0_off151_inb : ∀ i : grid0.Coords, ∀ a, (k0_off151 i) a + S1.size a ≤ S100096.size a
  k0_off153_inb : ∀ i : grid0.Coords, ∀ a, (k0_off153 i) a + S1.size a ≤ S100096.size a
  k0_off155_inb : ∀ i : grid0.Coords, ∀ a, (k0_off155 i) a + S1.size a ≤ S100096.size a
  k0_off157_inb : ∀ i : grid0.Coords, ∀ a, (k0_off157 i) a + S1.size a ≤ S100096.size a
  k0_off159_inb : ∀ i : grid0.Coords, ∀ a, (k0_off159 i) a + S1.size a ≤ S100096.size a
  k0_off161_inb : ∀ i : grid0.Coords, ∀ a, (k0_off161 i) a + S1.size a ≤ S100096.size a
  k0_off163_inb : ∀ i : grid0.Coords, ∀ a, (k0_off163 i) a + S1.size a ≤ S100096.size a
  k0_off165_inb : ∀ i : grid0.Coords, ∀ a, (k0_off165 i) a + S1.size a ≤ S100096.size a
  k0_off167_inb : ∀ i : grid0.Coords, ∀ a, (k0_off167 i) a + S1.size a ≤ S100096.size a
  k0_off169_inb : ∀ i : grid0.Coords, ∀ a, (k0_off169 i) a + S1.size a ≤ S100096.size a
  k0_off171_inb : ∀ i : grid0.Coords, ∀ a, (k0_off171 i) a + S1.size a ≤ S100096.size a
  k0_off173_inb : ∀ i : grid0.Coords, ∀ a, (k0_off173 i) a + S1.size a ≤ S100096.size a
  k0_off175_inb : ∀ i : grid0.Coords, ∀ a, (k0_off175 i) a + S1.size a ≤ S100096.size a
  k0_off177_inb : ∀ i : grid0.Coords, ∀ a, (k0_off177 i) a + S1.size a ≤ S100096.size a
  k0_off179_inb : ∀ i : grid0.Coords, ∀ a, (k0_off179 i) a + S1.size a ≤ S100096.size a
  k0_off181_inb : ∀ i : grid0.Coords, ∀ a, (k0_off181 i) a + S1.size a ≤ S100096.size a
  k0_off183_inb : ∀ i : grid0.Coords, ∀ a, (k0_off183 i) a + S1.size a ≤ S100096.size a
  k0_off185_inb : ∀ i : grid0.Coords, ∀ a, (k0_off185 i) a + S1.size a ≤ S100096.size a
  k0_off187_inb : ∀ i : grid0.Coords, ∀ a, (k0_off187 i) a + S1.size a ≤ S100096.size a
  k0_off189_inb : ∀ i : grid0.Coords, ∀ a, (k0_off189 i) a + S1.size a ≤ S100096.size a
  k0_off191_inb : ∀ i : grid0.Coords, ∀ a, (k0_off191 i) a + S1.size a ≤ S100096.size a
  k0_off193_inb : ∀ i : grid0.Coords, ∀ a, (k0_off193 i) a + S1.size a ≤ S100096.size a
  k0_off195_inb : ∀ i : grid0.Coords, ∀ a, (k0_off195 i) a + S1.size a ≤ S100096.size a
  k0_off197_inb : ∀ i : grid0.Coords, ∀ a, (k0_off197 i) a + S1.size a ≤ S100096.size a
  k0_off199_inb : ∀ i : grid0.Coords, ∀ a, (k0_off199 i) a + S1.size a ≤ S100096.size a
  k0_off201_inb : ∀ i : grid0.Coords, ∀ a, (k0_off201 i) a + S1.size a ≤ S100096.size a
  k0_off203_inb : ∀ i : grid0.Coords, ∀ a, (k0_off203 i) a + S1.size a ≤ S100096.size a
  k0_off205_inb : ∀ i : grid0.Coords, ∀ a, (k0_off205 i) a + S1.size a ≤ S100096.size a
  k0_off207_inb : ∀ i : grid0.Coords, ∀ a, (k0_off207 i) a + S1.size a ≤ S100096.size a
  k0_off209_inb : ∀ i : grid0.Coords, ∀ a, (k0_off209 i) a + S1.size a ≤ S100096.size a
  k0_off211_inb : ∀ i : grid0.Coords, ∀ a, (k0_off211 i) a + S1.size a ≤ S100096.size a
  k0_off213_inb : ∀ i : grid0.Coords, ∀ a, (k0_off213 i) a + S1.size a ≤ S100096.size a
  k0_off215_inb : ∀ i : grid0.Coords, ∀ a, (k0_off215 i) a + S1.size a ≤ S100096.size a
  k0_off217_inb : ∀ i : grid0.Coords, ∀ a, (k0_off217 i) a + S1.size a ≤ S100096.size a
  k0_off219_inb : ∀ i : grid0.Coords, ∀ a, (k0_off219 i) a + S1.size a ≤ S100096.size a
  k0_off221_inb : ∀ i : grid0.Coords, ∀ a, (k0_off221 i) a + S1.size a ≤ S100096.size a
  k0_off223_inb : ∀ i : grid0.Coords, ∀ a, (k0_off223 i) a + S1.size a ≤ S100096.size a
  k0_off225_inb : ∀ i : grid0.Coords, ∀ a, (k0_off225 i) a + S1.size a ≤ S100096.size a
  k0_off227_inb : ∀ i : grid0.Coords, ∀ a, (k0_off227 i) a + S1.size a ≤ S100096.size a
  k0_off229_inb : ∀ i : grid0.Coords, ∀ a, (k0_off229 i) a + S1.size a ≤ S100096.size a
  k0_off231_inb : ∀ i : grid0.Coords, ∀ a, (k0_off231 i) a + S1.size a ≤ S100096.size a
  k0_off233_inb : ∀ i : grid0.Coords, ∀ a, (k0_off233 i) a + S1.size a ≤ S100096.size a
  k0_off235_inb : ∀ i : grid0.Coords, ∀ a, (k0_off235 i) a + S1.size a ≤ S100096.size a
  k0_off237_inb : ∀ i : grid0.Coords, ∀ a, (k0_off237 i) a + S1.size a ≤ S100096.size a
  k0_off239_inb : ∀ i : grid0.Coords, ∀ a, (k0_off239 i) a + S1.size a ≤ S100096.size a
  k0_off241_inb : ∀ i : grid0.Coords, ∀ a, (k0_off241 i) a + S1.size a ≤ S100096.size a
  k0_off243_inb : ∀ i : grid0.Coords, ∀ a, (k0_off243 i) a + S1.size a ≤ S100096.size a
  k0_off245_inb : ∀ i : grid0.Coords, ∀ a, (k0_off245 i) a + S1.size a ≤ S100096.size a
  k0_off247_inb : ∀ i : grid0.Coords, ∀ a, (k0_off247 i) a + S1.size a ≤ S100096.size a
  k0_off249_inb : ∀ i : grid0.Coords, ∀ a, (k0_off249 i) a + S1.size a ≤ S100096.size a
  k0_off251_inb : ∀ i : grid0.Coords, ∀ a, (k0_off251 i) a + S1.size a ≤ S100096.size a
  k0_off253_inb : ∀ i : grid0.Coords, ∀ a, (k0_off253 i) a + S1.size a ≤ S100096.size a
  k0_off255_inb : ∀ i : grid0.Coords, ∀ a, (k0_off255 i) a + S1.size a ≤ S100096.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128.size a ≤ S100096.size a
  hwx0_0 : ∀ i : grid0.Coords, EltTy.bits .f32 = 32 ∨ (Rect.block (s := S100096) S128.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S512x128.size a ≤ S512x100096.size a
  hwx0_1 : ∀ i : grid0.Coords, EltTy.bits .f32 = 32 ∨ (Rect.block (s := S512x100096) S512x128.size (cc0_transform_2 i) (hinb0_1 i)).WholeWords (EltTy.packing .f32)

variable [Facts₀]

abbrev cc0_scratch1 : DmaSems sig S_ := SemArray.consecutive 4 S_ hcc0_scratch1

abbrev spec0_0 : Pipeline.WinSpec sig grid0.rank :=
  Pipeline.WinSpec.ofSpec (Memref.whole main_v4) S128.size reads0_0 false false 2 stage0_0 sem0_0 nbuf0_0 hstage0_0

abbrev spec0_1 : Pipeline.WinSpec sig grid0.rank :=
  Pipeline.WinSpec.ofSpec (Memref.whole main_v5) S512x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_1 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S20000x512 : Shape := ⟨2, ![20000, 512]⟩
abbrev S50 : Shape := ⟨1, ![50]⟩
abbrev S50x2000 : Shape := ⟨2, ![50, 2000]⟩
abbrev S100000 : Shape := ⟨1, ![100000]⟩
abbrev S_ : Shape := ⟨0, ![]⟩
abbrev S100000x1 : Shape := ⟨2, ![100000, 1]⟩
abbrev S100000x512 : Shape := ⟨2, ![100000, 512]⟩
abbrev S512x100000 : Shape := ⟨2, ![512, 100000]⟩
abbrev S51200000 : Shape := ⟨1, ![51200000]⟩

abbrev nBuf : Space → Nat
  | .hbm => 20
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S50, .f32⟩
  | .hbm, ⟨2, _⟩ => ⟨S50x2000, .i32⟩
  | .hbm, ⟨3, _⟩ => ⟨S100000, .i32⟩
  | .hbm, ⟨4, _⟩ => ⟨S_, .i32⟩
  | .hbm, ⟨5, _⟩ => ⟨S100000, .i32⟩
  | .hbm, ⟨6, _⟩ => ⟨S100000, .i1⟩
  | .hbm, ⟨7, _⟩ => ⟨S_, .i32⟩
  | .hbm, ⟨8, _⟩ => ⟨S100000, .i32⟩
  | .hbm, ⟨9, _⟩ => ⟨S100000, .i32⟩
  | .hbm, ⟨10, _⟩ => ⟨S100000, .i32⟩
  | .hbm, ⟨11, _⟩ => ⟨S100000x1, .i32⟩
  | .hbm, ⟨12, _⟩ => ⟨S100000x512, .f32⟩
  | .hbm, ⟨13, _⟩ => ⟨S50x2000, .f32⟩
  | .hbm, ⟨14, _⟩ => ⟨S100000, .f32⟩
  | .hbm, ⟨15, _⟩ => ⟨S100000x1, .f32⟩
  | .hbm, ⟨16, _⟩ => ⟨S100000x512, .f32⟩
  | .hbm, ⟨17, _⟩ => ⟨S100000x512, .f32⟩
  | .hbm, ⟨18, _⟩ => ⟨S512x100000, .f32⟩
  | .hbm, ⟨19, _⟩ => ⟨S51200000, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S50x2000_S100000 : S50x2000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S50_S50x2000_0 : S50.BroadcastsInDim S50x2000 (![0] : Fin 1 → Fin S50x2000.rank)
  bcast_S100000x1_S100000x512_0_1 : S100000x1.BroadcastsInDim S100000x512 (![0, 1] : Fin 2 → Fin S100000x512.rank)
  transposes_S100000x512_S512x100000_1_0 : S100000x512.Transposes [1, 0] S512x100000
  shapeCasts_S512x100000_S51200000 : S512x100000.ShapeCasts S51200000
  gather_S20000x512_S100000x1_S100000x512_1_0_n_n_0_1_1512_wf : GatherDims.WF S20000x512 S100000x1 S100000x512 [1] [0] [] [0] [] 1 ![1, 512]

variable [Facts₀]

def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic
open Idealize.ShloMosaic.ValueIdx (ix1 ix2)

abbrev SX : Shape := ⟨2, ![20000, 512]⟩
abbrev SW : Shape := ⟨1, ![50]⟩
abbrev SI : Shape := ⟨2, ![50, 2000]⟩
abbrev SO : Shape := ⟨1, ![51200000]⟩

/-- Output position `p = q · 100000 + k` (`q < 512`, `k < 100000`): its column `q` of `x`, -/
def colOf (p : Fin 51200000) : Fin 512 := ⟨p.val / 100000, by have := p.isLt; omega⟩
/-- its draw `k`, -/
def drawOf (p : Fin 51200000) : Fin 100000 := ⟨p.val % 100000, Nat.mod_lt _ (by decide)⟩
/-- the draw's cell type `k / 2000` and position `k % 2000` within it. -/
def ctOf (k : Fin 100000) : Fin 50 := ⟨k.val / 2000, by have := k.isLt; omega⟩
def posOf (k : Fin 100000) : Fin 2000 := ⟨k.val % 2000, Nat.mod_lt _ (by decide)⟩

/-- The row of `x` draw `k` names: `idx[k / 2000, k % 2000]` (read as its residue mod 20000 when out of range; under
    the precondition it is in range). -/
def rowOf (idx : SI.Idx → BitVec 32) (k : Fin 100000) : Fin 20000 :=
  ⟨(idx (ix2 (ctOf k) (posOf k))).toNat % 20000, Nat.mod_lt _ (by decide)⟩

/-- The result, index by index: `out[q · 100000 + k] = x[idx[k], q] · weight[k / 2000]` — each drawn row of `x` scaled by
    its cell type's weight, the scaled matrix transposed and flattened. -/
def G (x : SX.Idx → EReal) (w : SW.Idx → EReal) (idx : SI.Idx → BitVec 32) : SO.Idx → EReal :=
  fun p => x (ix2 (rowOf idx (drawOf (p 0))) (colOf (p 0))) * w (ix1 (ctOf (drawOf (p 0))))

end Cert.Spec

end
-- ==== Proof.RefValue.lean ====
/-
  The reference computes the specification, index by index.

  The reference draws rows of `x : [20000, 512]` at the 100000 row numbers `idx` (flattened from `[50, 2000]`), scales row
  `k` by `weight[k / 2000]`, transposes the `[100000, 512]` matrix and flattens it: output position `p = q · 100000 + k`
  holds `x[idx[k], q] · weight[k / 2000]`. Two details stand between its operations and that sentence. A row number is
  first wrapped, `select (v < 0) (v + 20000) v` with a signed comparison; and the gather reads its start index signed
  and clamps it into `[0, 19999]`. For a word `v` whose unsigned value is below 20000 both are the identity: `v` is
  non-negative as a signed integer, so the comparison fails and `select` returns `v`; and its signed value is its
  unsigned value, at most 19999, so the clamp returns it. Under that hypothesis on every entry of `idx` the reference's
  result is `Cert.Spec.G`.
-/
import proofs.«415070_j29162827940274_1_alg».proof.Proof.Gen.ReferenceIdeal.Run
import proofs.«415070_j29162827940274_1_alg».proof.Proof.Gen.ReferenceIdeal.Read
import proofs.«415070_j29162827940274_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## The row gather read at an index -/

/-- The gather's dimension numbers: operand `[20000, 512]`, start indices `[100000, 1]`, result `[100000, 512]`; axis 0
    of the operand is collapsed and named by the start index, axis 1 is the result's offset axis, slices are `[1, 512]`. -/
abbrev rowDims := gather_S20000x512_S100000x1_S100000x512_1_0_n_n_0_1_1512

/-- Result element `(k, q)` of the row gather is the operand at row `s[k, 0]` — read signed and clamped into
    `[0, 19999]` — and column `q`: on operand axis 0 the start index alone contributes (the axis is collapsed and not a
    batching axis), on axis 1 the offset coordinate `q` alone (the start index map does not name it). -/
theorem gather_rows_apply {α : Type} (x : S20000x512.Idx → α) (s : IVec S100000x1 32) (k : Fin 100000) (q : Fin 512) :
    Host.gather gather_S20000x512_S100000x1_S100000x512_1_0_n_n_0_1_1512 x s (ix2 k q)
      = x (ix2 ⟨min (s (ix2 k (0 : Fin 1))).toInt.toNat 19999, by omega⟩ q) := by
  unfold Host.gather
  congr 1
  funext a
  refine Fin.ext ?_
  match a with
  | ⟨0, _⟩ =>
    show rowDims.start (ix2 k q) s 0 + rowDims.batchCoord (ix2 k q) 0 + rowDims.offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix2 k q) ⟨List.idxOf (0 : Fin 2) rowDims.startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show rowDims.start (ix2 k q) s 1 + rowDims.batchCoord (ix2 k q) 1 + rowDims.offCoord (ix2 k q) 1 = _
    have h1 : (1 : Fin 2) ∉ rowDims.startIndexMap := fun h => absurd (List.mem_singleton.mp h) (by decide)
    have hk : (1 : Fin 2) ∈ rowDims.sKept := (GatherDims.mem_sKept _ _).mpr
      ⟨fun h => absurd (List.mem_singleton.mp h) (by decide), List.not_mem_nil⟩
    rw [GatherDims.batchCoord_eq_zero _ _ _ List.not_mem_nil]
    unfold GatherDims.start GatherDims.offCoord
    rw [dif_neg h1, dif_pos hk]
    simp only [Nat.zero_add, Nat.add_zero]
    rfl

/-- The same with the row named: whenever the clamped start index is the row `r`. -/
theorem gather_rows_at {α : Type} (x : S20000x512.Idx → α) (s : IVec S100000x1 32) (k : Fin 100000) (q : Fin 512)
    (r : Fin 20000) (hr : min (s (ix2 k (0 : Fin 1))).toInt.toNat 19999 = r.val) :
    Host.gather gather_S20000x512_S100000x1_S100000x512_1_0_n_n_0_1_1512 x s (ix2 k q) = x (ix2 r q) :=
  (gather_rows_apply x s k q).trans (congrArg (fun r' : Fin 20000 => x (ix2 r' q)) (Fin.ext hr))

/-! ## Row numbers in range pass the wrap and the clamp unchanged -/

/-- A word below 20000 is non-negative as a signed integer: the wrap `select (v < 0) (v + 20000) v` keeps it. -/
theorem wrap_eq (v : BitVec 32) (hv : v.toNat < 20000) :
    Scalar.select (IntOp.cmpi .slt v 0#32) (IntOp.addi v 20000#32) v = v := by
  have hne : ¬ IntOp.cmpi .slt v 0#32 = 1#1 := fun h => by
    have := (Predicate.slt_iff_toNat (a := v) (b := 0#32) (by omega) (by decide)).mp h
    exact absurd this (Nat.not_lt_zero _)
  exact if_neg hne

/-- Such a word read signed and clamped into `[0, 19999]` is its own value (which is its residue modulo 20000). -/
theorem clamp_eq (v : BitVec 32) (hv : v.toNat < 20000) : min v.toInt.toNat 19999 = v.toNat % 20000 := by
  rw [Predicate.toInt_eq_toNat_of_lt (a := v) (by omega), Int.toNat_natCast, Nat.mod_eq_of_lt hv]
  omega

/-- The start index of draw `k` is `idx[k / 2000, k % 2000]`: the flattening reads `idx` there, and the wrap keeps it. -/
theorem start_eq (idx : IVec S50x2000 32) (hidx : ∀ i, (idx i).toNat < 20000) (k : Fin 100000) :
    val_main_v6 (F := Ideal) idx (ix2 k (0 : Fin 1)) = idx (ix2 (Cert.Spec.ctOf k) (Cert.Spec.posOf k)) := by
  have hi : idx_main_v0 (idx_main_v6 (ix2 k (0 : Fin 1))) = ix2 (Cert.Spec.ctOf k) (Cert.Spec.posOf k) :=
    funext fun a => Fin.ext (by match a with | ⟨0, _⟩ => rfl | ⟨1, _⟩ => rfl)
  rw [val_main_v6_apply, val_main_v5_apply, val_main_v2_apply, val_main_v4_apply, val_main_v0_apply, val_main_v1_apply,
    val_main_c_apply, val_main_v3_apply, val_main_c_0_apply, hi]
  exact wrap_eq _ (hidx _)

/-! ## The reference's result is the specification -/

/-- At output position `p = q · 100000 + k` the flattening and the transposition read the scaled matrix at `(k, q)`; there
    the gather holds `x[idx[k / 2000, k % 2000], q]` and the broadcast weight is `weight[k / 2000]`. -/
theorem result_eq_G (x : FVec Ideal S20000x512 .f32) (w : FVec Ideal S50 .f32) (idx : IVec S50x2000 32)
    (hidx : ∀ i, (idx i).toNat < 20000) :
    Read.val_main_v14 (F := Ideal) x w idx = Cert.Spec.G x w idx := by
  funext p
  obtain ⟨p0, rfl⟩ : ∃ p0 : Fin 51200000, p = ix1 p0 := ⟨p 0, eq_ix1 p⟩
  have hi : idx_main_v13 (idx_main_v14 (ix1 p0)) = ix2 (Cert.Spec.drawOf p0) (Cert.Spec.colOf p0) :=
    funext fun a => Fin.ext (by match a with | ⟨0, _⟩ => rfl | ⟨1, _⟩ => rfl)
  have hw : idx_main_v8 (idx_main_v9 (idx_main_v10 (idx_main_v11 (ix2 (Cert.Spec.drawOf p0) (Cert.Spec.colOf p0)))))
      = ix1 (Cert.Spec.ctOf (Cert.Spec.drawOf p0)) :=
    funext fun a => Fin.ext (by match a with | ⟨0, _⟩ => rfl)
  have hr : min (val_main_v6 (F := Ideal) idx (ix2 (Cert.Spec.drawOf p0) (0 : Fin 1))).toInt.toNat 19999
      = (Cert.Spec.rowOf idx (Cert.Spec.drawOf p0)).val := by
    rw [start_eq idx hidx]; exact clamp_eq _ (hidx _)
  rw [val_main_v14_apply, val_main_v13_apply, val_main_v12_apply, val_main_v11_apply, val_main_v10_apply,
    val_main_v9_apply, val_main_v8_apply, hi, hw]
  unfold val_main_v7
  rw [gather_rows_at x _ _ _ _ hr]
  rfl

/-- The same for the composed term of the three argument arrays, which is the last stage by definition. -/
theorem result_term_eq_G (x : FVec Ideal S20000x512 .f32) (w : FVec Ideal S50 .f32) (idx : IVec S50x2000 32)
    (hidx : ∀ i, (idx i).toNat < 20000) :
    shapeCast _ (transpose S512x100000 [1, 0] (mulf (Host.gather gather_S20000x512_S100000x1_S100000x512_1_0_n_n_0_1_1512 (x) (broadcastInDim S100000x1 ![0] bcast_S100000_S100000x1_0 (select (cmpi .slt (shapeCast _ (idx) shapeCasts_S50x2000_S100000) (broadcastInDim S100000 ![] bcast_S_S100000 (constantI S_ 32 0#32))) (addi (shapeCast _ (idx) shapeCasts_S50x2000_S100000) (broadcastInDim S100000 ![] bcast_S_S100000 (constantI S_ 32 20000#32))) (shapeCast _ (idx) shapeCasts_S50x2000_S100000)))) (broadcastInDim S100000x512 ![0, 1] bcast_S100000x1_S100000x512_0_1 (broadcastInDim S100000x1 ![0] bcast_S100000_S100000x1_0 (shapeCast _ (broadcastInDim S50x2000 ![0] bcast_S50_S50x2000_0 (w)) shapeCasts_S50x2000_S100000)))) transposes_S100000x512_S512x100000_1_0) shapeCasts_S512x100000_S51200000
      = Cert.Spec.G x w idx :=
  (Read.val_main_v14_eq (F := Ideal) x w idx).trans (result_eq_G x w idx hidx)

end Cert.ReferenceIdeal.RefValue

end
-- ==== Proof.KernelIdealCommon.lean ====
import proofs.«415070_j29162827940274_1_alg».proof.Proof.Gen.KernelIdeal
import proofs.«415070_j29162827940274_1_alg».proof.Proof.Gen.KernelIdeal.Skeleton
import proofs.«415070_j29162827940274_1_alg».proof.Proof.Gen.KernelIdeal.Launch
import Idealize.ShloMosaic.Lib.Transfers
import Idealize.ShloMosaic.Lib.Batch
import Idealize.ShloMosaic.Lib.Writes
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's cells beside the counters of the kernel's own transfers. -/
abbrev UC : Type := UR sig nD τ × Counters
local notation "𝕄" => MT nD τ sig Unit (Elt F) ℕ UC ℕ

/-- A memref's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The gathered array `x` (left in HBM), the table of row numbers (in SMEM), the scratch the rows are gathered into,
    and the one cell all 128 copies of a grid point complete on. -/
abbrev xM : Memref sig .tc .hbm S20000x512 .f32 := Memref.whole main_arg0
abbrev tabM : Memref sig .tc .smem S100096 .i32 := Memref.whole main_v3
abbrev gM : Memref sig .tc .vmem S128x512 .f32 := Memref.whole cc0_scratch0
abbrev semL : SemLoc sig := SemLoc.dma cc0_scratch1.sem

/-- Every word of the table names a row of `x`. -/
def TabOk (c : Dev nD) (tab : Bf (F := F) c tabM) : Prop := ∀ i, ((tab i : BitVec 32)).toNat < 20000

/-- A row number below 20000 keeps the one-row slice `[v, v+1) × [0, 512)` inside `x`: what the body assumes of each
    word it reads from the table (once for the copy's start, once for its wait). -/
theorem chk_and (v : BitVec 32) (h : v.toNat < 20000) :
    (∀ a, (![v.toNat, 0] : Fin 2 → Nat) a + S1x512.size a ≤ S20000x512.size a) ∧
    (∀ a, (![v.toNat, 0] : Fin 2 → Nat) a + S1x512.size a ≤ S20000x512.size a) := by
  have h1 : ∀ a, (![v.toNat, 0] : Fin 2 → Nat) a + S1x512.size a ≤ S20000x512.size a := by
    intro a; fin_cases a
    · show v.toNat + 1 ≤ 20000; omega
    · show 0 + 512 ≤ 512; omega
  exact ⟨h1, h1⟩

theorem chk_one (v : BitVec 32) (h : v.toNat < 20000) :
    (∀ a, (![v.toNat, 0] : Fin 2 → Nat) a + S1x512.size a ≤ S20000x512.size a) := (chk_and v h).1

/-- A points-to at share `q` is its two halves, and back: 128 copies may read the same row of `x` at once, so `x` is
    held as 128 fractions of the whole array, one lent to each copy. -/
theorem tok_split {ℓ : Loc nD τ sig} {S : Finset (Idx ℓ)} {f : Buf (Elt F) ℓ} (q : PosShare TreeShare) :
    (ℓ ↦[S]{q} f : sProp 𝕄) ⊢ iprop((ℓ ↦[S]{q.left} f) ∗ ℓ ↦[S]{q.right} f) :=
  (pointsTo_share (PosShare.mem_left_op_right _)).1
theorem tok_join {ℓ : Loc nD τ sig} {S : Finset (Idx ℓ)} {f : Buf (Elt F) ℓ} (q : PosShare TreeShare) :
    iprop((ℓ ↦[S]{q.left} f) ∗ ℓ ↦[S]{q.right} f) ⊢ (ℓ ↦[S]{q} f : sProp 𝕄) :=
  (pointsTo_share (PosShare.mem_left_op_right _)).2

open Lean Elab Tactic in
/-- Split the hypothesis `Hx` into 128 fractions: `Hx` keeps the left half 127 times over, `Hx_i` is the right half
    split off at step `i`. -/
elab "peel_shares" : tactic => do
  for i in [0:127] do
    let s := s!"(ihave Hpeel := (tok_split _) $$ Hx; icases Hpeel with ⟨Hx, Hx_{i}⟩)"
    match Parser.runParserCategory (← getEnv) `tactic s with
    | .ok stx => evalTactic stx
    | .error e => throwError e

open Lean Elab Tactic in
/-- The converse: join the 128 fractions back into `Hx` at the full share, last split first. -/
elab "join_shares" : tactic => do
  for k in [0:127] do
    let i := 126 - k
    let s := s!"(ihave Hx := (tok_join _) $$ [Hx Hx_{i}]; · (isplitl [Hx] <;> iassumption))"
    match Parser.runParserCategory (← getEnv) `tactic s with
    | .ok stx => evalTactic stx
    | .error e => throwError e

end Cert.KernelIdeal.Hand

end
-- ==== Proof.KernelIdealData.lean ====
import proofs.«415070_j29162827940274_1_alg».proof.Proof.KernelIdealCommon
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)

/-! ## The buffers when the region is entered -/

/-- The host operations of @main before the region: the row numbers flattened and padded with 96 zeros, the weights
    repeated 2000 times each, flattened, and padded with 96 zeros. -/
abbrev preOps : List (HloOp τ sig (Elt F)) := hostOps0 ++ hostOps0_1 ++ hostOps0_2 ++ hostOps0_3

/-- Core `c`'s buffers at launch; -/
abbrev V₀ (c : Dev nD) : Valuation τ sig (Elt F) := fun b => m ((c : Dev nD), b)

/-- and when the region is entered. -/
def V (c : Dev nD) (b : Ref sig .tc) : Buf (Elt F) ((c : Thread nD τ).loc b) := StableHlo.after (preOps (F := F)) (V₀ m c) b

/-- The table of row numbers the kernel reads (100096 words: the 100000 of `idx`, then zeros). -/
def tab (c : Dev nD) : Bf (F := F) c tabM := V m c main_v3

/-- The tables' contents the pipeline runs at: the launch's (any contents are admissible: no index map reads them). -/
def adm : (pcfg0 (F := F)).Adm := ⟨fun k => V m 0 (pre0.ref k), trivial⟩

/-- The pipeline there. -/
abbrev cfgA : Pipeline.Cfg sig Λ₀ := cfg0 (adm m)

/-! ## What a grid point computes -/

/-- Row `r` of `x` (a row number out of range read as its residue: under the precondition there is none). -/
def xrow (c : Dev nD) (r : Nat) (q : Fin 512) : Elt F .f32 :=
  V m c main_arg0 (ix2 (⟨r % 20000, Nat.mod_lt _ (by decide)⟩ : Fin 20000) q)

/-- The 128 row numbers of grid point `t`: words `128 t … 128 t + 127` of the table. -/
def rowAt (c : Dev nD) (t : Fin 782) (j : Fin 128) : Nat :=
  ((tab m c (ix1 (⟨128 * t.val + j.val, by have := t.isLt; have := j.isLt; omega⟩ : Fin 100096)) : BitVec 32)).toNat

/-- The block gathered at point `t`: row `j` is row `rowAt t j` of `x`. -/
def gath (c : Dev nD) (t : Fin 782) : S128x512.Idx → Elt F .f32 := fun i => xrow m c (rowAt m c t (i 0)) (i 1)

/-- The weights' block at point `t`: entries `128 t … 128 t + 127` of the padded, repeated weights. -/
def wblk (c : Dev nD) (t : Fin 782) : S128.Idx → Elt F .f32 :=
  fun i => V m c main_v4 (ix1 (⟨128 * t.val + (i 0).val, by have := t.isLt; have h : (i 0).val < 128 := (i 0).isLt; omega⟩ : Fin 100096))

/-- What the body leaves in the output's staging buffer at point `t`: the gathered block, each row scaled by its weight,
    transposed — entry `(q, j)` is `x[row j, q] · w[j]`. Stated through the body's own pure terms. -/
def outBlk (c : Dev nD) (t : Fin 782) : S512x128.Idx → Elt F .f32 := k0_pay1 (k0_pay2 (wblk m c t) (gath m c t))

/-! ## The proof data -/

/-- What the body keeps between grid points: `x` whole at its launch contents, the table (the body's half), the scratch
    at anything, the kernel's cell at zero, the core's generator register at anything. -/
def Φc (c : Dev nD) : sProp 𝕄 :=
  iprop(pt c xM (V m c main_arg0) ∗ (tabM.view.loc (c : Thread nD τ) ↦{fullShare.right} tab m c)
    ∗ (∃ g : Bf (F := F) c gM, pt c gM g) ∗ semVal ((c : Thread nD τ), semL) 0 ∗ (∃ r : PrngReg, prngReg c r))

/-- The proof data of the one pipeline on core `c`: the arrays at their contents when the region is entered; after the
    body at point `t` the weights' staging buffer as fetched and the output's at `outBlk t`; the same invariant at
    every point; nothing owed; full shares. -/
def dats (_ : Fin 1) (c : Dev nD) : Pipeline.Dat τ (Elt F) Unit ℕ UC ℕ (cfgA m) c where
  A w := V m c (Pipeline.arrRef spec0 w)
  after w t := match w with
    | ⟨0, _⟩ => wblk m c t
    | ⟨1, _⟩ => outBlk m c t
  Φ _ := Φc m c
  q _ := fullShare
  owed _ := 0

/-- The output array after the run, as the library computes it from the blocks written back. -/
def finalOut (c : Dev nD) : Buf (Elt F) ((spec0 1).arr.view.loc (c : Thread nD τ)) := (dats m 0 c).arrAt 1 (cfgA m).N

end Cert.KernelIdeal.Hand

end
-- ==== Proof.KernelIdealPre.lean ====
/-
  The buffers a core holds when the region is entered, and the precondition read as a bound on the row numbers.

  Before the region @main runs four stretches of host operations: `idx` [50, 2000] is flattened row-major to 100000
  words and padded with 96 zero words (the table the kernel reads its row numbers from); `weight` [50] is laid along the
  rows of a 50 × 2000 rectangle (weight r repeated 2000 times), flattened row-major, and padded with 96 entries. No
  operation writes an argument. So, entry by entry: word k of the table, k < 100000, is idx[k / 2000, k % 2000]; the last
  96 words are 0; entry k of the padded weights, k < 100000, is weight[k / 2000].

  The precondition is a conjunction of four `all`s over the inputs. Its last two say that every entry of `idx` is, as a
  signed 32-bit word, at least 0 and below 20000; such a word is below 20000 as a natural number. Every word of the padded
  table is then below 20000: it is an entry of `idx` or it is 0.
-/
import proofs.«415070_j29162827940274_1_alg».proof.Proof.KernelIdealData
import proofs.«415070_j29162827940274_1_alg».proof.Proof.Spec
import proofs.«415070_j29162827940274_1_alg».proof.Defs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)

/-! ## The buffers when the region is entered, in closed form

Four stretches of host operations run before the region. None writes an argument; the table of row numbers is `idx`
flattened row-major and padded with 96 zeros; the weights are each repeated 2000 times (a broadcast along a new second
axis), flattened row-major, and padded with 96 entries. -/

/-- No host operation writes `x`: it holds its launch contents when the region is entered. -/
theorem V_arg0 (c : Dev nD) : V m c main_arg0 = m ((c : Thread nD τ).loc main_arg0) := by
  unfold V
  simp only [preOps, hostOps0, hostOps0_1, hostOps0_2, hostOps0_3, List.cons_append, List.nil_append]
  after_results

/-- Nor the weights, -/
theorem V_arg1 (c : Dev nD) : V m c main_arg1 = m ((c : Thread nD τ).loc main_arg1) := by
  unfold V
  simp only [preOps, hostOps0, hostOps0_1, hostOps0_2, hostOps0_3, List.cons_append, List.nil_append]
  after_results

/-- nor the row numbers. -/
theorem V_arg2 (c : Dev nD) : V m c main_arg2 = m ((c : Thread nD τ).loc main_arg2) := by
  unfold V
  simp only [preOps, hostOps0, hostOps0_1, hostOps0_2, hostOps0_3, List.cons_append, List.nil_append]
  after_results

/-- The table: `idx` read row-major as one axis of 100000 words, then 96 zero words. -/
theorem pre_tab_eq (c : Dev nD) :
    (V m c main_v3 : S100096.Idx → BitVec 32)
      = pad S100096 ![0] ![96] ![0]
          (shapeCast S100000 (m ((c : Thread nD τ).loc main_arg2) : S50x2000.Idx → BitVec 32) shapeCasts_S50x2000_S100000)
          (constantI S_ 32 0#32) pads_S100000_S100096_0960 h_S_ := by
  unfold V
  simp only [preOps, hostOps0, hostOps0_1, hostOps0_2, hostOps0_3, List.cons_append, List.nil_append]
  after_results
  rfl

/-- The padded weights: weight `r` laid along row `r` of a 50 × 2000 rectangle, the rectangle read row-major as one axis
    of 100000 entries, then 96 entries of the padding value (the word 0 converted). -/
theorem pre_wpad_eq (c : Dev nD) :
    (V m c main_v4 : S100096.Idx → F .f32)
      = pad S100096 ![0] ![96] ![0]
          (shapeCast S100000
            (broadcastInDim S50x2000 ![0] bcast_S50_S50x2000_0 (m ((c : Thread nD τ).loc main_arg1) : S50.Idx → F .f32))
            shapeCasts_S50x2000_S100000)
          (sitofp .f32 (constantI S_ 32 0#32) : FVec F S_ .f32) pads_S100000_S100096_0960 h_S_ := by
  unfold V
  simp only [preOps, hostOps0, hostOps0_1, hostOps0_2, hostOps0_3, List.cons_append, List.nil_append]
  after_results
  rfl

/-! ## The table and the padded weights, entry by entry -/

/-- Position `k` of the flattened `idx` is its entry `(k / 2000, k % 2000)`. -/
theorem pre_flat_apply {α : Type} (x : S50x2000.Idx → α) (k : Fin 100000) :
    shapeCast S100000 x shapeCasts_S50x2000_S100000 (ix1 k) = x (ix2 (Cert.Spec.ctOf k) (Cert.Spec.posOf k)) := by
  refine shapeCast_apply x _ (ix1 k) (ix2 (Cert.Spec.ctOf k) (Cert.Spec.posOf k)) ?_
  rw [Shape.rowMajor_val_two, Shape.rowMajor_val_one]
  show (k.val / 2000) * 2000 + k.val % 2000 = k.val
  omega

/-- Word `k` of the table, `k` below 100000, is `idx[k / 2000, k % 2000]`. -/
theorem tab_apply (c : Dev nD) (k : Fin 100000) :
    (tab m c (ix1 (⟨k.val, by have := k.isLt; omega⟩ : Fin 100096)) : BitVec 32)
      = m ((c : Thread nD τ).loc main_arg2) (ix2 (Cert.Spec.ctOf k) (Cert.Spec.posOf k)) := by
  refine (congrFun (pre_tab_eq m c) _).trans ?_
  refine (pad_apply_of_inside _ _ _ _ _ _ _ _ (ix1 k) (fun a => match a with
    | ⟨0, _⟩ => by show k.val = 0 + k.val * (0 + 1); omega)).trans ?_
  exact pre_flat_apply _ k

/-- The last 96 words of the table are zero. -/
theorem tab_apply_pad (c : Dev nD) (k : Fin 100096) (hk : 100000 ≤ k.val) : (tab m c (ix1 k) : BitVec 32) = 0#32 := by
  refine (congrFun (pre_tab_eq m c) _).trans ?_
  refine (pad_apply_of_not_inside _ _ _ _ _ _ _ (ix1 k) (⟨0, Nat.one_pos⟩ : Fin 1) ?_).trans rfl
  rintro ⟨_, _, h3⟩
  have h3' : (k.val - 0) / (0 + 1) < 100000 := h3
  omega

/-- Entry `k` of the padded weights, `k` below 100000, is weight `k / 2000`. -/
theorem wpad_apply (c : Dev nD) (k : Fin 100000) :
    V m c main_v4 (ix1 (⟨k.val, by have := k.isLt; omega⟩ : Fin 100096))
      = m ((c : Thread nD τ).loc main_arg1) (ix1 (Cert.Spec.ctOf k)) := by
  refine (congrFun (pre_wpad_eq m c) _).trans ?_
  refine (pad_apply_of_inside _ _ _ _ _ _ _ _ (ix1 k) (fun a => match a with
    | ⟨0, _⟩ => by show k.val = 0 + k.val * (0 + 1); omega)).trans ?_
  refine (pre_flat_apply _ k).trans ?_
  refine broadcastInDim_apply _ _ _ _ (ix1 (Cert.Spec.ctOf k)) (fun a => match a with
    | ⟨0, _⟩ => by
      show (Cert.Spec.ctOf k).val = if (50 : Nat) = 1 then 0 else (Cert.Spec.ctOf k).val
      rw [if_neg (by decide)])

/-! ## The precondition, decoded -/

/-- A word that is at least 0 and below 20000 as a signed word is below 20000 as a natural number. -/
theorem pre_toNat_lt_of_signed (w : BitVec 32) (h0 : IntOp.cmpi .sge w 0#32 = 1#1) (h1 : IntOp.cmpi .slt w 20000#32 = 1#1) :
    w.toNat < 20000 := by
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

variable [Cert.Pre_finite_inputs.Facts]

/-- The printed precondition is a conjunction of four `all`s; the last two say of every entry of `idx` that it is at
    least 0 and below 20000 as a signed word. So every row number is below 20000. -/
theorem idx_lt_of_fn (c : Dev nD)
    (h : Cert.Pre_finite_inputs.fn (F := F) (m ((c : Thread nD τ).loc main_arg0)) (m ((c : Thread nD τ).loc main_arg1))
      (m ((c : Thread nD τ).loc main_arg2)) = fun _ => 1#1) :
    ∀ i, ((m ((c : Thread nD τ).loc main_arg2) i : BitVec 32)).toNat < 20000 := by
  intro i
  haveI : Subsingleton Cert.Pre_finite_inputs.S_.Idx := ⟨fun a b => funext fun d => d.elim0⟩
  have e := congrFun h ValueIdx.ix0
  dsimp only [Cert.Pre_finite_inputs.fn, Cert.Pre_finite_inputs.fn_part1] at e
  obtain ⟨e12, e15⟩ := IntOp.andi_eq_one.1 e
  obtain ⟨_, e11⟩ := IntOp.andi_eq_one.1 e12
  have hge := Host.reduce_andi_all _ _ _ _ _ e11 i
  have hlt := Host.reduce_andi_all _ _ _ _ _ e15 i
  exact pre_toNat_lt_of_signed _ hge hlt

/-- Carried to the padded table: a word below position 100000 is an entry of `idx`, the rest are zero. -/
theorem tabOk_of_fn (c : Dev nD)
    (h : Cert.Pre_finite_inputs.fn (F := F) (m ((c : Thread nD τ).loc main_arg0)) (m ((c : Thread nD τ).loc main_arg1))
      (m ((c : Thread nD τ).loc main_arg2)) = fun _ => 1#1) :
    TabOk c (tab m c) := by
  show ∀ i : S100096.Idx, ((tab m c i : BitVec 32)).toNat < 20000
  intro i
  obtain ⟨k, rfl⟩ : ∃ k : Fin 100096, i = ix1 k := ⟨i 0, ValueIdx.eq_ix1 i⟩
  by_cases hk : k.val < 100000
  · have e : (tab m c (ix1 k) : BitVec 32) = _ := tab_apply m c ⟨k.val, hk⟩
    rw [e]
    exact idx_lt_of_fn m c h _
  · rw [tab_apply_pad m c k (by omega)]
    decide

end Cert.KernelIdeal.Hand

end
-- ==== Proof.KernelIdealRows.lean ====
import proofs.«415070_j29162827940274_1_alg».proof.Proof.KernelIdealCommon
import Idealize.ShloMosaic.Lib.Pipeline.Kit
import Idealize.ShloMosaic.Lib.ValueIdx

/-! # The scratch buffer held row by row

The kernel's scratch (128 rows of 512 words) is filled by 128 copies, copy `j` landing in row `j`, and then read whole.
While the copies are in flight the buffer is held as 128 separate points-to facts, one per row; before and after, as
one. This module is that split and join — the rows are pairwise disjoint and cover the buffer — and the index facts
that read or write one row: index `y` of row `j` is element `(j, y 0)`. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

/-- Row `j` of a 128-row buffer lies inside it: `[j, j+1) × [0, 512)`. -/
theorem row_inb (j : Fin 128) : ∀ a, (![j.val, 0] : Fin 2 → Nat) a + S1x512.size a ≤ S128x512.size a := by
  intro a; fin_cases a
  · show j.val + 1 ≤ 128; have := j.isLt; omega
  · show 0 + 512 ≤ 512; omega

/-- Row `j` of the scratch, as the body spells it (the body writes the literal `j` and its own name for the bound;
    equal by unfolding). -/
abbrev rowM (j : Fin 128) : Memref sig .tc .vmem S512 .f32 :=
  (gM.slice (Rect.unit (s := S128x512) ![j.val, 0] S1x512.size (row_inb j)) (fun _ => rfl)).squeeze S512 squeezes_S1x512_S512

/-- The 128 rows held one by one, row `j` at contents `f j` (a contents function of the WHOLE buffer: only its values
    on row `j` matter). -/
def rowsHeld (c : Dev nD) (f : Fin 128 → Bf (F := F) c gM) : sProp 𝕄 :=
  bigSepL (List.finRange 128) fun j => ((rowM j).view.loc (c : Thread nD τ) ↦[(rowM j).view.set]{fullShare} f j)

/-- The elements under row `j`: the unit-stride rectangle `[j, j+1) × [0, 512)` (dropping the axis of size one keeps
    the elements; a rectangle of a whole buffer covers its own element set). -/
theorem rowM_set (j : Fin 128) :
    (rowM j).view.set = (Rect.unit (s := S128x512) ![j.val, 0] S1x512.size (row_inb j)).set := by
  show ((gM.view.slice _).reshape S512 _).set = _
  rw [View.set_reshape]
  exact View.set_slice_whole _ _

/-- An element lies under row `j` exactly when its row coordinate is `j`. -/
theorem mem_rowM_set (j : Fin 128) (i : S128x512.Idx) : i ∈ (rowM j).view.set ↔ (i 0).val = j.val := by
  rw [rowM_set, Rect.mem_set_unit, Fin.forall_fin_two]
  show (j.val ≤ (i 0).val ∧ (i 0).val < j.val + 1) ∧ (0 ≤ (i 1).val ∧ (i 1).val < 0 + 512) ↔ (i 0).val = j.val
  have h1 : (i 1).val < 512 := (i 1).isLt
  omega

/-- The elements under row `j`, as elements of core `c`'s scratch buffer. -/
abbrev rowSet (c : Dev nD) (j : Fin 128) : Finset (Idx (gM.view.loc (c : Thread nD τ))) := (rowM j).view.set

/-- Distinct rows share no element: they differ in the row coordinate. -/
theorem rowSet_disjoint (c : Dev nD) (t t' : Fin 128) (h : t ≠ t') : Disjoint (rowSet c t) (rowSet c t') := by
  show Disjoint (rowM t).view.set (rowM t').view.set
  rw [rowM_set, rowM_set]
  refine Rect.unit_disjoint 0 ?_
  show t.val + 1 ≤ t'.val ∨ t'.val + 1 ≤ t.val
  have : t.val ≠ t'.val := fun e => h (Fin.ext e)
  omega

/-- Every element of the buffer lies in its row. -/
theorem rowSet_cover (c : Dev nD) : (Finset.univ : Finset (Fin 128)).biUnion (rowSet c) = Finset.univ := by
  ext i
  simp only [Finset.mem_biUnion, Finset.mem_univ, true_and, iff_true]
  exact ⟨⟨(i 0).val, (i 0).isLt⟩, (mem_rowM_set _ i).mpr rfl⟩

/-- All 128 row numbers, as a list without repetition. -/
theorem univ_eq_finRange : (Finset.univ : Finset (Fin 128)) = (List.finRange 128).toFinset := by
  ext j; simp only [Finset.mem_univ, List.mem_toFinset, List.mem_finRange]

/-- The whole buffer at `g` is its 128 rows, each at `g`: the rows are pairwise disjoint and cover the buffer. -/
theorem rows_split (c : Dev nD) (g : Bf (F := F) c gM) : pt c gM g ⊢ rowsHeld c (fun _ => g) := by
  unfold rowsHeld
  rw [← bigSep_univ_eq_bigSepL (List.finRange 128) univ_eq_finRange (List.nodup_finRange 128)]
  show (gM.view.loc (c : Thread nD τ) ↦[Finset.univ]{fullShare} g : sProp 𝕄)
    ⊢ bigSep Finset.univ fun j : Fin 128 => gM.view.loc (c : Thread nD τ) ↦[rowSet c j]{fullShare} g
  rw [← pointsTo_biUnion (ℓ := gM.view.loc (c : Thread nD τ)) Finset.univ (rowSet c) (fun t _ t' _ h => rowSet_disjoint c t t' h),
    rowSet_cover c]

/-- The 128 rows, row `j` at `f j`, are the whole buffer at any `G` that agrees with `f j` on row `j`: the pieces join to
    some contents agreeing with each piece on its row, and that is `G` everywhere since every element is in some row. -/
theorem rows_join (c : Dev nD) (f : Fin 128 → Bf (F := F) c gM) (G : Bf (F := F) c gM)
    (h : ∀ j, ∀ i ∈ (rowM j).view.set, f j i = G i) : rowsHeld c f ⊢ pt c gM G := by
  unfold rowsHeld
  rw [← bigSep_univ_eq_bigSepL (List.finRange 128) univ_eq_finRange (List.nodup_finRange 128)]
  have hj : (bigSep Finset.univ fun j : Fin 128 => gM.view.loc (c : Thread nD τ) ↦[rowSet c j]{fullShare} f j)
      ⊢ (iprop(∃ g, ⌜∀ t ∈ Finset.univ, ∀ i ∈ rowSet c t, g i = f t i⌝
          ∗ gM.view.loc (c : Thread nD τ) ↦[Finset.univ.biUnion (rowSet c)]{fullShare} g) : sProp 𝕄) :=
    pointsTo_biUnion_join (ℓ := gM.view.loc (c : Thread nD τ)) Finset.univ (rowSet c) f G
      (fun t _ t' _ h => rowSet_disjoint c t t' h)
  rw [rowSet_cover c] at hj
  refine hj.trans ?_
  iintro H
  icases H with ⟨%g, %hg, H⟩
  have e : (gM.view.loc (c : Thread nD τ) ↦[Finset.univ]{fullShare} g : sProp 𝕄) = pt c gM G :=
    pointsTo_congr fun i _ => by
      let j : Fin 128 := ⟨(i 0).val, (i 0).isLt⟩
      have hi : i ∈ (rowM j).view.set := (mem_rowM_set j i).mpr rfl
      exact (hg j (Finset.mem_univ _) i hi).trans (h j i hi)
  rw [← e]
  iexact H

/-! ## Reading and writing one row -/

/-- The one-row rectangle `[r, r+1) × [0, m)` of an `n × m` shape, indexed by the `m`-vector left when its axis of size one
    is dropped: index `y` is the element of row `r` in column `y 0`. -/
theorem unit_row_emb {n m : Nat} (r : Nat) (hr : r < n)
    (inb : ∀ a, (![r, 0] : Fin 2 → Nat) a + (![1, m] : Fin 2 → Nat) a ≤ (⟨2, ![n, m]⟩ : Shape).size a)
    (h : (⟨1, ![m]⟩ : Shape).numel = (⟨2, ![1, m]⟩ : Shape).numel) (y : (⟨1, ![m]⟩ : Shape).Idx) :
    (Rect.unit (s := ⟨2, ![n, m]⟩) ![r, 0] ![1, m] inb).emb (Shape.reshapeEquiv h y) = ix2 (⟨r, hr⟩ : Fin n) (y 0) := by
  rw [Shape.reshapeEquiv_cons_one]
  funext a
  match a with
  | ⟨0, _⟩ => exact Fin.ext (show r + 1 * 0 = r by omega)
  | ⟨1, _⟩ => exact Fin.ext (show 0 + 1 * (y 0).val = (y 0).val by omega)

/-- Index `y` of row `j` is element `(j, y 0)` of the scratch. -/
theorem rowM_emb (j : Fin 128) (y : S512.Idx) : ((rowM j).view.emb y : S128x512.Idx) = ix2 j (y 0) :=
  unit_row_emb j.val j.isLt (row_inb j) _ y

/-- The one-row slice of `x` at a run-time row `v` (a copy's source), as the body spells it. -/
abbrev xsl (v : BitVec 32) (hv : ∀ a, (![v.toNat, 0] : Fin 2 → Nat) a + S1x512.size a ≤ S20000x512.size a) :
    Memref sig .tc .hbm S512 .f32 :=
  (xM.slice (Rect.unit (s := S20000x512) ![v.toNat, 0] S1x512.size hv) (fun _ => rfl)).squeeze S512 squeezes_S1x512_S512

/-- Index `y` of that slice is element `(v, y 0)` of `x`. -/
theorem xsl_emb (v : BitVec 32) (hv) (hlt : v.toNat < 20000) (y : S512.Idx) :
    ((xsl v hv).view.emb y : S20000x512.Idx) = ix2 (⟨v.toNat, hlt⟩ : Fin 20000) (y 0) :=
  unit_row_emb v.toNat hlt hv _ y

/-- Reading the slice reads row `v` of `x`. -/
theorem xsl_read (c : Dev nD) (v : BitVec 32) (hv) (hlt : v.toNat < 20000) (fx : Bf (F := F) c xM) (y : S512.Idx) :
    (xsl v hv).view.read (Elt F) fx y = fx (ix2 (⟨v.toNat, hlt⟩ : Fin 20000) (y 0)) :=
  (cast_eq _ _).trans (congrArg fx (xsl_emb v hv hlt y))

/-- A full write through row `j` leaves the payload at the row's elements. -/
theorem row_write_emb (c : Dev nD) (j : Fin 128) (g : Bf (F := F) c gM) (w : S512.Idx → Elt F .f32) (y : S512.Idx) :
    (rowM j).view.write (Elt F) g w Finset.univ ((rowM j).view.emb y) = w y :=
  (View.write_emb_of_mem (v := (rowM j).view) (Val := Elt F) g w (Finset.mem_univ y)).trans (cast_eq _ _)

/-- The same at the element `(j, q)` written by its coordinates. -/
theorem row_write_ix (c : Dev nD) (j : Fin 128) (g : Bf (F := F) c gM) (w : S512.Idx → Elt F .f32) (q : Fin 512) :
    (rowM j).view.write (Elt F) g w Finset.univ (ix2 j q) = w (ix1 q) :=
  (congrArg (fun i => (rowM j).view.write (Elt F) g w Finset.univ i) (rowM_emb j (ix1 q)).symm).trans
    (row_write_emb c j g w (ix1 q))

/-- The join with the agreement stated coordinate by coordinate: row `j`'s contents and `G` agree at every `(j, q)`. -/
theorem rows_join_ix (c : Dev nD) (f : Fin 128 → Bf (F := F) c gM) (G : Bf (F := F) c gM)
    (h : ∀ (j : Fin 128) (q : Fin 512), f j (ix2 j q) = G (ix2 j q)) : rowsHeld c f ⊢ pt c gM G :=
  rows_join c f G fun j i hi => by
    have e : (i 0).val = j.val := (mem_rowM_set j i).mp hi
    have hi' : i = ix2 j (i 1) := by
      funext a
      match a with
      | ⟨0, _⟩ => exact Fin.ext e
      | ⟨1, _⟩ => rfl
    rw [hi']; exact h j (i 1)

/-! ## The row chain, one row at a time -/

/-- The rows from `k` on, held one by one. -/
def rowsFrom (c : Dev nD) (f : Fin 128 → Bf (F := F) c gM) (k : ℕ) : sProp 𝕄 :=
  bigSepL ((List.finRange 128).drop k) fun j => ((rowM j).view.loc (c : Thread nD τ) ↦[(rowM j).view.set]{fullShare} f j)

theorem rowsHeld_eq_from (c : Dev nD) (f : Fin 128 → Bf (F := F) c gM) : rowsHeld c f = rowsFrom c f 0 := rfl

/-- The row numbers from `k` on are `k` and then those from `k + 1` on. -/
theorem finRange_drop (k : ℕ) (hk : k < 128) :
    (List.finRange 128).drop k = (⟨k, hk⟩ : Fin 128) :: (List.finRange 128).drop (k + 1) := by
  rw [List.drop_eq_getElem_cons (by rw [List.length_finRange]; exact hk)]
  congr 1
  apply Fin.ext
  simp

/-- The rows from `k` on are row `k` and the rows from `k + 1` on. -/
theorem rowsFrom_succ (c : Dev nD) (f : Fin 128 → Bf (F := F) c gM) (k : ℕ) (hk : k < 128) :
    rowsFrom c f k = iprop(((rowM ⟨k, hk⟩).view.loc (c : Thread nD τ) ↦[(rowM ⟨k, hk⟩).view.set]{fullShare} f ⟨k, hk⟩)
      ∗ rowsFrom c f (k + 1)) := by
  unfold rowsFrom
  rw [finRange_drop k hk, bigSepL_cons]
  rfl

theorem rowsFrom_peel (c : Dev nD) (f : Fin 128 → Bf (F := F) c gM) (k : ℕ) (hk : k < 128) :
    rowsFrom c f k ⊢ iprop(((rowM ⟨k, hk⟩).view.loc (c : Thread nD τ) ↦[(rowM ⟨k, hk⟩).view.set]{fullShare} f ⟨k, hk⟩)
      ∗ rowsFrom c f (k + 1)) :=
  Entails.of_eq (rowsFrom_succ c f k hk)

theorem rowsFrom_unpeel (c : Dev nD) (f : Fin 128 → Bf (F := F) c gM) (k : ℕ) (hk : k < 128) :
    iprop(((rowM ⟨k, hk⟩).view.loc (c : Thread nD τ) ↦[(rowM ⟨k, hk⟩).view.set]{fullShare} f ⟨k, hk⟩)
      ∗ rowsFrom c f (k + 1)) ⊢ rowsFrom c f k :=
  Entails.of_eq (rowsFrom_succ c f k hk).symm

/-- Past the last row nothing is held. -/
theorem rowsFrom_end (c : Dev nD) (f : Fin 128 → Bf (F := F) c gM) : rowsFrom c f 128 = (iprop(emp) : sProp 𝕄) := by
  unfold rowsFrom
  rw [List.drop_of_length_le (by rw [List.length_finRange])]
  rfl

theorem rowsFrom_end_intro (c : Dev nD) (f : Fin 128 → Bf (F := F) c gM) : (iprop(emp) : sProp 𝕄) ⊢ rowsFrom c f 128 :=
  Entails.of_eq (rowsFrom_end c f).symm

theorem rowsFrom_end_elim (c : Dev nD) (f : Fin 128 → Bf (F := F) c gM) : rowsFrom c f 128 ⊢ (iprop(emp) : sProp 𝕄) :=
  Entails.of_eq (rowsFrom_end c f)

/-! ## A row a copy landed in -/

/-- Contents that agree on row `j` hold row `j` alike. -/
theorem row_congr (c : Dev nD) (j : Fin 128) (f G : Bf (F := F) c gM) (h : ∀ i ∈ (rowM j).view.set, f i = G i) :
    ((rowM j).view.loc (c : Thread nD τ) ↦[(rowM j).view.set]{fullShare} f : sProp 𝕄)
      ⊢ ((rowM j).view.loc (c : Thread nD τ) ↦[(rowM j).view.set]{fullShare} G) :=
  Entails.of_eq (pointsTo_congr h)

/-- An element under row `j` is `(j, q)` for its own column `q`. -/
theorem eq_ix2_of_mem_rowM (j : Fin 128) (i : S128x512.Idx) (hi : i ∈ (rowM j).view.set) : i = ix2 j (i 1) := by
  have e : (i 0).val = j.val := (mem_rowM_set j i).mp hi
  funext a
  match a with
  | ⟨0, _⟩ => exact Fin.ext e
  | ⟨1, _⟩ => rfl

/-- Row `j` after row `v` of `x` was copied into it is the gathered row, on the row's elements: any `G` whose row `j` is
    row `v` of `x` agrees there with the scratch written through row `j` with what the source slice reads. -/
theorem land_row (c : Dev nD) (j : Fin 128) (g : Bf (F := F) c gM) (fx : Bf (F := F) c xM) (v : BitVec 32)
    (hv : ∀ a, (![v.toNat, 0] : Fin 2 → Nat) a + S1x512.size a ≤ S20000x512.size a) (hlt : v.toNat < 20000)
    (G : Bf (F := F) c gM) (hG : ∀ q : Fin 512, G (ix2 j q) = fx (ix2 (⟨v.toNat, hlt⟩ : Fin 20000) q)) :
    ∀ i ∈ (rowM j).view.set,
      (rowM j).view.write (Elt F) g (ReadAs.same.apply ((xsl v hv).view.read (Elt F) fx)) Finset.univ i = G i := by
  intro i hi
  rw [eq_ix2_of_mem_rowM j i hi]
  exact (row_write_ix c j g _ (i 1)).trans ((xsl_read c v hv hlt fx (ix1 (i 1))).trans (hG (i 1)).symm)

/-- A full write through the whole rectangle of a view is the full write through the view. -/
theorem write_slice_whole {sg : RefSig} {κ : Kind} {sp : Space} {s : Shape} {e : EltTy} {Val : EltTy → Type}
    (v : View sg κ sp s e) (f : v.ty.Contents Val) (w : s.Idx → Val e) :
    (v.slice (Rect.whole s)).write Val f w Finset.univ = v.write Val f w Finset.univ := by
  funext i
  by_cases hi : i ∈ v.set
  · obtain ⟨x, -, rfl⟩ := Finset.mem_map.mp hi
    have e : v.emb x = (v.slice (Rect.whole s)).emb x := by
      show v.emb x = v.emb ((Rect.whole s).emb x)
      rw [Rect.emb_whole_apply]
    conv_lhs => rw [e, View.write_emb_of_mem _ _ (Finset.mem_univ _)]
    rw [View.write_emb_of_mem _ _ (Finset.mem_univ _)]
  · rw [View.write_of_not_mem _ _ _ (by rwa [View.setOn_univ, View.set_slice, Rect.set_whole]),
      View.write_of_not_mem _ _ _ (by rwa [View.setOn_univ])]

/-- The same with the copy recorded as one listed write at the row's whole rectangle. -/
theorem land_row_writes (c : Dev nD) (j : Fin 128) (g : Bf (F := F) c gM) (fx : Bf (F := F) c xM) (v : BitVec 32)
    (hv : ∀ a, (![v.toNat, 0] : Fin 2 → Nat) a + S1x512.size a ≤ S20000x512.size a) (hlt : v.toNat < 20000)
    (G : Bf (F := F) c gM) (hG : ∀ q : Fin 512, G (ix2 j q) = fx (ix2 (⟨v.toNat, hlt⟩ : Fin 20000) q)) :
    ∀ i ∈ (rowM j).view.set,
      (rowM j).view.writes (Elt F) g [⟨Rect.whole S512, ReadAs.same.apply ((xsl v hv).view.read (Elt F) fx)⟩] i = G i := by
  intro i hi
  rw [View.writes_singleton, write_slice_whole]
  exact land_row c j g fx v hv hlt G hG i hi

end Cert.KernelIdeal.Hand

end
-- ==== Proof.KernelIdealLand.lean ====
import proofs.«415070_j29162827940274_1_alg».proof.Proof.KernelIdealRows

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

/-- The block gathered at grid point `t` out of `fx` by the table `tb`: row `j` is row `tb[128 t + j]` of `fx` (a row
    number out of range read as its residue: under the precondition there is none). -/
def gathOf (fx : S20000x512.Idx → Elt F .f32) (tb : S100096.Idx → BitVec 32) (t : Fin 782) : S128x512.Idx → Elt F .f32 :=
  fun i => fx (ix2 (⟨(tb (ix1 (⟨128 * t.val + (i 0).val, by have := t.isLt; have h : (i 0).val < 128 := (i 0).isLt; omega⟩ : Fin 100096))).toNat % 20000,
    Nat.mod_lt _ (by decide)⟩ : Fin 20000) (i 1))

/-- On the one-axis grid a point's coordinate is its number. -/
theorem coords0 (t : Fin grid0.N) : (grid0.coords t 0).val = t.val := by
  have ht : t.val < 782 := t.isLt
  show t.val / 1 % 782 = t.val
  rw [Nat.div_one, Nat.mod_eq_of_lt ht]

/-- A one-word rectangle has an element. -/
theorem load_pos (off : Fin 1 → Nat) (hinb : ∀ a, off a + S1.size a ≤ S100096.size a) :
    0 < (Rect.unit (s := S100096) off S1.size hinb).toLoadRect.shape.numel := by
  show 0 < S1.numel
  decide

/-- A one-word load of the table at offset `n` reads word `n`. -/
theorem tab_word (c : Dev nD) (tab : Bf (F := F) c tabM) (off : Fin 1 → Nat) (hinb : ∀ a, off a + S1.size a ≤ S100096.size a)
    (h0 : 0 < (Rect.unit (s := S100096) off S1.size hinb).toLoadRect.shape.numel) (n : ℕ) (hn : n < 100096) (hoff : off = ![n]) :
    (View.readAt (Elt F) tabM.view (Rect.unit (s := S100096) off S1.size hinb).toLoadRect tab (Shape.Idx.first h0) : BitVec 32)
      = tab (ix1 (⟨n, hn⟩ : Fin 100096)) := by
  subst hoff
  refine congrArg tab (funext fun a => ?_)
  match a with
  | ⟨0, _⟩ => exact Fin.ext (by show n + 1 * 0 = n; omega)

/-- Row `j` of the gathered block, when the word `v` is entry `128 t + j` of the table and names a row of `x`. -/
theorem gath_row (fx : S20000x512.Idx → Elt F .f32) (tb : S100096.Idx → BitVec 32) (t : Fin 782) (j : Fin 128)
    (hn : 128 * t.val + j.val < 100096) (v : BitVec 32) (hlt : v.toNat < 20000)
    (hw : v = tb (ix1 (⟨128 * t.val + j.val, hn⟩ : Fin 100096))) (q : Fin 512) :
    gathOf fx tb t (ix2 j q) = fx (ix2 (⟨v.toNat, hlt⟩ : Fin 20000) q) := by
  subst hw
  show fx (ix2 ⟨_ % 20000, _⟩ q) = _
  congr 2
  exact Fin.ext (Nat.mod_eq_of_lt hlt)

/-- A row a copy has landed in holds the gathered row: the copy of grid point `t` into row `j` reads row `v` of `x`,
    `v` the word the body loaded from the table at offset `128 t + j`. -/
theorem row_land (c : Dev nD) (t : Fin grid0.N) (tab : Bf (F := F) c tabM) (htab : TabOk c tab) (fx : Bf (F := F) c xM)
    (g : Bf (F := F) c gM) (j : Fin 128) (off : Fin 1 → Nat) (hinb : ∀ a, off a + S1.size a ≤ S100096.size a)
    (hoff : off = ![128 * (grid0.coords t 0).val + j.val]) :
    ((rowM j).view.loc (c : Thread nD τ) ↦[(rowM j).view.set]{fullShare}
        (rowM j).view.writes (Elt F) g [⟨Rect.whole S512, ReadAs.same.apply ((xsl
          (View.readAt (Elt F) tabM.view (Rect.unit (s := S100096) off S1.size hinb).toLoadRect tab (Shape.Idx.first (load_pos off hinb)))
          (chk_one _ (htab _))).view.read (Elt F) fx)⟩] : sProp 𝕄)
      ⊢ ((rowM j).view.loc (c : Thread nD τ) ↦[(rowM j).view.set]{fullShare} (gathOf fx tab t : Bf (F := F) c gM)) := by
  have ht : t.val < 782 := t.isLt
  have hn : 128 * t.val + j.val < 100096 := by have := j.isLt; omega
  have hw := tab_word c tab off hinb (load_pos off hinb) (128 * t.val + j.val) hn (by rw [hoff, coords0])
  refine row_congr c j _ _ (land_row_writes c j g fx _ (chk_one _ (htab _)) (htab _) _ (fun q => ?_))
  exact gath_row fx tab t j hn _ (htab _) hw q

/-- The same with the copy's payload named `P`: the run names each payload, and `hP` unfolds the name. -/
theorem row_land' (c : Dev nD) (t : Fin grid0.N) (tab : Bf (F := F) c tabM) (htab : TabOk c tab) (fx : Bf (F := F) c xM)
    (g : Bf (F := F) c gM) (j : Fin 128) (off : Fin 1 → Nat) (hinb : ∀ a, off a + S1.size a ≤ S100096.size a)
    (hoff : off = ![128 * (grid0.coords t 0).val + j.val]) (P : S512.Idx → Elt F .f32)
    (hP : P = ReadAs.same.apply ((xsl
          (View.readAt (Elt F) tabM.view (Rect.unit (s := S100096) off S1.size hinb).toLoadRect tab (Shape.Idx.first (load_pos off hinb)))
          (chk_one _ (htab _))).view.read (Elt F) fx)) :
    ((rowM j).view.loc (c : Thread nD τ) ↦[(rowM j).view.set]{fullShare}
        (rowM j).view.writes (Elt F) g [⟨Rect.whole S512, P⟩] : sProp 𝕄)
      ⊢ ((rowM j).view.loc (c : Thread nD τ) ↦[(rowM j).view.set]{fullShare} (gathOf fx tab t : Bf (F := F) c gM)) := by
  subst hP
  exact row_land c t tab htab fx g j off hinb hoff

/-- The last row by itself is the chain of rows from 127 on. -/
theorem rowsFrom_last (c : Dev nD) (f : Fin 128 → Bf (F := F) c gM) (h : 127 < 128) :
    ((rowM ⟨127, h⟩).view.loc (c : Thread nD τ) ↦[(rowM ⟨127, h⟩).view.set]{fullShare} f ⟨127, h⟩ : sProp 𝕄)
      ⊢ rowsFrom c f 127 := by
  refine BIBase.Entails.trans ?_ (rowsFrom_unpeel c f 127 h)
  iintro H
  isplitl [H]
  · iexact H
  · iapply (rowsFrom_end_intro c f)
    iempintro

end Cert.KernelIdeal.Hand

end
-- ==== Proof.KernelIdealBody.lean ====
import proofs.«415070_j29162827940274_1_alg».proof.Proof.KernelIdealLand

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

open Lean Elab Tactic in
/-- Turn `Hrows : rowsFrom c f 0` into the hypotheses `Hg_0 … Hg_127`, one per row of the scratch. -/
elab "peel_rows" : tactic => do
  for j in [0:128] do
    let s := s!"(ihave Hpeel := (rowsFrom_peel _ _ {j} (of_decide_eq_true rfl)) $$ Hrows; icases Hpeel with ⟨Hg_{j}, Hrows⟩)"
    match Parser.runParserCategory (← getEnv) `tactic s with
    | .ok stx => evalTactic stx
    | .error e => throwError e

open Lean Elab Tactic in
/-- Row `j`, once its copy has landed, holds row `j` of the gathered block (`row_land`, at the offset `128 t + j` of the
    table load that named the copy's source). -/
elab "land_rows" : tactic => do
  for j in [0:128] do
    let k := 2 * j + 1
    let s := s!"(ihave Hg_{j} := (row_land' c t tab htab fx g ⟨{j}, of_decide_eq_true rfl⟩ (k0_off{k} (grid0.coords t)) (Gen.k0_off{k}_inb (grid0.coords t)) (Gen.k0_off{k}_eq (grid0.coords t)) (kernelRun.sl.dma{k} c t tab htab fx) (by first | rfl | (simp only [kernelRun.sl.dma{k}]; rfl))) $$ Hg_{j})"
    match Parser.runParserCategory (← getEnv) `tactic s with
    | .ok stx => evalTactic stx
    | .error e => throwError e

open Lean Elab Tactic in
/-- The 128 rows, each at the gathered block, back into the chain `Hrows : rowsFrom c _ 0`, last row first. -/
elab "fold_rows" : tactic => do
  let first := "(ihave Hrows := (rowsFrom_last c (fun _ => (gathOf fx tab t : Bf (F := F) c gM)) (of_decide_eq_true rfl)) $$ Hg_127)"
  match Parser.runParserCategory (← getEnv) `tactic first with
  | .ok stx => evalTactic stx
  | .error e => throwError e
  for k in [0:127] do
    let j := 126 - k
    let s := s!"(ihave Hrows := (rowsFrom_unpeel c (fun _ => (gathOf fx tab t : Bf (F := F) c gM)) {j} (of_decide_eq_true rfl)) $$ [Hg_{j} Hrows]; · (isplitl [Hg_{j}] <;> iassumption))"
    match Parser.runParserCategory (← getEnv) `tactic s with
    | .ok stx => evalTactic stx
    | .error e => throwError e

set_option sl_exec.stepHeartbeats 4000000 in
set_option maxHeartbeats 400000000 in
/-- The body at a grid point `t`, run once at symbolic operands. From the weights' staging buffer `M3` at `f3`, the output's staging
    buffer `M4` at anything, the table (a half share) with every word a row of `x`, `x` whole, the scratch and the cell at
    zero. `x` is split into 128 fractions of the whole array and the scratch into its 128 rows; the 128 copies are started on
    the one cell, copy `j` reading its row of `x` through fraction `j` and landing in row `j`; the 128 waits drain the cell,
    the last handing every row and every fraction back. Each row then holds its row of the gathered block; the rows are
    joined, the scratch is read whole, scaled by the weights and stored transposed. `W` is what the body leaves in `M4`. -/
noncomputable def kernelRun [∀ e, Nonempty (Elt F e)] (c : Dev nD) (t : Fin grid0.N)
    (M3 : Memref sig .tc .vmem S128 .f32) (h3 : M3.IsWhole) (M4 : Memref sig .tc .vmem S512x128 .f32) (h4 : M4.IsWhole)
    (tab : Bf (F := F) c tabM) (htab : TabOk c tab) (fx : Bf (F := F) c xM) (g : Bf (F := F) c gM) (f3 : Bf (F := F) c M3) :
    { W : Bf (F := F) c M4 //
      ∀ (f4 : Bf (F := F) c M4) (W₀ : Waits sig Unit) (Q : PUnit → sProp 𝕄),
        iprop(pt c M3 f3 ∗ pt c M4 f4
            ∗ (tabM.view.loc (c : Thread nD τ) ↦{fullShare.right} tab)
            ∗ pt c xM fx ∗ pt c gM g
            ∗ semVal ((c : Thread nD τ), semL) 0 ∗ owes (c : Thread nD τ) 0 W₀
            ∗ (iprop(pt c M3 f3 ∗ pt c M4 W
                ∗ (tabM.view.loc (c : Thread nD τ) ↦{fullShare.right} tab)
                ∗ pt c xM fx ∗ (∃ g', pt c gM g')
                ∗ semVal ((c : Thread nD τ), semL) 0 ∗ (∃ W₁, owes (c : Thread nD τ) 0 W₁)) -∗ Q ⟨⟩))
          ⊢ wp frame (wpE (defs₀ (F := F)) Variants.none c none) Set.univ
              (cc0__gather_scale_transpose_kernel (F := F) (grid0.coords t) tabM (Memref.isWhole_whole _) xM (Memref.isWhole_whole _)
                M3 h3 M4 h4 gM (Memref.isWhole_whole _) cc0_scratch1) Q } := by
  have _plan : Transfers.BatchOf (c : Thread nD τ) semL 128 (windows := false) := trivial
  refine ⟨?_, fun f4 W₀ Q => ?run⟩
  case run =>
    iintro ⟨H3, H4, Htab, Hx, Hg, Hs, HO, Hk⟩
    peel_shares
    ihave Hrows := ((rows_split c g).trans (Entails.of_eq (rowsHeld_eq_from c _))) $$ Hg
    peel_rows
    sl_exec (disch := first | exact chk_and _ (htab _) | exact chk_one _ (htab _))
    land_rows
    fold_rows
    ihave Hg := ((Entails.of_eq (rowsHeld_eq_from c _).symm).trans (rows_join c _ (gathOf fx tab t) (fun _ _ _ => rfl))) $$ Hrows
    sl_exec! (disch := first | exact chk_and _ (htab _) | exact chk_one _ (htab _))
    sl_step
    iapply Hk
    isplitl [H3]; · iexact H3
    isplitl [H4]; · iexact H4
    isplitl [Htab]; · iexact Htab
    isplitr [Hg Hs HO]
    · join_shares
      iexact Hx
    isplitl [Hg]; · iexists _; iexact Hg
    isplitl [Hs]; · iexact Hs
    iexists _; iexact HO

end Cert.KernelIdeal.Hand

end
-- ==== Proof.KernelIdealReadBack.lean ====
import proofs.«415070_j29162827940274_1_alg».proof.Proof.KernelIdealCommon
import Idealize.ShloMosaic.Lib.Writes
import Idealize.ShloMosaic.Lib.Pipeline.Value
import Idealize.ShloMosaic.Lib.ValueIdx

/-! # Reading back what the body's last steps leave

The body's tail loads the weights' block and the gathered scratch through the whole rectangle of each buffer (sizes the
buffer's own, offsets zero) and stores the scaled, transposed block through the whole rectangle of the output's
staging buffer. A load through a whole rectangle reads what the view reads; a store through it, read back, is the
stored block, whatever the buffer held before. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

/-! ## The zero offsets, as the body spells them -/

theorem off1_zero : (![0] : Fin 1 → Nat) = fun _ => 0 := by
  funext a
  match a with
  | ⟨0, _⟩ => rfl

theorem off2_zero : (![0, 0] : Fin 2 → Nat) = fun _ => 0 := by
  funext a
  match a with
  | ⟨0, _⟩ => rfl
  | ⟨1, _⟩ => rfl

/-! ## Loads through the whole rectangle -/

/-- Of any 128-vector `X`, the whole rectangle reads `X`. -/
theorem ld_S128 (X : S128.Idx → Elt F .f32) :
    View.ld X (Rect.unit (s := S128) ![0] S128.size inb_S128_S128_0) = X :=
  View.ld_unit_zero off1_zero _ X

/-- Of any 128 × 512 block. -/
theorem ld_S128x512 (X : S128x512.Idx → Elt F .f32) :
    View.ld X (Rect.unit (s := S128x512) ![0, 0] S128x512.size inb_S128x512_S128x512_0_0) = X :=
  View.ld_unit_zero off2_zero _ X

/-- Of any 512 × 128 block. -/
theorem ld_S512x128 (X : S512x128.Idx → Elt F .f32) :
    View.ld X (Rect.unit (s := S512x128) ![0, 0] S512x128.size inb_S512x128_S512x128_0_0) = X :=
  View.ld_unit_zero off2_zero _ X

/-- The load of the weights' block reads what the block's view reads. -/
theorem ld_M3 (c : Dev nD) (M3 : Memref sig .tc .vmem S128 .f32) (f3 : Bf (F := F) c M3) :
    M3.view.readAt (Elt F) (Rect.unit (s := S128) ![0] S128.size inb_S128_S128_0).toLoadRect f3 = M3.view.read (Elt F) f3 :=
  ld_S128 (M3.view.read (Elt F) f3)

/-- The whole scratch reads as its contents. -/
theorem read_gM (c : Dev nD) (G : Bf (F := F) c gM) : gM.view.read (Elt F) G = (G : S128x512.Idx → Elt F .f32) :=
  funext fun _ => cast_eq _ _

/-- The load of the scratch reads its contents. -/
theorem ld_gM (c : Dev nD) (G : Bf (F := F) c gM) :
    gM.view.readAt (Elt F) (Rect.unit (s := S128x512) ![0, 0] S128x512.size inb_S128x512_S128x512_0_0).toLoadRect G
      = (G : S128x512.Idx → Elt F .f32) :=
  (ld_S128x512 (gM.view.read (Elt F) G)).trans (read_gM c G)

/-- The load of the output's staging buffer reads what its view reads. -/
theorem ld_M4 (c : Dev nD) (M4 : Memref sig .tc .vmem S512x128 .f32) (f4 : Bf (F := F) c M4) :
    M4.view.readAt (Elt F) (Rect.unit (s := S512x128) ![0, 0] S512x128.size inb_S512x128_S512x128_0_0).toLoadRect f4
      = M4.view.read (Elt F) f4 :=
  ld_S512x128 (M4.view.read (Elt F) f4)

/-! ## A store through the whole rectangle, read back -/

/-- Through any view: one store through the rectangle of the view's own sizes at zero offsets, read back through the
    view, is the stored block, whatever the buffer held. -/
theorem read_writes_unit_zero {sg : RefSig} {κ : Kind} {sp : Space} {S : Shape} {e : EltTy} {Val : EltTy → Type}
    (v : View sg κ sp S e) {off : Fin S.rank → Nat} (h : off = fun _ => 0) (inb : ∀ a, off a + S.size a ≤ S.size a)
    (f : v.ty.Contents Val) (P : S.Idx → Val e) :
    v.read Val (v.writes Val f [⟨Rect.unit off S.size inb, P⟩]) = P := by
  subst h
  funext y
  have e := View.read_writes_cons_emb v f (Rect.whole S) P [] y
  rw [Rect.emb_whole_apply] at e
  exact e

/-- The body's store of the block `P` into the output's staging buffer, read back: `P`. -/
theorem read_store_M4 (c : Dev nD) (M4 : Memref sig .tc .vmem S512x128 .f32) (h4 : M4.IsWhole) (f4 : Bf (F := F) c M4)
    (P : S512x128.Idx → Elt F .f32) :
    M4.view.read (Elt F)
      (M4.view.writes (Elt F) f4 [⟨Rect.unit (s := S512x128) ![0, 0] S512x128.size inb_S512x128_S512x128_0_0, P⟩]) = P :=
  read_writes_unit_zero M4.view off2_zero _ f4 P

/-- The same with the store written as one write through the rectangle's view. -/
theorem read_store_M4' (c : Dev nD) (M4 : Memref sig .tc .vmem S512x128 .f32) (h4 : M4.IsWhole) (f4 : Bf (F := F) c M4)
    (P : S512x128.Idx → Elt F .f32) :
    M4.view.read (Elt F)
      ((M4.view.slice (Rect.unit (s := S512x128) ![0, 0] S512x128.size inb_S512x128_S512x128_0_0)).write (Elt F) f4 P
        Finset.univ) = P :=
  read_store_M4 c M4 h4 f4 P

/-- The same over a buffer whose prior contents are left unnamed. -/
theorem read_store_M4_junk (c : Dev nD) (M4 : Memref sig .tc .vmem S512x128 .f32) (h4 : M4.IsWhole)
    (P : S512x128.Idx → Elt F .f32) :
    M4.view.read (Elt F)
      (M4.view.writes (Elt F) M4.view.junk
        [⟨Rect.unit (s := S512x128) ![0, 0] S512x128.size inb_S512x128_S512x128_0_0, P⟩]) = P :=
  read_store_M4 c M4 h4 M4.view.junk P

theorem read_store_M4_junk' (c : Dev nD) (M4 : Memref sig .tc .vmem S512x128 .f32) (h4 : M4.IsWhole)
    (P : S512x128.Idx → Elt F .f32) :
    M4.view.read (Elt F)
      ((M4.view.slice (Rect.unit (s := S512x128) ![0, 0] S512x128.size inb_S512x128_S512x128_0_0)).write (Elt F)
        M4.view.junk P Finset.univ) = P :=
  read_store_M4 c M4 h4 M4.view.junk P

end Cert.KernelIdeal.Hand

end
-- ==== Proof.KernelIdealBodyValue.lean ====
import proofs.«415070_j29162827940274_1_alg».proof.Proof.KernelIdealBody
import proofs.«415070_j29162827940274_1_alg».proof.Proof.KernelIdealReadBack

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

set_option maxHeartbeats 4000000 in
/-- What the body leaves in the output's staging buffer, read as a block: the body's one store covers the buffer, its
    payload the transpose of (the scratch read whole, each row scaled by the weight read from `M3`); and the scratch read
    whole is the gathered block, since every row had been rewritten to its row of it before the read. -/
theorem kernelRun_read [∀ e, Nonempty (Elt F e)] (c : Dev nD) (t : Fin grid0.N) (M3 : Memref sig .tc .vmem S128 .f32) (h3 : M3.IsWhole)
    (M4 : Memref sig .tc .vmem S512x128 .f32) (h4 : M4.IsWhole) (tab : Bf (F := F) c tabM) (htab : TabOk c tab) (fx : Bf (F := F) c xM)
    (g : Bf (F := F) c gM) (f3 : Bf (F := F) c M3) :
    M4.view.read (Elt F) (kernelRun c t M3 h3 M4 h4 tab htab fx g f3).1 = k0_pay1 (k0_pay2 (M3.view.read (Elt F) f3) (gathOf fx tab t)) := by
  unfold kernelRun
  dsimp only
  sl_unfold_words
  rw [read_store_M4_junk c M4 h4, ld_M3 c M3 f3, ld_gM c (gathOf fx tab t)]

end Cert.KernelIdeal.Hand

end
-- ==== Proof.KernelIdealObligation.lean ====
import proofs.«415070_j29162827940274_1_alg».proof.Proof.KernelIdealData
import proofs.«415070_j29162827940274_1_alg».proof.Proof.KernelIdealBodyValue
import Idealize.ShloMosaic.Lib.Pipeline.FrameBody
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)
variable [∀ e, Nonempty (Elt F e)]

namespace Obligation

/-- On the one-axis grid a point's coordinate is its number. -/
theorem coords0 (t : Fin grid0.N) : (grid0.coords t 0).val = t.val := by
  have ht : t.val < 782 := t.isLt
  show t.val / 1 % 782 = t.val
  rw [Nat.div_one, Nat.mod_eq_of_lt ht]

/-- The weights' block index at point `t` is `t`: the index map returns the grid coordinate as a 32-bit word, and 782 points fit. -/
theorem idx0 (t : Fin grid0.N) : cc0_transform_1 (grid0.coords t) 0 = t.val := by
  have ht : t.val < 782 := t.isLt
  show (BitVec.ofNat 32 (grid0.coords t 0).val).toNat = t.val
  rw [coords0, BitVec.toNat_ofNat]
  exact Nat.mod_eq_of_lt (by omega)

/-- What a fetch at point `t` leaves in the weights' buffer: no block is cut, so the whole buffer is the array's block, and
    element `j` of block `t` is entry `128 t + j` of the padded weights. -/
theorem fetched0 (c : Dev nD) (t : Fin grid0.N) (d) : (dats m 0 c).fetched 0 t d = wblk m c t := by
  refine funext fun (j : S128.Idx) => ?_
  have hm : ((cfgA m).win 0).moved ((cfgA m).grid.coords t) j = true := rfl
  unfold Pipeline.Dat.fetched Pipeline.Window.fill
  rw [dif_pos hm]
  unfold Pipeline.Dat.blockOf
  rw [View.read_apply]
  show V m c main_v4 ((((cfgA m).win 0).blk t).view.emb fun a => ⟨(j a).val, _⟩) = V m c main_v4 (ix1 ⟨128 * t.val + (j 0).val, _⟩)
  congr 1
  refine funext fun (a : Fin 1) => Fin.ext ?_
  obtain rfl : a = 0 := Subsingleton.elim _ _
  show cc0_transform_1 (grid0.coords t) 0 * 128 + 1 * (j 0).val = 128 * t.val + (j 0).val
  rw [idx0]; omega

/-- The weights' window at any point holds its block: it is an input the body only reads, and no block is cut. -/
theorem before0 (c : Dev nD) (t : Fin grid0.N) (d) : (dats m 0 c).before 0 t d = wblk m c t := by
  rw [Pipeline.Dat.before_in_eq_fetched (dats m 0 c) 0 rfl (fun _ => rfl) (fun _ _ _ => rfl) (fun t' => ?_) t d]
  · exact fetched0 m c t d
  · show ((cfgA m).win 0).cut ((cfgA m).grid.coords t') (wblk m c t') = _
    rw [← fetched0 m c t' (wblk m c t')]
    exact Pipeline.Dat.cut_fetched (dats m 0 c) 0 t' _

/-- The staging memrefs the body is called with at point `t`: the windows' current buffers. -/
abbrev st0 (t : Fin grid0.N) : Memref sig .tc .vmem S128 .f32 := spec0_0.stage ((cfgA m).slots t 0)
abbrev st1 (t : Fin grid0.N) : Memref sig .tc .vmem S512x128 .f32 := spec0_1.stage ((cfgA m).slots t 1)
theorem st0_whole (t : Fin grid0.N) : (st0 m t).IsWhole := hstage0_0 (((cfgA m).slots t 0).cast nbuf0_0)
theorem st1_whole (t : Fin grid0.N) : (st1 m t).IsWhole := hstage0_1 (((cfgA m).slots t 1).cast nbuf0_1)

/-- The body's call at point `t`: the kernel function on the table, `x`, the two current staging buffers, the scratch and the cell. -/
def bodyAt (t : Fin grid0.N) : Prog (TpuEff nD τ sig (Elt F) Λ₀ .tc) PUnit :=
  cc0__gather_scale_transpose_kernel (F := F) (grid0.coords t) tabM (Memref.isWhole_whole _) xM (Memref.isWhole_whole _)
    (st0 m t) (st0_whole m t) (st1 m t) (st1_whole m t) gM (Memref.isWhole_whole _) cc0_scratch1

/-- What the pipeline hands the body of the two current buffers at point `t`: each at what it then holds. -/
def pre0 (c : Dev nD) (t : Fin grid0.N) : sProp 𝕄 :=
  iprop(∃ d, owns (c : Thread nD τ) (st0 m t) fullShare ((dats m 0 c).before 0 t d))
def pre1 (c : Dev nD) (t : Fin grid0.N) : sProp 𝕄 :=
  iprop(∃ d, owns (c : Thread nD τ) (st1 m t) fullShare ((dats m 0 c).before 1 t d))

/-- What the body is called with at point `t`: the invariant, the core's `owes`, the two buffers; -/
def bodyPre (c : Dev nD) (t : Fin grid0.N) : sProp 𝕄 :=
  iprop((dats m 0 c).Φ t.castSucc ∗ (dats m 0 c).owesAt () t.castSucc ∗ pre0 m c t ∗ pre1 m c t)

/-- and what it returns: the invariant, `owes`, the weights' buffer as it was and the output's at the point's block. -/
def bodyPost (c : Dev nD) (t : Fin grid0.N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t))

/-- A whole memref owned at `X` is its buffer held whole at contents that read `X`, -/
theorem owns_whole_elim (c : Dev nD) {sp : Space} {S : Shape} {e : EltTy} {M : Memref sig .tc sp S e} (h : M.IsWhole) (X : S.Idx → Elt F e) :
    (owns (c : Thread nD τ) M fullShare X : sProp 𝕄) ⊢ iprop(∃ f : Bf (F := F) c M, ⌜M.view.read (Elt F) f = X⌝ ∗ pt c M f) := by
  unfold owns; rw [h.set_eq_univ]

/-- and back. -/
theorem owns_whole_intro (c : Dev nD) {sp : Space} {S : Shape} {e : EltTy} {M : Memref sig .tc sp S e} (h : M.IsWhole) (f : Bf (F := F) c M)
    (X : S.Idx → Elt F e) (hX : M.view.read (Elt F) f = X) :
    (pt c M f : sProp 𝕄) ⊢ owns (c : Thread nD τ) M fullShare X := by
  unfold owns; rw [h.set_eq_univ]
  iintro H; iexists f; isplitr; · ipureintro; exact hX
  iexact H

/-- The weights' current buffer is held whole at contents that read the point's block of weights. -/
theorem pre0_open (c : Dev nD) (t : Fin grid0.N) :
    pre0 m c t ⊢ (iprop(∃ f : Bf (F := F) c (st0 m t), ⌜(st0 m t).view.read (Elt F) f = wblk m c t⌝ ∗ pt c (st0 m t) f) : sProp 𝕄) := by
  unfold pre0; simp only [before0]
  exact exists_elim fun _ => owns_whole_elim c (st0_whole m t) (wblk m c t)

/-- The output's current buffer, whatever the body finds in it, is that buffer held whole at some contents. -/
theorem pre1_open (c : Dev nD) (t : Fin grid0.N) : pre1 m c t ⊢ (iprop(∃ f : Bf (F := F) c (st1 m t), pt c (st1 m t) f) : sProp 𝕄) := by
  unfold pre1
  refine exists_elim fun d => (owns_whole_elim c (st1_whole m t) ((dats m 0 c).before 1 t d)).trans ?_
  iintro ⟨%f, -, H⟩
  iexists f; iexact H

/-- The core's `owes` with nothing owed is within any point's bound: every pair is admitted; -/
theorem owes_at (c : Dev nD) (W : Waits sig Unit) (t : Fin ((cfgA m).N + 1)) :
    owes (c : Thread nD τ) 0 W ⊢ ((dats m 0 c).owesAt () t : sProp 𝕄) := by
  unfold Pipeline.Dat.owesAt Pipeline.owesWithin
  iintro H
  rw [show (dats m 0 c).owed t = 0 from rfl]
  iexists W; isplitr; · ipureintro; exact fun _ _ => Or.inl trivial
  iexact H

/-- and what the loop holds of it is `owes` at some recorded set. -/
theorem at_owes (c : Dev nD) (t : Fin ((cfgA m).N + 1)) :
    ((dats m 0 c).owesAt () t : sProp 𝕄) ⊢ iprop(∃ W, owes (c : Thread nD τ) 0 W) := by
  unfold Pipeline.Dat.owesAt Pipeline.owesWithin
  rw [show (dats m 0 c).owed t = 0 from rfl]
  iintro ⟨%W, -, H⟩
  iexists W; iexact H

/-- The body at point `t`, from what the pipeline hands it to what it takes back: the weights' buffer is opened at contents
    that read its block, the output's at whatever it holds, the invariant gives the run its table, `x`, scratch and cell, and the run's
    result in the output's buffer reads the point's block. -/
theorem sound_body (c : Dev nD) (htab : TabOk c (tab m c)) (t : Fin grid0.N) :
    bodyPre m c t ⊢ wp frame (wpE (defs₀ (F := F)) Variants.none c none) Set.univ (bodyAt m t) (fun _ => bodyPost m c t) := by
  unfold bodyPre bodyPost bodyAt
  rw [show (dats m 0 c).Φ t.castSucc = Φc m c from rfl, show (dats m 0 c).Φ t.succ = Φc m c from rfl,
    show (dats m 0 c).after 0 t = wblk m c t from rfl, show (dats m 0 c).after 1 t = outBlk m c t from rfl]
  unfold Φc
  iintro ⟨⟨Hx, Htab, ⟨%g, Hg⟩, Hs, Hr⟩, Ho, H0, H1⟩
  ihave Ho' := (at_owes m c t.castSucc) $$ Ho
  icases Ho' with ⟨%W, HW⟩
  ihave H0' := (pre0_open m c t) $$ H0
  icases H0' with ⟨%f3, %hf3, H3⟩
  ihave H1' := (pre1_open m c t) $$ H1
  icases H1' with ⟨%f4, H4⟩
  iapply ((kernelRun c t (st0 m t) (st0_whole m t) (st1 m t) (st1_whole m t) (tab m c) htab (V m c main_arg0) g f3).2 f4 W _)
  isplitl [H3]; · iexact H3
  isplitl [H4]; · iexact H4
  isplitl [Htab]; · iexact Htab
  isplitl [Hx]; · iexact Hx
  isplitl [Hg]; · iexact Hg
  isplitl [Hs]; · iexact Hs
  isplitl [HW]; · iexact HW
  iintro ⟨H3, H4, Htab, Hx, Hg, Hs, ⟨%W₁, HW⟩⟩
  isplitl [Hx Htab Hg Hs Hr]
  · isplitl [Hx]; · iexact Hx
    isplitl [Htab]; · iexact Htab
    isplitl [Hg]; · iexact Hg
    isplitl [Hs]; · iexact Hs
    iexact Hr
  isplitl [HW]; · iapply (owes_at m c W₁ t.succ); iexact HW
  isplitl [H3]; · iapply (owns_whole_intro c (st0_whole m t) f3 (wblk m c t) hf3); iexact H3
  have hread : (st1 m t).view.read (Elt F) (kernelRun c t (st0 m t) (st0_whole m t) (st1 m t) (st1_whole m t) (tab m c) htab
      (V m c main_arg0) g f3).1 = outBlk m c t := by
    rw [kernelRun_read, hf3]; rfl
  iapply (owns_whole_intro c (st1_whole m t) _ _ hread); iexact H4

end Obligation

open Obligation in
set_option maxRecDepth 100000 in
/-- The pipeline's body obligation: at every point the obligation's pre, program and post are `bodyPre`, the kernel
    function's call and `bodyPost` (no window here is idle, loose or forgotten: the cases reduce). -/
theorem body_obligation (c : Dev nD) (htab : TabOk c (tab m c)) :
    Pipeline.BodyObligationLoose (dats m 0 c) (defs₀ (F := F)) Variants.none () Set.univ := fun t => by
  rw [Gen.bigSep_W0, Gen.bigSep_W0]
  show bodyPre m c t ⊢ wp frame (wpE (defs₀ (F := F)) Variants.none c none) Set.univ (bodyAt m t) (fun _ => bodyPost m c t)
  exact sound_body m c htab t

end Cert.KernelIdeal.Hand

end
-- ==== Proof.KernelIdealLaunch.lean ====
/-
  The launch of @main. @main is nine host operations — the row numbers flattened and padded with zeros to 100096 words,
  the weights repeated 2000 times each, flattened and padded likewise —, then the kernel region, then two more host
  operations: the region's result f32[512, 100096] cut to its first 100000 columns and flattened.

  The region is a pipeline over 782 grid points with one prefetched table (the row numbers), two windows (a block of
  128 weights in, a block [512, 128] of the result out) and a body that moves rows of `x` by copies of its own: `x`
  stays in HBM, is no window's array, and is read through the body's invariant, which holds it whole at every point
  together with the body's half of the table, the scratch the rows are gathered into, the one cell the copies
  complete on (at zero between points) and the generator register. Nothing is in flight between points, so the
  invariant is the same at every point; at the first point it is made of what the launch hands the kernel, at the
  last it gives all of it back.

  From the body's obligation at every point (a hypothesis here) the run follows: every weakly fair execution of @main
  on the TensorCore terminates; at the end the flattened result holds the first 100000 columns of the output array
  as the pipeline computes it from the blocks written back, in row-major order, and the three arguments hold what
  they held at launch (no operation writes them, and the body only reads `x`).
-/
import proofs.«415070_j29162827940274_1_alg».proof.Proof.KernelIdealData
import Idealize.ShloMosaic.Lib.Pipeline.FrameSuffix
import Idealize.ShloMosaic.Lib.Pipeline.Kit
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)

/-! ## The kernel's own cell, the host lines, the buffer the body reads by itself -/

/-- The kernel's own cells on a core: the one DMA semaphore all 128 copies of a grid point complete on. -/
abbrev ownCell : Fin 1 → SemLoc sig := fun _ => semL

/-- It is scoped, and no staging buffer completes on it. -/
theorem ownCell_facts : Pipeline.OwnSemFacts spec0 ownCell := by decide

/-- The four stretches of host operations before the region, and the one after it. -/
abbrev linesBefore : List (List (HloOp τ sig (Elt F))) := [hostOps0, hostOps0_1, hostOps0_2, hostOps0_3]
abbrev linesAfter : List (List (HloOp τ sig (Elt F))) := [hostOps1]

/-- Core `c`'s buffers when the region is entered, as a valuation of all its buffers: the launch contents through the
    nine operations. -/
def entryVal (c : Dev nD) : Valuation τ sig (Elt F) := StableHlo.after (linesBefore (F := F)).flatten (fun b => m (c, b))

/-- On the TensorCore's references it is `V`. -/
theorem V_eq_entryVal (c : Dev nD) (b : Ref sig .tc) : V m c b = entryVal m c (Proc.devRef .tc b) := rfl

/-- The one unscoped buffer the body reads by its own copies: `x`'s. -/
abbrev movedRefs : Finset (Ref sig .tc) := {main_arg0}

/-- It is unscoped, no window's array and no table. -/
theorem movedRefs_sub : movedRefs ⊆ Pipeline.restRefsP sig pre0 spec0 := by decide

/-! ## The two lines after the region touch neither the table nor `x`, and write no array -/

/-- A reference that is neither of two others is, as a device buffer, not in their pair; -/
theorem devRef_not_mem_pair {r x y : Ref sig .tc} (hx : r ≠ x) (hy : r ≠ y) :
    (Proc.devRef .tc r : DevRef τ sig) ∉ ({(x : DevRef τ sig), (y : DevRef τ sig)} : Finset (DevRef τ sig)) := by
  intro h
  rcases Finset.mem_insert.mp h with e | h
  · exact hx (Proc.devRef_injective _ e)
  · exact hy (Proc.devRef_injective _ (Finset.mem_singleton.mp h))

/-- and one that is not another is not in its singleton. -/
theorem devRef_not_mem_one {r y : Ref sig .tc} (hy : r ≠ y) :
    (Proc.devRef .tc r : DevRef τ sig) ∉ ({(y : DevRef τ sig)} : Finset (DevRef τ sig)) := fun h =>
  hy (Proc.devRef_injective _ (Finset.mem_singleton.mp h))

/-- The slice reads the output array and writes its own result, the reshape reads that and writes the flattened result:
    four buffers, none the table, none `x`. -/
theorem linesAfter_within : ∀ ops ∈ (linesAfter (F := F)), ∀ op ∈ ops, op.bufs ⊆ Pipeline.tailRefsBut sig pre0 spec0 movedRefs := by
  intro ops hops op hop
  simp only [List.mem_cons, List.mem_singleton, List.not_mem_nil, or_false] at hops
  subst hops
  simp only [List.mem_cons, List.mem_singleton, List.not_mem_nil, or_false] at hop
  rcases hop with rfl | rfl
  · refine Pipeline.sub_tailRefsBut pre0 spec0 movedRefs _ (StableHlo.unary_bufs_sub ..) (fun k => ?_) (fun b hb => ?_)
    · exact devRef_not_mem_pair (by revert k; decide) (by revert k; decide)
    · obtain rfl : b = main_arg0 := Finset.mem_singleton.mp hb
      exact devRef_not_mem_pair (by decide) (by decide)
  · refine Pipeline.sub_tailRefsBut pre0 spec0 movedRefs _ (StableHlo.reshape_bufs_sub ..) (fun k => ?_) (fun b hb => ?_)
    · exact devRef_not_mem_pair (by revert k; decide) (by revert k; decide)
    · obtain rfl : b = main_arg0 := Finset.mem_singleton.mp hb
      exact devRef_not_mem_pair (by decide) (by decide)

/-- Neither allocates. -/
theorem linesAfter_fresh : ∀ ops ∈ (linesAfter (F := F)), ∀ op ∈ ops, op.fresh = ∅ := by
  intro ops hops op hop
  simp only [List.mem_cons, List.mem_singleton, List.not_mem_nil, or_false] at hops
  subst hops
  simp only [List.mem_cons, List.mem_singleton, List.not_mem_nil, or_false] at hop
  rcases hop with rfl | rfl <;> rfl

/-- Neither writes a window's array (the padded weights, the output array). -/
theorem linesAfter_keep : ∀ ops ∈ (linesAfter (F := F)), ∀ op ∈ ops, ∀ w : Fin 2, Proc.devRef .tc (Pipeline.arrRef spec0 w) ∉ op.writes := by
  intro ops hops op hop w
  simp only [List.mem_cons, List.mem_singleton, List.not_mem_nil, or_false] at hops
  subst hops
  simp only [List.mem_cons, List.mem_singleton, List.not_mem_nil, or_false] at hop
  rcases hop with rfl | rfl
  · exact devRef_not_mem_one (by revert w; decide)
  · exact devRef_not_mem_one (by revert w; decide)

/-! ## @main up to the region, and the table at its entry -/

/-- Holding the unscoped buffers at their launch contents, @main reduces to the region followed by the two lines, holding
    them at the contents after the nine operations. -/
theorem main_around : Pipeline.HMainPK (Ix := Unit) (Name := ℕ) (U := UC) (Lvl := ℕ) pcfgs (0 : Fin 1) (defs₀ (F := F)) Variants.none m main
    (fun c b => entryVal m c (Proc.devRef .tc b)) (fun _ => Pipeline.chain ((linesAfter (F := F)).map StableHlo.seq)) :=
  Pipeline.hmainP_around pcfgs 0 defs₀ Variants.none m main linesBefore linesAfter
    ⟨hostOps0_sub, hostOps0_1_sub, hostOps0_2_sub, hostOps0_3_sub⟩
    ⟨⟨rfl, rfl, rfl, rfl⟩, ⟨rfl, rfl⟩, rfl, ⟨rfl, rfl⟩⟩
    (fun c => main_chain c)

/-- The table the region finds is the table the pipeline runs at (there is one core). -/
theorem entry_table (c : Dev nD) (k : Fin pre0.K) : entryVal m c (Proc.devRef .tc (pre0.ref k)) = (adm m).1 k := by
  obtain rfl : c = 0 := Subsingleton.elim _ _
  rfl

/-! ## The invariant at the first point and at the last -/

omit [FloatOps F] in
/-- The kernel's own cells at zero: the one cell at zero. -/
theorem ownCell_zero (c : Dev nD) :
    (Pipeline.ownSems0 (Ix := Unit) (Name := ℕ) (U := UC) (Lvl := ℕ) (Val := Elt F) (τ := τ) ownCell c : sProp 𝕄)
      = semVal ((c : Thread nD τ), semL) 0 :=
  Pipeline.ownSems0_eq_of_list c ownCell [0] (by decide) (by decide)

omit [FloatOps F] in
/-- The tables held at shares `q`: the one table, at `q 0`. -/
theorem table_held (c : Dev nD) (q : Fin pre0.K → PosShare TreeShare) (v : pre0.Contents (Elt F)) :
    (Pipeline.prefHeld pre0 c q v : sProp 𝕄)
      = (tabM.view.loc (c : Thread nD τ) ↦{q 0} (show Bf (F := F) c tabM from v 0)) := by
  unfold Pipeline.prefHeld
  rw [show (Finset.univ : Finset (Fin pre0.K)) = {0} from by decide, bigSep_singleton]
  rfl

/-- The invariant at the first point, from what the launch hands the kernel: the scratch (the one scoped buffer that is
    no staging buffer) at some contents, the generator register, the cell at zero, `x` whole at its entry contents, and
    the body's half of the table at the contents the pipeline runs at. -/
theorem inv_intro (c : Dev nD) :
    iprop(Pipeline.ΦD ownCell spec0 movedRefs (fun c b => entryVal m c (Proc.devRef .tc b)) c ∗ Pipeline.ΦT pre0 (adm m).1 c) ⊢ Φc m c := by
  rw [Pipeline.ΦD_eq, scopedRest0_eq, ownCell_zero, bigSep_singleton]
  unfold Pipeline.ΦT
  rw [table_held]
  unfold Φc
  obtain rfl : c = 0 := Subsingleton.elim _ _
  iintro ⟨⟨Hg, Hr, Hs, Hx⟩, Ht⟩
  isplitl [Hx]; · iexact Hx
  isplitl [Ht]; · iexact Ht
  isplitl [Hg]; · iexact Hg
  isplitl [Hs]; · iexact Hs
  iexact Hr

/-- At the last point it gives them back (the table's half is let go: the pipeline's own half is what is read at the
    end). -/
theorem inv_exit (c : Dev nD) :
    Φc m c ⊢ Pipeline.ΦD ownCell spec0 movedRefs (fun c b => entryVal m c (Proc.devRef .tc b)) c := by
  rw [Pipeline.ΦD_eq, scopedRest0_eq, ownCell_zero, bigSep_singleton]
  unfold Φc
  iintro ⟨Hx, -, Hg, Hs, Hr⟩
  isplitl [Hg]; · iexact Hg
  isplitl [Hr]; · iexact Hr
  isplitl [Hs]; · iexact Hs
  iexact Hx

/-! ## The run, with every unscoped buffer at its contents after the two lines -/

/-- Every weakly fair execution of @main terminates; at the end each window's array holds what the pipeline computes from
    the blocks written back, and every other unscoped buffer what the two lines leave in it, run from the region's exit
    (the arrays as computed, the rest as the region found them). -/
theorem run_frame [∀ e, Nonempty (Elt F e)] (g : Dev nD → PrngReg)
    (hbody : ∀ c, Pipeline.BodyObligationLoose (dats m 0 c) (defs₀ (F := F)) Variants.none () Set.univ) :
    θ_run (defs (F := F)) (onTc (τ := τ) (main (F := F))) ⟨m, fun _ => 0, g⟩
      (Pipeline.FramePost (Pipeline.pin pcfgs fun _ => adm m) (dats m) 0
        (Pipeline.afterTail pcfgs (fun _ => adm m) (dats m) 0 (entryVal m) (linesAfter (F := F)))) :=
  Pipeline.θ_run_frameP_dma_around pcfgs (fun _ => adm m) (dats m) 0 (launch0 (F := F)) ownCell defs₀ Variants.none ownCell_facts
    movedRefs movedRefs_sub m g main hbody (fun c => (dats m 0 c).share_full fun _ => rfl) (fun _ _ => rfl) (entryVal m) linesAfter
    linesAfter_within linesAfter_fresh linesAfter_keep (main_around m) (fun _ _ => rfl) (entry_table m) (inv_intro m) (inv_exit m)

/-! ## What the buffers hold after the two lines -/

/-- Core `c`'s buffer `b` after the two lines. -/
abbrev exitAt (c : Dev nD) (b : Ref sig .tc) : Buf (Elt F) ((c : Thread nD τ).loc b) :=
  Pipeline.afterTail pcfgs (fun _ => adm m) (dats m) 0 (entryVal m) (linesAfter (F := F)) c b

/-- The flattened result: the output array as computed, its first 100000 columns, in row-major order. -/
theorem exit_result (c : Dev nD) :
    exitAt m c main_v7 = shapeCast S51200000 (extractStridedSlice S512x100000 ![0, 0] (finalOut m c) slices_S512x100096_S512x100000_0_0) shapeCasts_S512x100000_S51200000 := by
  unfold exitAt Pipeline.afterTail
  show StableHlo.after hostOps1 _ (Proc.devRef .tc main_v7) = _
  after_results
  have e : Pipeline.withArrays (Pipeline.pin pcfgs (fun _ => adm m) 0).spec c (entryVal m c)
      (fun w => (dats m 0 c).arrAt w (Pipeline.pin pcfgs (fun _ => adm m) 0).N) (Proc.devRef .tc main_v5) = finalOut m c :=
    Pipeline.withArrays_arr _ (launch0 (F := F)).win.arr_inj c _ _ (1 : Fin 2)
  rw [e]
  rfl

/-- A buffer that is neither a window's array nor written by the two lines holds what the region found in it. -/
theorem exit_other (c : Dev nD) (b : Ref sig .tc) (h4 : b ≠ main_v4) (h5 : b ≠ main_v5) (h6 : b ≠ main_v6) (h7 : b ≠ main_v7) :
    exitAt m c b = entryVal m c (Proc.devRef .tc b) := by
  unfold exitAt Pipeline.afterTail
  show StableHlo.after hostOps1 _ (Proc.devRef .tc b) = _
  refine (StableHlo.after_of_writes_sub (W := [main_v6, main_v7]) hostOps1 _ ⟨?_, ?_⟩ ?_).trans ?_
  · exact fun x hx => by
      rw [Finset.mem_singleton.mp hx]; exact List.mem_toFinset.mpr (List.mem_map.mpr ⟨main_v6, by decide, rfl⟩)
  · exact fun x hx => by
      rw [Finset.mem_singleton.mp hx]; exact List.mem_toFinset.mpr (List.mem_map.mpr ⟨main_v7, by decide, rfl⟩)
  · simp only [List.mem_cons, List.not_mem_nil, or_false]; exact fun h => h.elim h6 h7
  · exact Pipeline.withArrays_of_ne _ c _ _ b (fun w => by
      match w with
      | ⟨0, _⟩ => exact fun e => h4 e.symm
      | ⟨1, _⟩ => exact fun e => h5 e.symm)

/-- No operation before the region writes an argument: the region finds the three as launched. -/
theorem entry_arg0 (c : Dev nD) : entryVal m c (Proc.devRef .tc main_arg0) = m ((c : Thread nD τ).loc main_arg0) := by
  unfold entryVal
  simp only [linesBefore, hostOps0, hostOps0_1, hostOps0_2, hostOps0_3, List.flatten_cons, List.flatten_nil, List.append_nil, List.cons_append, List.nil_append]
  after_results
theorem entry_arg1 (c : Dev nD) : entryVal m c (Proc.devRef .tc main_arg1) = m ((c : Thread nD τ).loc main_arg1) := by
  unfold entryVal
  simp only [linesBefore, hostOps0, hostOps0_1, hostOps0_2, hostOps0_3, List.flatten_cons, List.flatten_nil, List.append_nil, List.cons_append, List.nil_append]
  after_results
theorem entry_arg2 (c : Dev nD) : entryVal m c (Proc.devRef .tc main_arg2) = m ((c : Thread nD τ).loc main_arg2) := by
  unfold entryVal
  simp only [linesBefore, hostOps0, hostOps0_1, hostOps0_2, hostOps0_3, List.flatten_cons, List.flatten_nil, List.append_nil, List.cons_append, List.nil_append]
  after_results

/-! ## The run of @main -/

/-- From the body's obligation at every point: every weakly fair execution of @main on the TensorCore terminates, and
    at the end the flattened result holds the first 100000 columns of the output array as computed, in row-major order,
    and the three arguments hold what they held at launch. -/
theorem run_main [∀ e, Nonempty (Elt F e)] (g : Dev nD → PrngReg)
    (hbody : ∀ c, Pipeline.BodyObligationLoose (dats m 0 c) (defs₀ (F := F)) Variants.none () Set.univ) :
    θ_run (defs (F := F)) (onTc (τ := τ) (main (F := F))) ⟨m, fun _ => 0, g⟩ (fun r => ∀ c : Dev nD,
      r.2.mem ((c : Thread nD τ).loc main_v7)
          = shapeCast S51200000 (extractStridedSlice S512x100000 ![0, 0] (finalOut m c) slices_S512x100096_S512x100000_0_0) shapeCasts_S512x100000_S51200000
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => by
    have hr := (h c).2
    refine ⟨?_, ?_, ?_, ?_⟩
    · exact (hr main_v7 (Pipeline.mem_restRefs_of (win := spec0) _ rfl (by decide))).trans (exit_result m c)
    · exact (hr main_arg0 (Pipeline.mem_restRefs_of (win := spec0) _ rfl (by decide))).trans
        ((exit_other m c _ (by decide) (by decide) (by decide) (by decide)).trans (entry_arg0 m c))
    · exact (hr main_arg1 (Pipeline.mem_restRefs_of (win := spec0) _ rfl (by decide))).trans
        ((exit_other m c _ (by decide) (by decide) (by decide) (by decide)).trans (entry_arg1 m c))
    · exact (hr main_arg2 (Pipeline.mem_restRefs_of (win := spec0) _ rfl (by decide))).trans
        ((exit_other m c _ (by decide) (by decide) (by decide) (by decide)).trans (entry_arg2 m c)))
    (run_frame m g hbody)

end Cert.KernelIdeal.Hand

end
-- ==== Proof.KernelIdealValue.lean ====
/-
  The kernel's result as the specification.

  The run writes 782 blocks of 512 × 128 back to the 512 × 100096 output, block `t` at columns `128 t … 128 t + 127`; the blocks
  tile the array, so column `k` is settled by point `k / 128`, at position `k % 128` of its block. Entry `(q, j)` of block `t` is
  column `q` of the row of `x` that word `128 t + j` of the table names, times weight `128 t + j` (the gathered block scaled row
  by row, then transposed). So entry `(q, k)` of the array is `x[table[k], q] · w[k]`. The host then drops the 96 padding columns
  and lays the rows end to end: position `q · 100000 + k` holds `x[idx[k], q] · weight[k / 2000]`, the specification. The product
  keeps its operand order on both sides; no law of the extended reals is used.
-/
import proofs.«415070_j29162827940274_1_alg».proof.Proof.KernelIdealData
import proofs.«415070_j29162827940274_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

section AnyFloats

variable (m : (ℓ : Loc nD τ sig) → Buf (Elt F) ℓ)

/-! ## One block at an index -/

/-- The weights' vector laid as a column and repeated along each row: entry `(j, q)` is the vector's entry `j`. -/
theorem wcol_apply (w : Vec F S128 .f32) (j : Fin 128) (q : Fin 512) :
    broadcastTo S128x512 (shapeCast S128x1 (shapeCast S128 w shapeCasts_S128_S128) shapeCasts_S128_S128x1) broadcasts_S128x1_S128x512 (ix2 j q)
      = w (ix1 j) := by
  refine (broadcastTo_apply _ _ (ix2 j q) (ix2 j (0 : Fin 1)) fun a => ?_).trans ?_
  · match a with
    | ⟨0, _⟩ => rfl
    | ⟨1, _⟩ => rfl
  refine (shapeCast_apply _ _ (ix2 j (0 : Fin 1)) (ix1 j) ?_).trans ?_
  · rw [Shape.rowMajor_val_two, Shape.rowMajor_val_one]
    show j.val = j.val * 1 + 0
    omega
  rw [shapeCast_self]

/-- The scaled block: row `j` of the gathered block times weight `j`. -/
theorem k0_pay2_apply (w : Vec F S128 .f32) (G : Vec F S128x512 .f32) (j : Fin 128) (q : Fin 512) :
    k0_pay2 w G (ix2 j q) = FloatOps.mulf (G (ix2 j q)) (w (ix1 j)) := by
  unfold k0_pay2
  exact congrArg (FloatOps.mulf (G (ix2 j q))) (wcol_apply w j q)

/-- The transposed block: entry `(q, j)` is the operand's entry `(j, q)`. -/
theorem k0_pay1_apply (X : FVec F S128x512 .f32) (q : Fin 512) (j : Fin 128) :
    k0_pay1 X (ix2 q j) = X (ix2 j q) := by
  unfold k0_pay1
  exact ValueIdx.transpose_ix2_apply X _ q j

/-- Entry `(q, j)` of the block of point `t`: column `q` of the row of `x` that word `128 t + j` of the table names, times
    weight `128 t + j`. -/
theorem outBlk_apply (c : Dev nD) (t : Fin 782) (q : Fin 512) (j : Fin 128) :
    outBlk m c t (ix2 q j) = FloatOps.mulf (xrow m c (rowAt m c t j) q) (wblk m c t (ix1 j)) := by
  unfold outBlk
  refine (k0_pay1_apply _ q j).trans ?_
  exact k0_pay2_apply (wblk m c t) (gath m c t) j q

/-! ## From blocks to the array -/

/-- The block's entry depends only on the point and the position. -/
theorem outBlk_congr (c : Dev nD) {t t' : Fin 782} {i i' : S512x128.Idx} (ht : t = t') (hi : i = i') :
    outBlk m c t i = outBlk m c t' i' := by subst ht; subst hi; rfl

/-- The output window's index map, decided over the 782 points: point `t` writes block `(0, t)`. -/
theorem outIndex_facts : ∀ t : Fin grid0.N, cc0_transform_2 (grid0.coords t) (0 : Fin 2) = 0 ∧ cc0_transform_2 (grid0.coords t) (1 : Fin 2) = t.val := by
  decide +kernel

/-- Whatever the table holds, the output window's block index at point `t` is that map at `t`'s coordinate: the map
    does not read the table. -/
theorem outWin_index (a : (pcfg0 (F := F)).Adm) (t : Fin (cfg0 a).N) :
    ((cfg0 a).win 1).index t = cc0_transform_2 (grid0.coords t) := rfl

/-- Every point writes its block back: the block index moves at each step, and the last point always writes. -/
theorem outWin_flush (a : (pcfg0 (F := F)).Adm) (t : Fin (cfg0 a).N) : ((cfg0 a).win 1).flush t = true := by
  unfold Pipeline.Window.flush
  show (true && (decide (t.val + 1 = (cfg0 a).grid.N) || decide (∃ h : t.val + 1 < (cfg0 a).grid.N, ((cfg0 a).win 1).index ⟨t.val + 1, h⟩ ≠ ((cfg0 a).win 1).index t))) = true
  rw [Bool.true_and, Bool.or_eq_true, decide_eq_true_eq, decide_eq_true_eq]
  by_cases h : t.val + 1 = (cfg0 a).grid.N
  · exact .inl h
  · have ht : t.val < (cfg0 a).grid.N := t.isLt
    have h' : t.val + 1 < (cfg0 a).grid.N := by omega
    refine .inr ⟨h', fun e => ?_⟩
    have e1 : cc0_transform_2 (grid0.coords ⟨t.val + 1, h'⟩) (1 : Fin 2) = cc0_transform_2 (grid0.coords t) (1 : Fin 2) := congrFun e (1 : Fin 2)
    have f1 : cc0_transform_2 (grid0.coords ⟨t.val + 1, h'⟩) (1 : Fin 2) = t.val + 1 := (outIndex_facts ⟨t.val + 1, h'⟩).2
    have f2 : cc0_transform_2 (grid0.coords t) (1 : Fin 2) = t.val := (outIndex_facts t).2
    omega

/-- The array the blocks are pieces of: column `k` belongs to block `k / 128`, at position `k % 128`. -/
def outArr (c : Dev nD) : S512x100096.Idx → Elt F .f32 := fun i =>
  outBlk m c ⟨(i 1).val / 128, by have h : (i 1).val < 100096 := (i 1).isLt; omega⟩
    (ix2 (⟨(i 0).val, (i 0).isLt⟩ : Fin 512) (⟨(i 1).val % 128, Nat.mod_lt _ (by decide)⟩ : Fin 128))

/-- What point `t` writes back is its block of that array: the block sits at rows `0 … 511`, columns `128 t … 128 t + 127`,
    so position `(r, j)` of the block is entry `(r, 128 t + j)` of the array, whose quotient and remainder by 128 are `t`, `j`. -/
theorem outBlk_cut_eq_read (a : (pcfg0 (F := F)).Adm) (c : Dev nD) (t : Fin (cfg0 a).N) :
    ((cfg0 a).win 1).cut ((cfg0 a).grid.coords t) (outBlk m c t) = (((cfg0 a).win 1).blk t).view.read (Elt F) (outArr m c) := by
  funext y
  show outBlk m c t (((cfg0 a).win 1).xinj ((cfg0 a).grid.coords t) y) = outArr m c ((((cfg0 a).win 1).blk t).view.emb y)
  have he0 : ((((cfg0 a).win 1).blk t).view.emb y (0 : Fin 2)).val = (y (0 : Fin 2)).val := by
    show ((cfg0 a).win 1).index t (0 : Fin 2) * 512 + 1 * (y (0 : Fin 2)).val = (y (0 : Fin 2)).val
    rw [outWin_index, (outIndex_facts t).1]; omega
  have he1 : ((((cfg0 a).win 1).blk t).view.emb y (1 : Fin 2)).val = 128 * t.val + (y (1 : Fin 2)).val := by
    show ((cfg0 a).win 1).index t (1 : Fin 2) * 128 + 1 * (y (1 : Fin 2)).val = 128 * t.val + (y (1 : Fin 2)).val
    rw [outWin_index, (outIndex_facts t).2]; omega
  have hy1 : (y (1 : Fin 2)).val < 128 := (y (1 : Fin 2)).isLt
  generalize (((cfg0 a).win 1).blk t).view.emb y = i at he0 he1
  unfold outArr
  refine outBlk_congr m c (Fin.ext ?_) (funext fun d => ?_)
  · show t.val = (i (1 : Fin 2)).val / 128; omega
  · match d with
    | ⟨0, _⟩ => exact Fin.ext he0.symm
    | ⟨1, _⟩ => exact Fin.ext (by show (y (1 : Fin 2)).val = (i (1 : Fin 2)).val % 128; omega)

/-- Entry `(r, k)` of the array lies in point `t`'s block exactly when `k / 128 = t`. -/
theorem mem_outWin_blk (a : (pcfg0 (F := F)).Adm) (t : Fin (cfg0 a).N) (i : S512x100096.Idx) :
    i ∈ (((cfg0 a).win 1).blk t).view.set ↔ (i (1 : Fin 2)).val / 128 = t.val := by
  have e : (((cfg0 a).win 1).blk t).view.set = (((cfg0 a).win 1).rect t).set :=
    View.set_slice_whole main_v5 (((cfg0 a).win 1).rect t)
  refine (congrArg (fun S => i ∈ S) e).to_iff.trans (Rect.mem_set_unit.trans ?_)
  show (∀ d : Fin 2, ((cfg0 a).win 1).index t d * S512x128.size d ≤ (i d).val
      ∧ (i d).val < ((cfg0 a).win 1).index t d * S512x128.size d + S512x128.size d) ↔ _
  rw [Fin.forall_fin_two]
  show (((cfg0 a).win 1).index t (0 : Fin 2) * 512 ≤ (i (0 : Fin 2)).val
      ∧ (i (0 : Fin 2)).val < ((cfg0 a).win 1).index t (0 : Fin 2) * 512 + 512)
    ∧ (((cfg0 a).win 1).index t (1 : Fin 2) * 128 ≤ (i (1 : Fin 2)).val
      ∧ (i (1 : Fin 2)).val < ((cfg0 a).win 1).index t (1 : Fin 2) * 128 + 128) ↔ _
  rw [outWin_index, (outIndex_facts t).1, (outIndex_facts t).2]
  have h0 : (i (0 : Fin 2)).val < 512 := (i (0 : Fin 2)).isLt
  omega

/-- The blocks tile the array — column `k` is covered by point `k / 128` — so the array ends holding `outArr`. -/
theorem finalOut_eq (c : Dev nD) : finalOut m c = outArr m c := by
  unfold finalOut
  refine (dats m 0 c).arrAt_eq_of_cover 1 (outArr m c) (fun t _ => ?_) (fun i => ?_)
  · show ((cfgA m).win 1).cut ((cfgA m).grid.coords t) ((dats m 0 c).after 1 t) = _
    dsimp only [dats]
    exact outBlk_cut_eq_read m (adm m) c t
  · have h1 : (i (1 : Fin 2)).val < 100096 := (i (1 : Fin 2)).isLt
    exact ⟨⟨(i (1 : Fin 2)).val / 128, by show (i (1 : Fin 2)).val / 128 < 782; omega⟩, outWin_flush (adm m) _, (mem_outWin_blk (adm m) _ i).mpr rfl⟩

/-- The output array after the run at `(q, k)`: block `k / 128` at `(q, k % 128)`. -/
theorem finalOut_apply (c : Dev nD) (q : Fin 512) (k : Fin 100096) :
    finalOut m c (ix2 q k) = outBlk m c ⟨k.val / 128, by have := k.isLt; omega⟩ (ix2 q ⟨k.val % 128, Nat.mod_lt _ (by decide)⟩) := by
  rw [finalOut_eq]
  rfl

end AnyFloats

/-! ## The host tail: the padding columns dropped, the matrix flattened -/

section AtIdeal

variable (m : (ℓ : Loc nD τ sig) → Buf (Elt Ideal) ℓ)

/-- The specification's entry for row `q` of the output and draw `k`. -/
abbrev specEntry (x : Cert.Spec.SX.Idx → EReal) (w : Cert.Spec.SW.Idx → EReal) (idx : Cert.Spec.SI.Idx → BitVec 32)
    (q : Fin 512) (k : Fin 100000) : EReal :=
  x (ix2 (Cert.Spec.rowOf idx k) q) * w (ix1 (Cert.Spec.ctOf k))

/-- Column `k < 100000` of the output, row `q`: draw `k`'s row of `x` at column `q`, times the weight of draw `k`'s cell type. -/
theorem finalOut_draw (c : Dev nD)
    (hV0 : V m c main_arg0 = m ((c : Thread nD τ).loc main_arg0))
    (htab : ∀ k : Fin 100000, (tab m c (ix1 (⟨k.val, by have := k.isLt; omega⟩ : Fin 100096)) : BitVec 32) = m ((c : Thread nD τ).loc main_arg2) (ix2 (Cert.Spec.ctOf k) (Cert.Spec.posOf k)))
    (hw : ∀ k : Fin 100000, V m c main_v4 (ix1 (⟨k.val, by have := k.isLt; omega⟩ : Fin 100096)) = m ((c : Thread nD τ).loc main_arg1) (ix1 (Cert.Spec.ctOf k)))
    (q : Fin 512) (k : Fin 100000) :
    finalOut (F := Ideal) m c (ix2 q (⟨k.val, by have := k.isLt; omega⟩ : Fin 100096))
      = specEntry (m ((c : Thread nD τ).loc main_arg0)) (m ((c : Thread nD τ).loc main_arg1)) (m ((c : Thread nD τ).loc main_arg2)) q k := by
  have hk : k.val < 100000 := k.isLt
  rw [finalOut_apply, outBlk_apply]
  have e1 : rowAt m c ⟨k.val / 128, by omega⟩ ⟨k.val % 128, Nat.mod_lt _ (by decide)⟩
      = ((m ((c : Thread nD τ).loc main_arg2) (ix2 (Cert.Spec.ctOf k) (Cert.Spec.posOf k)) : BitVec 32)).toNat := by
    unfold rowAt
    rw [← htab k]
    exact congrArg (fun z : Fin 100096 => ((tab m c (ix1 z) : BitVec 32)).toNat)
      (Fin.ext (by show 128 * (k.val / 128) + k.val % 128 = k.val; omega))
  have e2 : wblk m c ⟨k.val / 128, by omega⟩ (ix1 (⟨k.val % 128, Nat.mod_lt _ (by decide)⟩ : Fin 128))
      = m ((c : Thread nD τ).loc main_arg1) (ix1 (Cert.Spec.ctOf k)) := by
    unfold wblk
    rw [← hw k]
    exact congrArg (fun z : Fin 100096 => V m c main_v4 (ix1 z))
      (Fin.ext (by show 128 * (k.val / 128) + k.val % 128 = k.val; omega))
  rw [e1, e2]
  unfold xrow
  rw [hV0]
  rfl

/-- THE RESULT: the kernel's output with its 96 padding columns dropped and its rows laid end to end is the specification
    — position `q · 100000 + k` holds `x[idx[k], q] · weight[k / 2000]`. -/
theorem result_eq_G (c : Dev nD)
    (hV0 : V m c main_arg0 = m ((c : Thread nD τ).loc main_arg0))
    (htab : ∀ k : Fin 100000, (tab m c (ix1 (⟨k.val, by have := k.isLt; omega⟩ : Fin 100096)) : BitVec 32) = m ((c : Thread nD τ).loc main_arg2) (ix2 (Cert.Spec.ctOf k) (Cert.Spec.posOf k)))
    (hw : ∀ k : Fin 100000, V m c main_v4 (ix1 (⟨k.val, by have := k.isLt; omega⟩ : Fin 100096)) = m ((c : Thread nD τ).loc main_arg1) (ix1 (Cert.Spec.ctOf k))) :
    shapeCast S51200000 (extractStridedSlice S512x100000 ![0, 0] (finalOut (F := Ideal) m c) slices_S512x100096_S512x100000_0_0) shapeCasts_S512x100000_S51200000
      = Cert.Spec.G (m ((c : Thread nD τ).loc main_arg0)) (m ((c : Thread nD τ).loc main_arg1)) (m ((c : Thread nD τ).loc main_arg2)) := by
  funext p
  obtain ⟨p0, rfl⟩ : ∃ p0 : Fin 51200000, p = ix1 p0 := ⟨p 0, ValueIdx.eq_ix1 p⟩
  have hp : p0.val < 51200000 := p0.isLt
  have hk : (Cert.Spec.drawOf p0).val < 100000 := (Cert.Spec.drawOf p0).isLt
  refine (shapeCast_apply _ _ (ix1 p0) (ix2 (Cert.Spec.colOf p0) (Cert.Spec.drawOf p0)) ?_).trans ?_
  · rw [Shape.rowMajor_val_two, Shape.rowMajor_val_one]
    show p0.val / 100000 * 100000 + p0.val % 100000 = p0.val
    omega
  refine (extractStridedSlice_apply _ _ _ (ix2 (Cert.Spec.colOf p0) (Cert.Spec.drawOf p0))
    (ix2 (Cert.Spec.colOf p0) (⟨(Cert.Spec.drawOf p0).val, by omega⟩ : Fin 100096)) fun a => ?_).trans ?_
  · match a with
    | ⟨0, _⟩ => exact (Nat.zero_add _).symm
    | ⟨1, _⟩ => exact (Nat.zero_add _).symm
  exact finalOut_draw m c hV0 htab hw (Cert.Spec.colOf p0) (Cert.Spec.drawOf p0)

end AtIdeal

end Cert.KernelIdeal.Hand

end
-- ==== Proof.KernelCommon.lean ====
import proofs.«415070_j29162827940274_1_alg».proof.Proof.Gen.Kernel
import proofs.«415070_j29162827940274_1_alg».proof.Proof.Gen.Kernel.Skeleton
import proofs.«415070_j29162827940274_1_alg».proof.Proof.Gen.Kernel.Launch
import Idealize.ShloMosaic.Lib.Transfers
import Idealize.ShloMosaic.Lib.Batch
import Idealize.ShloMosaic.Lib.Writes
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's cells beside the counters of the kernel's own transfers. -/
abbrev UC : Type := UR sig nD τ × Counters
local notation "𝕄" => MT nD τ sig Unit (Elt F) ℕ UC ℕ

/-- A memref's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The gathered array `x` (left in HBM), the table of row numbers (in SMEM), the scratch the rows are gathered into,
    and the one cell all 128 copies of a grid point complete on. -/
abbrev xM : Memref sig .tc .hbm S20000x512 .f32 := Memref.whole main_arg0
abbrev tabM : Memref sig .tc .smem S100096 .i32 := Memref.whole main_v3
abbrev gM : Memref sig .tc .vmem S128x512 .f32 := Memref.whole cc0_scratch0
abbrev semL : SemLoc sig := SemLoc.dma cc0_scratch1.sem

/-- Every word of the table names a row of `x`. -/
def TabOk (c : Dev nD) (tab : Bf (F := F) c tabM) : Prop := ∀ i, ((tab i : BitVec 32)).toNat < 20000

/-- A row number below 20000 keeps the one-row slice `[v, v+1) × [0, 512)` inside `x`: what the body assumes of each
    word it reads from the table (once for the copy's start, once for its wait). -/
theorem chk_and (v : BitVec 32) (h : v.toNat < 20000) :
    (∀ a, (![v.toNat, 0] : Fin 2 → Nat) a + S1x512.size a ≤ S20000x512.size a) ∧
    (∀ a, (![v.toNat, 0] : Fin 2 → Nat) a + S1x512.size a ≤ S20000x512.size a) := by
  have h1 : ∀ a, (![v.toNat, 0] : Fin 2 → Nat) a + S1x512.size a ≤ S20000x512.size a := by
    intro a; fin_cases a
    · show v.toNat + 1 ≤ 20000; omega
    · show 0 + 512 ≤ 512; omega
  exact ⟨h1, h1⟩

theorem chk_one (v : BitVec 32) (h : v.toNat < 20000) :
    (∀ a, (![v.toNat, 0] : Fin 2 → Nat) a + S1x512.size a ≤ S20000x512.size a) := (chk_and v h).1

/-- A points-to at share `q` is its two halves, and back: 128 copies may read the same row of `x` at once, so `x` is
    held as 128 fractions of the whole array, one lent to each copy. -/
theorem tok_split {ℓ : Loc nD τ sig} {S : Finset (Idx ℓ)} {f : Buf (Elt F) ℓ} (q : PosShare TreeShare) :
    (ℓ ↦[S]{q} f : sProp 𝕄) ⊢ iprop((ℓ ↦[S]{q.left} f) ∗ ℓ ↦[S]{q.right} f) :=
  (pointsTo_share (PosShare.mem_left_op_right _)).1
theorem tok_join {ℓ : Loc nD τ sig} {S : Finset (Idx ℓ)} {f : Buf (Elt F) ℓ} (q : PosShare TreeShare) :
    iprop((ℓ ↦[S]{q.left} f) ∗ ℓ ↦[S]{q.right} f) ⊢ (ℓ ↦[S]{q} f : sProp 𝕄) :=
  (pointsTo_share (PosShare.mem_left_op_right _)).2

open Lean Elab Tactic in
/-- Split the hypothesis `Hx` into 128 fractions: `Hx` keeps the left half 127 times over, `Hx_i` is the right half
    split off at step `i`. -/
elab "peel_shares" : tactic => do
  for i in [0:127] do
    let s := s!"(ihave Hpeel := (tok_split _) $$ Hx; icases Hpeel with ⟨Hx, Hx_{i}⟩)"
    match Parser.runParserCategory (← getEnv) `tactic s with
    | .ok stx => evalTactic stx
    | .error e => throwError e

open Lean Elab Tactic in
/-- The converse: join the 128 fractions back into `Hx` at the full share, last split first. -/
elab "join_shares" : tactic => do
  for k in [0:127] do
    let i := 126 - k
    let s := s!"(ihave Hx := (tok_join _) $$ [Hx Hx_{i}]; · (isplitl [Hx] <;> iassumption))"
    match Parser.runParserCategory (← getEnv) `tactic s with
    | .ok stx => evalTactic stx
    | .error e => throwError e

end Cert.Kernel.Hand

end
-- ==== Proof.KernelData.lean ====
import proofs.«415070_j29162827940274_1_alg».proof.Proof.KernelCommon
import Idealize.ShloMosaic.Lib.ValueIdx
import Idealize.ShloMosaic.Lib.StableHlo.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)

/-! ## The buffers when the region is entered -/

/-- The host operations of @main before the region: the row numbers flattened and padded with 96 zeros, the weights
    repeated 2000 times each, flattened, and padded with 96 zeros. -/
abbrev preOps : List (HloOp τ sig (Elt F)) := hostOps0 ++ hostOps0_1 ++ hostOps0_2 ++ hostOps0_3

/-- Core `c`'s buffers at launch; -/
abbrev V₀ (c : Dev nD) : Valuation τ sig (Elt F) := fun b => m ((c : Dev nD), b)

/-- and when the region is entered. -/
def V (c : Dev nD) (b : Ref sig .tc) : Buf (Elt F) ((c : Thread nD τ).loc b) := StableHlo.after (preOps (F := F)) (V₀ m c) b

/-- The table of row numbers the kernel reads (100096 words: the 100000 of `idx`, then zeros). -/
def tab (c : Dev nD) : Bf (F := F) c tabM := V m c main_v3

/-- The tables' contents the pipeline runs at: the launch's (any contents are admissible: no index map reads them). -/
def adm : (pcfg0 (F := F)).Adm := ⟨fun k => V m 0 (pre0.ref k), trivial⟩

/-- The pipeline there. -/
abbrev cfgA : Pipeline.Cfg sig Λ₀ := cfg0 (adm m)

/-! ## What a grid point computes -/

/-- Row `r` of `x` (a row number out of range read as its residue: under the precondition there is none). -/
def xrow (c : Dev nD) (r : Nat) (q : Fin 512) : Elt F .f32 :=
  V m c main_arg0 (ix2 (⟨r % 20000, Nat.mod_lt _ (by decide)⟩ : Fin 20000) q)

/-- The 128 row numbers of grid point `t`: words `128 t … 128 t + 127` of the table. -/
def rowAt (c : Dev nD) (t : Fin 782) (j : Fin 128) : Nat :=
  ((tab m c (ix1 (⟨128 * t.val + j.val, by have := t.isLt; have := j.isLt; omega⟩ : Fin 100096)) : BitVec 32)).toNat

/-- The block gathered at point `t`: row `j` is row `rowAt t j` of `x`. -/
def gath (c : Dev nD) (t : Fin 782) : S128x512.Idx → Elt F .f32 := fun i => xrow m c (rowAt m c t (i 0)) (i 1)

/-- The weights' block at point `t`: entries `128 t … 128 t + 127` of the padded, repeated weights. -/
def wblk (c : Dev nD) (t : Fin 782) : S128.Idx → Elt F .f32 :=
  fun i => V m c main_v4 (ix1 (⟨128 * t.val + (i 0).val, by have := t.isLt; have h : (i 0).val < 128 := (i 0).isLt; omega⟩ : Fin 100096))

/-- What the body leaves in the output's staging buffer at point `t`: the gathered block, each row scaled by its weight,
    transposed — entry `(q, j)` is `x[row j, q] · w[j]`. Stated through the body's own pure terms. -/
def outBlk (c : Dev nD) (t : Fin 782) : S512x128.Idx → Elt F .f32 := k0_pay1 (k0_pay2 (wblk m c t) (gath m c t))

/-! ## The proof data -/

/-- What the body keeps between grid points: `x` whole at its launch contents, the table (the body's half), the scratch
    at anything, the kernel's cell at zero, the core's generator register at anything. -/
def Φc (c : Dev nD) : sProp 𝕄 :=
  iprop(pt c xM (V m c main_arg0) ∗ (tabM.view.loc (c : Thread nD τ) ↦{fullShare.right} tab m c)
    ∗ (∃ g : Bf (F := F) c gM, pt c gM g) ∗ semVal ((c : Thread nD τ), semL) 0 ∗ (∃ r : PrngReg, prngReg c r))

/-- The proof data of the one pipeline on core `c`: the arrays at their contents when the region is entered; after the
    body at point `t` the weights' staging buffer as fetched and the output's at `outBlk t`; the same invariant at
    every point; nothing owed; full shares. -/
def dats (_ : Fin 1) (c : Dev nD) : Pipeline.Dat τ (Elt F) Unit ℕ UC ℕ (cfgA m) c where
  A w := V m c (Pipeline.arrRef spec0 w)
  after w t := match w with
    | ⟨0, _⟩ => wblk m c t
    | ⟨1, _⟩ => outBlk m c t
  Φ _ := Φc m c
  q _ := fullShare
  owed _ := 0

/-- The output array after the run, as the library computes it from the blocks written back. -/
def finalOut (c : Dev nD) : Buf (Elt F) ((spec0 1).arr.view.loc (c : Thread nD τ)) := (dats m 0 c).arrAt 1 (cfgA m).N

end Cert.Kernel.Hand

end
-- ==== Proof.KernelPre.lean ====
/-
  The buffers a core holds when the region is entered, and the precondition read as a bound on the row numbers.

  Before the region @main runs four stretches of host operations: `idx` [50, 2000] is flattened row-major to 100000
  words and padded with 96 zero words (the table the kernel reads its row numbers from); `weight` [50] is laid along the
  rows of a 50 × 2000 rectangle (weight r repeated 2000 times), flattened row-major, and padded with 96 entries. No
  operation writes an argument. So, entry by entry: word k of the table, k < 100000, is idx[k / 2000, k % 2000]; the last
  96 words are 0; entry k of the padded weights, k < 100000, is weight[k / 2000].

  The precondition is a conjunction of four `all`s over the inputs. Its last two say that every entry of `idx` is, as a
  signed 32-bit word, at least 0 and below 20000; such a word is below 20000 as a natural number. Every word of the padded
  table is then below 20000: it is an entry of `idx` or it is 0.
-/
import proofs.«415070_j29162827940274_1_alg».proof.Proof.KernelData
import proofs.«415070_j29162827940274_1_alg».proof.Proof.Spec
import proofs.«415070_j29162827940274_1_alg».proof.Defs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value
import Idealize.ShloMosaic.Lib.KernelVsHost

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)

/-! ## The buffers when the region is entered, in closed form

Four stretches of host operations run before the region. None writes an argument; the table of row numbers is `idx`
flattened row-major and padded with 96 zeros; the weights are each repeated 2000 times (a broadcast along a new second
axis), flattened row-major, and padded with 96 entries. -/

/-- No host operation writes `x`: it holds its launch contents when the region is entered. -/
theorem V_arg0 (c : Dev nD) : V m c main_arg0 = m ((c : Thread nD τ).loc main_arg0) := by
  unfold V
  simp only [preOps, hostOps0, hostOps0_1, hostOps0_2, hostOps0_3, List.cons_append, List.nil_append]
  after_results

/-- Nor the weights, -/
theorem V_arg1 (c : Dev nD) : V m c main_arg1 = m ((c : Thread nD τ).loc main_arg1) := by
  unfold V
  simp only [preOps, hostOps0, hostOps0_1, hostOps0_2, hostOps0_3, List.cons_append, List.nil_append]
  after_results

/-- nor the row numbers. -/
theorem V_arg2 (c : Dev nD) : V m c main_arg2 = m ((c : Thread nD τ).loc main_arg2) := by
  unfold V
  simp only [preOps, hostOps0, hostOps0_1, hostOps0_2, hostOps0_3, List.cons_append, List.nil_append]
  after_results

/-- The table: `idx` read row-major as one axis of 100000 words, then 96 zero words. -/
theorem pre_tab_eq (c : Dev nD) :
    (V m c main_v3 : S100096.Idx → BitVec 32)
      = pad S100096 ![0] ![96] ![0]
          (shapeCast S100000 (m ((c : Thread nD τ).loc main_arg2) : S50x2000.Idx → BitVec 32) shapeCasts_S50x2000_S100000)
          (constantI S_ 32 0#32) pads_S100000_S100096_0960 h_S_ := by
  unfold V
  simp only [preOps, hostOps0, hostOps0_1, hostOps0_2, hostOps0_3, List.cons_append, List.nil_append]
  after_results
  rfl

/-- The padded weights: weight `r` laid along row `r` of a 50 × 2000 rectangle, the rectangle read row-major as one axis
    of 100000 entries, then 96 entries of the padding value (the word 0 converted). -/
theorem pre_wpad_eq (c : Dev nD) :
    (V m c main_v4 : S100096.Idx → F .f32)
      = pad S100096 ![0] ![96] ![0]
          (shapeCast S100000
            (broadcastInDim S50x2000 ![0] bcast_S50_S50x2000_0 (m ((c : Thread nD τ).loc main_arg1) : S50.Idx → F .f32))
            shapeCasts_S50x2000_S100000)
          (sitofp .f32 (constantI S_ 32 0#32) : FVec F S_ .f32) pads_S100000_S100096_0960 h_S_ := by
  unfold V
  simp only [preOps, hostOps0, hostOps0_1, hostOps0_2, hostOps0_3, List.cons_append, List.nil_append]
  after_results
  rfl

/-! ## The table and the padded weights, entry by entry -/

/-- Position `k` of the flattened `idx` is its entry `(k / 2000, k % 2000)`. -/
theorem pre_flat_apply {α : Type} (x : S50x2000.Idx → α) (k : Fin 100000) :
    shapeCast S100000 x shapeCasts_S50x2000_S100000 (ix1 k) = x (ix2 (Cert.Spec.ctOf k) (Cert.Spec.posOf k)) := by
  refine shapeCast_apply x _ (ix1 k) (ix2 (Cert.Spec.ctOf k) (Cert.Spec.posOf k)) ?_
  rw [Shape.rowMajor_val_two, Shape.rowMajor_val_one]
  show (k.val / 2000) * 2000 + k.val % 2000 = k.val
  omega

/-- Word `k` of the table, `k` below 100000, is `idx[k / 2000, k % 2000]`. -/
theorem tab_apply (c : Dev nD) (k : Fin 100000) :
    (tab m c (ix1 (⟨k.val, by have := k.isLt; omega⟩ : Fin 100096)) : BitVec 32)
      = m ((c : Thread nD τ).loc main_arg2) (ix2 (Cert.Spec.ctOf k) (Cert.Spec.posOf k)) := by
  refine (congrFun (pre_tab_eq m c) _).trans ?_
  refine (pad_apply_of_inside _ _ _ _ _ _ _ _ (ix1 k) (fun a => match a with
    | ⟨0, _⟩ => by show k.val = 0 + k.val * (0 + 1); omega)).trans ?_
  exact pre_flat_apply _ k

/-- The last 96 words of the table are zero. -/
theorem tab_apply_pad (c : Dev nD) (k : Fin 100096) (hk : 100000 ≤ k.val) : (tab m c (ix1 k) : BitVec 32) = 0#32 := by
  refine (congrFun (pre_tab_eq m c) _).trans ?_
  refine (pad_apply_of_not_inside _ _ _ _ _ _ _ (ix1 k) (⟨0, Nat.one_pos⟩ : Fin 1) ?_).trans rfl
  rintro ⟨_, _, h3⟩
  have h3' : (k.val - 0) / (0 + 1) < 100000 := h3
  omega

/-- Entry `k` of the padded weights, `k` below 100000, is weight `k / 2000`. -/
theorem wpad_apply (c : Dev nD) (k : Fin 100000) :
    V m c main_v4 (ix1 (⟨k.val, by have := k.isLt; omega⟩ : Fin 100096))
      = m ((c : Thread nD τ).loc main_arg1) (ix1 (Cert.Spec.ctOf k)) := by
  refine (congrFun (pre_wpad_eq m c) _).trans ?_
  refine (pad_apply_of_inside _ _ _ _ _ _ _ _ (ix1 k) (fun a => match a with
    | ⟨0, _⟩ => by show k.val = 0 + k.val * (0 + 1); omega)).trans ?_
  refine (pre_flat_apply _ k).trans ?_
  refine broadcastInDim_apply _ _ _ _ (ix1 (Cert.Spec.ctOf k)) (fun a => match a with
    | ⟨0, _⟩ => by
      show (Cert.Spec.ctOf k).val = if (50 : Nat) = 1 then 0 else (Cert.Spec.ctOf k).val
      rw [if_neg (by decide)])

/-! ## The precondition, decoded -/

/-- A word that is at least 0 and below 20000 as a signed word is below 20000 as a natural number. -/
theorem pre_toNat_lt_of_signed (w : BitVec 32) (h0 : IntOp.cmpi .sge w 0#32 = 1#1) (h1 : IntOp.cmpi .slt w 20000#32 = 1#1) :
    w.toNat < 20000 := by
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

variable [Cert.Pre_finite_inputs.Facts]

/-- The printed precondition is a conjunction of four `all`s; the last two say of every entry of `idx` that it is at
    least 0 and below 20000 as a signed word. So every row number is below 20000. -/
theorem idx_lt_of_fn (c : Dev nD)
    (h : Cert.Pre_finite_inputs.fn (F := F) (m ((c : Thread nD τ).loc main_arg0)) (m ((c : Thread nD τ).loc main_arg1))
      (m ((c : Thread nD τ).loc main_arg2)) = fun _ => 1#1) :
    ∀ i, ((m ((c : Thread nD τ).loc main_arg2) i : BitVec 32)).toNat < 20000 := by
  intro i
  haveI : Subsingleton Cert.Pre_finite_inputs.S_.Idx := ⟨fun a b => funext fun d => d.elim0⟩
  have e := congrFun h ValueIdx.ix0
  dsimp only [Cert.Pre_finite_inputs.fn, Cert.Pre_finite_inputs.fn_part1] at e
  obtain ⟨e12, e15⟩ := IntOp.andi_eq_one.1 e
  obtain ⟨_, e11⟩ := IntOp.andi_eq_one.1 e12
  have hge := Host.reduce_andi_all _ _ _ _ _ e11 i
  have hlt := Host.reduce_andi_all _ _ _ _ _ e15 i
  exact pre_toNat_lt_of_signed _ hge hlt

/-- Carried to the padded table: a word below position 100000 is an entry of `idx`, the rest are zero. -/
theorem tabOk_of_fn (c : Dev nD)
    (h : Cert.Pre_finite_inputs.fn (F := F) (m ((c : Thread nD τ).loc main_arg0)) (m ((c : Thread nD τ).loc main_arg1))
      (m ((c : Thread nD τ).loc main_arg2)) = fun _ => 1#1) :
    TabOk c (tab m c) := by
  show ∀ i : S100096.Idx, ((tab m c i : BitVec 32)).toNat < 20000
  intro i
  obtain ⟨k, rfl⟩ : ∃ k : Fin 100096, i = ix1 k := ⟨i 0, ValueIdx.eq_ix1 i⟩
  by_cases hk : k.val < 100000
  · have e : (tab m c (ix1 k) : BitVec 32) = _ := tab_apply m c ⟨k.val, hk⟩
    rw [e]
    exact idx_lt_of_fn m c h _
  · rw [tab_apply_pad m c k (by omega)]
    decide

end Cert.Kernel.Hand

end
-- ==== Proof.KernelRows.lean ====
import proofs.«415070_j29162827940274_1_alg».proof.Proof.KernelCommon
import Idealize.ShloMosaic.Lib.Pipeline.Kit
import Idealize.ShloMosaic.Lib.ValueIdx

/-! # The scratch buffer held row by row

The kernel's scratch (128 rows of 512 words) is filled by 128 copies, copy `j` landing in row `j`, and then read whole.
While the copies are in flight the buffer is held as 128 separate points-to facts, one per row; before and after, as
one. This module is that split and join — the rows are pairwise disjoint and cover the buffer — and the index facts
that read or write one row: index `y` of row `j` is element `(j, y 0)`. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

/-- Row `j` of a 128-row buffer lies inside it: `[j, j+1) × [0, 512)`. -/
theorem row_inb (j : Fin 128) : ∀ a, (![j.val, 0] : Fin 2 → Nat) a + S1x512.size a ≤ S128x512.size a := by
  intro a; fin_cases a
  · show j.val + 1 ≤ 128; have := j.isLt; omega
  · show 0 + 512 ≤ 512; omega

/-- Row `j` of the scratch, as the body spells it (the body writes the literal `j` and its own name for the bound;
    equal by unfolding). -/
abbrev rowM (j : Fin 128) : Memref sig .tc .vmem S512 .f32 :=
  (gM.slice (Rect.unit (s := S128x512) ![j.val, 0] S1x512.size (row_inb j)) (fun _ => rfl)).squeeze S512 squeezes_S1x512_S512

/-- The 128 rows held one by one, row `j` at contents `f j` (a contents function of the WHOLE buffer: only its values
    on row `j` matter). -/
def rowsHeld (c : Dev nD) (f : Fin 128 → Bf (F := F) c gM) : sProp 𝕄 :=
  bigSepL (List.finRange 128) fun j => ((rowM j).view.loc (c : Thread nD τ) ↦[(rowM j).view.set]{fullShare} f j)

/-- The elements under row `j`: the unit-stride rectangle `[j, j+1) × [0, 512)` (dropping the axis of size one keeps
    the elements; a rectangle of a whole buffer covers its own element set). -/
theorem rowM_set (j : Fin 128) :
    (rowM j).view.set = (Rect.unit (s := S128x512) ![j.val, 0] S1x512.size (row_inb j)).set := by
  show ((gM.view.slice _).reshape S512 _).set = _
  rw [View.set_reshape]
  exact View.set_slice_whole _ _

/-- An element lies under row `j` exactly when its row coordinate is `j`. -/
theorem mem_rowM_set (j : Fin 128) (i : S128x512.Idx) : i ∈ (rowM j).view.set ↔ (i 0).val = j.val := by
  rw [rowM_set, Rect.mem_set_unit, Fin.forall_fin_two]
  show (j.val ≤ (i 0).val ∧ (i 0).val < j.val + 1) ∧ (0 ≤ (i 1).val ∧ (i 1).val < 0 + 512) ↔ (i 0).val = j.val
  have h1 : (i 1).val < 512 := (i 1).isLt
  omega

/-- The elements under row `j`, as elements of core `c`'s scratch buffer. -/
abbrev rowSet (c : Dev nD) (j : Fin 128) : Finset (Idx (gM.view.loc (c : Thread nD τ))) := (rowM j).view.set

/-- Distinct rows share no element: they differ in the row coordinate. -/
theorem rowSet_disjoint (c : Dev nD) (t t' : Fin 128) (h : t ≠ t') : Disjoint (rowSet c t) (rowSet c t') := by
  show Disjoint (rowM t).view.set (rowM t').view.set
  rw [rowM_set, rowM_set]
  refine Rect.unit_disjoint 0 ?_
  show t.val + 1 ≤ t'.val ∨ t'.val + 1 ≤ t.val
  have : t.val ≠ t'.val := fun e => h (Fin.ext e)
  omega

/-- Every element of the buffer lies in its row. -/
theorem rowSet_cover (c : Dev nD) : (Finset.univ : Finset (Fin 128)).biUnion (rowSet c) = Finset.univ := by
  ext i
  simp only [Finset.mem_biUnion, Finset.mem_univ, true_and, iff_true]
  exact ⟨⟨(i 0).val, (i 0).isLt⟩, (mem_rowM_set _ i).mpr rfl⟩

/-- All 128 row numbers, as a list without repetition. -/
theorem univ_eq_finRange : (Finset.univ : Finset (Fin 128)) = (List.finRange 128).toFinset := by
  ext j; simp only [Finset.mem_univ, List.mem_toFinset, List.mem_finRange]

/-- The whole buffer at `g` is its 128 rows, each at `g`: the rows are pairwise disjoint and cover the buffer. -/
theorem rows_split (c : Dev nD) (g : Bf (F := F) c gM) : pt c gM g ⊢ rowsHeld c (fun _ => g) := by
  unfold rowsHeld
  rw [← bigSep_univ_eq_bigSepL (List.finRange 128) univ_eq_finRange (List.nodup_finRange 128)]
  show (gM.view.loc (c : Thread nD τ) ↦[Finset.univ]{fullShare} g : sProp 𝕄)
    ⊢ bigSep Finset.univ fun j : Fin 128 => gM.view.loc (c : Thread nD τ) ↦[rowSet c j]{fullShare} g
  rw [← pointsTo_biUnion (ℓ := gM.view.loc (c : Thread nD τ)) Finset.univ (rowSet c) (fun t _ t' _ h => rowSet_disjoint c t t' h),
    rowSet_cover c]

/-- The 128 rows, row `j` at `f j`, are the whole buffer at any `G` that agrees with `f j` on row `j`: the pieces join to
    some contents agreeing with each piece on its row, and that is `G` everywhere since every element is in some row. -/
theorem rows_join (c : Dev nD) (f : Fin 128 → Bf (F := F) c gM) (G : Bf (F := F) c gM)
    (h : ∀ j, ∀ i ∈ (rowM j).view.set, f j i = G i) : rowsHeld c f ⊢ pt c gM G := by
  unfold rowsHeld
  rw [← bigSep_univ_eq_bigSepL (List.finRange 128) univ_eq_finRange (List.nodup_finRange 128)]
  have hj : (bigSep Finset.univ fun j : Fin 128 => gM.view.loc (c : Thread nD τ) ↦[rowSet c j]{fullShare} f j)
      ⊢ (iprop(∃ g, ⌜∀ t ∈ Finset.univ, ∀ i ∈ rowSet c t, g i = f t i⌝
          ∗ gM.view.loc (c : Thread nD τ) ↦[Finset.univ.biUnion (rowSet c)]{fullShare} g) : sProp 𝕄) :=
    pointsTo_biUnion_join (ℓ := gM.view.loc (c : Thread nD τ)) Finset.univ (rowSet c) f G
      (fun t _ t' _ h => rowSet_disjoint c t t' h)
  rw [rowSet_cover c] at hj
  refine hj.trans ?_
  iintro H
  icases H with ⟨%g, %hg, H⟩
  have e : (gM.view.loc (c : Thread nD τ) ↦[Finset.univ]{fullShare} g : sProp 𝕄) = pt c gM G :=
    pointsTo_congr fun i _ => by
      let j : Fin 128 := ⟨(i 0).val, (i 0).isLt⟩
      have hi : i ∈ (rowM j).view.set := (mem_rowM_set j i).mpr rfl
      exact (hg j (Finset.mem_univ _) i hi).trans (h j i hi)
  rw [← e]
  iexact H

/-! ## Reading and writing one row -/

/-- The one-row rectangle `[r, r+1) × [0, m)` of an `n × m` shape, indexed by the `m`-vector left when its axis of size one
    is dropped: index `y` is the element of row `r` in column `y 0`. -/
theorem unit_row_emb {n m : Nat} (r : Nat) (hr : r < n)
    (inb : ∀ a, (![r, 0] : Fin 2 → Nat) a + (![1, m] : Fin 2 → Nat) a ≤ (⟨2, ![n, m]⟩ : Shape).size a)
    (h : (⟨1, ![m]⟩ : Shape).numel = (⟨2, ![1, m]⟩ : Shape).numel) (y : (⟨1, ![m]⟩ : Shape).Idx) :
    (Rect.unit (s := ⟨2, ![n, m]⟩) ![r, 0] ![1, m] inb).emb (Shape.reshapeEquiv h y) = ix2 (⟨r, hr⟩ : Fin n) (y 0) := by
  rw [Shape.reshapeEquiv_cons_one]
  funext a
  match a with
  | ⟨0, _⟩ => exact Fin.ext (show r + 1 * 0 = r by omega)
  | ⟨1, _⟩ => exact Fin.ext (show 0 + 1 * (y 0).val = (y 0).val by omega)

/-- Index `y` of row `j` is element `(j, y 0)` of the scratch. -/
theorem rowM_emb (j : Fin 128) (y : S512.Idx) : ((rowM j).view.emb y : S128x512.Idx) = ix2 j (y 0) :=
  unit_row_emb j.val j.isLt (row_inb j) _ y

/-- The one-row slice of `x` at a run-time row `v` (a copy's source), as the body spells it. -/
abbrev xsl (v : BitVec 32) (hv : ∀ a, (![v.toNat, 0] : Fin 2 → Nat) a + S1x512.size a ≤ S20000x512.size a) :
    Memref sig .tc .hbm S512 .f32 :=
  (xM.slice (Rect.unit (s := S20000x512) ![v.toNat, 0] S1x512.size hv) (fun _ => rfl)).squeeze S512 squeezes_S1x512_S512

/-- Index `y` of that slice is element `(v, y 0)` of `x`. -/
theorem xsl_emb (v : BitVec 32) (hv) (hlt : v.toNat < 20000) (y : S512.Idx) :
    ((xsl v hv).view.emb y : S20000x512.Idx) = ix2 (⟨v.toNat, hlt⟩ : Fin 20000) (y 0) :=
  unit_row_emb v.toNat hlt hv _ y

/-- Reading the slice reads row `v` of `x`. -/
theorem xsl_read (c : Dev nD) (v : BitVec 32) (hv) (hlt : v.toNat < 20000) (fx : Bf (F := F) c xM) (y : S512.Idx) :
    (xsl v hv).view.read (Elt F) fx y = fx (ix2 (⟨v.toNat, hlt⟩ : Fin 20000) (y 0)) :=
  (cast_eq _ _).trans (congrArg fx (xsl_emb v hv hlt y))

/-- A full write through row `j` leaves the payload at the row's elements. -/
theorem row_write_emb (c : Dev nD) (j : Fin 128) (g : Bf (F := F) c gM) (w : S512.Idx → Elt F .f32) (y : S512.Idx) :
    (rowM j).view.write (Elt F) g w Finset.univ ((rowM j).view.emb y) = w y :=
  (View.write_emb_of_mem (v := (rowM j).view) (Val := Elt F) g w (Finset.mem_univ y)).trans (cast_eq _ _)

/-- The same at the element `(j, q)` written by its coordinates. -/
theorem row_write_ix (c : Dev nD) (j : Fin 128) (g : Bf (F := F) c gM) (w : S512.Idx → Elt F .f32) (q : Fin 512) :
    (rowM j).view.write (Elt F) g w Finset.univ (ix2 j q) = w (ix1 q) :=
  (congrArg (fun i => (rowM j).view.write (Elt F) g w Finset.univ i) (rowM_emb j (ix1 q)).symm).trans
    (row_write_emb c j g w (ix1 q))

/-- The join with the agreement stated coordinate by coordinate: row `j`'s contents and `G` agree at every `(j, q)`. -/
theorem rows_join_ix (c : Dev nD) (f : Fin 128 → Bf (F := F) c gM) (G : Bf (F := F) c gM)
    (h : ∀ (j : Fin 128) (q : Fin 512), f j (ix2 j q) = G (ix2 j q)) : rowsHeld c f ⊢ pt c gM G :=
  rows_join c f G fun j i hi => by
    have e : (i 0).val = j.val := (mem_rowM_set j i).mp hi
    have hi' : i = ix2 j (i 1) := by
      funext a
      match a with
      | ⟨0, _⟩ => exact Fin.ext e
      | ⟨1, _⟩ => rfl
    rw [hi']; exact h j (i 1)

/-! ## The row chain, one row at a time -/

/-- The rows from `k` on, held one by one. -/
def rowsFrom (c : Dev nD) (f : Fin 128 → Bf (F := F) c gM) (k : ℕ) : sProp 𝕄 :=
  bigSepL ((List.finRange 128).drop k) fun j => ((rowM j).view.loc (c : Thread nD τ) ↦[(rowM j).view.set]{fullShare} f j)

theorem rowsHeld_eq_from (c : Dev nD) (f : Fin 128 → Bf (F := F) c gM) : rowsHeld c f = rowsFrom c f 0 := rfl

/-- The row numbers from `k` on are `k` and then those from `k + 1` on. -/
theorem finRange_drop (k : ℕ) (hk : k < 128) :
    (List.finRange 128).drop k = (⟨k, hk⟩ : Fin 128) :: (List.finRange 128).drop (k + 1) := by
  rw [List.drop_eq_getElem_cons (by rw [List.length_finRange]; exact hk)]
  congr 1
  apply Fin.ext
  simp

/-- The rows from `k` on are row `k` and the rows from `k + 1` on. -/
theorem rowsFrom_succ (c : Dev nD) (f : Fin 128 → Bf (F := F) c gM) (k : ℕ) (hk : k < 128) :
    rowsFrom c f k = iprop(((rowM ⟨k, hk⟩).view.loc (c : Thread nD τ) ↦[(rowM ⟨k, hk⟩).view.set]{fullShare} f ⟨k, hk⟩)
      ∗ rowsFrom c f (k + 1)) := by
  unfold rowsFrom
  rw [finRange_drop k hk, bigSepL_cons]
  rfl

theorem rowsFrom_peel (c : Dev nD) (f : Fin 128 → Bf (F := F) c gM) (k : ℕ) (hk : k < 128) :
    rowsFrom c f k ⊢ iprop(((rowM ⟨k, hk⟩).view.loc (c : Thread nD τ) ↦[(rowM ⟨k, hk⟩).view.set]{fullShare} f ⟨k, hk⟩)
      ∗ rowsFrom c f (k + 1)) :=
  Entails.of_eq (rowsFrom_succ c f k hk)

theorem rowsFrom_unpeel (c : Dev nD) (f : Fin 128 → Bf (F := F) c gM) (k : ℕ) (hk : k < 128) :
    iprop(((rowM ⟨k, hk⟩).view.loc (c : Thread nD τ) ↦[(rowM ⟨k, hk⟩).view.set]{fullShare} f ⟨k, hk⟩)
      ∗ rowsFrom c f (k + 1)) ⊢ rowsFrom c f k :=
  Entails.of_eq (rowsFrom_succ c f k hk).symm

/-- Past the last row nothing is held. -/
theorem rowsFrom_end (c : Dev nD) (f : Fin 128 → Bf (F := F) c gM) : rowsFrom c f 128 = (iprop(emp) : sProp 𝕄) := by
  unfold rowsFrom
  rw [List.drop_of_length_le (by rw [List.length_finRange])]
  rfl

theorem rowsFrom_end_intro (c : Dev nD) (f : Fin 128 → Bf (F := F) c gM) : (iprop(emp) : sProp 𝕄) ⊢ rowsFrom c f 128 :=
  Entails.of_eq (rowsFrom_end c f).symm

theorem rowsFrom_end_elim (c : Dev nD) (f : Fin 128 → Bf (F := F) c gM) : rowsFrom c f 128 ⊢ (iprop(emp) : sProp 𝕄) :=
  Entails.of_eq (rowsFrom_end c f)

/-! ## A row a copy landed in -/

/-- Contents that agree on row `j` hold row `j` alike. -/
theorem row_congr (c : Dev nD) (j : Fin 128) (f G : Bf (F := F) c gM) (h : ∀ i ∈ (rowM j).view.set, f i = G i) :
    ((rowM j).view.loc (c : Thread nD τ) ↦[(rowM j).view.set]{fullShare} f : sProp 𝕄)
      ⊢ ((rowM j).view.loc (c : Thread nD τ) ↦[(rowM j).view.set]{fullShare} G) :=
  Entails.of_eq (pointsTo_congr h)

/-- An element under row `j` is `(j, q)` for its own column `q`. -/
theorem eq_ix2_of_mem_rowM (j : Fin 128) (i : S128x512.Idx) (hi : i ∈ (rowM j).view.set) : i = ix2 j (i 1) := by
  have e : (i 0).val = j.val := (mem_rowM_set j i).mp hi
  funext a
  match a with
  | ⟨0, _⟩ => exact Fin.ext e
  | ⟨1, _⟩ => rfl

/-- Row `j` after row `v` of `x` was copied into it is the gathered row, on the row's elements: any `G` whose row `j` is
    row `v` of `x` agrees there with the scratch written through row `j` with what the source slice reads. -/
theorem land_row (c : Dev nD) (j : Fin 128) (g : Bf (F := F) c gM) (fx : Bf (F := F) c xM) (v : BitVec 32)
    (hv : ∀ a, (![v.toNat, 0] : Fin 2 → Nat) a + S1x512.size a ≤ S20000x512.size a) (hlt : v.toNat < 20000)
    (G : Bf (F := F) c gM) (hG : ∀ q : Fin 512, G (ix2 j q) = fx (ix2 (⟨v.toNat, hlt⟩ : Fin 20000) q)) :
    ∀ i ∈ (rowM j).view.set,
      (rowM j).view.write (Elt F) g (ReadAs.same.apply ((xsl v hv).view.read (Elt F) fx)) Finset.univ i = G i := by
  intro i hi
  rw [eq_ix2_of_mem_rowM j i hi]
  exact (row_write_ix c j g _ (i 1)).trans ((xsl_read c v hv hlt fx (ix1 (i 1))).trans (hG (i 1)).symm)

/-- A full write through the whole rectangle of a view is the full write through the view. -/
theorem write_slice_whole {sg : RefSig} {κ : Kind} {sp : Space} {s : Shape} {e : EltTy} {Val : EltTy → Type}
    (v : View sg κ sp s e) (f : v.ty.Contents Val) (w : s.Idx → Val e) :
    (v.slice (Rect.whole s)).write Val f w Finset.univ = v.write Val f w Finset.univ := by
  funext i
  by_cases hi : i ∈ v.set
  · obtain ⟨x, -, rfl⟩ := Finset.mem_map.mp hi
    have e : v.emb x = (v.slice (Rect.whole s)).emb x := by
      show v.emb x = v.emb ((Rect.whole s).emb x)
      rw [Rect.emb_whole_apply]
    conv_lhs => rw [e, View.write_emb_of_mem _ _ (Finset.mem_univ _)]
    rw [View.write_emb_of_mem _ _ (Finset.mem_univ _)]
  · rw [View.write_of_not_mem _ _ _ (by rwa [View.setOn_univ, View.set_slice, Rect.set_whole]),
      View.write_of_not_mem _ _ _ (by rwa [View.setOn_univ])]

/-- The same with the copy recorded as one listed write at the row's whole rectangle. -/
theorem land_row_writes (c : Dev nD) (j : Fin 128) (g : Bf (F := F) c gM) (fx : Bf (F := F) c xM) (v : BitVec 32)
    (hv : ∀ a, (![v.toNat, 0] : Fin 2 → Nat) a + S1x512.size a ≤ S20000x512.size a) (hlt : v.toNat < 20000)
    (G : Bf (F := F) c gM) (hG : ∀ q : Fin 512, G (ix2 j q) = fx (ix2 (⟨v.toNat, hlt⟩ : Fin 20000) q)) :
    ∀ i ∈ (rowM j).view.set,
      (rowM j).view.writes (Elt F) g [⟨Rect.whole S512, ReadAs.same.apply ((xsl v hv).view.read (Elt F) fx)⟩] i = G i := by
  intro i hi
  rw [View.writes_singleton, write_slice_whole]
  exact land_row c j g fx v hv hlt G hG i hi

end Cert.Kernel.Hand

end
-- ==== Proof.KernelLand.lean ====
import proofs.«415070_j29162827940274_1_alg».proof.Proof.KernelRows

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

/-- The block gathered at grid point `t` out of `fx` by the table `tb`: row `j` is row `tb[128 t + j]` of `fx` (a row
    number out of range read as its residue: under the precondition there is none). -/
def gathOf (fx : S20000x512.Idx → Elt F .f32) (tb : S100096.Idx → BitVec 32) (t : Fin 782) : S128x512.Idx → Elt F .f32 :=
  fun i => fx (ix2 (⟨(tb (ix1 (⟨128 * t.val + (i 0).val, by have := t.isLt; have h : (i 0).val < 128 := (i 0).isLt; omega⟩ : Fin 100096))).toNat % 20000,
    Nat.mod_lt _ (by decide)⟩ : Fin 20000) (i 1))

/-- On the one-axis grid a point's coordinate is its number. -/
theorem coords0 (t : Fin grid0.N) : (grid0.coords t 0).val = t.val := by
  have ht : t.val < 782 := t.isLt
  show t.val / 1 % 782 = t.val
  rw [Nat.div_one, Nat.mod_eq_of_lt ht]

/-- A one-word rectangle has an element. -/
theorem load_pos (off : Fin 1 → Nat) (hinb : ∀ a, off a + S1.size a ≤ S100096.size a) :
    0 < (Rect.unit (s := S100096) off S1.size hinb).toLoadRect.shape.numel := by
  show 0 < S1.numel
  decide

/-- A one-word load of the table at offset `n` reads word `n`. -/
theorem tab_word (c : Dev nD) (tab : Bf (F := F) c tabM) (off : Fin 1 → Nat) (hinb : ∀ a, off a + S1.size a ≤ S100096.size a)
    (h0 : 0 < (Rect.unit (s := S100096) off S1.size hinb).toLoadRect.shape.numel) (n : ℕ) (hn : n < 100096) (hoff : off = ![n]) :
    (View.readAt (Elt F) tabM.view (Rect.unit (s := S100096) off S1.size hinb).toLoadRect tab (Shape.Idx.first h0) : BitVec 32)
      = tab (ix1 (⟨n, hn⟩ : Fin 100096)) := by
  subst hoff
  refine congrArg tab (funext fun a => ?_)
  match a with
  | ⟨0, _⟩ => exact Fin.ext (by show n + 1 * 0 = n; omega)

/-- Row `j` of the gathered block, when the word `v` is entry `128 t + j` of the table and names a row of `x`. -/
theorem gath_row (fx : S20000x512.Idx → Elt F .f32) (tb : S100096.Idx → BitVec 32) (t : Fin 782) (j : Fin 128)
    (hn : 128 * t.val + j.val < 100096) (v : BitVec 32) (hlt : v.toNat < 20000)
    (hw : v = tb (ix1 (⟨128 * t.val + j.val, hn⟩ : Fin 100096))) (q : Fin 512) :
    gathOf fx tb t (ix2 j q) = fx (ix2 (⟨v.toNat, hlt⟩ : Fin 20000) q) := by
  subst hw
  show fx (ix2 ⟨_ % 20000, _⟩ q) = _
  congr 2
  exact Fin.ext (Nat.mod_eq_of_lt hlt)

/-- A row a copy has landed in holds the gathered row: the copy of grid point `t` into row `j` reads row `v` of `x`,
    `v` the word the body loaded from the table at offset `128 t + j`. -/
theorem row_land (c : Dev nD) (t : Fin grid0.N) (tab : Bf (F := F) c tabM) (htab : TabOk c tab) (fx : Bf (F := F) c xM)
    (g : Bf (F := F) c gM) (j : Fin 128) (off : Fin 1 → Nat) (hinb : ∀ a, off a + S1.size a ≤ S100096.size a)
    (hoff : off = ![128 * (grid0.coords t 0).val + j.val]) :
    ((rowM j).view.loc (c : Thread nD τ) ↦[(rowM j).view.set]{fullShare}
        (rowM j).view.writes (Elt F) g [⟨Rect.whole S512, ReadAs.same.apply ((xsl
          (View.readAt (Elt F) tabM.view (Rect.unit (s := S100096) off S1.size hinb).toLoadRect tab (Shape.Idx.first (load_pos off hinb)))
          (chk_one _ (htab _))).view.read (Elt F) fx)⟩] : sProp 𝕄)
      ⊢ ((rowM j).view.loc (c : Thread nD τ) ↦[(rowM j).view.set]{fullShare} (gathOf fx tab t : Bf (F := F) c gM)) := by
  have ht : t.val < 782 := t.isLt
  have hn : 128 * t.val + j.val < 100096 := by have := j.isLt; omega
  have hw := tab_word c tab off hinb (load_pos off hinb) (128 * t.val + j.val) hn (by rw [hoff, coords0])
  refine row_congr c j _ _ (land_row_writes c j g fx _ (chk_one _ (htab _)) (htab _) _ (fun q => ?_))
  exact gath_row fx tab t j hn _ (htab _) hw q

/-- The same with the copy's payload named `P`: the run names each payload, and `hP` unfolds the name. -/
theorem row_land' (c : Dev nD) (t : Fin grid0.N) (tab : Bf (F := F) c tabM) (htab : TabOk c tab) (fx : Bf (F := F) c xM)
    (g : Bf (F := F) c gM) (j : Fin 128) (off : Fin 1 → Nat) (hinb : ∀ a, off a + S1.size a ≤ S100096.size a)
    (hoff : off = ![128 * (grid0.coords t 0).val + j.val]) (P : S512.Idx → Elt F .f32)
    (hP : P = ReadAs.same.apply ((xsl
          (View.readAt (Elt F) tabM.view (Rect.unit (s := S100096) off S1.size hinb).toLoadRect tab (Shape.Idx.first (load_pos off hinb)))
          (chk_one _ (htab _))).view.read (Elt F) fx)) :
    ((rowM j).view.loc (c : Thread nD τ) ↦[(rowM j).view.set]{fullShare}
        (rowM j).view.writes (Elt F) g [⟨Rect.whole S512, P⟩] : sProp 𝕄)
      ⊢ ((rowM j).view.loc (c : Thread nD τ) ↦[(rowM j).view.set]{fullShare} (gathOf fx tab t : Bf (F := F) c gM)) := by
  subst hP
  exact row_land c t tab htab fx g j off hinb hoff

/-- The last row by itself is the chain of rows from 127 on. -/
theorem rowsFrom_last (c : Dev nD) (f : Fin 128 → Bf (F := F) c gM) (h : 127 < 128) :
    ((rowM ⟨127, h⟩).view.loc (c : Thread nD τ) ↦[(rowM ⟨127, h⟩).view.set]{fullShare} f ⟨127, h⟩ : sProp 𝕄)
      ⊢ rowsFrom c f 127 := by
  refine BIBase.Entails.trans ?_ (rowsFrom_unpeel c f 127 h)
  iintro H
  isplitl [H]
  · iexact H
  · iapply (rowsFrom_end_intro c f)
    iempintro

end Cert.Kernel.Hand

end
-- ==== Proof.KernelBody.lean ====
import proofs.«415070_j29162827940274_1_alg».proof.Proof.KernelLand

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

open Lean Elab Tactic in
/-- Turn `Hrows : rowsFrom c f 0` into the hypotheses `Hg_0 … Hg_127`, one per row of the scratch. -/
elab "peel_rows" : tactic => do
  for j in [0:128] do
    let s := s!"(ihave Hpeel := (rowsFrom_peel _ _ {j} (of_decide_eq_true rfl)) $$ Hrows; icases Hpeel with ⟨Hg_{j}, Hrows⟩)"
    match Parser.runParserCategory (← getEnv) `tactic s with
    | .ok stx => evalTactic stx
    | .error e => throwError e

open Lean Elab Tactic in
/-- Row `j`, once its copy has landed, holds row `j` of the gathered block (`row_land`, at the offset `128 t + j` of the
    table load that named the copy's source). -/
elab "land_rows" : tactic => do
  for j in [0:128] do
    let k := 2 * j + 1
    let s := s!"(ihave Hg_{j} := (row_land' c t tab htab fx g ⟨{j}, of_decide_eq_true rfl⟩ (k0_off{k} (grid0.coords t)) (Gen.k0_off{k}_inb (grid0.coords t)) (Gen.k0_off{k}_eq (grid0.coords t)) (kernelRun.sl.dma{k} c t tab htab fx) (by first | rfl | (simp only [kernelRun.sl.dma{k}]; rfl))) $$ Hg_{j})"
    match Parser.runParserCategory (← getEnv) `tactic s with
    | .ok stx => evalTactic stx
    | .error e => throwError e

open Lean Elab Tactic in
/-- The 128 rows, each at the gathered block, back into the chain `Hrows : rowsFrom c _ 0`, last row first. -/
elab "fold_rows" : tactic => do
  let first := "(ihave Hrows := (rowsFrom_last c (fun _ => (gathOf fx tab t : Bf (F := F) c gM)) (of_decide_eq_true rfl)) $$ Hg_127)"
  match Parser.runParserCategory (← getEnv) `tactic first with
  | .ok stx => evalTactic stx
  | .error e => throwError e
  for k in [0:127] do
    let j := 126 - k
    let s := s!"(ihave Hrows := (rowsFrom_unpeel c (fun _ => (gathOf fx tab t : Bf (F := F) c gM)) {j} (of_decide_eq_true rfl)) $$ [Hg_{j} Hrows]; · (isplitl [Hg_{j}] <;> iassumption))"
    match Parser.runParserCategory (← getEnv) `tactic s with
    | .ok stx => evalTactic stx
    | .error e => throwError e

set_option sl_exec.stepHeartbeats 4000000 in
set_option maxHeartbeats 400000000 in
/-- The body at a grid point `t`, run once at symbolic operands. From the weights' staging buffer `M3` at `f3`, the output's staging
    buffer `M4` at anything, the table (a half share) with every word a row of `x`, `x` whole, the scratch and the cell at
    zero. `x` is split into 128 fractions of the whole array and the scratch into its 128 rows; the 128 copies are started on
    the one cell, copy `j` reading its row of `x` through fraction `j` and landing in row `j`; the 128 waits drain the cell,
    the last handing every row and every fraction back. Each row then holds its row of the gathered block; the rows are
    joined, the scratch is read whole, scaled by the weights and stored transposed. `W` is what the body leaves in `M4`. -/
noncomputable def kernelRun [∀ e, Nonempty (Elt F e)] (c : Dev nD) (t : Fin grid0.N)
    (M3 : Memref sig .tc .vmem S128 .f32) (h3 : M3.IsWhole) (M4 : Memref sig .tc .vmem S512x128 .f32) (h4 : M4.IsWhole)
    (tab : Bf (F := F) c tabM) (htab : TabOk c tab) (fx : Bf (F := F) c xM) (g : Bf (F := F) c gM) (f3 : Bf (F := F) c M3) :
    { W : Bf (F := F) c M4 //
      ∀ (f4 : Bf (F := F) c M4) (W₀ : Waits sig Unit) (Q : PUnit → sProp 𝕄),
        iprop(pt c M3 f3 ∗ pt c M4 f4
            ∗ (tabM.view.loc (c : Thread nD τ) ↦{fullShare.right} tab)
            ∗ pt c xM fx ∗ pt c gM g
            ∗ semVal ((c : Thread nD τ), semL) 0 ∗ owes (c : Thread nD τ) 0 W₀
            ∗ (iprop(pt c M3 f3 ∗ pt c M4 W
                ∗ (tabM.view.loc (c : Thread nD τ) ↦{fullShare.right} tab)
                ∗ pt c xM fx ∗ (∃ g', pt c gM g')
                ∗ semVal ((c : Thread nD τ), semL) 0 ∗ (∃ W₁, owes (c : Thread nD τ) 0 W₁)) -∗ Q ⟨⟩))
          ⊢ wp frame (wpE (defs₀ (F := F)) Variants.none c none) Set.univ
              (cc0__gather_scale_transpose_kernel (F := F) (grid0.coords t) tabM (Memref.isWhole_whole _) xM (Memref.isWhole_whole _)
                M3 h3 M4 h4 gM (Memref.isWhole_whole _) cc0_scratch1) Q } := by
  have _plan : Transfers.BatchOf (c : Thread nD τ) semL 128 (windows := false) := trivial
  refine ⟨?_, fun f4 W₀ Q => ?run⟩
  case run =>
    iintro ⟨H3, H4, Htab, Hx, Hg, Hs, HO, Hk⟩
    peel_shares
    ihave Hrows := ((rows_split c g).trans (Entails.of_eq (rowsHeld_eq_from c _))) $$ Hg
    peel_rows
    sl_exec (disch := first | exact chk_and _ (htab _) | exact chk_one _ (htab _))
    land_rows
    fold_rows
    ihave Hg := ((Entails.of_eq (rowsHeld_eq_from c _).symm).trans (rows_join c _ (gathOf fx tab t) (fun _ _ _ => rfl))) $$ Hrows
    sl_exec! (disch := first | exact chk_and _ (htab _) | exact chk_one _ (htab _))
    sl_step
    iapply Hk
    isplitl [H3]; · iexact H3
    isplitl [H4]; · iexact H4
    isplitl [Htab]; · iexact Htab
    isplitr [Hg Hs HO]
    · join_shares
      iexact Hx
    isplitl [Hg]; · iexists _; iexact Hg
    isplitl [Hs]; · iexact Hs
    iexists _; iexact HO

end Cert.Kernel.Hand

end
-- ==== Proof.KernelReadBack.lean ====
import proofs.«415070_j29162827940274_1_alg».proof.Proof.KernelCommon
import Idealize.ShloMosaic.Lib.Writes
import Idealize.ShloMosaic.Lib.Pipeline.Value
import Idealize.ShloMosaic.Lib.ValueIdx

/-! # Reading back what the body's last steps leave

The body's tail loads the weights' block and the gathered scratch through the whole rectangle of each buffer (sizes the
buffer's own, offsets zero) and stores the scaled, transposed block through the whole rectangle of the output's
staging buffer. A load through a whole rectangle reads what the view reads; a store through it, read back, is the
stored block, whatever the buffer held before. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

/-! ## The zero offsets, as the body spells them -/

theorem off1_zero : (![0] : Fin 1 → Nat) = fun _ => 0 := by
  funext a
  match a with
  | ⟨0, _⟩ => rfl

theorem off2_zero : (![0, 0] : Fin 2 → Nat) = fun _ => 0 := by
  funext a
  match a with
  | ⟨0, _⟩ => rfl
  | ⟨1, _⟩ => rfl

/-! ## Loads through the whole rectangle -/

/-- Of any 128-vector `X`, the whole rectangle reads `X`. -/
theorem ld_S128 (X : S128.Idx → Elt F .f32) :
    View.ld X (Rect.unit (s := S128) ![0] S128.size inb_S128_S128_0) = X :=
  View.ld_unit_zero off1_zero _ X

/-- Of any 128 × 512 block. -/
theorem ld_S128x512 (X : S128x512.Idx → Elt F .f32) :
    View.ld X (Rect.unit (s := S128x512) ![0, 0] S128x512.size inb_S128x512_S128x512_0_0) = X :=
  View.ld_unit_zero off2_zero _ X

/-- Of any 512 × 128 block. -/
theorem ld_S512x128 (X : S512x128.Idx → Elt F .f32) :
    View.ld X (Rect.unit (s := S512x128) ![0, 0] S512x128.size inb_S512x128_S512x128_0_0) = X :=
  View.ld_unit_zero off2_zero _ X

/-- The load of the weights' block reads what the block's view reads. -/
theorem ld_M3 (c : Dev nD) (M3 : Memref sig .tc .vmem S128 .f32) (f3 : Bf (F := F) c M3) :
    M3.view.readAt (Elt F) (Rect.unit (s := S128) ![0] S128.size inb_S128_S128_0).toLoadRect f3 = M3.view.read (Elt F) f3 :=
  ld_S128 (M3.view.read (Elt F) f3)

/-- The whole scratch reads as its contents. -/
theorem read_gM (c : Dev nD) (G : Bf (F := F) c gM) : gM.view.read (Elt F) G = (G : S128x512.Idx → Elt F .f32) :=
  funext fun _ => cast_eq _ _

/-- The load of the scratch reads its contents. -/
theorem ld_gM (c : Dev nD) (G : Bf (F := F) c gM) :
    gM.view.readAt (Elt F) (Rect.unit (s := S128x512) ![0, 0] S128x512.size inb_S128x512_S128x512_0_0).toLoadRect G
      = (G : S128x512.Idx → Elt F .f32) :=
  (ld_S128x512 (gM.view.read (Elt F) G)).trans (read_gM c G)

/-- The load of the output's staging buffer reads what its view reads. -/
theorem ld_M4 (c : Dev nD) (M4 : Memref sig .tc .vmem S512x128 .f32) (f4 : Bf (F := F) c M4) :
    M4.view.readAt (Elt F) (Rect.unit (s := S512x128) ![0, 0] S512x128.size inb_S512x128_S512x128_0_0).toLoadRect f4
      = M4.view.read (Elt F) f4 :=
  ld_S512x128 (M4.view.read (Elt F) f4)

/-! ## A store through the whole rectangle, read back -/

/-- Through any view: one store through the rectangle of the view's own sizes at zero offsets, read back through the
    view, is the stored block, whatever the buffer held. -/
theorem read_writes_unit_zero {sg : RefSig} {κ : Kind} {sp : Space} {S : Shape} {e : EltTy} {Val : EltTy → Type}
    (v : View sg κ sp S e) {off : Fin S.rank → Nat} (h : off = fun _ => 0) (inb : ∀ a, off a + S.size a ≤ S.size a)
    (f : v.ty.Contents Val) (P : S.Idx → Val e) :
    v.read Val (v.writes Val f [⟨Rect.unit off S.size inb, P⟩]) = P := by
  subst h
  funext y
  have e := View.read_writes_cons_emb v f (Rect.whole S) P [] y
  rw [Rect.emb_whole_apply] at e
  exact e

/-- The body's store of the block `P` into the output's staging buffer, read back: `P`. -/
theorem read_store_M4 (c : Dev nD) (M4 : Memref sig .tc .vmem S512x128 .f32) (h4 : M4.IsWhole) (f4 : Bf (F := F) c M4)
    (P : S512x128.Idx → Elt F .f32) :
    M4.view.read (Elt F)
      (M4.view.writes (Elt F) f4 [⟨Rect.unit (s := S512x128) ![0, 0] S512x128.size inb_S512x128_S512x128_0_0, P⟩]) = P :=
  read_writes_unit_zero M4.view off2_zero _ f4 P

/-- The same with the store written as one write through the rectangle's view. -/
theorem read_store_M4' (c : Dev nD) (M4 : Memref sig .tc .vmem S512x128 .f32) (h4 : M4.IsWhole) (f4 : Bf (F := F) c M4)
    (P : S512x128.Idx → Elt F .f32) :
    M4.view.read (Elt F)
      ((M4.view.slice (Rect.unit (s := S512x128) ![0, 0] S512x128.size inb_S512x128_S512x128_0_0)).write (Elt F) f4 P
        Finset.univ) = P :=
  read_store_M4 c M4 h4 f4 P

/-- The same over a buffer whose prior contents are left unnamed. -/
theorem read_store_M4_junk (c : Dev nD) (M4 : Memref sig .tc .vmem S512x128 .f32) (h4 : M4.IsWhole)
    (P : S512x128.Idx → Elt F .f32) :
    M4.view.read (Elt F)
      (M4.view.writes (Elt F) M4.view.junk
        [⟨Rect.unit (s := S512x128) ![0, 0] S512x128.size inb_S512x128_S512x128_0_0, P⟩]) = P :=
  read_store_M4 c M4 h4 M4.view.junk P

theorem read_store_M4_junk' (c : Dev nD) (M4 : Memref sig .tc .vmem S512x128 .f32) (h4 : M4.IsWhole)
    (P : S512x128.Idx → Elt F .f32) :
    M4.view.read (Elt F)
      ((M4.view.slice (Rect.unit (s := S512x128) ![0, 0] S512x128.size inb_S512x128_S512x128_0_0)).write (Elt F)
        M4.view.junk P Finset.univ) = P :=
  read_store_M4 c M4 h4 M4.view.junk P

end Cert.Kernel.Hand

end
-- ==== Proof.KernelBodyValue.lean ====
import proofs.«415070_j29162827940274_1_alg».proof.Proof.KernelBody
import proofs.«415070_j29162827940274_1_alg».proof.Proof.KernelReadBack

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UC ℕ

set_option maxHeartbeats 4000000 in
/-- What the body leaves in the output's staging buffer, read as a block: the body's one store covers the buffer, its
    payload the transpose of (the scratch read whole, each row scaled by the weight read from `M3`); and the scratch read
    whole is the gathered block, since every row had been rewritten to its row of it before the read. -/
theorem kernelRun_read [∀ e, Nonempty (Elt F e)] (c : Dev nD) (t : Fin grid0.N) (M3 : Memref sig .tc .vmem S128 .f32) (h3 : M3.IsWhole)
    (M4 : Memref sig .tc .vmem S512x128 .f32) (h4 : M4.IsWhole) (tab : Bf (F := F) c tabM) (htab : TabOk c tab) (fx : Bf (F := F) c xM)
    (g : Bf (F := F) c gM) (f3 : Bf (F := F) c M3) :
    M4.view.read (Elt F) (kernelRun c t M3 h3 M4 h4 tab htab fx g f3).1 = k0_pay1 (k0_pay2 (M3.view.read (Elt F) f3) (gathOf fx tab t)) := by
  unfold kernelRun
  dsimp only
  sl_unfold_words
  rw [read_store_M4_junk c M4 h4, ld_M3 c M3 f3, ld_gM c (gathOf fx tab t)]

end Cert.Kernel.Hand

end
-- ==== Proof.KernelObligation.lean ====
import proofs.«415070_j29162827940274_1_alg».proof.Proof.KernelData
import proofs.«415070_j29162827940274_1_alg».proof.Proof.KernelBodyValue
import Idealize.ShloMosaic.Lib.Pipeline.FrameBody
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)
variable [∀ e, Nonempty (Elt F e)]

namespace Obligation

/-- On the one-axis grid a point's coordinate is its number. -/
theorem coords0 (t : Fin grid0.N) : (grid0.coords t 0).val = t.val := by
  have ht : t.val < 782 := t.isLt
  show t.val / 1 % 782 = t.val
  rw [Nat.div_one, Nat.mod_eq_of_lt ht]

/-- The weights' block index at point `t` is `t`: the index map returns the grid coordinate as a 32-bit word, and 782 points fit. -/
theorem idx0 (t : Fin grid0.N) : cc0_transform_1 (grid0.coords t) 0 = t.val := by
  have ht : t.val < 782 := t.isLt
  show (BitVec.ofNat 32 (grid0.coords t 0).val).toNat = t.val
  rw [coords0, BitVec.toNat_ofNat]
  exact Nat.mod_eq_of_lt (by omega)

/-- What a fetch at point `t` leaves in the weights' buffer: no block is cut, so the whole buffer is the array's block, and
    element `j` of block `t` is entry `128 t + j` of the padded weights. -/
theorem fetched0 (c : Dev nD) (t : Fin grid0.N) (d) : (dats m 0 c).fetched 0 t d = wblk m c t := by
  refine funext fun (j : S128.Idx) => ?_
  have hm : ((cfgA m).win 0).moved ((cfgA m).grid.coords t) j = true := rfl
  unfold Pipeline.Dat.fetched Pipeline.Window.fill
  rw [dif_pos hm]
  unfold Pipeline.Dat.blockOf
  rw [View.read_apply]
  show V m c main_v4 ((((cfgA m).win 0).blk t).view.emb fun a => ⟨(j a).val, _⟩) = V m c main_v4 (ix1 ⟨128 * t.val + (j 0).val, _⟩)
  congr 1
  refine funext fun (a : Fin 1) => Fin.ext ?_
  obtain rfl : a = 0 := Subsingleton.elim _ _
  show cc0_transform_1 (grid0.coords t) 0 * 128 + 1 * (j 0).val = 128 * t.val + (j 0).val
  rw [idx0]; omega

/-- The weights' window at any point holds its block: it is an input the body only reads, and no block is cut. -/
theorem before0 (c : Dev nD) (t : Fin grid0.N) (d) : (dats m 0 c).before 0 t d = wblk m c t := by
  rw [Pipeline.Dat.before_in_eq_fetched (dats m 0 c) 0 rfl (fun _ => rfl) (fun _ _ _ => rfl) (fun t' => ?_) t d]
  · exact fetched0 m c t d
  · show ((cfgA m).win 0).cut ((cfgA m).grid.coords t') (wblk m c t') = _
    rw [← fetched0 m c t' (wblk m c t')]
    exact Pipeline.Dat.cut_fetched (dats m 0 c) 0 t' _

/-- The staging memrefs the body is called with at point `t`: the windows' current buffers. -/
abbrev st0 (t : Fin grid0.N) : Memref sig .tc .vmem S128 .f32 := spec0_0.stage ((cfgA m).slots t 0)
abbrev st1 (t : Fin grid0.N) : Memref sig .tc .vmem S512x128 .f32 := spec0_1.stage ((cfgA m).slots t 1)
theorem st0_whole (t : Fin grid0.N) : (st0 m t).IsWhole := hstage0_0 (((cfgA m).slots t 0).cast nbuf0_0)
theorem st1_whole (t : Fin grid0.N) : (st1 m t).IsWhole := hstage0_1 (((cfgA m).slots t 1).cast nbuf0_1)

/-- The body's call at point `t`: the kernel function on the table, `x`, the two current staging buffers, the scratch and the cell. -/
def bodyAt (t : Fin grid0.N) : Prog (TpuEff nD τ sig (Elt F) Λ₀ .tc) PUnit :=
  cc0__gather_scale_transpose_kernel (F := F) (grid0.coords t) tabM (Memref.isWhole_whole _) xM (Memref.isWhole_whole _)
    (st0 m t) (st0_whole m t) (st1 m t) (st1_whole m t) gM (Memref.isWhole_whole _) cc0_scratch1

/-- What the pipeline hands the body of the two current buffers at point `t`: each at what it then holds. -/
def pre0 (c : Dev nD) (t : Fin grid0.N) : sProp 𝕄 :=
  iprop(∃ d, owns (c : Thread nD τ) (st0 m t) fullShare ((dats m 0 c).before 0 t d))
def pre1 (c : Dev nD) (t : Fin grid0.N) : sProp 𝕄 :=
  iprop(∃ d, owns (c : Thread nD τ) (st1 m t) fullShare ((dats m 0 c).before 1 t d))

/-- What the body is called with at point `t`: the invariant, the core's `owes`, the two buffers; -/
def bodyPre (c : Dev nD) (t : Fin grid0.N) : sProp 𝕄 :=
  iprop((dats m 0 c).Φ t.castSucc ∗ (dats m 0 c).owesAt () t.castSucc ∗ pre0 m c t ∗ pre1 m c t)

/-- and what it returns: the invariant, `owes`, the weights' buffer as it was and the output's at the point's block. -/
def bodyPost (c : Dev nD) (t : Fin grid0.N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t))

/-- A whole memref owned at `X` is its buffer held whole at contents that read `X`, -/
theorem owns_whole_elim (c : Dev nD) {sp : Space} {S : Shape} {e : EltTy} {M : Memref sig .tc sp S e} (h : M.IsWhole) (X : S.Idx → Elt F e) :
    (owns (c : Thread nD τ) M fullShare X : sProp 𝕄) ⊢ iprop(∃ f : Bf (F := F) c M, ⌜M.view.read (Elt F) f = X⌝ ∗ pt c M f) := by
  unfold owns; rw [h.set_eq_univ]

/-- and back. -/
theorem owns_whole_intro (c : Dev nD) {sp : Space} {S : Shape} {e : EltTy} {M : Memref sig .tc sp S e} (h : M.IsWhole) (f : Bf (F := F) c M)
    (X : S.Idx → Elt F e) (hX : M.view.read (Elt F) f = X) :
    (pt c M f : sProp 𝕄) ⊢ owns (c : Thread nD τ) M fullShare X := by
  unfold owns; rw [h.set_eq_univ]
  iintro H; iexists f; isplitr; · ipureintro; exact hX
  iexact H

/-- The weights' current buffer is held whole at contents that read the point's block of weights. -/
theorem pre0_open (c : Dev nD) (t : Fin grid0.N) :
    pre0 m c t ⊢ (iprop(∃ f : Bf (F := F) c (st0 m t), ⌜(st0 m t).view.read (Elt F) f = wblk m c t⌝ ∗ pt c (st0 m t) f) : sProp 𝕄) := by
  unfold pre0; simp only [before0]
  exact exists_elim fun _ => owns_whole_elim c (st0_whole m t) (wblk m c t)

/-- The output's current buffer, whatever the body finds in it, is that buffer held whole at some contents. -/
theorem pre1_open (c : Dev nD) (t : Fin grid0.N) : pre1 m c t ⊢ (iprop(∃ f : Bf (F := F) c (st1 m t), pt c (st1 m t) f) : sProp 𝕄) := by
  unfold pre1
  refine exists_elim fun d => (owns_whole_elim c (st1_whole m t) ((dats m 0 c).before 1 t d)).trans ?_
  iintro ⟨%f, -, H⟩
  iexists f; iexact H

/-- The core's `owes` with nothing owed is within any point's bound: every pair is admitted; -/
theorem owes_at (c : Dev nD) (W : Waits sig Unit) (t : Fin ((cfgA m).N + 1)) :
    owes (c : Thread nD τ) 0 W ⊢ ((dats m 0 c).owesAt () t : sProp 𝕄) := by
  unfold Pipeline.Dat.owesAt Pipeline.owesWithin
  iintro H
  rw [show (dats m 0 c).owed t = 0 from rfl]
  iexists W; isplitr; · ipureintro; exact fun _ _ => Or.inl trivial
  iexact H

/-- and what the loop holds of it is `owes` at some recorded set. -/
theorem at_owes (c : Dev nD) (t : Fin ((cfgA m).N + 1)) :
    ((dats m 0 c).owesAt () t : sProp 𝕄) ⊢ iprop(∃ W, owes (c : Thread nD τ) 0 W) := by
  unfold Pipeline.Dat.owesAt Pipeline.owesWithin
  rw [show (dats m 0 c).owed t = 0 from rfl]
  iintro ⟨%W, -, H⟩
  iexists W; iexact H

/-- The body at point `t`, from what the pipeline hands it to what it takes back: the weights' buffer is opened at contents
    that read its block, the output's at whatever it holds, the invariant gives the run its table, `x`, scratch and cell, and the run's
    result in the output's buffer reads the point's block. -/
theorem sound_body (c : Dev nD) (htab : TabOk c (tab m c)) (t : Fin grid0.N) :
    bodyPre m c t ⊢ wp frame (wpE (defs₀ (F := F)) Variants.none c none) Set.univ (bodyAt m t) (fun _ => bodyPost m c t) := by
  unfold bodyPre bodyPost bodyAt
  rw [show (dats m 0 c).Φ t.castSucc = Φc m c from rfl, show (dats m 0 c).Φ t.succ = Φc m c from rfl,
    show (dats m 0 c).after 0 t = wblk m c t from rfl, show (dats m 0 c).after 1 t = outBlk m c t from rfl]
  unfold Φc
  iintro ⟨⟨Hx, Htab, ⟨%g, Hg⟩, Hs, Hr⟩, Ho, H0, H1⟩
  ihave Ho' := (at_owes m c t.castSucc) $$ Ho
  icases Ho' with ⟨%W, HW⟩
  ihave H0' := (pre0_open m c t) $$ H0
  icases H0' with ⟨%f3, %hf3, H3⟩
  ihave H1' := (pre1_open m c t) $$ H1
  icases H1' with ⟨%f4, H4⟩
  iapply ((kernelRun c t (st0 m t) (st0_whole m t) (st1 m t) (st1_whole m t) (tab m c) htab (V m c main_arg0) g f3).2 f4 W _)
  isplitl [H3]; · iexact H3
  isplitl [H4]; · iexact H4
  isplitl [Htab]; · iexact Htab
  isplitl [Hx]; · iexact Hx
  isplitl [Hg]; · iexact Hg
  isplitl [Hs]; · iexact Hs
  isplitl [HW]; · iexact HW
  iintro ⟨H3, H4, Htab, Hx, Hg, Hs, ⟨%W₁, HW⟩⟩
  isplitl [Hx Htab Hg Hs Hr]
  · isplitl [Hx]; · iexact Hx
    isplitl [Htab]; · iexact Htab
    isplitl [Hg]; · iexact Hg
    isplitl [Hs]; · iexact Hs
    iexact Hr
  isplitl [HW]; · iapply (owes_at m c W₁ t.succ); iexact HW
  isplitl [H3]; · iapply (owns_whole_intro c (st0_whole m t) f3 (wblk m c t) hf3); iexact H3
  have hread : (st1 m t).view.read (Elt F) (kernelRun c t (st0 m t) (st0_whole m t) (st1 m t) (st1_whole m t) (tab m c) htab
      (V m c main_arg0) g f3).1 = outBlk m c t := by
    rw [kernelRun_read, hf3]; rfl
  iapply (owns_whole_intro c (st1_whole m t) _ _ hread); iexact H4

end Obligation

open Obligation in
set_option maxRecDepth 100000 in
/-- The pipeline's body obligation: at every point the obligation's pre, program and post are `bodyPre`, the kernel
    function's call and `bodyPost` (no window here is idle, loose or forgotten: the cases reduce). -/
theorem body_obligation (c : Dev nD) (htab : TabOk c (tab m c)) :
    Pipeline.BodyObligationLoose (dats m 0 c) (defs₀ (F := F)) Variants.none () Set.univ := fun t => by
  rw [Gen.bigSep_W0, Gen.bigSep_W0]
  show bodyPre m c t ⊢ wp frame (wpE (defs₀ (F := F)) Variants.none c none) Set.univ (bodyAt m t) (fun _ => bodyPost m c t)
  exact sound_body m c htab t

end Cert.Kernel.Hand

end
-- ==== Proof.KernelLaunch.lean ====
/-
  The launch of @main. @main is nine host operations — the row numbers flattened and padded with zeros to 100096 words,
  the weights repeated 2000 times each, flattened and padded likewise —, then the kernel region, then two more host
  operations: the region's result f32[512, 100096] cut to its first 100000 columns and flattened.

  The region is a pipeline over 782 grid points with one prefetched table (the row numbers), two windows (a block of
  128 weights in, a block [512, 128] of the result out) and a body that moves rows of `x` by copies of its own: `x`
  stays in HBM, is no window's array, and is read through the body's invariant, which holds it whole at every point
  together with the body's half of the table, the scratch the rows are gathered into, the one cell the copies
  complete on (at zero between points) and the generator register. Nothing is in flight between points, so the
  invariant is the same at every point; at the first point it is made of what the launch hands the kernel, at the
  last it gives all of it back.

  From the body's obligation at every point (a hypothesis here) the run follows: every weakly fair execution of @main
  on the TensorCore terminates; at the end the flattened result holds the first 100000 columns of the output array
  as the pipeline computes it from the blocks written back, in row-major order, and the three arguments hold what
  they held at launch (no operation writes them, and the body only reads `x`).
-/
import proofs.«415070_j29162827940274_1_alg».proof.Proof.KernelData
import Idealize.ShloMosaic.Lib.Pipeline.FrameSuffix
import Idealize.ShloMosaic.Lib.Pipeline.Kit
import Idealize.ShloMosaic.Lib.StableHlo.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2)

variable {F : FTy → Type} [FloatOps F]

local notation "𝕄" => MT nD τ sig Unit (Elt F) ℕ UC ℕ

variable (m : (ℓ : Loc nD τ sig) → Buf (Elt F) ℓ)

/-! ## The kernel's own cell, the host lines, the buffer the body reads by itself -/

/-- The kernel's own cells on a core: the one DMA semaphore all 128 copies of a grid point complete on. -/
abbrev ownCell : Fin 1 → SemLoc sig := fun _ => semL

/-- It is scoped, and no staging buffer completes on it. -/
theorem ownCell_facts : Pipeline.OwnSemFacts spec0 ownCell := by decide

/-- The four stretches of host operations before the region, and the one after it. -/
abbrev linesBefore : List (List (HloOp τ sig (Elt F))) := [hostOps0, hostOps0_1, hostOps0_2, hostOps0_3]
abbrev linesAfter : List (List (HloOp τ sig (Elt F))) := [hostOps1]

/-- Core `c`'s buffers when the region is entered, as a valuation of all its buffers: the launch contents through the
    nine operations. -/
def entryVal (c : Dev nD) : Valuation τ sig (Elt F) := StableHlo.after (linesBefore (F := F)).flatten (fun b => m (c, b))

/-- On the TensorCore's references it is `V`. -/
theorem V_eq_entryVal (c : Dev nD) (b : Ref sig .tc) : V m c b = entryVal m c (Proc.devRef .tc b) := rfl

/-- The one unscoped buffer the body reads by its own copies: `x`'s. -/
abbrev movedRefs : Finset (Ref sig .tc) := {main_arg0}

/-- It is unscoped, no window's array and no table. -/
theorem movedRefs_sub : movedRefs ⊆ Pipeline.restRefsP sig pre0 spec0 := by decide

/-! ## The two lines after the region touch neither the table nor `x`, and write no array -/

/-- A reference that is neither of two others is, as a device buffer, not in their pair; -/
theorem devRef_not_mem_pair {r x y : Ref sig .tc} (hx : r ≠ x) (hy : r ≠ y) :
    (Proc.devRef .tc r : DevRef τ sig) ∉ ({(x : DevRef τ sig), (y : DevRef τ sig)} : Finset (DevRef τ sig)) := by
  intro h
  rcases Finset.mem_insert.mp h with e | h
  · exact hx (Proc.devRef_injective _ e)
  · exact hy (Proc.devRef_injective _ (Finset.mem_singleton.mp h))

/-- and one that is not another is not in its singleton. -/
theorem devRef_not_mem_one {r y : Ref sig .tc} (hy : r ≠ y) :
    (Proc.devRef .tc r : DevRef τ sig) ∉ ({(y : DevRef τ sig)} : Finset (DevRef τ sig)) := fun h =>
  hy (Proc.devRef_injective _ (Finset.mem_singleton.mp h))

/-- The slice reads the output array and writes its own result, the reshape reads that and writes the flattened result:
    four buffers, none the table, none `x`. -/
theorem linesAfter_within : ∀ ops ∈ (linesAfter (F := F)), ∀ op ∈ ops, op.bufs ⊆ Pipeline.tailRefsBut sig pre0 spec0 movedRefs := by
  intro ops hops op hop
  simp only [List.mem_cons, List.mem_singleton, List.not_mem_nil, or_false] at hops
  subst hops
  simp only [List.mem_cons, List.mem_singleton, List.not_mem_nil, or_false] at hop
  rcases hop with rfl | rfl
  · refine Pipeline.sub_tailRefsBut pre0 spec0 movedRefs _ (StableHlo.unary_bufs_sub ..) (fun k => ?_) (fun b hb => ?_)
    · exact devRef_not_mem_pair (by revert k; decide) (by revert k; decide)
    · obtain rfl : b = main_arg0 := Finset.mem_singleton.mp hb
      exact devRef_not_mem_pair (by decide) (by decide)
  · refine Pipeline.sub_tailRefsBut pre0 spec0 movedRefs _ (StableHlo.reshape_bufs_sub ..) (fun k => ?_) (fun b hb => ?_)
    · exact devRef_not_mem_pair (by revert k; decide) (by revert k; decide)
    · obtain rfl : b = main_arg0 := Finset.mem_singleton.mp hb
      exact devRef_not_mem_pair (by decide) (by decide)

/-- Neither allocates. -/
theorem linesAfter_fresh : ∀ ops ∈ (linesAfter (F := F)), ∀ op ∈ ops, op.fresh = ∅ := by
  intro ops hops op hop
  simp only [List.mem_cons, List.mem_singleton, List.not_mem_nil, or_false] at hops
  subst hops
  simp only [List.mem_cons, List.mem_singleton, List.not_mem_nil, or_false] at hop
  rcases hop with rfl | rfl <;> rfl

/-- Neither writes a window's array (the padded weights, the output array). -/
theorem linesAfter_keep : ∀ ops ∈ (linesAfter (F := F)), ∀ op ∈ ops, ∀ w : Fin 2, Proc.devRef .tc (Pipeline.arrRef spec0 w) ∉ op.writes := by
  intro ops hops op hop w
  simp only [List.mem_cons, List.mem_singleton, List.not_mem_nil, or_false] at hops
  subst hops
  simp only [List.mem_cons, List.mem_singleton, List.not_mem_nil, or_false] at hop
  rcases hop with rfl | rfl
  · exact devRef_not_mem_one (by revert w; decide)
  · exact devRef_not_mem_one (by revert w; decide)

/-! ## @main up to the region, and the table at its entry -/

/-- Holding the unscoped buffers at their launch contents, @main reduces to the region followed by the two lines, holding
    them at the contents after the nine operations. -/
theorem main_around : Pipeline.HMainPK (Ix := Unit) (Name := ℕ) (U := UC) (Lvl := ℕ) pcfgs (0 : Fin 1) (defs₀ (F := F)) Variants.none m main
    (fun c b => entryVal m c (Proc.devRef .tc b)) (fun _ => Pipeline.chain ((linesAfter (F := F)).map StableHlo.seq)) :=
  Pipeline.hmainP_around pcfgs 0 defs₀ Variants.none m main linesBefore linesAfter
    ⟨hostOps0_sub, hostOps0_1_sub, hostOps0_2_sub, hostOps0_3_sub⟩
    ⟨⟨rfl, rfl, rfl, rfl⟩, ⟨rfl, rfl⟩, rfl, ⟨rfl, rfl⟩⟩
    (fun c => main_chain c)

/-- The table the region finds is the table the pipeline runs at (there is one core). -/
theorem entry_table (c : Dev nD) (k : Fin pre0.K) : entryVal m c (Proc.devRef .tc (pre0.ref k)) = (adm m).1 k := by
  obtain rfl : c = 0 := Subsingleton.elim _ _
  rfl

/-! ## The invariant at the first point and at the last -/

omit [FloatOps F] in
/-- The kernel's own cells at zero: the one cell at zero. -/
theorem ownCell_zero (c : Dev nD) :
    (Pipeline.ownSems0 (Ix := Unit) (Name := ℕ) (U := UC) (Lvl := ℕ) (Val := Elt F) (τ := τ) ownCell c : sProp 𝕄)
      = semVal ((c : Thread nD τ), semL) 0 :=
  Pipeline.ownSems0_eq_of_list c ownCell [0] (by decide) (by decide)

omit [FloatOps F] in
/-- The tables held at shares `q`: the one table, at `q 0`. -/
theorem table_held (c : Dev nD) (q : Fin pre0.K → PosShare TreeShare) (v : pre0.Contents (Elt F)) :
    (Pipeline.prefHeld pre0 c q v : sProp 𝕄)
      = (tabM.view.loc (c : Thread nD τ) ↦{q 0} (show Bf (F := F) c tabM from v 0)) := by
  unfold Pipeline.prefHeld
  rw [show (Finset.univ : Finset (Fin pre0.K)) = {0} from by decide, bigSep_singleton]
  rfl

/-- The invariant at the first point, from what the launch hands the kernel: the scratch (the one scoped buffer that is
    no staging buffer) at some contents, the generator register, the cell at zero, `x` whole at its entry contents, and
    the body's half of the table at the contents the pipeline runs at. -/
theorem inv_intro (c : Dev nD) :
    iprop(Pipeline.ΦD ownCell spec0 movedRefs (fun c b => entryVal m c (Proc.devRef .tc b)) c ∗ Pipeline.ΦT pre0 (adm m).1 c) ⊢ Φc m c := by
  rw [Pipeline.ΦD_eq, scopedRest0_eq, ownCell_zero, bigSep_singleton]
  unfold Pipeline.ΦT
  rw [table_held]
  unfold Φc
  obtain rfl : c = 0 := Subsingleton.elim _ _
  iintro ⟨⟨Hg, Hr, Hs, Hx⟩, Ht⟩
  isplitl [Hx]; · iexact Hx
  isplitl [Ht]; · iexact Ht
  isplitl [Hg]; · iexact Hg
  isplitl [Hs]; · iexact Hs
  iexact Hr

/-- At the last point it gives them back (the table's half is let go: the pipeline's own half is what is read at the
    end). -/
theorem inv_exit (c : Dev nD) :
    Φc m c ⊢ Pipeline.ΦD ownCell spec0 movedRefs (fun c b => entryVal m c (Proc.devRef .tc b)) c := by
  rw [Pipeline.ΦD_eq, scopedRest0_eq, ownCell_zero, bigSep_singleton]
  unfold Φc
  iintro ⟨Hx, -, Hg, Hs, Hr⟩
  isplitl [Hg]; · iexact Hg
  isplitl [Hr]; · iexact Hr
  isplitl [Hs]; · iexact Hs
  iexact Hx

/-! ## The run, with every unscoped buffer at its contents after the two lines -/

/-- Every weakly fair execution of @main terminates; at the end each window's array holds what the pipeline computes from
    the blocks written back, and every other unscoped buffer what the two lines leave in it, run from the region's exit
    (the arrays as computed, the rest as the region found them). -/
theorem run_frame [∀ e, Nonempty (Elt F e)] (g : Dev nD → PrngReg)
    (hbody : ∀ c, Pipeline.BodyObligationLoose (dats m 0 c) (defs₀ (F := F)) Variants.none () Set.univ) :
    θ_run (defs (F := F)) (onTc (τ := τ) (main (F := F))) ⟨m, fun _ => 0, g⟩
      (Pipeline.FramePost (Pipeline.pin pcfgs fun _ => adm m) (dats m) 0
        (Pipeline.afterTail pcfgs (fun _ => adm m) (dats m) 0 (entryVal m) (linesAfter (F := F)))) :=
  Pipeline.θ_run_frameP_dma_around pcfgs (fun _ => adm m) (dats m) 0 (launch0 (F := F)) ownCell defs₀ Variants.none ownCell_facts
    movedRefs movedRefs_sub m g main hbody (fun c => (dats m 0 c).share_full fun _ => rfl) (fun _ _ => rfl) (entryVal m) linesAfter
    linesAfter_within linesAfter_fresh linesAfter_keep (main_around m) (fun _ _ => rfl) (entry_table m) (inv_intro m) (inv_exit m)

/-! ## What the buffers hold after the two lines -/

/-- Core `c`'s buffer `b` after the two lines. -/
abbrev exitAt (c : Dev nD) (b : Ref sig .tc) : Buf (Elt F) ((c : Thread nD τ).loc b) :=
  Pipeline.afterTail pcfgs (fun _ => adm m) (dats m) 0 (entryVal m) (linesAfter (F := F)) c b

/-- The flattened result: the output array as computed, its first 100000 columns, in row-major order. -/
theorem exit_result (c : Dev nD) :
    exitAt m c main_v7 = shapeCast S51200000 (extractStridedSlice S512x100000 ![0, 0] (finalOut m c) slices_S512x100096_S512x100000_0_0) shapeCasts_S512x100000_S51200000 := by
  unfold exitAt Pipeline.afterTail
  show StableHlo.after hostOps1 _ (Proc.devRef .tc main_v7) = _
  after_results
  have e : Pipeline.withArrays (Pipeline.pin pcfgs (fun _ => adm m) 0).spec c (entryVal m c)
      (fun w => (dats m 0 c).arrAt w (Pipeline.pin pcfgs (fun _ => adm m) 0).N) (Proc.devRef .tc main_v5) = finalOut m c :=
    Pipeline.withArrays_arr _ (launch0 (F := F)).win.arr_inj c _ _ (1 : Fin 2)
  rw [e]
  rfl

/-- A buffer that is neither a window's array nor written by the two lines holds what the region found in it. -/
theorem exit_other (c : Dev nD) (b : Ref sig .tc) (h4 : b ≠ main_v4) (h5 : b ≠ main_v5) (h6 : b ≠ main_v6) (h7 : b ≠ main_v7) :
    exitAt m c b = entryVal m c (Proc.devRef .tc b) := by
  unfold exitAt Pipeline.afterTail
  show StableHlo.after hostOps1 _ (Proc.devRef .tc b) = _
  refine (StableHlo.after_of_writes_sub (W := [main_v6, main_v7]) hostOps1 _ ⟨?_, ?_⟩ ?_).trans ?_
  · exact fun x hx => by
      rw [Finset.mem_singleton.mp hx]; exact List.mem_toFinset.mpr (List.mem_map.mpr ⟨main_v6, by decide, rfl⟩)
  · exact fun x hx => by
      rw [Finset.mem_singleton.mp hx]; exact List.mem_toFinset.mpr (List.mem_map.mpr ⟨main_v7, by decide, rfl⟩)
  · simp only [List.mem_cons, List.not_mem_nil, or_false]; exact fun h => h.elim h6 h7
  · exact Pipeline.withArrays_of_ne _ c _ _ b (fun w => by
      match w with
      | ⟨0, _⟩ => exact fun e => h4 e.symm
      | ⟨1, _⟩ => exact fun e => h5 e.symm)

/-- No operation before the region writes an argument: the region finds the three as launched. -/
theorem entry_arg0 (c : Dev nD) : entryVal m c (Proc.devRef .tc main_arg0) = m ((c : Thread nD τ).loc main_arg0) := by
  unfold entryVal
  simp only [linesBefore, hostOps0, hostOps0_1, hostOps0_2, hostOps0_3, List.flatten_cons, List.flatten_nil, List.append_nil, List.cons_append, List.nil_append]
  after_results
theorem entry_arg1 (c : Dev nD) : entryVal m c (Proc.devRef .tc main_arg1) = m ((c : Thread nD τ).loc main_arg1) := by
  unfold entryVal
  simp only [linesBefore, hostOps0, hostOps0_1, hostOps0_2, hostOps0_3, List.flatten_cons, List.flatten_nil, List.append_nil, List.cons_append, List.nil_append]
  after_results
theorem entry_arg2 (c : Dev nD) : entryVal m c (Proc.devRef .tc main_arg2) = m ((c : Thread nD τ).loc main_arg2) := by
  unfold entryVal
  simp only [linesBefore, hostOps0, hostOps0_1, hostOps0_2, hostOps0_3, List.flatten_cons, List.flatten_nil, List.append_nil, List.cons_append, List.nil_append]
  after_results

/-! ## The run of @main -/

/-- From the body's obligation at every point: every weakly fair execution of @main on the TensorCore terminates, and
    at the end the flattened result holds the first 100000 columns of the output array as computed, in row-major order,
    and the three arguments hold what they held at launch. -/
theorem run_main [∀ e, Nonempty (Elt F e)] (g : Dev nD → PrngReg)
    (hbody : ∀ c, Pipeline.BodyObligationLoose (dats m 0 c) (defs₀ (F := F)) Variants.none () Set.univ) :
    θ_run (defs (F := F)) (onTc (τ := τ) (main (F := F))) ⟨m, fun _ => 0, g⟩ (fun r => ∀ c : Dev nD,
      r.2.mem ((c : Thread nD τ).loc main_v7)
          = shapeCast S51200000 (extractStridedSlice S512x100000 ![0, 0] (finalOut m c) slices_S512x100096_S512x100000_0_0) shapeCasts_S512x100000_S51200000
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => by
    have hr := (h c).2
    refine ⟨?_, ?_, ?_, ?_⟩
    · exact (hr main_v7 (Pipeline.mem_restRefs_of (win := spec0) _ rfl (by decide))).trans (exit_result m c)
    · exact (hr main_arg0 (Pipeline.mem_restRefs_of (win := spec0) _ rfl (by decide))).trans
        ((exit_other m c _ (by decide) (by decide) (by decide) (by decide)).trans (entry_arg0 m c))
    · exact (hr main_arg1 (Pipeline.mem_restRefs_of (win := spec0) _ rfl (by decide))).trans
        ((exit_other m c _ (by decide) (by decide) (by decide) (by decide)).trans (entry_arg1 m c))
    · exact (hr main_arg2 (Pipeline.mem_restRefs_of (win := spec0) _ rfl (by decide))).trans
        ((exit_other m c _ (by decide) (by decide) (by decide) (by decide)).trans (entry_arg2 m c)))
    (run_frame m g hbody)

end Cert.Kernel.Hand

end
-- ==== Proof.lean ====
/-
  The kernel gathers rows of `x : [20000, 512]` by 100000 row numbers `idx` (50 cell types × 2000 draws, flattened), scales
  gathered row `k` by `weight[k / 2000]`, and writes the transposed matrix: `out[q · 100000 + k] = x[idx[k], q] · weight[k / 2000]`
  (`Cert.Spec.G`). The reference does the same with a host gather. The row numbers must name rows of `x`: the kernel copies
  row `idx[k]` by a transfer whose source slice must lie inside `x`, and outside `0 ≤ idx < 20000` the reference indexes
  out of range; that is the precondition's added conjunct, and the only place it is used is to show every word of the
  padded table names a row (the padding is row 0).

  Per grid point (782 of them, 128 draws each) the kernel starts 128 row copies on ONE semaphore, waits 128 times, reads
  the scratch the rows landed in, scales and transposes. A wait on a shared semaphore says nothing about which copy has
  landed, but every copy is waited for before the scratch is read, and the last wait hands every row back. The body is run
  once at a symbolic grid point (KernelIdealBody / KernelBody), its result read back as the closed-form block
  (KernelIdealBodyValue / KernelBodyValue), the pipeline's obligation stated over that block (…Obligation), the launch
  with the host operations around the region by the library's launch theorem (…Launch). For the idealized program the
  final array is read index by index (KernelIdealValue) and is `G`; the reference's run is `G` (RefValue). No
  arithmetic law is needed: both sides multiply `x[idx[k], q]` by `weight[k / 2000]` in the same order, so finiteness of
  the inputs is never used.
-/
import proofs.«415070_j29162827940274_1_alg».proof.Defs
import proofs.«415070_j29162827940274_1_alg».proof.Proof.Gen.Kernel
import proofs.«415070_j29162827940274_1_alg».proof.Proof.Gen.KernelIdeal
import proofs.«415070_j29162827940274_1_alg».proof.Proof.Gen.ReferenceIdeal
import proofs.«415070_j29162827940274_1_alg».proof.Proof.Gen.Pre_finite_inputs
import proofs.«415070_j29162827940274_1_alg».proof.Proof.Gen.ReferenceIdeal.Run
import proofs.«415070_j29162827940274_1_alg».proof.Proof.Gen.ReferenceIdeal.Read
import proofs.«415070_j29162827940274_1_alg».proof.Proof.RefValue
import proofs.«415070_j29162827940274_1_alg».proof.Proof.KernelIdealPre
import proofs.«415070_j29162827940274_1_alg».proof.Proof.KernelIdealObligation
import proofs.«415070_j29162827940274_1_alg».proof.Proof.KernelIdealLaunch
import proofs.«415070_j29162827940274_1_alg».proof.Proof.KernelIdealValue
import proofs.«415070_j29162827940274_1_alg».proof.Proof.KernelPre
import proofs.«415070_j29162827940274_1_alg».proof.Proof.KernelObligation
import proofs.«415070_j29162827940274_1_alg».proof.Proof.KernelLaunch
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the launch, with the body obligation at the table the
    precondition makes admissible. -/
theorem frame_k : Cert.frame_Kernel := fun m g hpre =>
  (θ_run Cert.Kernel.defs _ _).mono (fun _ h c => ⟨(h c).2.1, (h c).2.2.1, (h c).2.2.2⟩)
    (Cert.Kernel.Hand.run_main (F := Bits) m g fun c =>
      Cert.Kernel.Hand.body_obligation m c (Cert.Kernel.Hand.tabOk_of_fn m c (hpre c)))

/-- The idealized kernel likewise. -/
theorem frame_ki : Cert.frame_KernelIdeal := fun m g hpre =>
  (θ_run Cert.KernelIdeal.defs _ _).mono (fun _ h c => ⟨(h c).2.1, (h c).2.2.1, (h c).2.2.2⟩)
    (Cert.KernelIdeal.Hand.run_main (F := Ideal) m g fun c =>
      Cert.KernelIdeal.Hand.body_obligation m c (Cert.KernelIdeal.Hand.tabOk_of_fn m c (hpre c)))

/-- The reference is a host program: its generated run, the result dropped. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote nothing. -/
theorem preserves : Cert.preserves_Kernel_KernelIdeal := trivial

/-- Both idealized programs end at `Cert.Spec.G` of the arguments: the kernel's final array read index by index, the
    reference's run read operation by operation; the row numbers are in range by the precondition, on both sides (the
    memories agree on the arguments). -/
theorem algebraic : Cert.algebraic_KernelIdeal_ReferenceIdeal := by
  intro m g m' g' hpre hagree
  refine ⟨fun c => Cert.Spec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · refine (θ_run Cert.KernelIdeal.defs _ _).mono (fun _ h c => ⟨(h c).1.trans ?_, (h c).2.1, (h c).2.2.1, (h c).2.2.2⟩)
      (Cert.KernelIdeal.Hand.run_main (F := Ideal) m g fun c =>
        Cert.KernelIdeal.Hand.body_obligation m c (Cert.KernelIdeal.Hand.tabOk_of_fn m c (hpre c)))
    exact Cert.KernelIdeal.Hand.result_eq_G m c (Cert.KernelIdeal.Hand.V_arg0 m c)
      (Cert.KernelIdeal.Hand.tab_apply m c) (Cert.KernelIdeal.Hand.wpad_apply m c)
  · refine (θ_run Cert.ReferenceIdeal.defs _ _).mono (fun _ h c => ⟨?_, (h c).2⟩)
      (Cert.ReferenceIdeal.Value.run (F := Ideal) m' g')
    have hidx := Cert.KernelIdeal.Hand.idx_lt_of_fn m c (hpre c)
    rw [(h c).1, Cert.ReferenceIdeal.Read.val_main_v14_eq, (hagree c).1, (hagree c).2.1, (hagree c).2.2]
    exact Cert.ReferenceIdeal.RefValue.result_eq_G _ _ _ hidx

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
